-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg14 : FVec F S128 .f32) (main_arg20 : FVec F S128 .f32) (main_v117 : IVec S_ 1) (main_v118 : FVec F S128 .f32) : IVec S_ 1 :=
  let main_v119 : IVec S128 1 := cmpf .oge main_arg14 main_v118
  let main_c_47 : IVec S_ 1 := constantI S_ 1 1#1
  let main_v120 : IVec S_ 1 := (fun x v => Host.reduce IntOp.andi x v reducesTo_S128_S_d0 h_S_) main_v119 main_c_47
  let main_v121 : IVec S_ 1 := andi main_v117 main_v120
  let main_cst_48 : FVec F S_ .f32 := constant S_ .f32 0x00000000#32
  let main_v122 : FVec F S128 .f32 := broadcastInDim S128 ![] bcast_S_S128 main_cst_48
  let main_v123 : IVec S128 1 := cmpf .oge main_arg20 main_v122
  let main_c_49 : IVec S_ 1 := constantI S_ 1 1#1
  let main_v124 : IVec S_ 1 := (fun x v => Host.reduce IntOp.andi x v reducesTo_S128_S_d0 h_S_) main_v123 main_c_49
  let main_v125 : IVec S_ 1 := andi main_v121 main_v124
  main_v125

def fn_part6 {F : FTy → Type} [FloatOps F] (main_arg8 : FVec F S128 .f32) (main_arg14 : FVec F S128 .f32) (main_arg20 : FVec F S128 .f32) (main_arg23 : FVec F S64x1 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg23
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_cst_44 : FVec F S_ .f32 := constant S_ .f32 0x00000000#32
  let main_v114 : FVec F S128 .f32 := broadcastInDim S128 ![] bcast_S_S128 main_cst_44
  let main_v115 : IVec S128 1 := cmpf .oge main_arg8 main_v114
  let main_c_45 : IVec S_ 1 := constantI S_ 1 1#1
  let main_v116 : IVec S_ 1 := (fun x v => Host.reduce IntOp.andi x v reducesTo_S128_S_d0 h_S_) main_v115 main_c_45
  let main_v117 : IVec S_ 1 := andi main_v113 main_v116
  let main_cst_46 : FVec F S_ .f32 := constant S_ .f32 0x00000000#32
  let main_v118 : FVec F S128 .f32 := broadcastInDim S128 ![] bcast_S_S128 main_cst_46
  fn_part7 (F := F) main_arg14 main_arg20 main_v117 main_v118

def fn_part5 {F : FTy → Type} [FloatOps F] (main_arg8 : FVec F S128 .f32) (main_arg14 : FVec F S128 .f32) (main_arg20 : FVec F S128 .f32) (main_arg21 : FVec F S128x64 .f32) (main_arg22 : FVec F S64 .f32) (main_arg23 : FVec F S64x1 .f32) (main_arg24 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg8 main_arg14 main_arg20 main_arg23 main_arg24 main_v98 main_v101 main_c_39

def fn_part4 {F : FTy → Type} [FloatOps F] (main_arg8 : FVec F S128 .f32) (main_arg14 : FVec F S128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg8 main_arg14 main_arg20 main_arg21 main_arg22 main_arg23 main_arg24 main_v83 main_v84 main_cst_32

def fn_part3 {F : FTy → Type} [FloatOps F] (main_arg8 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg8 main_arg14 main_arg16 main_arg17 main_arg18 main_arg19 main_arg20 main_arg21 main_arg22 main_arg23 main_arg24 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x64 .f32) (main_arg1 : IVec S2x600000 32) (main_arg2 : IVec S100000 32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128 : Shape := ⟨2, ![1, 128]⟩
abbrev S100000x1 : Shape := ⟨2, ![100000, 1]⟩
abbrev S600000x1 : Shape := ⟨2, ![600000, 1]⟩
abbrev S600000x64 : Shape := ⟨2, ![600000, 64]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S600000x128 : Shape := ⟨2, ![600000, 128]⟩
abbrev S512x128 : Shape := ⟨2, ![512, 128]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 167
  | .vmem => 49
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S100000, .i32⟩
  | 26 => ⟨S1x600000, .i32⟩
  | 27 => ⟨S600000, .i32⟩
  | 28 => ⟨S1x600000, .i32⟩
  | 29 => ⟨S600000, .i32⟩
  | 30 => ⟨S700000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S128, .f32⟩
  | 56 => ⟨S128, .f32⟩
  | 57 => ⟨S1x128, .f32⟩
  | 58 => ⟨S1x128, .f32⟩
  | 59 => ⟨S_, .f32⟩
  | 60 => ⟨S128, .f32⟩
  | 61 => ⟨S128, .f32⟩
  | 62 => ⟨S128, .f32⟩
  | 63 => ⟨S128, .f32⟩
  | 64 => ⟨S128, .f32⟩
  | 65 => ⟨S128, .f32⟩
  | 66 => ⟨S128, .f32⟩
  | 67 => ⟨S1x128, .f32⟩
  | 68 => ⟨S1x128, .f32⟩
  | 69 => ⟨S_, .f32⟩
  | 70 => ⟨S128, .f32⟩
  | 71 => ⟨S128, .f32⟩
  | 72 => ⟨S128, .f32⟩
  | 73 => ⟨S128, .f32⟩
  | 74 => ⟨S128, .f32⟩
  | 75 => ⟨S128, .f32⟩
  | 76 => ⟨S128, .f32⟩
  | 77 => ⟨S1x128, .f32⟩
  | 78 => ⟨S1x128, .f32⟩
  | 79 => ⟨S100000x1, .f32⟩
  | 80 => ⟨S100000x64, .f32⟩
  | 81 => ⟨S100000x64, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x64, .f32⟩
  | 91 => ⟨S_, .f32⟩
  | 92 => ⟨S100000x64, .f32⟩
  | 93 => ⟨S600000x1, .i32⟩
  | 94 => ⟨S100000x64, .f32⟩
  | 95 => ⟨S100000x64, .f32⟩
  | 96 => ⟨S100000x1, .f32⟩
  | 97 => ⟨S100000x128, .f32⟩
  | 98 => ⟨S100000x128, .f32⟩
  | 99 => ⟨S100000x1, .f32⟩
  | 100 => ⟨S100000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S100000x1, .f32⟩
  | 115 => ⟨S100000x128, .f32⟩
  | 116 => ⟨S100000x1, .f32⟩
  | 117 => ⟨S100000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .f32⟩
  | _ => ⟨S100000x64, .f32⟩

abbrev hbmTy0_1 (i : Nat) : BufTy := match i % 128 with
  | 0 => ⟨S100000x128, .f32⟩
  | 1 => ⟨S600000x1, .i32⟩
  | 2 => ⟨S100000x128, .f32⟩
  | 3 => ⟨S100000x1, .f32⟩
  | 4 => ⟨S100000x128, .f32⟩
  | 5 => ⟨S_, .f32⟩
  | 6 => ⟨S512x128, .f32⟩
  | 7 => ⟨S100000x1, .i32⟩
  | 8 => ⟨S512x128, .f32⟩
  | 9 => ⟨S_, .f32⟩
  | 10 => ⟨S100000x1, .f32⟩
  | 11 => ⟨S_, .f32⟩
  | 12 => ⟨S512x1, .f32⟩
  | 13 => ⟨S100000x1, .i32⟩
  | 14 => ⟨S512x1, .f32⟩
  | 15 => ⟨S_, .f32⟩
  | 16 => ⟨S512x1, .f32⟩
  | 17 => ⟨S512x1, .f32⟩
  | 18 => ⟨S512x128, .f32⟩
  | 19 => ⟨S512x128, .f32⟩
  | 20 => ⟨S512x64, .f32⟩
  | 21 => ⟨S1x64, .f32⟩
  | 22 => ⟨S512x64, .f32⟩
  | 23 => ⟨S512x64, .f32⟩
  | 24 => ⟨S_, .f32⟩
  | 25 => ⟨S512x64, .f32⟩
  | 26 => ⟨S512x64, .f32⟩
  | 27 => ⟨S512x1, .f32⟩
  | 28 => ⟨S1x1, .f32⟩
  | 29 => ⟨S512x1, .f32⟩
  | 30 => ⟨S512x1, .f32⟩
  | 31 => ⟨S512x1, .f32⟩
  | 32 => ⟨S512x1, .f32⟩
  | 33 => ⟨S_, .f32⟩
  | 34 => ⟨S512x1, .f32⟩
  | 35 => ⟨S512x1, .f32⟩
  | 36 => ⟨S_, .f32⟩
  | 37 => ⟨S512x1, .f32⟩
  | 38 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S4000x1, .f32⟩
  | .local _ .vmem, ⟨36, _⟩ => ⟨S4000x1, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x1, .f32⟩
  | .local _ .vmem, ⟨44, _⟩ => ⟨S4000x1, .f32⟩
  | .local _ .vmem, ⟨45, _⟩ => ⟨S1x128, .f32⟩
  | .local _ .vmem, ⟨46, _⟩ => ⟨S1x128, .f32⟩
  | .local _ .vmem, ⟨47, _⟩ => ⟨S4000x128, .f32⟩
  | .local _ .vmem, ⟨48, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c : Ref sig .tc := ⟨.hbm, 82, rfl⟩
abbrev main_v47 : Ref sig .tc := ⟨.hbm, 83, rfl⟩
abbrev main_v48 : Ref sig .tc := ⟨.hbm, 84, rfl⟩
abbrev main_c_7 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_9 : Ref sig .tc := ⟨.hbm, 101, rfl⟩
abbrev main_v63 : Ref sig .tc := ⟨.hbm, 102, rfl⟩
abbrev main_v64 : Ref sig .tc := ⟨.hbm, 103, rfl⟩
abbrev main_c_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_11 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_12 : Ref sig .tc := ⟨.hbm, 118, rfl⟩
abbrev main_v77 : Ref sig .tc := ⟨.hbm, 119, rfl⟩
abbrev main_v78 : Ref sig .tc := ⟨.hbm, 120, rfl⟩
abbrev main_c_13 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_14 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_16 : Ref sig .tc := ⟨.hbm, 137, rfl⟩
abbrev main_v92 : Ref sig .tc := ⟨.hbm, 138, rfl⟩
abbrev main_cst_17 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_call1_cst : Ref sig .tc := ⟨.hbm, 152, rfl⟩
abbrev main_call1_v0 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_19 : Ref sig .tc := ⟨.hbm, 161, rfl⟩
abbrev main_v111 : Ref sig .tc := ⟨.hbm, 162, rfl⟩
abbrev main_v112 : Ref sig .tc := ⟨.hbm, 163, rfl⟩
abbrev main_cst_20 : Ref sig .tc := ⟨.hbm, 164, rfl⟩
abbrev main_v113 : Ref sig .tc := ⟨.hbm, 165, rfl⟩
abbrev main_v114 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem5_0 : DmaSem sig := 47
abbrev cc5_sem5_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S_S128 : S_.BroadcastsInDim S128 (![] : Fin 0 → Fin S128.rank)
  shapeCasts_S128_S1x128 : S128.ShapeCasts S1x128
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x64 : S_.BroadcastsInDim S100000x64 (![] : Fin 0 → Fin S100000x64.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S_S512x128 : S_.BroadcastsInDim S512x128 (![] : Fin 0 → Fin S512x128.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v57) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S4000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v74) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v86) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v42) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v43) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 218
  | .vmem => 0
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S100000, .i32⟩
  | 26 => ⟨S1x600000, .i32⟩
  | 27 => ⟨S600000, .i32⟩
  | 28 => ⟨S700000, .i32⟩
  | 29 => ⟨S1x600000, .i32⟩
  | 30 => ⟨S600000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000, .f32⟩
  | 67 => ⟨S700000, .f32⟩
  | 68 => ⟨S700000x1, .f32⟩
  | 69 => ⟨S100000x128, .f32⟩
  | 70 => ⟨S_, .i32⟩
  | 71 => ⟨S700000, .i32⟩
  | 72 => ⟨S700000, .i1⟩
  | 73 => ⟨S_, .i32⟩
  | 74 => ⟨S700000, .i32⟩
  | 75 => ⟨S700000, .i32⟩
  | 76 => ⟨S700000, .i32⟩
  | 77 => ⟨S700000x1, .i32⟩
  | 78 => ⟨S700000x128, .f32⟩
  | 79 => ⟨S700000x128, .f32⟩
  | 80 => ⟨S700000x128, .f32⟩
  | 81 => ⟨S_, .f32⟩
  | 82 => ⟨S100000x128, .f32⟩
  | 83 => ⟨S700000x1, .i32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .i32⟩
  | 109 => ⟨S700000, .i32⟩
  | 110 => ⟨S700000, .i1⟩
  | 111 => ⟨S_, .i32⟩
  | 112 => ⟨S700000, .i32⟩
  | 113 => ⟨S700000, .i32⟩
  | 114 => ⟨S700000, .i32⟩
  | 115 => ⟨S700000x1, .i32⟩
  | 116 => ⟨S700000x128, .f32⟩
  | 117 => ⟨S700000x128, .f32⟩
  | 118 => ⟨S700000x128, .f32⟩
  | 119 => ⟨S_, .f32⟩
  | 120 => ⟨S100000x128, .f32⟩
  | 121 => ⟨S700000x1, .i32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S100000x128, .f32⟩
  | 19 => ⟨S_, .i32⟩
  | 20 => ⟨S700000, .i32⟩
  | 21 => ⟨S700000, .i1⟩
  | 22 => ⟨S_, .i32⟩
  | 23 => ⟨S700000, .i32⟩
  | 24 => ⟨S700000, .i32⟩
  | 25 => ⟨S700000, .i32⟩
  | 26 => ⟨S700000x1, .i32⟩
  | 27 => ⟨S700000x128, .f32⟩
  | 28 => ⟨S700000x128, .f32⟩
  | 29 => ⟨S700000x128, .f32⟩
  | 30 => ⟨S_, .f32⟩
  | 31 => ⟨S100000x128, .f32⟩
  | 32 => ⟨S700000x1, .i32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S512x128, .f32⟩
  | 58 => ⟨S100000x1, .i32⟩
  | 59 => ⟨S512x128, .f32⟩
  | 60 => ⟨S_, .f32⟩
  | 61 => ⟨S100000x1, .f32⟩
  | 62 => ⟨S_, .f32⟩
  | 63 => ⟨S512x1, .f32⟩
  | 64 => ⟨S100000x1, .i32⟩
  | 65 => ⟨S512x1, .f32⟩
  | 66 => ⟨S_, .f32⟩
  | 67 => ⟨S512x1, .f32⟩
  | 68 => ⟨S512x1, .f32⟩
  | 69 => ⟨S512x128, .f32⟩
  | 70 => ⟨S512x128, .f32⟩
  | 71 => ⟨S512x64, .f32⟩
  | 72 => ⟨S1x64, .f32⟩
  | 73 => ⟨S512x64, .f32⟩
  | 74 => ⟨S512x64, .f32⟩
  | 75 => ⟨S_, .f32⟩
  | 76 => ⟨S512x64, .f32⟩
  | 77 => ⟨S512x64, .f32⟩
  | 78 => ⟨S512x1, .f32⟩
  | 79 => ⟨S1x1, .f32⟩
  | 80 => ⟨S512x1, .f32⟩
  | 81 => ⟨S512x1, .f32⟩
  | 82 => ⟨S512x1, .f32⟩
  | 83 => ⟨S512x1, .f32⟩
  | 84 => ⟨S_, .f32⟩
  | 85 => ⟨S512x1, .f32⟩
  | 86 => ⟨S512x1, .f32⟩
  | 87 => ⟨S_, .f32⟩
  | 88 => ⟨S512x1, .f32⟩
  | 89 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_c_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call1_cst : Ref sig .tc := ⟨.hbm, 104, rfl⟩
abbrev main_call1_v0 : Ref sig .tc := ⟨.hbm, 105, rfl⟩
abbrev main_v64 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_c_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call2_cst : Ref sig .tc := ⟨.hbm, 142, rfl⟩
abbrev main_call2_v0 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_15 : Ref sig .tc := ⟨.hbm, 147, rfl⟩
abbrev main_v99 : Ref sig .tc := ⟨.hbm, 148, rfl⟩
abbrev main_v100 : Ref sig .tc := ⟨.hbm, 149, rfl⟩
abbrev main_c_16 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_17 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_18 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_call3_cst : Ref sig .tc := ⟨.hbm, 181, rfl⟩
abbrev main_call3_v0 : Ref sig .tc := ⟨.hbm, 182, rfl⟩
abbrev main_v129 : Ref sig .tc := ⟨.hbm, 183, rfl⟩
abbrev main_cst_19 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_20 : Ref sig .tc := ⟨.hbm, 188, rfl⟩
abbrev main_v133 : Ref sig .tc := ⟨.hbm, 189, rfl⟩
abbrev main_cst_21 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_22 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_call4_cst : Ref sig .tc := ⟨.hbm, 203, rfl⟩
abbrev main_call4_v0 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_23 : Ref sig .tc := ⟨.hbm, 212, rfl⟩
abbrev main_v152 : Ref sig .tc := ⟨.hbm, 213, rfl⟩
abbrev main_v153 : Ref sig .tc := ⟨.hbm, 214, rfl⟩
abbrev main_cst_24 : Ref sig .tc := ⟨.hbm, 215, rfl⟩
abbrev main_v154 : Ref sig .tc := ⟨.hbm, 216, rfl⟩
abbrev main_v155 : Ref sig .tc := ⟨.hbm, 217, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Spec.lean ====
/-
  A three-layer graph convolution with symmetric degree normalisation, written index by index over the extended
  reals in the two arrangements the two programs use.

  Nodes are Fin 100000, real edges Fin 600000; edge e goes from node (srcW e) to node (dstW e), both given as
  32-bit words that may lie outside the node range. A row read at a word w reads node (gIdx w): a negative word is
  first wrapped by adding the node count, then the result is clamped into range. A row ADDED at a word w lands on node
  (land w) when the word, read signed, is a node, and is dropped otherwise. When a word lands it reads the node it
  lands on (gIdx_of_land). Every node also has a self loop.

  One convolution of a feature matrix H by a weight matrix Wt, with node scaling d:
    reference arrangement: each edge's message (H Wt)[src] is scaled by d[src] * d[dst] and summed at its landing
      node; the self loop adds (H Wt)[i] * (d i * d i);
    kernel arrangement (hidden layers): rows of H Wt are scaled by d once before the sum over incoming edges, the
      node's own scaled row is added for the self loop, and the total is scaled by d i once more;
    kernel arrangement (first layer): the same is done on the rows of the input X before the product with Wt.
  Batch normalisation in evaluation mode with bias b, mean m, variance v, scale g and shift β:
    reference arrangement: max ((((a + b) - m) * rstd v) * g + β) 0;
    kernel arrangement: the affine map folded to a slope g * rstd v and an intercept (b - m) * slope + β.
  The arrangements agree when every number involved is real (the module that proves it needs v ≥ 0 so that
  rstd v is real).
-/
import Idealize.ShloMosaic.PureOps.Ideal
import Idealize.ShloMosaic.Lib.ValueIdx

noncomputable section

open scoped BigOperators

namespace Cert.Gcn

open Idealize.ShloMosaic Idealize.ShloMosaic.ValueIdx

/-- A float vector, a float matrix and the edge list as arrays of the programs' shapes. -/
abbrev Arr1 (n : Nat) : Type := (⟨1, ![n]⟩ : Shape).Idx → EReal
abbrev Arr2 (a b : Nat) : Type := (⟨2, ![a, b]⟩ : Shape).Idx → EReal
abbrev Edges : Type := IVec (⟨2, ![2, 600000]⟩ : Shape) 32
/-- A matrix by its two coordinates. -/
abbrev Mat (a b : Nat) : Type := Fin a → Fin b → EReal

/-- An array read by coordinates, and back. -/
def cur {a b : Nat} (A : Arr2 a b) : Mat a b := fun i j => A (ix2 i j)
def unc {a b : Nat} (M : Mat a b) : Arr2 a b := fun y => M ⟨(y 0).val, idx2_lt0 y⟩ ⟨(y 1).val, idx2_lt1 y⟩
theorem unc_ix2 {a b : Nat} (M : Mat a b) (i : Fin a) (j : Fin b) : unc M (ix2 i j) = M i j := rfl
theorem cur_unc {a b : Nat} (M : Mat a b) : cur (unc M) = M := rfl
def cur1 {n : Nat} (A : Arr1 n) : Fin n → EReal := fun i => A (ix1 i)

/-- The source and destination words of edge e. -/
def srcW (ei : Edges) (e : Fin 600000) : BitVec 32 := ei (ix2 (0 : Fin 2) e)
def dstW (ei : Edges) (e : Fin 600000) : BitVec 32 := ei (ix2 (1 : Fin 2) e)

/-- The node a row READ at word w reads: wrap a negative word by the node count, then clamp. -/
def gIdx (w : BitVec 32) : Fin 100000 :=
  ⟨min (if w.toInt < 0 then w.toInt + 100000 else w.toInt).toNat 99999, Nat.lt_succ_of_le (Nat.min_le_right _ _)⟩

/-- The node a row ADDED at word w lands on, if any. -/
def land (w : BitVec 32) : Option (Fin 100000) :=
  if h : 0 ≤ w.toInt ∧ w.toInt < 100000 then some ⟨w.toInt.toNat, by omega⟩ else none

/-- A word that lands on node i reads node i. -/
theorem gIdx_of_land {w : BitVec 32} {i : Fin 100000} (h : land w = some i) : gIdx w = i := by
  unfold land at h
  split at h
  · rename_i hw
    obtain rfl := Option.some.inj h
    refine Fin.ext ?_
    show min (if w.toInt < 0 then w.toInt + 100000 else w.toInt).toNat 99999 = w.toInt.toNat
    rw [if_neg (by omega)]
    exact Nat.min_eq_left (by omega)
  · exact absurd h (by simp)

/-- The sum over the real edges that land on node i. -/
def edgeSum (ei : Edges) (i : Fin 100000) (U : Fin 600000 → EReal) : EReal :=
  ∑ e ∈ Finset.univ.filter (fun e => land (dstW ei e) = some i), U e

/-- A matrix product at one entry. -/
def mm {K : Nat} (H : Mat 100000 K) (Wt : Mat K 128) (i : Fin 100000) (j : Fin 128) : EReal := ∑ k, H i k * Wt k j

/-- One convolution, reference arrangement. -/
def refConv (ei : Edges) (d : Fin 100000 → EReal) {K : Nat} (H : Mat 100000 K) (Wt : Mat K 128) : Mat 100000 128 :=
  fun i j =>
    edgeSum ei i (fun e => mm H Wt (gIdx (srcW ei e)) j * (d (gIdx (srcW ei e)) * d (gIdx (dstW ei e))))
      + mm H Wt i j * (d i * d i)

/-- One convolution, kernel arrangement of the hidden layers. -/
def kerConv (ei : Edges) (d : Fin 100000 → EReal) (H : Mat 100000 128) (Wt : Mat 128 128) : Mat 100000 128 :=
  fun i j => (edgeSum ei i (fun e => mm H Wt (gIdx (srcW ei e)) j * d (gIdx (srcW ei e))) + mm H Wt i j * d i) * d i

/-- One convolution, kernel arrangement of the first layer: aggregate the scaled input rows, then multiply. -/
def kerConvIn (ei : Edges) (d : Fin 100000 → EReal) (X : Mat 100000 64) (Wt : Mat 64 128) : Mat 100000 128 :=
  fun i j => (∑ k, (edgeSum ei i (fun e => X (gIdx (srcW ei e)) k * d (gIdx (srcW ei e))) + X i k * d i) * Wt k j) * d i

/-- The variance offset (the 32-bit float nearest 1e-5) and the reciprocal standard deviation. -/
def eps : EReal := Ideal.ofBits .f32 0x3727C5AC#32
def rstd (v : EReal) : EReal := Ideal.rsqrt (v + eps)

/-- Bias, batch normalisation and the positive part: reference arrangement, kernel arrangement. -/
def refBn (a b m v g β : EReal) : EReal := max ((((a + b) - m) * rstd v) * g + β) 0
def kerBn (a b m v g β : EReal) : EReal := max (a * (g * rstd v) + ((b - m) * (g * rstd v) + β)) 0

/-- One layer's bias and batch-normalisation parameters. -/
structure BnP where
  b : Arr1 128
  g : Arr1 128
  β : Arr1 128
  m : Arr1 128
  v : Arr1 128

/-- The programs' arguments at the ideal instance. -/
structure Args where
  x : Arr2 100000 64
  ei : Edges
  batch : IVec (⟨1, ![100000]⟩ : Shape) 32
  W1 : Arr2 64 128
  p1 : BnP
  W2 : Arr2 128 128
  p2 : BnP
  W3 : Arr2 128 128
  p3 : BnP
  fc1w : Arr2 128 64
  fc1b : Arr1 64
  fc2w : Arr2 64 1
  fc2b : Arr1 1

/-- Bias, batch normalisation and positive part applied to a whole matrix, column parameters read per column. -/
def bnApply (bn : EReal → EReal → EReal → EReal → EReal → EReal → EReal) (C : Mat 100000 128) (p : BnP) : Mat 100000 128 :=
  fun i j => bn (C i j) (p.b (ix1 j)) (p.m (ix1 j)) (p.v (ix1 j)) (p.g (ix1 j)) (p.β (ix1 j))

/-- The three layers, reference arrangement (the second layer has a residual connection). -/
def refH1 (A : Args) (d : Fin 100000 → EReal) : Mat 100000 128 := bnApply refBn (refConv A.ei d (cur A.x) (cur A.W1)) A.p1
def refH2 (A : Args) (d : Fin 100000 → EReal) : Mat 100000 128 :=
  fun i j => bnApply refBn (refConv A.ei d (refH1 A d) (cur A.W2)) A.p2 i j + refH1 A d i j
def refH3 (A : Args) (d : Fin 100000 → EReal) : Mat 100000 128 := bnApply refBn (refConv A.ei d (refH2 A d) (cur A.W3)) A.p3

/-- The three layers, kernel arrangement. -/
def kerH1 (A : Args) (d : Fin 100000 → EReal) : Mat 100000 128 := bnApply kerBn (kerConvIn A.ei d (cur A.x) (cur A.W1)) A.p1
def kerH2 (A : Args) (d : Fin 100000 → EReal) : Mat 100000 128 :=
  fun i j => bnApply kerBn (kerConv A.ei d (kerH1 A d) (cur A.W2)) A.p2 i j + kerH1 A d i j
def kerH3 (A : Args) (d : Fin 100000 → EReal) : Mat 100000 128 := bnApply kerBn (kerConv A.ei d (kerH2 A d) (cur A.W3)) A.p3

/-- An extended real that is a real number. -/
def IsR (x : EReal) : Prop := x ≠ ⊤ ∧ x ≠ ⊥

/-- What the precondition gives of the arguments the layers use: every entry real, the variances nonnegative. -/
structure BnP.Ok (p : BnP) : Prop where
  b : ∀ j, IsR (p.b j)
  g : ∀ j, IsR (p.g j)
  β : ∀ j, IsR (p.β j)
  m : ∀ j, IsR (p.m j)
  v : ∀ j, IsR (p.v j)
  v0 : ∀ j, 0 ≤ p.v j

structure Args.Ok (A : Args) : Prop where
  x : ∀ y, IsR (A.x y)
  W1 : ∀ y, IsR (A.W1 y)
  W2 : ∀ y, IsR (A.W2 y)
  W3 : ∀ y, IsR (A.W3 y)
  p1 : A.p1.Ok
  p2 : A.p2.Ok
  p3 : A.p3.Ok

end Cert.Gcn

end
-- ==== Proof.Algebra.lean ====
/-
  The two arrangements of the graph convolution and of the batch normalisation agree when every number is real.

  Multiplication of extended reals distributes over addition only away from the infinities, so every identity is
  proved by writing each real-valued datum as the image of a real number, moving the inclusion of the reals out of
  sums and products, and calculating in the field of real numbers.
-/
import proofs.«110672_j48155173322903_2_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real
import Mathlib.Tactic.Ring
import Mathlib.Tactic.Positivity
import Mathlib.Tactic.NormNum

noncomputable section

open scoped BigOperators

namespace Cert.Gcn

open Idealize.ShloMosaic Idealize.ShloMosaic.ValueIdx

/-! ### Real-valued extended reals -/

/-- The image of a real number is real-valued. -/
theorem isR_coe (r : ℝ) : IsR (r : EReal) := ⟨EReal.coe_ne_top r, EReal.coe_ne_bot r⟩

/-- A real-valued extended real is the image of a real number. -/
theorem IsR.exists {x : EReal} (h : IsR x) : ∃ r : ℝ, x = (r : EReal) :=
  ⟨x.toReal, (EReal.coe_toReal h.1 h.2).symm⟩

/-- A family of real-valued extended reals is the image of a family of real numbers. -/
theorem exists_real_fun {ι : Sort*} {f : ι → EReal} (h : ∀ i, IsR (f i)) :
    ∃ g : ι → ℝ, f = fun i => (g i : EReal) :=
  ⟨fun i => (f i).toReal, funext fun i => (EReal.coe_toReal (h i).1 (h i).2).symm⟩

/-- The same for a family of two indices. -/
theorem exists_real_fun₂ {ι κ : Sort*} {f : ι → κ → EReal} (h : ∀ i k, IsR (f i k)) :
    ∃ g : ι → κ → ℝ, f = fun i k => (g i k : EReal) :=
  ⟨fun i k => (f i k).toReal, funext fun i => funext fun k => (EReal.coe_toReal (h i k).1 (h i k).2).symm⟩

theorem isR_zero : IsR (0 : EReal) := isR_coe 0

theorem IsR.add {x y : EReal} (hx : IsR x) (hy : IsR y) : IsR (x + y) := by
  obtain ⟨a, rfl⟩ := hx.exists
  obtain ⟨b, rfl⟩ := hy.exists
  rw [← EReal.coe_add]; exact isR_coe _

theorem IsR.sub {x y : EReal} (hx : IsR x) (hy : IsR y) : IsR (x - y) := by
  obtain ⟨a, rfl⟩ := hx.exists
  obtain ⟨b, rfl⟩ := hy.exists
  rw [← EReal.coe_sub]; exact isR_coe _

theorem IsR.mul {x y : EReal} (hx : IsR x) (hy : IsR y) : IsR (x * y) := by
  obtain ⟨a, rfl⟩ := hx.exists
  obtain ⟨b, rfl⟩ := hy.exists
  rw [← EReal.coe_mul]; exact isR_coe _

theorem IsR.max {x y : EReal} (hx : IsR x) (hy : IsR y) : IsR (max x y) := by
  rcases max_choice x y with h | h <;> rw [h] <;> assumption

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued extended reals is real-valued. -/
theorem isR_sum {ι : Type*} (s : Finset ι) (f : ι → EReal) (h : ∀ i ∈ s, IsR (f i)) : IsR (∑ i ∈ s, f i) := by
  have : ∑ i ∈ s, f i = ∑ i ∈ s, (((f i).toReal : ℝ) : EReal) :=
    Finset.sum_congr rfl fun i hi => (EReal.coe_toReal (h i hi).1 (h i hi).2).symm
  rw [this, ← coe_finset_sum]; exact isR_coe _

/-! ### The variance offset and the reciprocal standard deviation -/

/-- The variance offset is a positive real number. -/
theorem eps_pos : ∃ r : ℝ, 0 < r ∧ eps = (r : EReal) := by
  refine ⟨(10995116 : ℝ) * (2 : ℝ) ^ (-40 : Int), by positivity, ?_⟩
  simp [eps, Ideal.ofBits, Ideal.ieee, -EReal.coe_mul]

/-- The reciprocal standard deviation of a real nonnegative variance is the image of a real number. -/
theorem rstd_exists {v : EReal} (hv : IsR v) (hv0 : 0 ≤ v) : ∃ s : ℝ, rstd v = (s : EReal) := by
  obtain ⟨r, rfl⟩ := hv.exists
  obtain ⟨e, he, hee⟩ := eps_pos
  have hr : 0 ≤ r := EReal.coe_nonneg.mp hv0
  have hpos : 0 < r + e := by linarith
  refine ⟨(Real.sqrt (r + e))⁻¹, ?_⟩
  unfold rstd
  rw [hee, ← EReal.coe_add, Ideal.rsqrt_coe, if_neg (not_lt.mpr hpos.le), if_neg hpos.ne']

theorem rstd_isR {v : EReal} (hv : IsR v) (hv0 : 0 ≤ v) : IsR (rstd v) := by
  obtain ⟨s, hs⟩ := rstd_exists hv hv0
  rw [hs]; exact isR_coe s

/-! ### Batch normalisation -/

/-- The affine map of the reference arrangement equals the folded slope and intercept of the kernel arrangement. -/
theorem refBn_eq_kerBn {a b m v g β : EReal} (ha : IsR a) (hb : IsR b) (hm : IsR m) (hv : IsR v) (hv0 : 0 ≤ v)
    (hg : IsR g) (hβ : IsR β) : refBn a b m v g β = kerBn a b m v g β := by
  obtain ⟨s, hs⟩ := rstd_exists hv hv0
  obtain ⟨a, rfl⟩ := ha.exists
  obtain ⟨b, rfl⟩ := hb.exists
  obtain ⟨m, rfl⟩ := hm.exists
  obtain ⟨g, rfl⟩ := hg.exists
  obtain ⟨β, rfl⟩ := hβ.exists
  unfold refBn kerBn
  rw [hs]
  simp only [← EReal.coe_add, ← EReal.coe_sub, ← EReal.coe_mul]
  congr 2
  ring

theorem refBn_isR {a b m v g β : EReal} (ha : IsR a) (hb : IsR b) (hm : IsR m) (hv : IsR v) (hv0 : 0 ≤ v)
    (hg : IsR g) (hβ : IsR β) : IsR (refBn a b m v g β) :=
  ((((ha.add hb).sub hm).mul (rstd_isR hv hv0)).mul hg |>.add hβ).max isR_zero

/-! ### Matrix products and convolutions are real-valued -/

theorem mm_isR {K : Nat} (H : Mat 100000 K) (Wt : Mat K 128) (hH : ∀ i k, IsR (H i k)) (hW : ∀ k j, IsR (Wt k j))
    (i : Fin 100000) (j : Fin 128) : IsR (mm H Wt i j) :=
  isR_sum _ _ fun k _ => (hH i k).mul (hW k j)

theorem edgeSum_isR (ei : Edges) (i : Fin 100000) (U : Fin 600000 → EReal) (hU : ∀ e, IsR (U e)) :
    IsR (edgeSum ei i U) :=
  isR_sum _ _ fun e _ => hU e

theorem refConv_isR (ei : Edges) (d : Fin 100000 → EReal) {K : Nat} (H : Mat 100000 K) (Wt : Mat K 128)
    (hd : ∀ i, IsR (d i)) (hH : ∀ i k, IsR (H i k)) (hW : ∀ k j, IsR (Wt k j)) (i : Fin 100000) (j : Fin 128) :
    IsR (refConv ei d H Wt i j) :=
  (edgeSum_isR ei i _ fun e => (mm_isR H Wt hH hW _ j).mul ((hd _).mul (hd _))).add
    ((mm_isR H Wt hH hW i j).mul ((hd i).mul (hd i)))

/-! ### The two arrangements of a convolution -/

/-- Summands that agree on the edges landing on node i have the same sum over those edges. -/
theorem edgeSum_congr (ei : Edges) (i : Fin 100000) {U V : Fin 600000 → EReal}
    (h : ∀ e, land (dstW ei e) = some i → U e = V e) : edgeSum ei i U = edgeSum ei i V :=
  Finset.sum_congr rfl fun e he => h e (Finset.mem_filter.mp he).2

/-- The sum of real numbers over the edges that land on node i. -/
def edgeSumR (ei : Edges) (i : Fin 100000) (U : Fin 600000 → ℝ) : ℝ :=
  ∑ e ∈ Finset.univ.filter (fun e => land (dstW ei e) = some i), U e

/-- The sum over the landing edges of images of real numbers is the image of the real sum. -/
theorem edgeSum_coe (ei : Edges) (i : Fin 100000) (U : Fin 600000 → ℝ) :
    edgeSum ei i (fun e => (U e : EReal)) = (edgeSumR ei i U : EReal) :=
  (coe_finset_sum _ _).symm

/-- Hidden layers. On the edges landing on node i the destination scaling is d i, a common factor of every summand
    and of the self loop: the reference sum  Σ M[src] (d[src] d i) + M[i] (d i d i)  is
    (Σ M[src] d[src] + M[i] d i) d i. -/
theorem refConv_eq_kerConv (ei : Edges) (d : Fin 100000 → EReal) (H : Mat 100000 128) (Wt : Mat 128 128)
    (hd : ∀ i, IsR (d i)) (hH : ∀ i k, IsR (H i k)) (hW : ∀ k j, IsR (Wt k j)) :
    refConv ei d H Wt = kerConv ei d H Wt := by
  obtain ⟨M, hM⟩ := exists_real_fun₂ (mm_isR H Wt hH hW)
  obtain ⟨δ, rfl⟩ := exists_real_fun hd
  funext i j
  have hL : refConv ei (fun i => (δ i : EReal)) H Wt i j
      = ((edgeSumR ei i (fun e => M (gIdx (srcW ei e)) j * (δ (gIdx (srcW ei e)) * δ i))
          + M i j * (δ i * δ i) : ℝ) : EReal) := by
    unfold refConv
    rw [hM, EReal.coe_add, ← edgeSum_coe]
    refine congrArg₂ (· + ·) ?_ ?_
    · exact edgeSum_congr ei i fun e he => by
        rw [gIdx_of_land he]; simp only [EReal.coe_mul]
    · simp only [EReal.coe_mul]
  have hR : kerConv ei (fun i => (δ i : EReal)) H Wt i j
      = (((edgeSumR ei i (fun e => M (gIdx (srcW ei e)) j * δ (gIdx (srcW ei e))) + M i j * δ i) * δ i : ℝ) :
          EReal) := by
    unfold kerConv
    rw [hM]
    simp only [EReal.coe_mul, EReal.coe_add, ← edgeSum_coe]
  rw [hL, hR, EReal.coe_eq_coe_iff]
  have e1 : edgeSumR ei i (fun e => M (gIdx (srcW ei e)) j * δ (gIdx (srcW ei e))) * δ i
      = edgeSumR ei i (fun e => M (gIdx (srcW ei e)) j * (δ (gIdx (srcW ei e)) * δ i)) := by
    unfold edgeSumR
    rw [Finset.sum_mul]
    exact Finset.sum_congr rfl fun e _ => by ring
  rw [add_mul, e1]
  ring

/-- First layer. As for the hidden layers, and the sum over the landing edges is exchanged with the sum over the
    input features:  Σ_e (Σ_k X[src] k W k j) (d[src] d i)  is  Σ_k (Σ_e X[src] k d[src]) W k j d i. -/
theorem refConv_eq_kerConvIn (ei : Edges) (d : Fin 100000 → EReal) (X : Mat 100000 64) (Wt : Mat 64 128)
    (hd : ∀ i, IsR (d i)) (hX : ∀ i k, IsR (X i k)) (hW : ∀ k j, IsR (Wt k j)) :
    refConv ei d X Wt = kerConvIn ei d X Wt := by
  obtain ⟨δ, rfl⟩ := exists_real_fun hd
  obtain ⟨Xr, rfl⟩ := exists_real_fun₂ hX
  obtain ⟨Wr, rfl⟩ := exists_real_fun₂ hW
  funext i j
  have hL : refConv ei (fun i => (δ i : EReal)) (fun i k => (Xr i k : EReal)) (fun k j => (Wr k j : EReal)) i j
      = ((edgeSumR ei i (fun e => (∑ k, Xr (gIdx (srcW ei e)) k * Wr k j) * (δ (gIdx (srcW ei e)) * δ i))
          + (∑ k, Xr i k * Wr k j) * (δ i * δ i) : ℝ) : EReal) := by
    unfold refConv mm
    rw [EReal.coe_add, ← edgeSum_coe]
    refine congrArg₂ (· + ·) ?_ ?_
    · exact edgeSum_congr ei i fun e he => by
        rw [gIdx_of_land he]; simp only [EReal.coe_mul, coe_finset_sum]
    · simp only [EReal.coe_mul, coe_finset_sum]
  have hR : kerConvIn ei (fun i => (δ i : EReal)) (fun i k => (Xr i k : EReal)) (fun k j => (Wr k j : EReal)) i j
      = (((∑ k, (edgeSumR ei i (fun e => Xr (gIdx (srcW ei e)) k * δ (gIdx (srcW ei e))) + Xr i k * δ i) * Wr k j)
          * δ i : ℝ) : EReal) := by
    unfold kerConvIn
    simp only [EReal.coe_mul, EReal.coe_add, coe_finset_sum, ← edgeSum_coe]
  rw [hL, hR, EReal.coe_eq_coe_iff]
  have e1 : edgeSumR ei i (fun e => (∑ k, Xr (gIdx (srcW ei e)) k * Wr k j) * (δ (gIdx (srcW ei e)) * δ i))
      = ∑ k, edgeSumR ei i (fun e => Xr (gIdx (srcW ei e)) k * δ (gIdx (srcW ei e))) * Wr k j * δ i := by
    unfold edgeSumR
    simp only [Finset.sum_mul]
    rw [Finset.sum_comm]
    exact Finset.sum_congr rfl fun k _ => Finset.sum_congr rfl fun e _ => by ring
  have e2 : (∑ k, Xr i k * Wr k j) * (δ i * δ i) = ∑ k, Xr i k * Wr k j * (δ i * δ i) := Finset.sum_mul _ _ _
  have e3 : (∑ k, (edgeSumR ei i (fun e => Xr (gIdx (srcW ei e)) k * δ (gIdx (srcW ei e))) + Xr i k * δ i) * Wr k j)
        * δ i
      = ∑ k, (edgeSumR ei i (fun e => Xr (gIdx (srcW ei e)) k * δ (gIdx (srcW ei e))) + Xr i k * δ i) * Wr k j
        * δ i := Finset.sum_mul _ _ _
  rw [e1, e2, e3, ← Finset.sum_add_distrib]
  exact Finset.sum_congr rfl fun k _ => by ring

/-! ### The three layers -/

/-- Applied to a real-valued matrix with real parameters, the two batch normalisations agree. -/
theorem bnApply_ref_eq_ker (C : Mat 100000 128) (p : BnP) (hC : ∀ i j, IsR (C i j)) (hp : p.Ok) :
    bnApply refBn C p = bnApply kerBn C p := by
  funext i j
  exact refBn_eq_kerBn (hC i j) (hp.b _) (hp.m _) (hp.v _) (hp.v0 _) (hp.g _) (hp.β _)

theorem bnApply_ref_isR (C : Mat 100000 128) (p : BnP) (hC : ∀ i j, IsR (C i j)) (hp : p.Ok)
    (i : Fin 100000) (j : Fin 128) : IsR (bnApply refBn C p i j) :=
  refBn_isR (hC i j) (hp.b _) (hp.m _) (hp.v _) (hp.v0 _) (hp.g _) (hp.β _)

theorem refH1_isR (A : Args) (d : Fin 100000 → EReal) (hA : A.Ok) (hd : ∀ i, IsR (d i))
    (i : Fin 100000) (j : Fin 128) : IsR (refH1 A d i j) :=
  bnApply_ref_isR _ _ (refConv_isR A.ei d (cur A.x) (cur A.W1) hd (fun _ _ => hA.x _) (fun _ _ => hA.W1 _)) hA.p1 i j

theorem kerH1_eq_refH1 (A : Args) (d : Fin 100000 → EReal) (hA : A.Ok) (hd : ∀ i, IsR (d i)) :
    kerH1 A d = refH1 A d := by
  unfold kerH1 refH1
  rw [← refConv_eq_kerConvIn A.ei d (cur A.x) (cur A.W1) hd (fun _ _ => hA.x _) (fun _ _ => hA.W1 _)]
  exact (bnApply_ref_eq_ker _ _
    (refConv_isR A.ei d (cur A.x) (cur A.W1) hd (fun _ _ => hA.x _) (fun _ _ => hA.W1 _)) hA.p1).symm

/-- The second layer adds the first layer's real output to a real normalised convolution. -/
theorem refH2_isR (A : Args) (d : Fin 100000 → EReal) (hA : A.Ok) (hd : ∀ i, IsR (d i))
    (i : Fin 100000) (j : Fin 128) : IsR (refH2 A d i j) :=
  (bnApply_ref_isR _ _
    (refConv_isR A.ei d (refH1 A d) (cur A.W2) hd (refH1_isR A d hA hd) (fun _ _ => hA.W2 _)) hA.p2 i j).add
    (refH1_isR A d hA hd i j)

theorem kerH2_eq_refH2 (A : Args) (d : Fin 100000 → EReal) (hA : A.Ok) (hd : ∀ i, IsR (d i)) :
    kerH2 A d = refH2 A d := by
  unfold kerH2 refH2
  rw [kerH1_eq_refH1 A d hA hd,
    ← refConv_eq_kerConv A.ei d (refH1 A d) (cur A.W2) hd (refH1_isR A d hA hd) (fun _ _ => hA.W2 _),
    ← bnApply_ref_eq_ker _ _
      (refConv_isR A.ei d (refH1 A d) (cur A.W2) hd (refH1_isR A d hA hd) (fun _ _ => hA.W2 _)) hA.p2]

theorem kerH3_eq_refH3 (A : Args) (d : Fin 100000 → EReal) (hA : A.Ok) (hd : ∀ i, IsR (d i)) :
    kerH3 A d = refH3 A d := by
  unfold kerH3 refH3
  rw [kerH2_eq_refH2 A d hA hd,
    ← refConv_eq_kerConv A.ei d (refH2 A d) (cur A.W3) hd (refH2_isR A d hA hd) (fun _ _ => hA.W3 _),
    ← bnApply_ref_eq_ker _ _
      (refConv_isR A.ei d (refH2 A d) (cur A.W3) hd (refH2_isR A d hA hd) (fun _ _ => hA.W3 _)) hA.p3]

theorem refH3_isR (A : Args) (d : Fin 100000 → EReal) (hA : A.Ok) (hd : ∀ i, IsR (d i))
    (i : Fin 100000) (j : Fin 128) : IsR (refH3 A d i j) :=
  bnApply_ref_isR _ _
    (refConv_isR A.ei d (refH2 A d) (cur A.W3) hd (refH2_isR A d hA hd) (fun _ _ => hA.W3 _)) hA.p3 i j

end Cert.Gcn

end
-- ==== Proof.PreFacts.lean ====
/-
  The precondition, decoded. The printed precondition is one conjunction of 26 one-bit facts, nested to the left: for each
  of the 23 float arguments (every argument but the edge list and the batch vector) "all entries x have |x| < +∞", in
  argument order, and then for the three variance vectors (arguments 8, 14 and 20) "all entries are ≥ 0". Each "all" is
  a reduction by `and`, from the constant 1, of the vector of elementwise comparisons against a broadcast scalar constant.

  Over the extended reals |x| is max x (-x), the pattern 0x7F800000 is ⊤ and the pattern 0x00000000 is 0, so
  |x| < +∞ says x ≠ ⊤ and x ≠ ⊥ (x is a real number), and x ≥ 0 says 0 ≤ x. A conjunction of bits is 1 exactly when both
  bits are 1, and a reduction by `and` over every axis is 1 only if every element is 1. Read at the one index of the scalar
  result, the precondition therefore gives: every entry of the input, of the three convolution weights and of the three
  layers' bias / scale / shift / mean / variance vectors is real, and every variance is nonnegative.
-/
import proofs.«110672_j48155173322903_2_alg».proof.Proof.Spec
import proofs.«110672_j48155173322903_2_alg».proof.Pre_finite_inputs
import proofs.«110672_j48155173322903_2_alg».proof.Proof.Gen.Pre_finite_inputs
import Idealize.ShloMosaic.Lib.ReduceAll
import Idealize.ShloMosaic.Lib.ValueIdx
import Idealize.ShloMosaic.PureOps.Ideal.Laws

noncomputable section

namespace Cert.Gcn

open Idealize.ShloMosaic Idealize.ShloMosaic.ValueIdx
open Cert.Pre_finite_inputs (S_)

/-- The scalar shape has one index. -/
instance : Subsingleton S_.Idx := ⟨fun a b => funext fun d => d.elim0⟩

/-- A bit made from a truth value is 1 exactly when the truth value is true. -/
theorem ofBool_eq_one (b : Bool) : BitVec.ofBool b = 1#1 ↔ b = true := by cases b <;> decide

/-- |x| < +∞ says x is a real number: x < ⊤ gives x ≠ ⊤, and -x < ⊤ gives x ≠ ⊥ since -⊥ = ⊤. -/
theorem isR_of_abs_lt (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  rw [ofBool_eq_one, decide_eq_true_eq, max_lt_iff] at h
  refine ⟨h.1.ne, fun hx => ?_⟩
  rw [hx, EReal.neg_bot] at h
  exact absurd h.2 (lt_irrefl _)

/-- x ≥ 0 against the zero pattern says 0 ≤ x. -/
theorem nonneg_of_ge (x : EReal)
    (h : Ideal.cmp .oge x (Ideal.ofBits .f32 0x00000000#32) = 1#1) : 0 ≤ x := by
  rw [Ideal.ofBits_zero_f32] at h
  unfold Ideal.cmp at h
  rw [ofBool_eq_one, decide_eq_true_eq] at h
  exact h

/-- "All entries have |x| < +∞" over a whole array, true: every entry is real. The comparison vector at index i is the
    comparison of |x i| with the broadcast constant, which reads the scalar constant at every index. -/
theorem real_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (e : Host.reduce IntOp.andi (cmpf .olt (Host.absf x) (broadcastInDim s ![] hb (constant S_ .f32 0x7F800000#32))) c hr hu ix0 = 1#1)
    (i : s.Idx) : IsR (x i) :=
  isR_of_abs_lt (x i) (Host.reduce_andi_all _ c hr hu ix0 e i)

/-- "All entries are ≥ 0" over a whole array, true: every entry is nonnegative. -/
theorem nonneg_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (e : Host.reduce IntOp.andi (cmpf .oge x (broadcastInDim s ![] hb (constant S_ .f32 0x00000000#32))) c hr hu ix0 = 1#1)
    (i : s.Idx) : 0 ≤ x i :=
  nonneg_of_ge (x i) (Host.reduce_andi_all _ c hr hu ix0 e i)

open Cert.Pre_finite_inputs in
/-- THE PRECONDITION DECODED. Read at the scalar result's one index, the printed function unfolds to the 26-fold
    conjunction; its conjuncts for arguments 0, 3 to 20 and the three sign conjuncts give what the layers need (the four
    conjuncts of arguments 21 to 24, the readout's weights, are not needed and are dropped). -/
theorem ok_of_pre [Cert.Pre_finite_inputs.Facts] (a0 : Arr2 100000 64) (a1 : Edges) (a2 : IVec (⟨1, ![100000]⟩ : Shape) 32) (a3 : Arr2 64 128) (a4 a5 a6 a7 a8 : Arr1 128) (a9 : Arr2 128 128) (a10 a11 a12 a13 a14 : Arr1 128) (a15 : Arr2 128 128) (a16 a17 a18 a19 a20 : Arr1 128) (a21 : Arr2 128 64) (a22 : Arr1 64) (a23 : Arr2 64 1) (a24 : Arr1 1) (h : Cert.Pre_finite_inputs.fn (F := Ideal) a0 a1 a2 a3 a4 a5 a6 a7 a8 a9 a10 a11 a12 a13 a14 a15 a16 a17 a18 a19 a20 a21 a22 a23 a24 = fun _ => 1#1) : Args.Ok ⟨a0, a1, a2, a3, ⟨a4, a5, a6, a7, a8⟩, a9, ⟨a10, a11, a12, a13, a14⟩, a15, ⟨a16, a17, a18, a19, a20⟩, a21, a22, a23, a24⟩ := by
  have e := congrFun h ix0
  dsimp only [fn, fn_part1, fn_part2, fn_part3, fn_part4, fn_part5, fn_part6, fn_part7] at e
  simp only [andi, IntOp.andi_eq_one] at e
  obtain ⟨⟨⟨⟨⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, -⟩, -⟩, -⟩, -⟩, v8⟩, v14⟩, v20⟩ := e
  exact {
    x := real_of_all a0 _ _ _ _ h0
    W1 := real_of_all a3 _ _ _ _ h3
    W2 := real_of_all a9 _ _ _ _ h9
    W3 := real_of_all a15 _ _ _ _ h15
    p1 := ⟨real_of_all a4 _ _ _ _ h4, real_of_all a5 _ _ _ _ h5, real_of_all a6 _ _ _ _ h6, real_of_all a7 _ _ _ _ h7,
      real_of_all a8 _ _ _ _ h8, nonneg_of_all a8 _ _ _ _ v8⟩
    p2 := ⟨real_of_all a10 _ _ _ _ h10, real_of_all a11 _ _ _ _ h11, real_of_all a12 _ _ _ _ h12, real_of_all a13 _ _ _ _ h13,
      real_of_all a14 _ _ _ _ h14, nonneg_of_all a14 _ _ _ _ v14⟩
    p3 := ⟨real_of_all a16 _ _ _ _ h16, real_of_all a17 _ _ _ _ h17, real_of_all a18 _ _ _ _ h18, real_of_all a19 _ _ _ _ h19,
      real_of_all a20 _ _ _ _ h20, nonneg_of_all a20 _ _ _ _ v20⟩ }

end Cert.Gcn

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.KerKeep.lean ====
/-
  Which buffers each step of the idealized kernel program's run leaves alone.

  The run is a fold of buffer contents through sixteen steps: ten straight-line host stretches and six pipelined
  regions. A host stretch changes only the buffers its operations write; a region changes only its output array
  (its input arrays end as they were entered). For each buffer that a later step reads, the lemmas below walk its
  contents back to the step that produced it.
-/
import proofs.«110672_j48155173322903_2_alg».proof.Proof.Gen.KernelIdeal.Frame
import proofs.«110672_j48155173322903_2_alg».proof.Proof.LibSsa

set_option maxRecDepth 16384

noncomputable section

namespace Cert.Gcn.Ker

open Cert.KernelIdeal Cert.KernelIdeal.Gen Idealize.ShloMosaic Idealize.ShloMosaic.StableHlo
open Idealize.ShloMosaic.Pipeline (Dat)

variable {F : FTy → Type} [FloatOps F]

/-- The buffers `hostOps0` writes, in order. -/
abbrev wr0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem keep_hostOps0 (V : Valuation τ sig (Elt F)) (b : Ref sig .tc) (hb : b ∉ wr0) :
    after (hostOps0 (F := F)) V (Proc.devRef .tc b) = V (Proc.devRef .tc b) :=
  Ssa.after_of_not_written _ wr0 V b (by repeat' constructor) hb

/-- The buffers `hostOps0_1` writes, in order. -/
abbrev wr0_1 : List (Ref sig .tc) := [main_call0_v0, main_call0_v1, main_v16]
theorem keep_hostOps0_1 (V : Valuation τ sig (Elt F)) (b : Ref sig .tc) (hb : b ∉ wr0_1) :
    after (hostOps0_1 (F := F)) V (Proc.devRef .tc b) = V (Proc.devRef .tc b) :=
  Ssa.after_of_not_written _ wr0_1 V b (by repeat' constructor) hb

/-- The buffers `hostOps0_2` writes, in order. -/
abbrev wr0_2 : List (Ref sig .tc) := [main_cst_4, main_v17, main_v18, main_v19, main_v20, main_v21, main_v22, main_v23, main_v24, main_v25, main_cst_5, main_v26, main_v27, main_v28, main_v29, main_v30, main_v31, main_v32, main_v33, main_v34, main_cst_6, main_v35, main_v36, main_v37, main_v38, main_v39, main_v40, main_v41, main_v42, main_v43, main_v44, main_v45, main_v46, main_c, main_v47, main_v48, main_c_7, main_v49, main_v50, main_v51, main_v52, main_v53, main_cst_8, main_v54, main_v55, main_v56, main_v57, main_v58]
theorem keep_hostOps0_2 (V : Valuation τ sig (Elt F)) (b : Ref sig .tc) (hb : b ∉ wr0_2) :
    after (hostOps0_2 (F := F)) V (Proc.devRef .tc b) = V (Proc.devRef .tc b) :=
  Ssa.after_of_not_written _ wr0_2 V b (by repeat' constructor) hb

/-- The buffers `hostOps2` writes, in order. -/
abbrev wr2 : List (Ref sig .tc) := [main_v61]
theorem keep_hostOps2 (V : Valuation τ sig (Elt F)) (b : Ref sig .tc) (hb : b ∉ wr2) :
    after (hostOps2 (F := F)) V (Proc.devRef .tc b) = V (Proc.devRef .tc b) :=
  Ssa.after_of_not_written _ wr2 V b (by repeat' constructor) hb

/-- The buffers `hostOps3` writes, in order. -/
abbrev wr3 : List (Ref sig .tc) := [main_c_9, main_v63, main_v64, main_c_10, main_v65, main_v66, main_v67, main_v68, main_v69, main_cst_11, main_v70, main_v71, main_v72, main_v73]
theorem keep_hostOps3 (V : Valuation τ sig (Elt F)) (b : Ref sig .tc) (hb : b ∉ wr3) :
    after (hostOps3 (F := F)) V (Proc.devRef .tc b) = V (Proc.devRef .tc b) :=
  Ssa.after_of_not_written _ wr3 V b (by repeat' constructor) hb

/-- The buffers `hostOps4` writes, in order. -/
abbrev wr4 : List (Ref sig .tc) := [main_v75]
theorem keep_hostOps4 (V : Valuation τ sig (Elt F)) (b : Ref sig .tc) (hb : b ∉ wr4) :
    after (hostOps4 (F := F)) V (Proc.devRef .tc b) = V (Proc.devRef .tc b) :=
  Ssa.after_of_not_written _ wr4 V b (by repeat' constructor) hb

/-- The buffers `hostOps5` writes, in order. -/
abbrev wr5 : List (Ref sig .tc) := [main_c_12, main_v77, main_v78, main_c_13, main_v79, main_v80, main_v81, main_v82, main_v83, main_cst_14, main_v84, main_v85, main_v86, main_v87]
theorem keep_hostOps5 (V : Valuation τ sig (Elt F)) (b : Ref sig .tc) (hb : b ∉ wr5) :
    after (hostOps5 (F := F)) V (Proc.devRef .tc b) = V (Proc.devRef .tc b) :=
  Ssa.after_of_not_written _ wr5 V b (by repeat' constructor) hb

/-- The buffers `hostOps6` writes, in order. -/
abbrev wr6 : List (Ref sig .tc) := [main_cst_15, main_v89, main_v90, main_v91, main_cst_16, main_v92, main_cst_17, main_v93, main_v94, main_v95, main_cst_18, main_v96, main_v97, main_v98, main_v99, main_v100, main_v101, main_v102, main_v103]
theorem keep_hostOps6 (V : Valuation τ sig (Elt F)) (b : Ref sig .tc) (hb : b ∉ wr6) :
    after (hostOps6 (F := F)) V (Proc.devRef .tc b) = V (Proc.devRef .tc b) :=
  Ssa.after_of_not_written _ wr6 V b (by repeat' constructor) hb

/-- The buffers `hostOps6_1` writes, in order. -/
abbrev wr6_1 : List (Ref sig .tc) := [main_call1_cst, main_call1_v0, main_v104]
theorem keep_hostOps6_1 (V : Valuation τ sig (Elt F)) (b : Ref sig .tc) (hb : b ∉ wr6_1) :
    after (hostOps6_1 (F := F)) V (Proc.devRef .tc b) = V (Proc.devRef .tc b) :=
  Ssa.after_of_not_written _ wr6_1 V b (by repeat' constructor) hb

/-- The buffers `hostOps6_2` writes, in order. -/
abbrev wr6_2 : List (Ref sig .tc) := [main_v105, main_v106, main_v107, main_v108, main_v109, main_v110, main_cst_19, main_v111, main_v112, main_cst_20, main_v113, main_v114]
theorem keep_hostOps6_2 (V : Valuation τ sig (Elt F)) (b : Ref sig .tc) (hb : b ∉ wr6_2) :
    after (hostOps6_2 (F := F)) V (Proc.devRef .tc b) = V (Proc.devRef .tc b) :=
  Ssa.after_of_not_written _ wr6_2 V b (by repeat' constructor) hb

variable (m : (ℓ : Loc nD τ sig) → Buf (Elt F) ℓ) (ρ : Dev nD → PrngReg)

/-- At launch a buffer holds the memory's contents. -/
theorem W0_eq (c : Dev nD) (b : Ref sig .tc) : W0 m ρ c (Proc.devRef .tc b) = m ((c.tc : Thread nD τ).loc b) := rfl

theorem keep_arg0_0_2 (c : Dev nD) : W2 m ρ c (Proc.devRef .tc main_arg0) = W0 m ρ c (Proc.devRef .tc main_arg0) :=
  calc W2 m ρ c (Proc.devRef .tc main_arg0)
    _ = W1 m ρ c (Proc.devRef .tc main_arg0) := keep_hostOps0_1 (W1 m ρ c) main_arg0 (by decide)
    _ = W0 m ρ c (Proc.devRef .tc main_arg0) := keep_hostOps0 (W0 m ρ c) main_arg0 (by decide)

theorem keep_arg1_0_2 (c : Dev nD) : W2 m ρ c (Proc.devRef .tc main_arg1) = W0 m ρ c (Proc.devRef .tc main_arg1) :=
  calc W2 m ρ c (Proc.devRef .tc main_arg1)
    _ = W1 m ρ c (Proc.devRef .tc main_arg1) := keep_hostOps0_1 (W1 m ρ c) main_arg1 (by decide)
    _ = W0 m ρ c (Proc.devRef .tc main_arg1) := keep_hostOps0 (W0 m ρ c) main_arg1 (by decide)

theorem keep_arg2_0_2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := keep_hostOps0_1 (W1 m ρ c) main_arg2 (by decide)
    _ = W0 m ρ c (Proc.devRef .tc main_arg2) := keep_hostOps0 (W0 m ρ c) main_arg2 (by decide)

theorem keep_arg3_0_2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := keep_hostOps0_1 (W1 m ρ c) main_arg3 (by decide)
    _ = W0 m ρ c (Proc.devRef .tc main_arg3) := keep_hostOps0 (W0 m ρ c) main_arg3 (by decide)

theorem keep_arg4_0_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := keep_hostOps0_1 (W1 m ρ c) main_arg4 (by decide)
    _ = W0 m ρ c (Proc.devRef .tc main_arg4) := keep_hostOps0 (W0 m ρ c) main_arg4 (by decide)

theorem keep_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := keep_hostOps0_1 (W1 m ρ c) main_arg5 (by decide)
    _ = W0 m ρ c (Proc.devRef .tc main_arg5) := keep_hostOps0 (W0 m ρ c) main_arg5 (by decide)

theorem keep_arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := keep_hostOps0_1 (W1 m ρ c) main_arg6 (by decide)
    _ = W0 m ρ c (Proc.devRef .tc main_arg6) := keep_hostOps0 (W0 m ρ c) main_arg6 (by decide)

theorem keep_arg7_0_2 (c : Dev nD) : W2 m ρ c (Proc.devRef .tc main_arg7) = W0 m ρ c (Proc.devRef .tc main_arg7) :=
  calc W2 m ρ c (Proc.devRef .tc main_arg7)
    _ = W1 m ρ c (Proc.devRef .tc main_arg7) := keep_hostOps0_1 (W1 m ρ c) main_arg7 (by decide)
    _ = W0 m ρ c (Proc.devRef .tc main_arg7) := keep_hostOps0 (W0 m ρ c) main_arg7 (by decide)

theorem keep_arg8_0_2 (c : Dev nD) : W2 m ρ c (Proc.devRef .tc main_arg8) = W0 m ρ c (Proc.devRef .tc main_arg8) :=
  calc W2 m ρ c (Proc.devRef .tc main_arg8)
    _ = W1 m ρ c (Proc.devRef .tc main_arg8) := keep_hostOps0_1 (W1 m ρ c) main_arg8 (by decide)
    _ = W0 m ρ c (Proc.devRef .tc main_arg8) := keep_hostOps0 (W0 m ρ c) main_arg8 (by decide)

theorem keep_arg9_0_2 (c : Dev nD) : W2 m ρ c (Proc.devRef .tc main_arg9) = W0 m ρ c (Proc.devRef .tc main_arg9) :=
  calc W2 m ρ c (Proc.devRef .tc main_arg9)
    _ = W1 m ρ c (Proc.devRef .tc main_arg9) := keep_hostOps0_1 (W1 m ρ c) main_arg9 (by decide)
    _ = W0 m ρ c (Proc.devRef .tc main_arg9) := keep_hostOps0 (W0 m ρ c) main_arg9 (by decide)

theorem keep_arg10_0_2 (c : Dev nD) : W2 m ρ c (Proc.devRef .tc main_arg10) = W0 m ρ c (Proc.devRef .tc main_arg10) :=
  calc W2 m ρ c (Proc.devRef .tc main_arg10)
    _ = W1 m ρ c (Proc.devRef .tc main_arg10) := keep_hostOps0_1 (W1 m ρ c) main_arg10 (by decide)
    _ = W0 m ρ c (Proc.devRef .tc main_arg10) := keep_hostOps0 (W0 m ρ c) main_arg10 (by decide)

theorem keep_arg11_0_2 (c : Dev nD) : W2 m ρ c (Proc.devRef .tc main_arg11) = W0 m ρ c (Proc.devRef .tc main_arg11) :=
  calc W2 m ρ c (Proc.devRef .tc main_arg11)
    _ = W1 m ρ c (Proc.devRef .tc main_arg11) := keep_hostOps0_1 (W1 m ρ c) main_arg11 (by decide)
    _ = W0 m ρ c (Proc.devRef .tc main_arg11) := keep_hostOps0 (W0 m ρ c) main_arg11 (by decide)

theorem keep_arg12_0_2 (c : Dev nD) : W2 m ρ c (Proc.devRef .tc main_arg12) = W0 m ρ c (Proc.devRef .tc main_arg12) :=
  calc W2 m ρ c (Proc.devRef .tc main_arg12)
    _ = W1 m ρ c (Proc.devRef .tc main_arg12) := keep_hostOps0_1 (W1 m ρ c) main_arg12 (by decide)
    _ = W0 m ρ c (Proc.devRef .tc main_arg12) := keep_hostOps0 (W0 m ρ c) main_arg12 (by decide)

theorem keep_arg13_0_2 (c : Dev nD) : W2 m ρ c (Proc.devRef .tc main_arg13) = W0 m ρ c (Proc.devRef .tc main_arg13) :=
  calc W2 m ρ c (Proc.devRef .tc main_arg13)
    _ = W1 m ρ c (Proc.devRef .tc main_arg13) := keep_hostOps0_1 (W1 m ρ c) main_arg13 (by decide)
    _ = W0 m ρ c (Proc.devRef .tc main_arg13) := keep_hostOps0 (W0 m ρ c) main_arg13 (by decide)

theorem keep_arg14_0_2 (c : Dev nD) : W2 m ρ c (Proc.devRef .tc main_arg14) = W0 m ρ c (Proc.devRef .tc main_arg14) :=
  calc W2 m ρ c (Proc.devRef .tc main_arg14)
    _ = W1 m ρ c (Proc.devRef .tc main_arg14) := keep_hostOps0_1 (W1 m ρ c) main_arg14 (by decide)
    _ = W0 m ρ c (Proc.devRef .tc main_arg14) := keep_hostOps0 (W0 m ρ c) main_arg14 (by decide)

theorem keep_arg15_0_2 (c : Dev nD) : W2 m ρ c (Proc.devRef .tc main_arg15) = W0 m ρ c (Proc.devRef .tc main_arg15) :=
  calc W2 m ρ c (Proc.devRef .tc main_arg15)
    _ = W1 m ρ c (Proc.devRef .tc main_arg15) := keep_hostOps0_1 (W1 m ρ c) main_arg15 (by decide)
    _ = W0 m ρ c (Proc.devRef .tc main_arg15) := keep_hostOps0 (W0 m ρ c) main_arg15 (by decide)

theorem keep_arg16_0_2 (c : Dev nD) : W2 m ρ c (Proc.devRef .tc main_arg16) = W0 m ρ c (Proc.devRef .tc main_arg16) :=
  calc W2 m ρ c (Proc.devRef .tc main_arg16)
    _ = W1 m ρ c (Proc.devRef .tc main_arg16) := keep_hostOps0_1 (W1 m ρ c) main_arg16 (by decide)
    _ = W0 m ρ c (Proc.devRef .tc main_arg16) := keep_hostOps0 (W0 m ρ c) main_arg16 (by decide)

theorem keep_arg17_0_2 (c : Dev nD) : W2 m ρ c (Proc.devRef .tc main_arg17) = W0 m ρ c (Proc.devRef .tc main_arg17) :=
  calc W2 m ρ c (Proc.devRef .tc main_arg17)
    _ = W1 m ρ c (Proc.devRef .tc main_arg17) := keep_hostOps0_1 (W1 m ρ c) main_arg17 (by decide)
    _ = W0 m ρ c (Proc.devRef .tc main_arg17) := keep_hostOps0 (W0 m ρ c) main_arg17 (by decide)

theorem keep_arg18_0_2 (c : Dev nD) : W2 m ρ c (Proc.devRef .tc main_arg18) = W0 m ρ c (Proc.devRef .tc main_arg18) :=
  calc W2 m ρ c (Proc.devRef .tc main_arg18)
    _ = W1 m ρ c (Proc.devRef .tc main_arg18) := keep_hostOps0_1 (W1 m ρ c) main_arg18 (by decide)
    _ = W0 m ρ c (Proc.devRef .tc main_arg18) := keep_hostOps0 (W0 m ρ c) main_arg18 (by decide)

theorem keep_arg19_0_2 (c : Dev nD) : W2 m ρ c (Proc.devRef .tc main_arg19) = W0 m ρ c (Proc.devRef .tc main_arg19) :=
  calc W2 m ρ c (Proc.devRef .tc main_arg19)
    _ = W1 m ρ c (Proc.devRef .tc main_arg19) := keep_hostOps0_1 (W1 m ρ c) main_arg19 (by decide)
    _ = W0 m ρ c (Proc.devRef .tc main_arg19) := keep_hostOps0 (W0 m ρ c) main_arg19 (by decide)

theorem keep_arg20_0_2 (c : Dev nD) : W2 m ρ c (Proc.devRef .tc main_arg20) = W0 m ρ c (Proc.devRef .tc main_arg20) :=
  calc W2 m ρ c (Proc.devRef .tc main_arg20)
    _ = W1 m ρ c (Proc.devRef .tc main_arg20) := keep_hostOps0_1 (W1 m ρ c) main_arg20 (by decide)
    _ = W0 m ρ c (Proc.devRef .tc main_arg20) := keep_hostOps0 (W0 m ρ c) main_arg20 (by decide)

theorem keep_arg21_0_2 (c : Dev nD) : W2 m ρ c (Proc.devRef .tc main_arg21) = W0 m ρ c (Proc.devRef .tc main_arg21) :=
  calc W2 m ρ c (Proc.devRef .tc main_arg21)
    _ = W1 m ρ c (Proc.devRef .tc main_arg21) := keep_hostOps0_1 (W1 m ρ c) main_arg21 (by decide)
    _ = W0 m ρ c (Proc.devRef .tc main_arg21) := keep_hostOps0 (W0 m ρ c) main_arg21 (by decide)

theorem keep_arg22_0_2 (c : Dev nD) : W2 m ρ c (Proc.devRef .tc main_arg22) = W0 m ρ c (Proc.devRef .tc main_arg22) :=
  calc W2 m ρ c (Proc.devRef .tc main_arg22)
    _ = W1 m ρ c (Proc.devRef .tc main_arg22) := keep_hostOps0_1 (W1 m ρ c) main_arg22 (by decide)
    _ = W0 m ρ c (Proc.devRef .tc main_arg22) := keep_hostOps0 (W0 m ρ c) main_arg22 (by decide)

theorem keep_arg23_0_2 (c : Dev nD) : W2 m ρ c (Proc.devRef .tc main_arg23) = W0 m ρ c (Proc.devRef .tc main_arg23) :=
  calc W2 m ρ c (Proc.devRef .tc main_arg23)
    _ = W1 m ρ c (Proc.devRef .tc main_arg23) := keep_hostOps0_1 (W1 m ρ c) main_arg23 (by decide)
    _ = W0 m ρ c (Proc.devRef .tc main_arg23) := keep_hostOps0 (W0 m ρ c) main_arg23 (by decide)

theorem keep_arg24_0_2 (c : Dev nD) : W2 m ρ c (Proc.devRef .tc main_arg24) = W0 m ρ c (Proc.devRef .tc main_arg24) :=
  calc W2 m ρ c (Proc.devRef .tc main_arg24)
    _ = W1 m ρ c (Proc.devRef .tc main_arg24) := keep_hostOps0_1 (W1 m ρ c) main_arg24 (by decide)
    _ = W0 m ρ c (Proc.devRef .tc main_arg24) := keep_hostOps0 (W0 m ρ c) main_arg24 (by decide)

theorem keep_arg3_2_3 (c : Dev nD) : W3 m ρ c (Proc.devRef .tc main_arg3) = W2 m ρ c (Proc.devRef .tc main_arg3) :=
  calc W3 m ρ c (Proc.devRef .tc main_arg3)
    _ = W2 m ρ c (Proc.devRef .tc main_arg3) := keep_hostOps0_2 (W2 m ρ c) main_arg3 (by decide)

theorem keep_arg9_2_6 (c : Dev nD) : W6 m ρ c (Proc.devRef .tc main_arg9) = W2 m ρ c (Proc.devRef .tc main_arg9) :=
  calc W6 m ρ c (Proc.devRef .tc main_arg9)
    _ = W5 m ρ c (Proc.devRef .tc main_arg9) := keep_hostOps2 (W5 m ρ c) main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := keep_hostOps0_2 (W2 m ρ c) main_arg9 (by decide)

theorem keep_arg15_2_10 (c : Dev nD) : W10 m ρ c (Proc.devRef .tc main_arg15) = W2 m ρ c (Proc.devRef .tc main_arg15) :=
  calc W10 m ρ c (Proc.devRef .tc main_arg15)
    _ = W9 m ρ c (Proc.devRef .tc main_arg15) := keep_hostOps4 (W9 m ρ c) main_arg15 (by decide)
    _ = W8 m ρ c (Proc.devRef .tc main_arg15) := W9_of_ne m ρ c main_arg15 (by decide)
    _ = W7 m ρ c (Proc.devRef .tc main_arg15) := keep_hostOps3 (W7 m ρ c) main_arg15 (by decide)
    _ = W6 m ρ c (Proc.devRef .tc main_arg15) := W7_of_ne m ρ c main_arg15 (by decide)
    _ = W5 m ρ c (Proc.devRef .tc main_arg15) := keep_hostOps2 (W5 m ρ c) main_arg15 (by decide)
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := keep_hostOps0_2 (W2 m ρ c) main_arg15 (by decide)

theorem keep_arg2_2_13 (c : Dev nD) : W13 m ρ c (Proc.devRef .tc main_arg2) = W2 m ρ c (Proc.devRef .tc main_arg2) :=
  calc W13 m ρ c (Proc.devRef .tc main_arg2)
    _ = W12 m ρ c (Proc.devRef .tc main_arg2) := W13_of_ne m ρ c main_arg2 (by decide)
    _ = W11 m ρ c (Proc.devRef .tc main_arg2) := keep_hostOps5 (W11 m ρ c) main_arg2 (by decide)
    _ = W10 m ρ c (Proc.devRef .tc main_arg2) := W11_of_ne m ρ c main_arg2 (by decide)
    _ = W9 m ρ c (Proc.devRef .tc main_arg2) := keep_hostOps4 (W9 m ρ c) main_arg2 (by decide)
    _ = W8 m ρ c (Proc.devRef .tc main_arg2) := W9_of_ne m ρ c main_arg2 (by decide)
    _ = W7 m ρ c (Proc.devRef .tc main_arg2) := keep_hostOps3 (W7 m ρ c) main_arg2 (by decide)
    _ = W6 m ρ c (Proc.devRef .tc main_arg2) := W7_of_ne m ρ c main_arg2 (by decide)
    _ = W5 m ρ c (Proc.devRef .tc main_arg2) := keep_hostOps2 (W5 m ρ c) main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := keep_hostOps0_2 (W2 m ρ c) main_arg2 (by decide)

theorem keep_arg21_2_13 (c : Dev nD) : W13 m ρ c (Proc.devRef .tc main_arg21) = W2 m ρ c (Proc.devRef .tc main_arg21) :=
  calc W13 m ρ c (Proc.devRef .tc main_arg21)
    _ = W12 m ρ c (Proc.devRef .tc main_arg21) := W13_of_ne m ρ c main_arg21 (by decide)
    _ = W11 m ρ c (Proc.devRef .tc main_arg21) := keep_hostOps5 (W11 m ρ c) main_arg21 (by decide)
    _ = W10 m ρ c (Proc.devRef .tc main_arg21) := W11_of_ne m ρ c main_arg21 (by decide)
    _ = W9 m ρ c (Proc.devRef .tc main_arg21) := keep_hostOps4 (W9 m ρ c) main_arg21 (by decide)
    _ = W8 m ρ c (Proc.devRef .tc main_arg21) := W9_of_ne m ρ c main_arg21 (by decide)
    _ = W7 m ρ c (Proc.devRef .tc main_arg21) := keep_hostOps3 (W7 m ρ c) main_arg21 (by decide)
    _ = W6 m ρ c (Proc.devRef .tc main_arg21) := W7_of_ne m ρ c main_arg21 (by decide)
    _ = W5 m ρ c (Proc.devRef .tc main_arg21) := keep_hostOps2 (W5 m ρ c) main_arg21 (by decide)
    _ = W4 m ρ c (Proc.devRef .tc main_arg21) := W5_of_ne m ρ c main_arg21 (by decide)
    _ = W3 m ρ c (Proc.devRef .tc main_arg21) := W4_of_ne m ρ c main_arg21 (by decide)
    _ = W2 m ρ c (Proc.devRef .tc main_arg21) := keep_hostOps0_2 (W2 m ρ c) main_arg21 (by decide)

theorem keep_arg22_2_13 (c : Dev nD) : W13 m ρ c (Proc.devRef .tc main_arg22) = W2 m ρ c (Proc.devRef .tc main_arg22) :=
  calc W13 m ρ c (Proc.devRef .tc main_arg22)
    _ = W12 m ρ c (Proc.devRef .tc main_arg22) := W13_of_ne m ρ c main_arg22 (by decide)
    _ = W11 m ρ c (Proc.devRef .tc main_arg22) := keep_hostOps5 (W11 m ρ c) main_arg22 (by decide)
    _ = W10 m ρ c (Proc.devRef .tc main_arg22) := W11_of_ne m ρ c main_arg22 (by decide)
    _ = W9 m ρ c (Proc.devRef .tc main_arg22) := keep_hostOps4 (W9 m ρ c) main_arg22 (by decide)
    _ = W8 m ρ c (Proc.devRef .tc main_arg22) := W9_of_ne m ρ c main_arg22 (by decide)
    _ = W7 m ρ c (Proc.devRef .tc main_arg22) := keep_hostOps3 (W7 m ρ c) main_arg22 (by decide)
    _ = W6 m ρ c (Proc.devRef .tc main_arg22) := W7_of_ne m ρ c main_arg22 (by decide)
    _ = W5 m ρ c (Proc.devRef .tc main_arg22) := keep_hostOps2 (W5 m ρ c) main_arg22 (by decide)
    _ = W4 m ρ c (Proc.devRef .tc main_arg22) := W5_of_ne m ρ c main_arg22 (by decide)
    _ = W3 m ρ c (Proc.devRef .tc main_arg22) := W4_of_ne m ρ c main_arg22 (by decide)
    _ = W2 m ρ c (Proc.devRef .tc main_arg22) := keep_hostOps0_2 (W2 m ρ c) main_arg22 (by decide)

theorem keep_arg23_2_13 (c : Dev nD) : W13 m ρ c (Proc.devRef .tc main_arg23) = W2 m ρ c (Proc.devRef .tc main_arg23) :=
  calc W13 m ρ c (Proc.devRef .tc main_arg23)
    _ = W12 m ρ c (Proc.devRef .tc main_arg23) := W13_of_ne m ρ c main_arg23 (by decide)
    _ = W11 m ρ c (Proc.devRef .tc main_arg23) := keep_hostOps5 (W11 m ρ c) main_arg23 (by decide)
    _ = W10 m ρ c (Proc.devRef .tc main_arg23) := W11_of_ne m ρ c main_arg23 (by decide)
    _ = W9 m ρ c (Proc.devRef .tc main_arg23) := keep_hostOps4 (W9 m ρ c) main_arg23 (by decide)
    _ = W8 m ρ c (Proc.devRef .tc main_arg23) := W9_of_ne m ρ c main_arg23 (by decide)
    _ = W7 m ρ c (Proc.devRef .tc main_arg23) := keep_hostOps3 (W7 m ρ c) main_arg23 (by decide)
    _ = W6 m ρ c (Proc.devRef .tc main_arg23) := W7_of_ne m ρ c main_arg23 (by decide)
    _ = W5 m ρ c (Proc.devRef .tc main_arg23) := keep_hostOps2 (W5 m ρ c) main_arg23 (by decide)
    _ = W4 m ρ c (Proc.devRef .tc main_arg23) := W5_of_ne m ρ c main_arg23 (by decide)
    _ = W3 m ρ c (Proc.devRef .tc main_arg23) := W4_of_ne m ρ c main_arg23 (by decide)
    _ = W2 m ρ c (Proc.devRef .tc main_arg23) := keep_hostOps0_2 (W2 m ρ c) main_arg23 (by decide)

theorem keep_arg24_2_13 (c : Dev nD) : W13 m ρ c (Proc.devRef .tc main_arg24) = W2 m ρ c (Proc.devRef .tc main_arg24) :=
  calc W13 m ρ c (Proc.devRef .tc main_arg24)
    _ = W12 m ρ c (Proc.devRef .tc main_arg24) := W13_of_ne m ρ c main_arg24 (by decide)
    _ = W11 m ρ c (Proc.devRef .tc main_arg24) := keep_hostOps5 (W11 m ρ c) main_arg24 (by decide)
    _ = W10 m ρ c (Proc.devRef .tc main_arg24) := W11_of_ne m ρ c main_arg24 (by decide)
    _ = W9 m ρ c (Proc.devRef .tc main_arg24) := keep_hostOps4 (W9 m ρ c) main_arg24 (by decide)
    _ = W8 m ρ c (Proc.devRef .tc main_arg24) := W9_of_ne m ρ c main_arg24 (by decide)
    _ = W7 m ρ c (Proc.devRef .tc main_arg24) := keep_hostOps3 (W7 m ρ c) main_arg24 (by decide)
    _ = W6 m ρ c (Proc.devRef .tc main_arg24) := W7_of_ne m ρ c main_arg24 (by decide)
    _ = W5 m ρ c (Proc.devRef .tc main_arg24) := keep_hostOps2 (W5 m ρ c) main_arg24 (by decide)
    _ = W4 m ρ c (Proc.devRef .tc main_arg24) := W5_of_ne m ρ c main_arg24 (by decide)
    _ = W3 m ρ c (Proc.devRef .tc main_arg24) := W4_of_ne m ρ c main_arg24 (by decide)
    _ = W2 m ρ c (Proc.devRef .tc main_arg24) := keep_hostOps0_2 (W2 m ρ c) main_arg24 (by decide)

theorem keep_v2_2_7 (c : Dev nD) : W7 m ρ c (Proc.devRef .tc main_v2) = W2 m ρ c (Proc.devRef .tc main_v2) :=
  calc W7 m ρ c (Proc.devRef .tc main_v2)
    _ = W6 m ρ c (Proc.devRef .tc main_v2) := W7_of_ne m ρ c main_v2 (by decide)
    _ = W5 m ρ c (Proc.devRef .tc main_v2) := keep_hostOps2 (W5 m ρ c) main_v2 (by decide)
    _ = W4 m ρ c (Proc.devRef .tc main_v2) := W5_of_ne m ρ c main_v2 (by decide)
    _ = W3 m ρ c (Proc.devRef .tc main_v2) := W4_of_ne m ρ c main_v2 (by decide)
    _ = W2 m ρ c (Proc.devRef .tc main_v2) := keep_hostOps0_2 (W2 m ρ c) main_v2 (by decide)

theorem keep_v2_7_11 (c : Dev nD) : W11 m ρ c (Proc.devRef .tc main_v2) = W7 m ρ c (Proc.devRef .tc main_v2) :=
  calc W11 m ρ c (Proc.devRef .tc main_v2)
    _ = W10 m ρ c (Proc.devRef .tc main_v2) := W11_of_ne m ρ c main_v2 (by decide)
    _ = W9 m ρ c (Proc.devRef .tc main_v2) := keep_hostOps4 (W9 m ρ c) main_v2 (by decide)
    _ = W8 m ρ c (Proc.devRef .tc main_v2) := W9_of_ne m ρ c main_v2 (by decide)
    _ = W7 m ρ c (Proc.devRef .tc main_v2) := keep_hostOps3 (W7 m ρ c) main_v2 (by decide)

theorem keep_v4_2_7 (c : Dev nD) : W7 m ρ c (Proc.devRef .tc main_v4) = W2 m ρ c (Proc.devRef .tc main_v4) :=
  calc W7 m ρ c (Proc.devRef .tc main_v4)
    _ = W6 m ρ c (Proc.devRef .tc main_v4) := W7_of_ne m ρ c main_v4 (by decide)
    _ = W5 m ρ c (Proc.devRef .tc main_v4) := keep_hostOps2 (W5 m ρ c) main_v4 (by decide)
    _ = W4 m ρ c (Proc.devRef .tc main_v4) := W5_of_ne m ρ c main_v4 (by decide)
    _ = W3 m ρ c (Proc.devRef .tc main_v4) := W4_of_ne m ρ c main_v4 (by decide)
    _ = W2 m ρ c (Proc.devRef .tc main_v4) := keep_hostOps0_2 (W2 m ρ c) main_v4 (by decide)

theorem keep_v4_7_11 (c : Dev nD) : W11 m ρ c (Proc.devRef .tc main_v4) = W7 m ρ c (Proc.devRef .tc main_v4) :=
  calc W11 m ρ c (Proc.devRef .tc main_v4)
    _ = W10 m ρ c (Proc.devRef .tc main_v4) := W11_of_ne m ρ c main_v4 (by decide)
    _ = W9 m ρ c (Proc.devRef .tc main_v4) := keep_hostOps4 (W9 m ρ c) main_v4 (by decide)
    _ = W8 m ρ c (Proc.devRef .tc main_v4) := W9_of_ne m ρ c main_v4 (by decide)
    _ = W7 m ρ c (Proc.devRef .tc main_v4) := keep_hostOps3 (W7 m ρ c) main_v4 (by decide)

theorem keep_v16_2_5 (c : Dev nD) : W5 m ρ c (Proc.devRef .tc main_v16) = W2 m ρ c (Proc.devRef .tc main_v16) :=
  calc W5 m ρ c (Proc.devRef .tc main_v16)
    _ = W4 m ρ c (Proc.devRef .tc main_v16) := W5_of_ne m ρ c main_v16 (by decide)
    _ = W3 m ρ c (Proc.devRef .tc main_v16) := W4_of_ne m ρ c main_v16 (by decide)
    _ = W2 m ρ c (Proc.devRef .tc main_v16) := keep_hostOps0_2 (W2 m ρ c) main_v16 (by decide)

theorem keep_v16_5_7 (c : Dev nD) : W7 m ρ c (Proc.devRef .tc main_v16) = W5 m ρ c (Proc.devRef .tc main_v16) :=
  calc W7 m ρ c (Proc.devRef .tc main_v16)
    _ = W6 m ρ c (Proc.devRef .tc main_v16) := W7_of_ne m ρ c main_v16 (by decide)
    _ = W5 m ρ c (Proc.devRef .tc main_v16) := keep_hostOps2 (W5 m ρ c) main_v16 (by decide)

theorem keep_v16_7_9 (c : Dev nD) : W9 m ρ c (Proc.devRef .tc main_v16) = W7 m ρ c (Proc.devRef .tc main_v16) :=
  calc W9 m ρ c (Proc.devRef .tc main_v16)
    _ = W8 m ρ c (Proc.devRef .tc main_v16) := W9_of_ne m ρ c main_v16 (by decide)
    _ = W7 m ρ c (Proc.devRef .tc main_v16) := keep_hostOps3 (W7 m ρ c) main_v16 (by decide)

theorem keep_v16_9_11 (c : Dev nD) : W11 m ρ c (Proc.devRef .tc main_v16) = W9 m ρ c (Proc.devRef .tc main_v16) :=
  calc W11 m ρ c (Proc.devRef .tc main_v16)
    _ = W10 m ρ c (Proc.devRef .tc main_v16) := W11_of_ne m ρ c main_v16 (by decide)
    _ = W9 m ρ c (Proc.devRef .tc main_v16) := keep_hostOps4 (W9 m ρ c) main_v16 (by decide)

theorem keep_v24_3_4 (c : Dev nD) : W4 m ρ c (Proc.devRef .tc main_v24) = W3 m ρ c (Proc.devRef .tc main_v24) :=
  calc W4 m ρ c (Proc.devRef .tc main_v24)
    _ = W3 m ρ c (Proc.devRef .tc main_v24) := W4_of_ne m ρ c main_v24 (by decide)

theorem keep_v25_3_4 (c : Dev nD) : W4 m ρ c (Proc.devRef .tc main_v25) = W3 m ρ c (Proc.devRef .tc main_v25) :=
  calc W4 m ρ c (Proc.devRef .tc main_v25)
    _ = W3 m ρ c (Proc.devRef .tc main_v25) := W4_of_ne m ρ c main_v25 (by decide)

theorem keep_v33_3_8 (c : Dev nD) : W8 m ρ c (Proc.devRef .tc main_v33) = W3 m ρ c (Proc.devRef .tc main_v33) :=
  calc W8 m ρ c (Proc.devRef .tc main_v33)
    _ = W7 m ρ c (Proc.devRef .tc main_v33) := keep_hostOps3 (W7 m ρ c) main_v33 (by decide)
    _ = W6 m ρ c (Proc.devRef .tc main_v33) := W7_of_ne m ρ c main_v33 (by decide)
    _ = W5 m ρ c (Proc.devRef .tc main_v33) := keep_hostOps2 (W5 m ρ c) main_v33 (by decide)
    _ = W4 m ρ c (Proc.devRef .tc main_v33) := W5_of_ne m ρ c main_v33 (by decide)
    _ = W3 m ρ c (Proc.devRef .tc main_v33) := W4_of_ne m ρ c main_v33 (by decide)

theorem keep_v34_3_8 (c : Dev nD) : W8 m ρ c (Proc.devRef .tc main_v34) = W3 m ρ c (Proc.devRef .tc main_v34) :=
  calc W8 m ρ c (Proc.devRef .tc main_v34)
    _ = W7 m ρ c (Proc.devRef .tc main_v34) := keep_hostOps3 (W7 m ρ c) main_v34 (by decide)
    _ = W6 m ρ c (Proc.devRef .tc main_v34) := W7_of_ne m ρ c main_v34 (by decide)
    _ = W5 m ρ c (Proc.devRef .tc main_v34) := keep_hostOps2 (W5 m ρ c) main_v34 (by decide)
    _ = W4 m ρ c (Proc.devRef .tc main_v34) := W5_of_ne m ρ c main_v34 (by decide)
    _ = W3 m ρ c (Proc.devRef .tc main_v34) := W4_of_ne m ρ c main_v34 (by decide)

theorem keep_v42_3_12 (c : Dev nD) : W12 m ρ c (Proc.devRef .tc main_v42) = W3 m ρ c (Proc.devRef .tc main_v42) :=
  calc W12 m ρ c (Proc.devRef .tc main_v42)
    _ = W11 m ρ c (Proc.devRef .tc main_v42) := keep_hostOps5 (W11 m ρ c) main_v42 (by decide)
    _ = W10 m ρ c (Proc.devRef .tc main_v42) := W11_of_ne m ρ c main_v42 (by decide)
    _ = W9 m ρ c (Proc.devRef .tc main_v42) := keep_hostOps4 (W9 m ρ c) main_v42 (by decide)
    _ = W8 m ρ c (Proc.devRef .tc main_v42) := W9_of_ne m ρ c main_v42 (by decide)
    _ = W7 m ρ c (Proc.devRef .tc main_v42) := keep_hostOps3 (W7 m ρ c) main_v42 (by decide)
    _ = W6 m ρ c (Proc.devRef .tc main_v42) := W7_of_ne m ρ c main_v42 (by decide)
    _ = W5 m ρ c (Proc.devRef .tc main_v42) := keep_hostOps2 (W5 m ρ c) main_v42 (by decide)
    _ = W4 m ρ c (Proc.devRef .tc main_v42) := W5_of_ne m ρ c main_v42 (by decide)
    _ = W3 m ρ c (Proc.devRef .tc main_v42) := W4_of_ne m ρ c main_v42 (by decide)

theorem keep_v43_3_12 (c : Dev nD) : W12 m ρ c (Proc.devRef .tc main_v43) = W3 m ρ c (Proc.devRef .tc main_v43) :=
  calc W12 m ρ c (Proc.devRef .tc main_v43)
    _ = W11 m ρ c (Proc.devRef .tc main_v43) := keep_hostOps5 (W11 m ρ c) main_v43 (by decide)
    _ = W10 m ρ c (Proc.devRef .tc main_v43) := W11_of_ne m ρ c main_v43 (by decide)
    _ = W9 m ρ c (Proc.devRef .tc main_v43) := keep_hostOps4 (W9 m ρ c) main_v43 (by decide)
    _ = W8 m ρ c (Proc.devRef .tc main_v43) := W9_of_ne m ρ c main_v43 (by decide)
    _ = W7 m ρ c (Proc.devRef .tc main_v43) := keep_hostOps3 (W7 m ρ c) main_v43 (by decide)
    _ = W6 m ρ c (Proc.devRef .tc main_v43) := W7_of_ne m ρ c main_v43 (by decide)
    _ = W5 m ρ c (Proc.devRef .tc main_v43) := keep_hostOps2 (W5 m ρ c) main_v43 (by decide)
    _ = W4 m ρ c (Proc.devRef .tc main_v43) := W5_of_ne m ρ c main_v43 (by decide)
    _ = W3 m ρ c (Proc.devRef .tc main_v43) := W4_of_ne m ρ c main_v43 (by decide)

theorem keep_v60_5_6 (c : Dev nD) : W6 m ρ c (Proc.devRef .tc main_v60) = W5 m ρ c (Proc.devRef .tc main_v60) :=
  calc W6 m ρ c (Proc.devRef .tc main_v60)
    _ = W5 m ρ c (Proc.devRef .tc main_v60) := keep_hostOps2 (W5 m ρ c) main_v60 (by decide)

theorem keep_v60_6_8 (c : Dev nD) : W8 m ρ c (Proc.devRef .tc main_v60) = W6 m ρ c (Proc.devRef .tc main_v60) :=
  calc W8 m ρ c (Proc.devRef .tc main_v60)
    _ = W7 m ρ c (Proc.devRef .tc main_v60) := keep_hostOps3 (W7 m ρ c) main_v60 (by decide)
    _ = W6 m ρ c (Proc.devRef .tc main_v60) := (W7_arr m ρ c 0).trans (((dat2 (V6 m ρ) c).arrAt_in 0 rfl _).trans (A_eq2 (V6 m ρ) c 0))

theorem keep_v62_7_8 (c : Dev nD) : W8 m ρ c (Proc.devRef .tc main_v62) = W7 m ρ c (Proc.devRef .tc main_v62) :=
  calc W8 m ρ c (Proc.devRef .tc main_v62)
    _ = W7 m ρ c (Proc.devRef .tc main_v62) := keep_hostOps3 (W7 m ρ c) main_v62 (by decide)

theorem keep_v74_9_10 (c : Dev nD) : W10 m ρ c (Proc.devRef .tc main_v74) = W9 m ρ c (Proc.devRef .tc main_v74) :=
  calc W10 m ρ c (Proc.devRef .tc main_v74)
    _ = W9 m ρ c (Proc.devRef .tc main_v74) := keep_hostOps4 (W9 m ρ c) main_v74 (by decide)

theorem keep_v76_11_12 (c : Dev nD) : W12 m ρ c (Proc.devRef .tc main_v76) = W11 m ρ c (Proc.devRef .tc main_v76) :=
  calc W12 m ρ c (Proc.devRef .tc main_v76)
    _ = W11 m ρ c (Proc.devRef .tc main_v76) := keep_hostOps5 (W11 m ρ c) main_v76 (by decide)

end Cert.Gcn.Ker

end
-- ==== Proof.KerRegionMM.lean ====
/-
  The three product-and-scale regions of the idealized kernel, each read as ONE function of the arrays it finds.

  Each region multiplies a feature matrix H (100000 rows) by a weight matrix W (128 columns) and scales row i of the
  product by the node factor d[i, 0]; it works on 25 row blocks of 4000 rows, the weight staged whole at every block.
  Over the extended reals the narrowing of the operands before the product is the identity and the product accumulates
  into the extended real 0, so the entry (i, j) of the result is  (∑ k, H[i, k] * W[k, j]) * d[i, 0].

  Per region: the stored value of a block at an entry (the body's arithmetic read at an index); the block a grid point
  writes back is its block of the whole-array function (the row blocks of H and d sit at rows 4000 t .. 4000 t + 3999,
  the weight block is the weight); every row r lies in the block of the point r / 4000; hence the output array after
  the region is the whole-array function.
-/
import proofs.«110672_j48155173322903_2_alg».proof.Proof.Spec
import proofs.«110672_j48155173322903_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Ker

open Idealize.ShloMosaic Idealize.ShloMosaic.ValueIdx Idealize.ShloMosaic.TcCoe Idealize.SL.Sem
open Idealize.ShloMosaic.Pipeline (Dat)
open Cert.KernelIdeal Cert.KernelIdeal.Gen

/-! ## The whole-array function -/

/-- Rows times a weight matrix, each row then scaled by its node's factor:
    entry (i, j) is (∑ k, A[i, k] * W[k, j]) * d[i, 0]. -/
def mmScale {K : Nat} (A : Arr2 100000 K) (W : Arr2 K 128) (d : Arr2 100000 1) : Arr2 100000 128 :=
  fun y => (∑ k : Fin K, A (ix2 ⟨(y 0).val, idx2_lt0 y⟩ k) * W (ix2 k ⟨(y 1).val, idx2_lt1 y⟩)) * d (ix2 ⟨(y 0).val, idx2_lt0 y⟩ (0 : Fin 1))

/-- At an entry given by its coordinates. -/
theorem mmScale_ix2 {K : Nat} (A : Arr2 100000 K) (W : Arr2 K 128) (d : Arr2 100000 1) (i : Fin 100000) (j : Fin 128) :
    mmScale A W d (ix2 i j) = (∑ k : Fin K, A (ix2 i k) * W (ix2 k j)) * d (ix2 i (0 : Fin 1)) := rfl

/-- The same as a matrix: the product of the two matrices, row i scaled by d[i, 0]. -/
theorem mmScale_eq_unc {K : Nat} (A : Arr2 100000 K) (W : Arr2 K 128) (d : Arr2 100000 1) :
    mmScale A W d = unc (fun i j => mm (cur A) (cur W) i j * d (ix2 i (0 : Fin 1))) := rfl

theorem cur_mmScale {K : Nat} (A : Arr2 100000 K) (W : Arr2 K 128) (d : Arr2 100000 1) (i : Fin 100000) (j : Fin 128) :
    cur (mmScale A W d) i j = mm (cur A) (cur W) i j * d (ix2 i (0 : Fin 1)) := rfl

/-! ## Operations of the body read at an entry -/

theorem hz : (![0, 0] : Fin 2 → Nat) = fun _ => 0 := funext fun a => by fin_cases a <;> rfl

/-- A column [4000, 1] repeated along the 128 lanes reads, at (p, q), the column's entry of row p. -/
theorem bcast_col_apply (v : S4000x1.Idx → EReal) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ### The [4000, 64] × [64, 128] product: operand indices at an output index and a contraction position -/

theorem lhs64_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs64_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs64_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs64_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into the zero accumulator, at an entry: the sum over the 64 contraction positions. -/
theorem mm64_apply (a : FVec Ideal S4000x64 .bf16) (b : FVec Ideal S64x128 .bf16) (p : Fin 4000) (q : Fin 128) :
    matmul dot_S4000x64_S64x128_S4000x128_1_0_0_1_n_n none a b (constant (F := Ideal) S4000x128 .f32 0x00000000#32) (ix2 p q)
      = ∑ k : Fin 64, a (ix2 p k) * b (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun ax => Fin.ext (by
    match ax with
    | ⟨0, _⟩ => exact lhs64_0 _ _
    | ⟨1, _⟩ => exact (lhs64_1 _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun ax => Fin.ext (by
    match ax with
    | ⟨0, _⟩ => exact (rhs64_0 _ _).trans hk
    | ⟨1, _⟩ => exact rhs64_1 _ _)
  rw [el, er]

/-! ### The [4000, 128] × [128, 128] product -/

theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into the zero accumulator, at an entry: the sum over the 128 contraction positions. -/
theorem mm128_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact lhs128_0 _ _
    | ⟨1, _⟩ => exact (lhs128_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (rhs128_0 _ _).trans hk
    | ⟨1, _⟩ => exact rhs128_1 _ _)
  rw [el, er]

/-! ### The stored value of a block at an entry -/

/-- First region: (∑ k, x0[p, k] * x1[k, q]) * x2[p, 0]. -/
theorem pay0_apply (x0 : Vec Ideal S4000x64 .f32) (x1 : Vec Ideal S64x128 .f32) (x2 : Vec Ideal S4000x1 .f32) (p : Fin 4000) (q : Fin 128) :
    (k0_pay1 (F := Ideal) x0 x1 x2) (ix2 p q) = (∑ k : Fin 64, x0 (ix2 p k) * x1 (ix2 k q)) * x2 (ix2 p (0 : Fin 1)) := by
  unfold k0_pay1
  rw [mulf_apply, shapeCast_self, shapeCast_self, bcast_col_apply, mm64_apply]
  rfl

/-- Second region. -/
theorem pay2_apply (x0 : Vec Ideal S4000x128 .f32) (x1 : Vec Ideal S128x128 .f32) (x2 : Vec Ideal S4000x1 .f32) (p : Fin 4000) (q : Fin 128) :
    (k2_pay1 (F := Ideal) x0 x1 x2) (ix2 p q) = (∑ k : Fin 128, x0 (ix2 p k) * x1 (ix2 k q)) * x2 (ix2 p (0 : Fin 1)) := by
  unfold k2_pay1
  rw [mulf_apply, shapeCast_self, shapeCast_self, bcast_col_apply, mm128_apply]
  rfl

/-- Third region. -/
theorem pay4_apply (x0 : Vec Ideal S4000x128 .f32) (x1 : Vec Ideal S128x128 .f32) (x2 : Vec Ideal S4000x1 .f32) (p : Fin 4000) (q : Fin 128) :
    (k4_pay1 (F := Ideal) x0 x1 x2) (ix2 p q) = (∑ k : Fin 128, x0 (ix2 p k) * x1 (ix2 k q)) * x2 (ix2 p (0 : Fin 1)) := by
  unfold k4_pay1
  rw [mulf_apply, shapeCast_self, shapeCast_self, bcast_col_apply, mm128_apply]
  rfl

/-- The stored value of a block whose inputs are row r of A (at block row p), all of W, and row r of d, is the
    whole-array function at (r, q): first region. -/
theorem point0 (x0 : Vec Ideal S4000x64 .f32) (x1 : Vec Ideal S64x128 .f32) (x2 : Vec Ideal S4000x1 .f32)
    (A : Arr2 100000 64) (W : Arr2 64 128) (d : Arr2 100000 1) (p : Fin 4000) (q : Fin 128) (r : Fin 100000)
    (h0 : ∀ k : Fin 64, x0 (ix2 p k) = A (ix2 r k))
    (h1 : ∀ k : Fin 64, x1 (ix2 k q) = W (ix2 k q))
    (h2 : x2 (ix2 p (0 : Fin 1)) = d (ix2 r (0 : Fin 1))) :
    (k0_pay1 (F := Ideal) x0 x1 x2) (ix2 p q) = mmScale A W d (ix2 r q) := by
  rw [pay0_apply, mmScale_ix2, h2]
  exact congrArg (· * d (ix2 r (0 : Fin 1))) (Finset.sum_congr rfl fun k _ => by rw [h0 k, h1 k])

/-- Second region. -/
theorem point2 (x0 : Vec Ideal S4000x128 .f32) (x1 : Vec Ideal S128x128 .f32) (x2 : Vec Ideal S4000x1 .f32)
    (A : Arr2 100000 128) (W : Arr2 128 128) (d : Arr2 100000 1) (p : Fin 4000) (q : Fin 128) (r : Fin 100000)
    (h0 : ∀ k : Fin 128, x0 (ix2 p k) = A (ix2 r k))
    (h1 : ∀ k : Fin 128, x1 (ix2 k q) = W (ix2 k q))
    (h2 : x2 (ix2 p (0 : Fin 1)) = d (ix2 r (0 : Fin 1))) :
    (k2_pay1 (F := Ideal) x0 x1 x2) (ix2 p q) = mmScale A W d (ix2 r q) := by
  rw [pay2_apply, mmScale_ix2, h2]
  exact congrArg (· * d (ix2 r (0 : Fin 1))) (Finset.sum_congr rfl fun k _ => by rw [h0 k, h1 k])

/-- Third region. -/
theorem point4 (x0 : Vec Ideal S4000x128 .f32) (x1 : Vec Ideal S128x128 .f32) (x2 : Vec Ideal S4000x1 .f32)
    (A : Arr2 100000 128) (W : Arr2 128 128) (d : Arr2 100000 1) (p : Fin 4000) (q : Fin 128) (r : Fin 100000)
    (h0 : ∀ k : Fin 128, x0 (ix2 p k) = A (ix2 r k))
    (h1 : ∀ k : Fin 128, x1 (ix2 k q) = W (ix2 k q))
    (h2 : x2 (ix2 p (0 : Fin 1)) = d (ix2 r (0 : Fin 1))) :
    (k4_pay1 (F := Ideal) x0 x1 x2) (ix2 p q) = mmScale A W d (ix2 r q) := by
  rw [pay4_apply, mmScale_ix2, h2]
  exact congrArg (· * d (ix2 r (0 : Fin 1))) (Finset.sum_congr rfl fun k _ => by rw [h0 k, h1 k])

/-! ## Which buffer each window stages -/

theorem arrRef0_0 : Pipeline.arrRef spec0 0 = main_v57 := rfl
theorem arrRef0_1 : Pipeline.arrRef spec0 1 = main_arg3 := rfl
theorem arrRef0_2 : Pipeline.arrRef spec0 2 = main_v58 := rfl
theorem arrRef0_3 : Pipeline.arrRef spec0 3 = main_v59 := rfl
theorem arrRef2_0 : Pipeline.arrRef spec2 0 = main_v60 := rfl
theorem arrRef2_1 : Pipeline.arrRef spec2 1 = main_arg9 := rfl
theorem arrRef2_2 : Pipeline.arrRef spec2 2 = main_v61 := rfl
theorem arrRef2_3 : Pipeline.arrRef spec2 3 = main_v62 := rfl
theorem arrRef4_0 : Pipeline.arrRef spec4 0 = main_v74 := rfl
theorem arrRef4_1 : Pipeline.arrRef spec4 1 = main_arg15 := rfl
theorem arrRef4_2 : Pipeline.arrRef spec4 2 = main_v75 := rfl
theorem arrRef4_3 : Pipeline.arrRef spec4 3 = main_v76 := rfl

variable (V : (c : Dev nD) → (b : Ref sig .tc) → Buf (Elt Ideal) ((c : Thread nD τ).loc b))

/-! ## The first region: H = %57 [100000, 64], W = %arg3 [64, 128], d = %58, output %59 -/

/-- The block indices of the four windows at a grid point: the row windows move with the point, the weight stays. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at a grid point is rows 4000 t .. 4000 t + 3999 of the feature array. -/
theorem iblk0_0_apply (c : Dev nD) (t : Fin cfg0.N) (p : Fin 4000) (k : Fin 64) (r : Fin 100000) (hr : r.val = 4000 * t.val + p.val) :
    (iblk0 V c 0 t : Vec Ideal S4000x64 .f32) (ix2 p k) = (V c main_v57 : Arr2 100000 64) (ix2 r k) := by
  obtain ⟨e0, e1, -⟩ := idx0 t
  unfold iblk0
  rw [View.read_apply]
  show V c main_v57 _ = V c main_v57 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 64 + 1 * k.val = k.val; rw [e1]; omega

/-- The weight block is the weight at every grid point. -/
theorem iblk0_1_apply (c : Dev nD) (t : Fin cfg0.N) (k : Fin 64) (q : Fin 128) :
    (iblk0 V c 1 t : Vec Ideal S64x128 .f32) (ix2 k q) = (V c main_arg3 : Arr2 64 128) (ix2 k q) := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- The block of the scaling column at a grid point is rows 4000 t .. 4000 t + 3999 of the column. -/
theorem iblk0_2_apply (c : Dev nD) (t : Fin cfg0.N) (p : Fin 4000) (r : Fin 100000) (hr : r.val = 4000 * t.val + p.val) :
    (iblk0 V c 2 t : Vec Ideal S4000x1 .f32) (ix2 p (0 : Fin 1)) = (V c main_v58 : Arr2 100000 1) (ix2 r (0 : Fin 1)) := by
  obtain ⟨-, -, -, -, e0, e1, -⟩ := idx0 t
  unfold iblk0
  rw [View.read_apply]
  show V c main_v58 _ = V c main_v58 _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- Entry (p, q) of the output block at a grid point is entry (4000 t + p, q) of the output array. -/
theorem emb0_3 (t : Fin cfg0.N) (p : Fin 4000) (q : Fin 128) (r : Fin 100000) (hr : r.val = 4000 * t.val + p.val) :
    ((cfg0.win 3).blk t).view.emb (ix2 p q) = (ix2 r q : S100000x128.Idx) := by
  obtain ⟨-, -, -, -, -, -, e0, e1⟩ := idx0 t
  funext a
  apply Fin.ext
  match a with
  | ⟨0, _⟩ => show win0_3.index t (0 : Fin 2) * 4000 + 1 * p.val = r.val; rw [e0, hr]; omega
  | ⟨1, _⟩ => show win0_3.index t (1 : Fin 2) * 128 + 1 * q.val = q.val; rw [e1]; omega

/-- What a grid point writes back is its block of the whole-array function. -/
theorem flushed0_eq (c : Dev nD) (t : Fin cfg0.N) :
    (dat0 (F := Ideal) V c).flushed 3 t
      = ((cfg0.win 3).blk t).view.read (Elt Ideal) (mmScale (V c main_v57) (V c main_arg3) (V c main_v58)) := by
  show (cfg0.win 3).cut (grid0.coords t) ((dat0 V c).after 3 t) = _
  rw [after0_3]
  unfold out0_3
  rw [View.canon_unit_zero hz]
  simp only [View.ld_unit_zero (S := S4000x64) hz, View.ld_unit_zero (S := S64x128) hz, View.ld_unit_zero (S := S4000x1) hz]
  funext j
  obtain ⟨p, q, rfl⟩ : ∃ (p : Fin 4000) (q : Fin 128), j = ix2 p q := ⟨j 0, j 1, eq_ix2 j⟩
  have ht : t.val < 25 := t.isLt
  have hp : p.val < 4000 := p.isLt
  rw [View.read_apply, emb0_3 t p q ⟨4000 * t.val + p.val, by omega⟩ rfl]
  exact point0 (iblk0 V c 0 t) (iblk0 V c 1 t) (iblk0 V c 2 t) (V c main_v57) (V c main_arg3) (V c main_v58) p q
    ⟨4000 * t.val + p.val, by omega⟩
    (fun k => iblk0_0_apply V c t p k ⟨4000 * t.val + p.val, by omega⟩ rfl)
    (fun k => iblk0_1_apply V c t k q)
    (iblk0_2_apply V c t p ⟨4000 * t.val + p.val, by omega⟩ rfl)

/-- An entry of the output array is in a grid point's block iff each coordinate is in the block's range. -/
theorem mem_blk0_3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v59).slice (win0_3.rect t)).set ↔ _
  rw [View.set_slice_whole, Rect.mem_set_unit]
  exact Iff.rfl

/-- Row r lies in the block of the grid point r / 4000. -/
theorem covered0_3 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 25 := N_0
  refine ⟨⟨(i 0).val / 4000, by rw [hN]; omega⟩, flush0_3 _, ?_⟩
  rw [mem_blk0_3]
  obtain ⟨-, -, -, -, -, -, e0, e1⟩ := idx0 ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e1]; omega

/-- After the first region its output array %59 is (%57 · %arg3), row i scaled by %58[i, 0], of the arrays it finds. -/
theorem region0_out (c : Dev nD) :
    (dat0 (F := Ideal) V c).arrAt 3 cfg0.N = mmScale (V c main_v57) (V c main_arg3) (V c main_v58) :=
  (dat0 (F := Ideal) V c).arrAt_eq_of_cover 3 (mmScale (V c main_v57) (V c main_arg3) (V c main_v58))
    (fun t _ => flushed0_eq V c t) covered0_3

/-! ## The second region: H = %60 [100000, 128], W = %arg9 [128, 128], d = %61, output %62 -/

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem iblk2_0_apply (c : Dev nD) (t : Fin cfg2.N) (p : Fin 4000) (k : Fin 128) (r : Fin 100000) (hr : r.val = 4000 * t.val + p.val) :
    (iblk2 V c 0 t : Vec Ideal S4000x128 .f32) (ix2 p k) = (V c main_v60 : Arr2 100000 128) (ix2 r k) := by
  obtain ⟨e0, e1, -⟩ := idx2 t
  unfold iblk2
  rw [View.read_apply]
  show V c main_v60 _ = V c main_v60 _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

theorem iblk2_1_apply (c : Dev nD) (t : Fin cfg2.N) (k : Fin 128) (q : Fin 128) :
    (iblk2 V c 1 t : Vec Ideal S128x128 .f32) (ix2 k q) = (V c main_arg9 : Arr2 128 128) (ix2 k q) := by
  obtain ⟨-, -, e0, e1, -⟩ := idx2 t
  unfold iblk2
  rw [View.read_apply]
  show V c main_arg9 _ = V c main_arg9 _
  congr 1
  funext a
  apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

theorem iblk2_2_apply (c : Dev nD) (t : Fin cfg2.N) (p : Fin 4000) (r : Fin 100000) (hr : r.val = 4000 * t.val + p.val) :
    (iblk2 V c 2 t : Vec Ideal S4000x1 .f32) (ix2 p (0 : Fin 1)) = (V c main_v61 : Arr2 100000 1) (ix2 r (0 : Fin 1)) := by
  obtain ⟨-, -, -, -, e0, e1, -⟩ := idx2 t
  unfold iblk2
  rw [View.read_apply]
  show V c main_v61 _ = V c main_v61 _
  congr 1
  funext a
  apply Fin.ext
  match a with
  | ⟨0, _⟩ => show win2_2.index t (0 : Fin 2) * 4000 + 1 * p.val = r.val; rw [e0, hr]; omega
  | ⟨1, _⟩ => show win2_2.index t (1 : Fin 2) * 1 + 1 * 0 = 0; rw [e1]

theorem emb2_3 (t : Fin cfg2.N) (p : Fin 4000) (q : Fin 128) (r : Fin 100000) (hr : r.val = 4000 * t.val + p.val) :
    ((cfg2.win 3).blk t).view.emb (ix2 p q) = (ix2 r q : S100000x128.Idx) := by
  obtain ⟨-, -, -, -, -, -, e0, e1⟩ := idx2 t
  funext a
  apply Fin.ext
  match a with
  | ⟨0, _⟩ => show win2_3.index t (0 : Fin 2) * 4000 + 1 * p.val = r.val; rw [e0, hr]; omega
  | ⟨1, _⟩ => show win2_3.index t (1 : Fin 2) * 128 + 1 * q.val = q.val; rw [e1]; omega

theorem flushed2_eq (c : Dev nD) (t : Fin cfg2.N) :
    (dat2 (F := Ideal) V c).flushed 3 t
      = ((cfg2.win 3).blk t).view.read (Elt Ideal) (mmScale (V c main_v60) (V c main_arg9) (V c main_v61)) := by
  show (cfg2.win 3).cut (grid2.coords t) ((dat2 V c).after 3 t) = _
  rw [after2_3]
  unfold out2_3
  rw [View.canon_unit_zero hz]
  simp only [View.ld_unit_zero (S := S4000x128) hz, View.ld_unit_zero (S := S128x128) hz, View.ld_unit_zero (S := S4000x1) hz]
  funext j
  obtain ⟨p, q, rfl⟩ : ∃ (p : Fin 4000) (q : Fin 128), j = ix2 p q := ⟨j 0, j 1, eq_ix2 j⟩
  have ht : t.val < 25 := t.isLt
  have hp : p.val < 4000 := p.isLt
  rw [View.read_apply, emb2_3 t p q ⟨4000 * t.val + p.val, by omega⟩ rfl]
  exact point2 (iblk2 V c 0 t) (iblk2 V c 1 t) (iblk2 V c 2 t) (V c main_v60) (V c main_arg9) (V c main_v61) p q
    ⟨4000 * t.val + p.val, by omega⟩
    (fun k => iblk2_0_apply V c t p k ⟨4000 * t.val + p.val, by omega⟩ rfl)
    (fun k => iblk2_1_apply V c t k q)
    (iblk2_2_apply V c t p ⟨4000 * t.val + p.val, by omega⟩ rfl)

theorem mem_blk2_3 (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v62).slice (win2_3.rect t)).set ↔ _
  rw [View.set_slice_whole, Rect.mem_set_unit]
  exact Iff.rfl

theorem covered2_3 (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 25 := N_2
  refine ⟨⟨(i 0).val / 4000, by rw [hN]; omega⟩, flush2_3 _, ?_⟩
  rw [mem_blk2_3]
  obtain ⟨-, -, -, -, -, -, e0, e1⟩ := idx2 ⟨(i 0).val / 4000, by rw [hN]; omega⟩
  intro a
  match a with
  | ⟨0, _⟩ =>
    show win2_3.index _ (0 : Fin 2) * 4000 ≤ (i 0).val ∧ (i 0).val < win2_3.index _ (0 : Fin 2) * 4000 + 4000
    rw [e0]; show (i 0).val / 4000 * 4000 ≤ (i 0).val ∧ (i 0).val < (i 0).val / 4000 * 4000 + 4000; omega
  | ⟨1, _⟩ =>
    show win2_3.index _ (1 : Fin 2) * 128 ≤ (i 1).val ∧ (i 1).val < win2_3.index _ (1 : Fin 2) * 128 + 128
    rw [e1]; omega

/-- After the second region its output array %62 is (%60 · %arg9), row i scaled by %61[i, 0], of the arrays it finds. -/
theorem region2_out (c : Dev nD) :
    (dat2 (F := Ideal) V c).arrAt 3 cfg2.N = mmScale (V c main_v60) (V c main_arg9) (V c main_v61) :=
  (dat2 (F := Ideal) V c).arrAt_eq_of_cover 3 (mmScale (V c main_v60) (V c main_arg9) (V c main_v61))
    (fun t _ => flushed2_eq V c t) covered2_3

/-! ## The third region: H = %74 [100000, 128], W = %arg15 [128, 128], d = %75, output %76 -/

theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem iblk4_0_apply (c : Dev nD) (t : Fin cfg4.N) (p : Fin 4000) (k : Fin 128) (r : Fin 100000) (hr : r.val = 4000 * t.val + p.val) :
    (iblk4 V c 0 t : Vec Ideal S4000x128 .f32) (ix2 p k) = (V c main_v74 : Arr2 100000 128) (ix2 r k) := by
  obtain ⟨e0, e1, -⟩ := idx4 t
  unfold iblk4
  rw [View.read_apply]
  show V c main_v74 _ = V c main_v74 _
  congr 1
  funext a
  apply Fin.ext
  match a with
  | ⟨0, _⟩ => show win4_0.index t (0 : Fin 2) * 4000 + 1 * p.val = r.val; rw [e0, hr]; omega
  | ⟨1, _⟩ => show win4_0.index t (1 : Fin 2) * 128 + 1 * k.val = k.val; rw [e1]; omega

theorem iblk4_1_apply (c : Dev nD) (t : Fin cfg4.N) (k : Fin 128) (q : Fin 128) :
    (iblk4 V c 1 t : Vec Ideal S128x128 .f32) (ix2 k q) = (V c main_arg15 : Arr2 128 128) (ix2 k q) := by
  obtain ⟨-, -, e0, e1, -⟩ := idx4 t
  unfold iblk4
  rw [View.read_apply]
  show V c main_arg15 _ = V c main_arg15 _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

theorem iblk4_2_apply (c : Dev nD) (t : Fin cfg4.N) (p : Fin 4000) (r : Fin 100000) (hr : r.val = 4000 * t.val + p.val) :
    (iblk4 V c 2 t : Vec Ideal S4000x1 .f32) (ix2 p (0 : Fin 1)) = (V c main_v75 : Arr2 100000 1) (ix2 r (0 : Fin 1)) := by
  obtain ⟨-, -, -, -, e0, e1, -⟩ := idx4 t
  unfold iblk4
  rw [View.read_apply]
  show V c main_v75 _ = V c main_v75 _
  congr 1
  funext a
  apply Fin.ext
  match a with
  | ⟨0, _⟩ => show win4_2.index t (0 : Fin 2) * 4000 + 1 * p.val = r.val; rw [e0, hr]; omega
  | ⟨1, _⟩ => show win4_2.index t (1 : Fin 2) * 1 + 1 * 0 = 0; rw [e1]

theorem emb4_3 (t : Fin cfg4.N) (p : Fin 4000) (q : Fin 128) (r : Fin 100000) (hr : r.val = 4000 * t.val + p.val) :
    ((cfg4.win 3).blk t).view.emb (ix2 p q) = (ix2 r q : S100000x128.Idx) := by
  obtain ⟨-, -, -, -, -, -, e0, e1⟩ := idx4 t
  funext a
  apply Fin.ext
  match a with
  | ⟨0, _⟩ => show win4_3.index t (0 : Fin 2) * 4000 + 1 * p.val = r.val; rw [e0, hr]; omega
  | ⟨1, _⟩ => show win4_3.index t (1 : Fin 2) * 128 + 1 * q.val = q.val; rw [e1]; omega

theorem flushed4_eq (c : Dev nD) (t : Fin cfg4.N) :
    (dat4 (F := Ideal) V c).flushed 3 t
      = ((cfg4.win 3).blk t).view.read (Elt Ideal) (mmScale (V c main_v74) (V c main_arg15) (V c main_v75)) := by
  show (cfg4.win 3).cut (grid4.coords t) ((dat4 V c).after 3 t) = _
  rw [after4_3]
  unfold out4_3
  rw [View.canon_unit_zero hz]
  simp only [View.ld_unit_zero (S := S4000x128) hz, View.ld_unit_zero (S := S128x128) hz, View.ld_unit_zero (S := S4000x1) hz]
  funext j
  obtain ⟨p, q, rfl⟩ : ∃ (p : Fin 4000) (q : Fin 128), j = ix2 p q := ⟨j 0, j 1, eq_ix2 j⟩
  have ht : t.val < 25 := t.isLt
  have hp : p.val < 4000 := p.isLt
  rw [View.read_apply, emb4_3 t p q ⟨4000 * t.val + p.val, by omega⟩ rfl]
  exact point4 (iblk4 V c 0 t) (iblk4 V c 1 t) (iblk4 V c 2 t) (V c main_v74) (V c main_arg15) (V c main_v75) p q
    ⟨4000 * t.val + p.val, by omega⟩
    (fun k => iblk4_0_apply V c t p k ⟨4000 * t.val + p.val, by omega⟩ rfl)
    (fun k => iblk4_1_apply V c t k q)
    (iblk4_2_apply V c t p ⟨4000 * t.val + p.val, by omega⟩ rfl)

theorem mem_blk4_3 (t : Fin cfg4.N) (i : S100000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v76).slice (win4_3.rect t)).set ↔ _
  rw [View.set_slice_whole, Rect.mem_set_unit]
  exact Iff.rfl

theorem covered4_3 (i : S100000x128.Idx) :
    ∃ t : Fin cfg4.N, (cfg4.win 3).flush t = true ∧ i ∈ ((cfg4.win 3).blk t).view.set := by
  have hi0 : (i 0).val < 100000 := idx2_lt0 i
  have hi1 : (i 1).val < 128 := idx2_lt1 i
  have hN : cfg4.N = 25 := N_4
  refine ⟨⟨(i 0).val / 4000, by rw [hN]; omega⟩, flush4_3 _, ?_⟩
  rw [mem_blk4_3]
  obtain ⟨-, -, -, -, -, -, e0, e1⟩ := idx4 ⟨(i 0).val / 4000, by rw [hN]; omega⟩
  intro a
  match a with
  | ⟨0, _⟩ =>
    show win4_3.index _ (0 : Fin 2) * 4000 ≤ (i 0).val ∧ (i 0).val < win4_3.index _ (0 : Fin 2) * 4000 + 4000
    rw [e0]; show (i 0).val / 4000 * 4000 ≤ (i 0).val ∧ (i 0).val < (i 0).val / 4000 * 4000 + 4000; omega
  | ⟨1, _⟩ =>
    show win4_3.index _ (1 : Fin 2) * 128 ≤ (i 1).val ∧ (i 1).val < win4_3.index _ (1 : Fin 2) * 128 + 128
    rw [e1]; omega

/-- After the third region its output array %76 is (%74 · %arg15), row i scaled by %75[i, 0], of the arrays it finds. -/
theorem region4_out (c : Dev nD) :
    (dat4 (F := Ideal) V c).arrAt 3 cfg4.N = mmScale (V c main_v74) (V c main_arg15) (V c main_v75) :=
  (dat4 (F := Ideal) V c).arrAt_eq_of_cover 3 (mmScale (V c main_v74) (V c main_arg15) (V c main_v75))
    (fun t _ => flushed4_eq V c t) covered4_3

end Cert.Gcn.Ker

end
-- ==== Proof.RowGather.lean ====
/-
  An array indexed by an array of words, x[idx] — a gather of whole rows of a matrix, or of entries of a vector, at a
  column of 32-bit start words — read at one index, and the wrap of negative words that comes before it.

  The gather clamps each start word, read signed, into the node range [0, 99999]; the wrap adds the node count to a
  negative word. Together they read node gIdx w at word w.
-/
import proofs.«110672_j48155173322903_2_alg».proof.Proof.Spec
import Idealize.ShloMosaic.Lib.ValueIdx
import Idealize.ShloMosaic.Lib.StableHlo.Predicate

namespace Cert.Gcn.Rows

open Idealize.ShloMosaic Idealize.ShloMosaic.ValueIdx

variable {α : Type}

/-! ## The gather of rows of a [100000 × D] matrix at an [E × 1] column of start words -/

/-- The dimension numbers of a row gather: the row axis collapsed and start-indexed, the column axis the one offset axis
    at full width, the index vector on axis 1. -/
abbrev rowGatherDims (D E : Nat)
    (wf : GatherDims.WF ⟨2, ![100000, D]⟩ ⟨2, ![E, 1]⟩ ⟨2, ![E, D]⟩ [1] [0] [] [0] [] 1 ![1, D]) :
    GatherDims ⟨2, ![100000, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, j): column j of the row whose number is start word e, read signed and clamped into
    [0, 99999]. -/
theorem rowGather_apply {D E : Nat}
    (wf : GatherDims.WF ⟨2, ![100000, D]⟩ ⟨2, ![E, 1]⟩ ⟨2, ![E, D]⟩ [1] [0] [] [0] [] 1 ![1, D])
    (x : (⟨2, ![100000, D]⟩ : Shape).Idx → α) (idx : IVec ⟨2, ![E, 1]⟩ 32) (e : Fin E) (j : Fin D) :
    Host.gather (rowGatherDims D E wf) x idx (ix2 e j)
      = x (ix2 (⟨min (idx (ix2 e (0 : Fin 1))).toInt.toNat 99999, Nat.lt_succ_of_le (Nat.min_le_right _ _)⟩ : Fin 100000) j) := by
  unfold Host.gather
  congr 1
  funext a
  refine Fin.ext ?_
  match a with
  | ⟨0, _⟩ =>
    -- the row axis: the clamped start word, no batching and no offset coordinate
    show (rowGatherDims D E wf).start (ix2 e j) idx 0 + (rowGatherDims D E wf).batchCoord (ix2 e j) 0
      + (rowGatherDims D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims D E wf).startIndexMap from List.mem_singleton.mpr rfl)]
    have hsi : (rowGatherDims D E wf).siIdx (ix2 e j) ⟨List.idxOf (0 : Fin 2) (rowGatherDims D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: no start word and no batching coordinate, the result's offset coordinate
    show (rowGatherDims D E wf).start (ix2 e j) idx 1 + (rowGatherDims D E wf).batchCoord (ix2 e j) 1
      + (rowGatherDims D E wf).offCoord (ix2 e j) 1 = j.val
    have hns : (1 : Fin 2) ∉ (rowGatherDims D E wf).startIndexMap := show (1 : Fin 2) ∉ [(0 : Fin 2)] by decide
    have hk : (1 : Fin 2) ∈ (rowGatherDims D E wf).sKept :=
      (GatherDims.mem_sKept _ _).mpr ⟨show (1 : Fin 2) ∉ [(0 : Fin 2)] by decide, List.not_mem_nil⟩
    rw [GatherDims.batchCoord_eq_zero _ _ _ List.not_mem_nil]
    unfold GatherDims.start GatherDims.offCoord
    rw [dif_neg hns, dif_pos hk]
    simp only [Nat.zero_add]
    rfl

/-- The row gather at a column of wrapped words reads the node each word names. -/
theorem rowGather_gIdx {D E : Nat}
    (wf : GatherDims.WF ⟨2, ![100000, D]⟩ ⟨2, ![E, 1]⟩ ⟨2, ![E, D]⟩ [1] [0] [] [0] [] 1 ![1, D])
    (x : (⟨2, ![100000, D]⟩ : Shape).Idx → α) (idx : IVec ⟨2, ![E, 1]⟩ 32) (wd : Fin E → BitVec 32)
    (h : ∀ e, (idx (ix2 e (0 : Fin 1))).toInt = if (wd e).toInt < 0 then (wd e).toInt + 100000 else (wd e).toInt)
    (e : Fin E) (j : Fin D) :
    Host.gather (rowGatherDims D E wf) x idx (ix2 e j) = x (ix2 (gIdx (wd e)) j) := by
  rw [rowGather_apply]
  have hg : (⟨min (idx (ix2 e (0 : Fin 1))).toInt.toNat 99999, Nat.lt_succ_of_le (Nat.min_le_right _ _)⟩ : Fin 100000)
      = gIdx (wd e) := by
    refine Fin.ext ?_
    show min (idx (ix2 e (0 : Fin 1))).toInt.toNat 99999
      = min (if (wd e).toInt < 0 then (wd e).toInt + 100000 else (wd e).toInt).toNat 99999
    rw [h e]
  rw [hg]

/-! ## The gather of entries of a [100000] vector at an [E × 1] column of start words -/

/-- The dimension numbers of an entry gather: the one operand axis collapsed and start-indexed, no offset axis, the
    index vector on axis 1. -/
abbrev vecGatherDims (E : Nat)
    (wf : GatherDims.WF ⟨1, ![100000]⟩ ⟨2, ![E, 1]⟩ ⟨1, ![E]⟩ [] [0] [] [0] [] 1 ![1]) :
    GatherDims ⟨1, ![100000]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather at e: the entry whose number is start word e, read signed and clamped into [0, 99999]. -/
theorem vecGather_apply {E : Nat}
    (wf : GatherDims.WF ⟨1, ![100000]⟩ ⟨2, ![E, 1]⟩ ⟨1, ![E]⟩ [] [0] [] [0] [] 1 ![1])
    (x : (⟨1, ![100000]⟩ : Shape).Idx → α) (idx : IVec ⟨2, ![E, 1]⟩ 32) (e : Fin E) :
    Host.gather (vecGatherDims E wf) x idx (ix1 e)
      = x (ix1 (⟨min (idx (ix2 e (0 : Fin 1))).toInt.toNat 99999, Nat.lt_succ_of_le (Nat.min_le_right _ _)⟩ : Fin 100000)) := by
  have hres : (Shape.Idx.ofFin e : (⟨1, ![E]⟩ : Shape).Idx) = ix1 e := by
    funext a; match a with | ⟨0, _⟩ => rfl
  have hcol : (StableHlo.Predicate.ixP e : (⟨2, ![E, 1]⟩ : Shape).Idx) = ix2 e (0 : Fin 1) := by
    funext a; match a with | ⟨0, _⟩ => rfl | ⟨1, _⟩ => rfl
  have hopd : ∀ k : Fin 100000, (Shape.Idx.ofFin k : (⟨1, ![100000]⟩ : Shape).Idx) = ix1 k := by
    intro k; funext a; match a with | ⟨0, _⟩ => rfl
  have hg := StableHlo.Predicate.gather_take (vecGatherDims E wf) rfl rfl rfl rfl x idx e (by decide)
  rw [hres] at hg
  refine hg.trans (congrArg x ?_)
  rw [hopd]
  refine congrArg ix1 (Fin.ext ?_)
  show min (idx (StableHlo.Predicate.ixP e)).toInt.toNat (100000 - 1) = min (idx (ix2 e (0 : Fin 1))).toInt.toNat 99999
  rw [hcol]

/-- The entry gather at a column of wrapped words reads the node each word names. -/
theorem vecGather_gIdx {E : Nat}
    (wf : GatherDims.WF ⟨1, ![100000]⟩ ⟨2, ![E, 1]⟩ ⟨1, ![E]⟩ [] [0] [] [0] [] 1 ![1])
    (x : (⟨1, ![100000]⟩ : Shape).Idx → α) (idx : IVec ⟨2, ![E, 1]⟩ 32) (wd : Fin E → BitVec 32)
    (h : ∀ e, (idx (ix2 e (0 : Fin 1))).toInt = if (wd e).toInt < 0 then (wd e).toInt + 100000 else (wd e).toInt)
    (e : Fin E) :
    Host.gather (vecGatherDims E wf) x idx (ix1 e) = x (ix1 (gIdx (wd e))) := by
  rw [vecGather_apply]
  have hg : (⟨min (idx (ix2 e (0 : Fin 1))).toInt.toNat 99999, Nat.lt_succ_of_le (Nat.min_le_right _ _)⟩ : Fin 100000)
      = gIdx (wd e) := by
    refine Fin.ext ?_
    show min (idx (ix2 e (0 : Fin 1))).toInt.toNat 99999
      = min (if (wd e).toInt < 0 then (wd e).toInt + 100000 else (wd e).toInt).toNat 99999
    rw [h e]
  rw [hg]

/-! ## The wrap of a negative word, at one element and along a column -/

/-- A word below zero, read signed, has the node count added; any other word is kept. The sum does not leave the
    32-bit signed range, since a negative word is at least -2³¹ and the node count is below 2³¹. -/
theorem wrap_toInt (w : BitVec 32) :
    (Scalar.select (IntOp.cmpi .slt w 0#32) (w + 100000#32) w).toInt
      = if w.toInt < 0 then w.toInt + 100000 else w.toInt := by
  have h0 : (0#32 : BitVec 32).toInt = 0 := by decide
  by_cases hw : w.toInt < 0
  · have hc : IntOp.cmpi .slt w 0#32 = 1#1 := by
      unfold IntOp.cmpi
      rw [StableHlo.Predicate.ofBool_eq_one_iff]
      simp only [BitVec.slt, h0, decide_eq_true_eq]
      exact hw
    rw [hc, select_one, if_pos hw, BitVec.toInt_add]
    have hn : (100000#32 : BitVec 32).toInt = 100000 := by decide
    have hlo := BitVec.le_toInt w
    rw [hn, Int.bmod_def]
    omega
  · have hc : IntOp.cmpi .slt w 0#32 = 0#1 := by
      apply eq_zero_of_ne_one
      unfold IntOp.cmpi
      rw [StableHlo.Predicate.ofBool_eq_one_iff]
      simp only [BitVec.slt, h0, decide_eq_true_eq]
      exact hw
    rw [hc, select_zero, if_neg hw]

/-- A vector laid out as an [E × 1] column reads, at (e, 0), the vector at e. -/
theorem bcastCol_apply {E : Nat} (hb' : (⟨1, ![E]⟩ : Shape).BroadcastsInDim ⟨2, ![E, 1]⟩ ![0])
    (v : (⟨1, ![E]⟩ : Shape).Idx → α) (e : Fin E) :
    broadcastInDim ⟨2, ![E, 1]⟩ ![0] hb' v (ix2 e (0 : Fin 1)) = v (ix1 e) := by
  unfold broadcastInDim
  congr 1
  funext a
  match a with
  | ⟨0, _⟩ =>
    refine Fin.ext ?_
    have he := e.isLt
    split
    · next h1 => change E = 1 at h1; show (0 : Nat) = e.val; omega
    · rfl

/-- The column of wrapped words: the vector of words, each below zero replaced by itself plus the node count, laid out
    as an [E × 1] column, reads at (e, 0) as the wrap of word e. -/
theorem wrapCol_toInt {E : Nat} (hb : (⟨0, ![]⟩ : Shape).BroadcastsInDim ⟨1, ![E]⟩ ![])
    (hb' : (⟨1, ![E]⟩ : Shape).BroadcastsInDim ⟨2, ![E, 1]⟩ ![0]) (v : IVec ⟨1, ![E]⟩ 32) (e : Fin E) :
    ((broadcastInDim ⟨2, ![E, 1]⟩ ![0] hb'
        (select (cmpi .slt v (broadcastInDim ⟨1, ![E]⟩ ![] hb (constantI ⟨0, ![]⟩ 32 0#32)))
          (addi v (broadcastInDim ⟨1, ![E]⟩ ![] hb (constantI ⟨0, ![]⟩ 32 100000#32))) v) : IVec ⟨2, ![E, 1]⟩ 32)
      (ix2 e (0 : Fin 1))).toInt
      = if (v (ix1 e)).toInt < 0 then (v (ix1 e)).toInt + 100000 else (v (ix1 e)).toInt := by
  rw [bcastCol_apply]
  exact wrap_toInt (v (ix1 e))

/-- A row gather at the column of wrapped words reads, at (e, j), column j of node gIdx of word e. -/
theorem rowGather_wrap {D E : Nat}
    (wf : GatherDims.WF ⟨2, ![100000, D]⟩ ⟨2, ![E, 1]⟩ ⟨2, ![E, D]⟩ [1] [0] [] [0] [] 1 ![1, D])
    (hb : (⟨0, ![]⟩ : Shape).BroadcastsInDim ⟨1, ![E]⟩ ![])
    (hb' : (⟨1, ![E]⟩ : Shape).BroadcastsInDim ⟨2, ![E, 1]⟩ ![0])
    (x : (⟨2, ![100000, D]⟩ : Shape).Idx → α) (v : IVec ⟨1, ![E]⟩ 32) (e : Fin E) (j : Fin D) :
    Host.gather (rowGatherDims D E wf) x
        (broadcastInDim ⟨2, ![E, 1]⟩ ![0] hb'
          (select (cmpi .slt v (broadcastInDim ⟨1, ![E]⟩ ![] hb (constantI ⟨0, ![]⟩ 32 0#32)))
            (addi v (broadcastInDim ⟨1, ![E]⟩ ![] hb (constantI ⟨0, ![]⟩ 32 100000#32))) v))
        (ix2 e j)
      = x (ix2 (gIdx (v (ix1 e))) j) :=
  rowGather_gIdx wf x _ (fun e => v (ix1 e)) (fun e => wrapCol_toInt hb hb' v e) e j

/-- An entry gather at the column of wrapped words reads, at e, the entry of node gIdx of word e. -/
theorem vecGather_wrap {E : Nat}
    (wf : GatherDims.WF ⟨1, ![100000]⟩ ⟨2, ![E, 1]⟩ ⟨1, ![E]⟩ [] [0] [] [0] [] 1 ![1])
    (hb : (⟨0, ![]⟩ : Shape).BroadcastsInDim ⟨1, ![E]⟩ ![])
    (hb' : (⟨1, ![E]⟩ : Shape).BroadcastsInDim ⟨2, ![E, 1]⟩ ![0])
    (x : (⟨1, ![100000]⟩ : Shape).Idx → α) (v : IVec ⟨1, ![E]⟩ 32) (e : Fin E) :
    Host.gather (vecGatherDims E wf) x
        (broadcastInDim ⟨2, ![E, 1]⟩ ![0] hb'
          (select (cmpi .slt v (broadcastInDim ⟨1, ![E]⟩ ![] hb (constantI ⟨0, ![]⟩ 32 0#32)))
            (addi v (broadcastInDim ⟨1, ![E]⟩ ![] hb (constantI ⟨0, ![]⟩ 32 100000#32))) v))
        (ix1 e)
      = x (ix1 (gIdx (v (ix1 e)))) :=
  vecGather_gIdx wf x _ (fun e => v (ix1 e)) (fun e => wrapCol_toInt hb hb' v e) e

end Cert.Gcn.Rows
-- ==== Proof.RowScatter.lean ====
/-
  A scatter of whole rows with an addition body, read at one element.

  The operand has 100000 rows of D entries, the scatter indices are E words, one per update row, and the updates
  are E rows of D entries. Update row e is added onto the operand row its word names: the word is read signed
  and is NOT clamped, so a row whose word is not a node is dropped. Entry (i, j) of the result is therefore the
  operand's entry plus the sum, over the update rows e that land on node i, of entry j of row e. The sum over
  update elements is regrouped by rows; the extended reals are a commutative additive monoid, so the regrouping
  needs no finiteness.

  Two small facts on sums follow: a filtered sum over a concatenated index range splits into the two ranges,
  and the filtered sum over the nodes equal to one node is the term at that node. A node written as a 32-bit
  word lands on, and reads, itself.
-/
import proofs.«110672_j48155173322903_2_alg».proof.Proof.Spec
import Idealize.ShloMosaic.Lib.ValueIdx
import Idealize.ShloMosaic.PureOps.Contract
import Mathlib.Algebra.BigOperators.Fin

noncomputable section

open scoped BigOperators

namespace Cert.Gcn.Rows

open Idealize.ShloMosaic Idealize.ShloMosaic.ValueIdx Cert.Gcn

/-- The dimension numbers of a row scatter: the updates' axis 1 is the window axis and goes to the operand's
    axis 1; the operand's axis 0 is inserted and is the one the scatter index names; the index vector is the
    indices' axis 1, of size one. -/
abbrev rowScatterDims (D E : Nat)
    (wf : ScatterDims.WF ⟨2, ![100000, D]⟩ ⟨2, ![E, 1]⟩ ⟨2, ![E, D]⟩ [1] [0] [0] 1) :
    ScatterDims ⟨2, ![100000, D]⟩ ⟨2, ![E, 1]⟩ ⟨2, ![E, D]⟩ where
  updateWindowDims := [1]
  insertedWindowDims := [0]
  scatterDimsToOperandDims := [0]
  indexVectorDim := 1
  wf := wf

section Dims

variable {D E : Nat} (wf : ScatterDims.WF ⟨2, ![100000, D]⟩ ⟨2, ![E, 1]⟩ ⟨2, ![E, D]⟩ [1] [0] [0] 1)

/-- On the row axis the window starts at the update row's word, read signed. -/
theorem start_row (idx : IVec ⟨2, ![E, 1]⟩ 32) (e : Fin E) (j : Fin D) :
    (rowScatterDims D E wf).start (ix2 e j) idx (0 : Fin 2) = (idx (ix2 e (0 : Fin 1))).toInt := by
  unfold ScatterDims.start
  rw [dif_pos (show (0 : Fin 2) ∈ (rowScatterDims D E wf).scatterDimsToOperandDims from List.mem_singleton.mpr rfl)]
  have hsi : (rowScatterDims D E wf).siIdx (ix2 e j)
      ⟨List.idxOf (0 : Fin 2) (rowScatterDims D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem start_col (idx : IVec ⟨2, ![E, 1]⟩ 32) (e : Fin E) (j : Fin D) :
    (rowScatterDims D E wf).start (ix2 e j) idx (1 : Fin 2) = 0 := by
  unfold ScatterDims.start
  rw [dif_neg (show (1 : Fin 2) ∉ ([0] : List (Fin 2)) from by decide)]

/-- The row axis is inserted: its window coordinate is zero. -/
theorem window_row (e : Fin E) (j : Fin D) : (rowScatterDims D E wf).window (ix2 e j) (0 : Fin 2) = 0 := by
  unfold ScatterDims.window
  have h : (0 : Fin 2) ∉ (rowScatterDims D E wf).sKept := show (0 : Fin 2) ∉ ([1] : List (Fin 2)) from by decide
  rw [dif_neg h]

/-- The column axis carries the update's column. -/
theorem window_col (e : Fin E) (j : Fin D) : (rowScatterDims D E wf).window (ix2 e j) (1 : Fin 2) = j.val := by
  unfold ScatterDims.window
  have h : (1 : Fin 2) ∈ (rowScatterDims D E wf).sKept := show (1 : Fin 2) ∈ ([1] : List (Fin 2)) from by decide
  rw [dif_pos h]
  rfl

/-- The two axes of a rank-2 shape. -/
theorem fin2_cases (a : Fin 2) : a = 0 ∨ a = 1 := by revert a; decide

/-- Two rank-2 indices given by coordinates are equal exactly when the coordinates are. -/
theorem ix2_inj {n0 n1 : Nat} (a a' : Fin n0) (b b' : Fin n1) : ix2 a b = ix2 a' b' ↔ a = a' ∧ b = b' := by
  constructor
  · intro h
    exact ⟨congrFun h (0 : Fin 2), congrFun h (1 : Fin 2)⟩
  · rintro ⟨rfl, rfl⟩; rfl

/-- Where update element (e, j) lands: on (i, j) when row e's word lands on node i, nowhere otherwise. -/
theorem rowScatter_resultIdx_eq (idx : IVec ⟨2, ![E, 1]⟩ 32) (e : Fin E) (j : Fin D) :
    (rowScatterDims D E wf).resultIdx? (ix2 e j) idx
      = (land (idx (ix2 e (0 : Fin 1)))).map (fun i => ix2 i j) := by
  unfold ScatterDims.resultIdx? land
  by_cases hw : 0 ≤ (idx (ix2 e (0 : Fin 1))).toInt ∧ (idx (ix2 e (0 : Fin 1))).toInt < 100000
  · have h : ∀ a : Fin 2, 0 ≤ (rowScatterDims D E wf).start (ix2 e j) idx a + (rowScatterDims D E wf).window (ix2 e j) a ∧
        (rowScatterDims D E wf).start (ix2 e j) idx a + (rowScatterDims D E wf).window (ix2 e j) a
          < ((⟨2, ![100000, D]⟩ : Shape).size a : Int) := by
      intro a
      rcases fin2_cases a with rfl | rfl
      · rw [start_row, window_row]
        show 0 ≤ (idx (ix2 e (0 : Fin 1))).toInt + ((0 : Nat) : Int) ∧
          (idx (ix2 e (0 : Fin 1))).toInt + ((0 : Nat) : Int) < ((100000 : Nat) : Int)
        omega
      · rw [start_col, window_col]
        show 0 ≤ (0 : Int) + ((j.val : Nat) : Int) ∧ (0 : Int) + ((j.val : Nat) : Int) < ((D : Nat) : Int)
        have := j.isLt
        omega
    rw [dif_pos h, dif_pos hw, Option.map_some]
    congr 1
    funext a
    rcases fin2_cases a with rfl | rfl
    · refine Fin.ext ?_
      show ((rowScatterDims D E wf).start (ix2 e j) idx 0 + (rowScatterDims D E wf).window (ix2 e j) 0).toNat
        = (idx (ix2 e (0 : Fin 1))).toInt.toNat
      rw [start_row, window_row]
      simp
    · refine Fin.ext ?_
      show ((rowScatterDims D E wf).start (ix2 e j) idx 1 + (rowScatterDims D E wf).window (ix2 e j) 1).toNat = j.val
      rw [start_col, window_col]
      simp
  · have h : ¬ ∀ a : Fin 2, 0 ≤ (rowScatterDims D E wf).start (ix2 e j) idx a + (rowScatterDims D E wf).window (ix2 e j) a ∧
        (rowScatterDims D E wf).start (ix2 e j) idx a + (rowScatterDims D E wf).window (ix2 e j) a
          < ((⟨2, ![100000, D]⟩ : Shape).size a : Int) := by
      intro h
      have h0 := h 0
      rw [start_row, window_row] at h0
      apply hw
      change 0 ≤ (idx (ix2 e (0 : Fin 1))).toInt + ((0 : Nat) : Int) ∧
          (idx (ix2 e (0 : Fin 1))).toInt + ((0 : Nat) : Int) < ((100000 : Nat) : Int) at h0
      omega
    rw [dif_neg h, dif_neg hw]
    rfl

end Dims

/-- Update element (e, j) lands on (i, j') exactly when row e's word lands on node i and the columns agree. -/
theorem rowScatter_resultIdx {D E : Nat} (wf : ScatterDims.WF ⟨2, ![100000, D]⟩ ⟨2, ![E, 1]⟩ ⟨2, ![E, D]⟩ [1] [0] [0] 1)
    (idx : IVec ⟨2, ![E, 1]⟩ 32) (e : Fin E) (j : Fin D) (i : Fin 100000) (j' : Fin D) :
    (rowScatterDims D E wf).resultIdx? (ix2 e j) idx = some (ix2 i j') ↔
      (land (idx (ix2 e (0 : Fin 1))) = some i ∧ j = j') := by
  rw [rowScatter_resultIdx_eq]
  cases land (idx (ix2 e (0 : Fin 1))) with
  | none => simp
  | some k =>
    rw [Option.map_some, Option.some.injEq, Option.some.injEq, ix2_inj]

/-- THE ROW SCATTER READ AT (i, j): the operand's entry plus the sum, over the update rows that land on node i,
    of their entry j. -/
theorem rowScatterAdd_apply {D E : Nat} (wf : ScatterDims.WF ⟨2, ![100000, D]⟩ ⟨2, ![E, 1]⟩ ⟨2, ![E, D]⟩ [1] [0] [0] 1)
    (x : (⟨2, ![100000, D]⟩ : Shape).Idx → EReal) (idx : IVec ⟨2, ![E, 1]⟩ 32)
    (upd : (⟨2, ![E, D]⟩ : Shape).Idx → EReal) (i : Fin 100000) (j : Fin D) :
    Host.scatterAdd (F := Ideal) (φ := .f32) (rowScatterDims D E wf) x idx upd (ix2 i j)
      = x (ix2 i j) + ∑ e ∈ Finset.univ.filter (fun e : Fin E => land (idx (ix2 e (0 : Fin 1))) = some i),
          upd (ix2 e j) := by
  show x (ix2 i j) + ∑ y ∈ Finset.univ.filter
      (fun y => (rowScatterDims D E wf).resultIdx? y idx = some (ix2 i j)), upd y = _
  congr 1
  rw [Finset.sum_filter, sum_idx2, Finset.sum_filter]
  refine Finset.sum_congr rfl fun e _ => ?_
  have hterm : ∀ j' : Fin D,
      (if (rowScatterDims D E wf).resultIdx? (ix2 e j') idx = some (ix2 i j) then upd (ix2 e j') else 0)
        = if j' = j then (if land (idx (ix2 e (0 : Fin 1))) = some i then upd (ix2 e j') else 0) else 0 := by
    intro j'
    by_cases hj : j' = j
    · rw [if_pos hj]
      exact if_congr ((rowScatter_resultIdx wf idx e j' i j).trans (and_iff_left hj)) rfl rfl
    · rw [if_neg hj, if_neg]
      exact fun h => hj ((rowScatter_resultIdx wf idx e j' i j).mp h).2
  rw [Finset.sum_congr rfl fun j' _ => hterm j', Finset.sum_ite_eq' Finset.univ j, if_pos (Finset.mem_univ j)]

/-- A filtered sum over a concatenated index range is the sum over the first range plus the sum over the second. -/
theorem sum_filter_fin_add {M : Type*} [AddCommMonoid M] (a b : Nat) (p : Fin (a + b) → Prop) [DecidablePred p]
    (f : Fin (a + b) → M) :
    ∑ e ∈ Finset.univ.filter p, f e
      = ∑ e ∈ (Finset.univ : Finset (Fin a)).filter (fun e => p (Fin.castAdd b e)), f (Fin.castAdd b e)
        + ∑ n ∈ (Finset.univ : Finset (Fin b)).filter (fun n => p (Fin.natAdd a n)), f (Fin.natAdd a n) := by
  rw [Finset.sum_filter, Fin.sum_univ_add, Finset.sum_filter, Finset.sum_filter]

/-- A node written as a 32-bit word is, read signed, that node. -/
theorem toInt_ofNat_node (n : Fin 100000) : (BitVec.ofNat 32 n.val).toInt = (n.val : Int) := by
  have hn := n.isLt
  rw [BitVec.toInt_eq_toNat_cond, BitVec.toNat_ofNat]
  have hmod : n.val % 2 ^ 32 = n.val := Nat.mod_eq_of_lt (by omega)
  rw [hmod, if_pos (by omega)]

/-- A node written as a 32-bit word lands on itself. -/
theorem land_ofNat (n : Fin 100000) : land (BitVec.ofNat 32 n.val) = some n := by
  have hn := n.isLt
  have hi := toInt_ofNat_node n
  unfold land
  rw [dif_pos (by omega)]
  congr 1
  exact Fin.ext (by show (BitVec.ofNat 32 n.val).toInt.toNat = n.val; omega)

/-- A node written as a 32-bit word reads itself. -/
theorem gIdx_ofNat (n : Fin 100000) : gIdx (BitVec.ofNat 32 n.val) = n := gIdx_of_land (land_ofNat n)

/-- The filtered sum over the nodes equal to node i is the term at i. -/
theorem sum_filter_eq_single {M : Type*} [AddCommMonoid M] (i : Fin 100000) (f : Fin 100000 → M) :
    ∑ n ∈ Finset.univ.filter (fun n : Fin 100000 => (some n : Option (Fin 100000)) = some i), f n = f i := by
  rw [Finset.sum_filter]
  have hterm : ∀ n : Fin 100000, (if (some n : Option (Fin 100000)) = some i then f n else 0) = if n = i then f n else 0 :=
    fun n => if_congr (Option.some.injEq n i ▸ Iff.rfl) rfl rfl
  rw [Finset.sum_congr rfl fun n _ => hterm n, Finset.sum_ite_eq' Finset.univ i, if_pos (Finset.mem_univ i)]

end Cert.Gcn.Rows

end
-- ==== Proof.KerOps.lean ====
/-
  The kernel's aggregation over the real edges, read at one entry, and the kernel's short host stretches between its
  regions as equations on buffer contents.

  Between two regions the kernel computes, on the host side, segment_sum(pre[src], dst): it wraps the negative source
  words by the node count, gathers the rows of the previous result at the wrapped words, and adds each gathered row
  onto a zero matrix at the row its destination word names. Entry (i, j) of the outcome is the sum, over the edges
  whose destination word lands on node i, of entry j of the row that the edge's source word reads.

  Every buffer of such a stretch is written once, so the final contents satisfy one equation per operation; chaining
  the equations expresses the written buffers the next region reads through the starting contents of the buffers the
  stretch only reads. The degree scaling enters each region as a column: the reshape of the scaling vector.
-/
import proofs.«110672_j48155173322903_2_alg».proof.Proof.Spec
import proofs.«110672_j48155173322903_2_alg».proof.Proof.RowGather
import proofs.«110672_j48155173322903_2_alg».proof.Proof.RowScatter
import proofs.«110672_j48155173322903_2_alg».proof.Proof.LibSsa
import proofs.«110672_j48155173322903_2_alg».proof.Proof.Gen.KernelIdeal.Launch
import Idealize.ShloMosaic.Lib.ValueIdx
import Idealize.ShloMosaic.Lib.Pipeline.Value
import Idealize.ShloMosaic.PureOps.Contract
import Idealize.ShloMosaic.PureOps.Ideal.Laws
import Mathlib.Algebra.BigOperators.Fin

-- membership of a buffer in a list of written buffers is decided over the program's 216 references
set_option maxRecDepth 1376

noncomputable section

open scoped BigOperators

namespace Cert.Gcn.Ker

open Idealize.ShloMosaic Idealize.ShloMosaic.ValueIdx Cert.Gcn Cert.Gcn.Rows
open Cert.KernelIdeal Cert.KernelIdeal.Gen

variable [hP : Cert.KernelIdeal.Facts]

/-! ## The aggregation as printed, read at one entry -/

/-- The column of source words as the kernel prepares it for the row gather: negative words wrapped by the node count,
    laid out as a column. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The kernel's aggregation of a 128-column matrix P over the real edges: the rows of P read at the wrapped source
    words, added onto a zero matrix at the destination words. -/
def aggOps128 (sV dV : IVec S600000 32) (P : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dV)
    (Host.gather gather_S100000x128_S600000x1_S600000x128_1_0_n_n_0_1_1128 P (wrapCol sV))

/-- The same aggregation of a 64-column matrix. -/
def aggOps64 (sV dV : IVec S600000 32) (P : FVec Ideal S100000x64 .f32) : FVec Ideal S100000x64 .f32 :=
  Host.scatterAdd scatter_S100000x64_S600000x1_S600000x64_1_0_0_1
    (broadcastInDim S100000x64 ![] bcast_S_S100000x64 (constant S_ .f32 0x00000000#32))
    (broadcastInDim S600000x1 ![0] bcast_S600000_S600000x1_0 dV)
    (Host.gather gather_S100000x64_S600000x1_S600000x64_1_0_n_n_0_1_164 P (wrapCol sV))

/-- Entry (i, j) of the aggregation: the sum, over the edges whose destination word lands on node i, of entry j of the
    row of P that the edge's source word reads. -/
theorem aggOps128_apply (sV dV : IVec S600000 32) (P : FVec Ideal S100000x128 .f32) (i : Fin 100000) (j : Fin 128) :
    aggOps128 sV dV P (ix2 i j)
      = ∑ e ∈ Finset.univ.filter (fun e : Fin 600000 => land (dV (ix1 e)) = some i), P (ix2 (gIdx (sV (ix1 e))) j) := by
  unfold aggOps128
  refine (rowScatterAdd_apply (D := 128) (E := 600000) _ _ _ _ i j).trans ?_
  have h0 : broadcastInDim S100000x128 ![] bcast_S_S100000x128 (constant (F := Ideal) S_ .f32 0x00000000#32) (ix2 i j)
      = (0 : EReal) := Ideal.ofBits_zero_f32
  rw [h0, zero_add]
  refine Finset.sum_congr (Finset.filter_congr fun e _ => by rw [bcastCol_apply]) fun e _ => ?_
  exact rowGather_wrap _ _ _ P sV e j

theorem aggOps64_apply (sV dV : IVec S600000 32) (P : FVec Ideal S100000x64 .f32) (i : Fin 100000) (j : Fin 64) :
    aggOps64 sV dV P (ix2 i j)
      = ∑ e ∈ Finset.univ.filter (fun e : Fin 600000 => land (dV (ix1 e)) = some i), P (ix2 (gIdx (sV (ix1 e))) j) := by
  unfold aggOps64
  refine (rowScatterAdd_apply (D := 64) (E := 600000) _ _ _ _ i j).trans ?_
  have h0 : broadcastInDim S100000x64 ![] bcast_S_S100000x64 (constant (F := Ideal) S_ .f32 0x00000000#32) (ix2 i j)
      = (0 : EReal) := Ideal.ofBits_zero_f32
  rw [h0, zero_add]
  refine Finset.sum_congr (Finset.filter_congr fun e _ => by rw [bcastCol_apply]) fun e _ => ?_
  exact rowGather_wrap _ _ _ P sV e j

/-! ## The host stretches between the regions -/

open Idealize.ShloMosaic.StableHlo

/-- The scaling column at row i is the scaling vector's entry i. -/
theorem disCol_apply (d : FVec Ideal S100000 .f32) (i : Fin 100000) :
    shapeCast S100000x1 d shapeCasts_S100000_S100000x1 (ix2 i (0 : Fin 1)) = d (ix1 i) := by
  refine shapeCast_apply d _ (ix2 i (0 : Fin 1)) (ix1 i) ?_
  rw [Shape.rowMajor_val_one, Shape.rowMajor_val_two]
  show i.val = i.val * 1 + 0
  omega

/-! ## Host stretch 2: the scaling column -/

theorem writesOnly2 : Ssa.WritesOnly (hostOps2 : List (HloOp τ sig (Elt Ideal))) [main_v61] := ⟨rfl, trivial⟩

/-- After stretch 2 the scaling column holds the scaling vector, reshaped. -/
theorem stretch2_dis (W : Valuation τ sig (Elt Ideal)) :
    StableHlo.after hostOps2 W (Proc.devRef .tc main_v61)
      = shapeCast S100000x1 (W (Proc.devRef .tc main_v16)) shapeCasts_S100000_S100000x1 := by
  have hW := writesOnly2
  have a16 := Ssa.after_arg hostOps2 [main_v61] hW W main_v16 (by decide)
  have e0 := Ssa.ssa_reshape hostOps2 [main_v61] hW W 0 main_v16 main_v61 rfl _ _ _ rfl (by decide) (by decide)
  rw [e0, a16]
  rfl

/-- Stretch 2 leaves every buffer it does not write as it was. -/
theorem stretch2_keep (W : Valuation τ sig (Elt Ideal)) (b : Ref sig .tc) (hb : b ∉ [main_v61]) :
    StableHlo.after hostOps2 W (Proc.devRef .tc b) = W (Proc.devRef .tc b) :=
  Ssa.after_arg hostOps2 [main_v61] writesOnly2 W b hb

/-! ## Host stretch 3: the aggregation of region 2's result, and the scaling column -/

/-- The buffers stretch 3 writes, in order. -/
abbrev written3 : List (Ref sig .tc) :=
  [main_c_9, main_v63, main_v64, main_c_10, main_v65, main_v66, main_v67, main_v68, main_v69, main_cst_11, main_v70, main_v71, main_v72, main_v73]

theorem writesOnly3 : Ssa.WritesOnly (hostOps3 : List (HloOp τ sig (Elt Ideal))) written3 :=
  ⟨rfl, rfl, rfl, rfl, rfl, rfl, rfl, rfl, rfl, rfl, rfl, rfl, rfl, rfl, trivial⟩

/-- After stretch 3 the aggregated buffer holds the aggregation of the previous region's result over the edge words. -/
theorem stretch3_scat (W : Valuation τ sig (Elt Ideal)) :
    StableHlo.after hostOps3 W (Proc.devRef .tc main_v72)
      = aggOps128 (W (Proc.devRef .tc main_v2)) (W (Proc.devRef .tc main_v4)) (W (Proc.devRef .tc main_v62)) := by
  have hW := writesOnly3
  have a2 := Ssa.after_arg hostOps3 written3 hW W main_v2 (by decide)
  have a4 := Ssa.after_arg hostOps3 written3 hW W main_v4 (by decide)
  have aP := Ssa.after_arg hostOps3 written3 hW W main_v62 (by decide)
  have e0 := Ssa.ssa_nullary hostOps3 written3 hW W 0 main_c_9 _ _ rfl (by decide)
  have e1 := Ssa.ssa_unary hostOps3 written3 hW W 1 main_c_9 main_v63 _ _ _ rfl (by decide) (by decide)
  have e2 := Ssa.ssa_binary hostOps3 written3 hW W 2 main_v2 main_v63 main_v64 _ _ _ _ rfl (by decide) (by decide) (by decide)
  have e3 := Ssa.ssa_nullary hostOps3 written3 hW W 3 main_c_10 _ _ rfl (by decide)
  have e4 := Ssa.ssa_unary hostOps3 written3 hW W 4 main_c_10 main_v65 _ _ _ rfl (by decide) (by decide)
  have e5 := Ssa.ssa_binary hostOps3 written3 hW W 5 main_v2 main_v65 main_v66 _ _ _ _ rfl (by decide) (by decide) (by decide)
  have e6 := Ssa.ssa_ternary hostOps3 written3 hW W 6 main_v64 main_v66 main_v2 main_v67 _ _ _ _ _ rfl (by decide) (by decide) (by decide) (by decide)
  have e7 := Ssa.ssa_unary hostOps3 written3 hW W 7 main_v67 main_v68 _ _ _ rfl (by decide) (by decide)
  have e8 := Ssa.ssa_binary hostOps3 written3 hW W 8 main_v62 main_v68 main_v69 _ _ _ _ rfl (by decide) (by decide) (by decide)
  have e9 := Ssa.ssa_nullary hostOps3 written3 hW W 9 main_cst_11 _ _ rfl (by decide)
  have e10 := Ssa.ssa_unary hostOps3 written3 hW W 10 main_cst_11 main_v70 _ _ _ rfl (by decide) (by decide)
  have e11 := Ssa.ssa_unary hostOps3 written3 hW W 11 main_v4 main_v71 _ _ _ rfl (by decide) (by decide)
  have e12 := Ssa.ssa_ternary hostOps3 written3 hW W 12 main_v70 main_v71 main_v69 main_v72 _ _ _ _ _ rfl (by decide) (by decide) (by decide) (by decide)
  rw [e12, e10, e9, e11, a4, e8, aP, e7, e6, e2, e1, e0, e5, e4, e3, a2]
  rfl

/-- After stretch 3 the scaling column holds the scaling vector, reshaped. -/
theorem stretch3_dis (W : Valuation τ sig (Elt Ideal)) :
    StableHlo.after hostOps3 W (Proc.devRef .tc main_v73)
      = shapeCast S100000x1 (W (Proc.devRef .tc main_v16)) shapeCasts_S100000_S100000x1 := by
  have hW := writesOnly3
  have a16 := Ssa.after_arg hostOps3 written3 hW W main_v16 (by decide)
  have e13 := Ssa.ssa_reshape hostOps3 written3 hW W 13 main_v16 main_v73 rfl _ _ _ rfl (by decide) (by decide)
  rw [e13, a16]
  rfl

/-- Stretch 3 leaves every buffer it does not write as it was. -/
theorem stretch3_keep (W : Valuation τ sig (Elt Ideal)) (b : Ref sig .tc)
    (hb : b ∉ [main_c_9, main_v63, main_v64, main_c_10, main_v65, main_v66, main_v67, main_v68, main_v69, main_cst_11, main_v70, main_v71, main_v72, main_v73]) :
    StableHlo.after hostOps3 W (Proc.devRef .tc b) = W (Proc.devRef .tc b) :=
  Ssa.after_arg hostOps3 written3 writesOnly3 W b hb

/-! ## Host stretch 4: the scaling column -/

theorem writesOnly4 : Ssa.WritesOnly (hostOps4 : List (HloOp τ sig (Elt Ideal))) [main_v75] := ⟨rfl, trivial⟩

/-- After stretch 4 the scaling column holds the scaling vector, reshaped. -/
theorem stretch4_dis (W : Valuation τ sig (Elt Ideal)) :
    StableHlo.after hostOps4 W (Proc.devRef .tc main_v75)
      = shapeCast S100000x1 (W (Proc.devRef .tc main_v16)) shapeCasts_S100000_S100000x1 := by
  have hW := writesOnly4
  have a16 := Ssa.after_arg hostOps4 [main_v75] hW W main_v16 (by decide)
  have e0 := Ssa.ssa_reshape hostOps4 [main_v75] hW W 0 main_v16 main_v75 rfl _ _ _ rfl (by decide) (by decide)
  rw [e0, a16]
  rfl

/-- Stretch 4 leaves every buffer it does not write as it was. -/
theorem stretch4_keep (W : Valuation τ sig (Elt Ideal)) (b : Ref sig .tc) (hb : b ∉ [main_v75]) :
    StableHlo.after hostOps4 W (Proc.devRef .tc b) = W (Proc.devRef .tc b) :=
  Ssa.after_arg hostOps4 [main_v75] writesOnly4 W b hb

/-! ## Host stretch 5: the aggregation of region 4's result, and the scaling column -/

/-- The buffers stretch 5 writes, in order. -/
abbrev written5 : List (Ref sig .tc) :=
  [main_c_12, main_v77, main_v78, main_c_13, main_v79, main_v80, main_v81, main_v82, main_v83, main_cst_14, main_v84, main_v85, main_v86, main_v87]

theorem writesOnly5 : Ssa.WritesOnly (hostOps5 : List (HloOp τ sig (Elt Ideal))) written5 :=
  ⟨rfl, rfl, rfl, rfl, rfl, rfl, rfl, rfl, rfl, rfl, rfl, rfl, rfl, rfl, trivial⟩

/-- After stretch 5 the aggregated buffer holds the aggregation of the previous region's result over the edge words. -/
theorem stretch5_scat (W : Valuation τ sig (Elt Ideal)) :
    StableHlo.after hostOps5 W (Proc.devRef .tc main_v86)
      = aggOps128 (W (Proc.devRef .tc main_v2)) (W (Proc.devRef .tc main_v4)) (W (Proc.devRef .tc main_v76)) := by
  have hW := writesOnly5
  have a2 := Ssa.after_arg hostOps5 written5 hW W main_v2 (by decide)
  have a4 := Ssa.after_arg hostOps5 written5 hW W main_v4 (by decide)
  have aP := Ssa.after_arg hostOps5 written5 hW W main_v76 (by decide)
  have e0 := Ssa.ssa_nullary hostOps5 written5 hW W 0 main_c_12 _ _ rfl (by decide)
  have e1 := Ssa.ssa_unary hostOps5 written5 hW W 1 main_c_12 main_v77 _ _ _ rfl (by decide) (by decide)
  have e2 := Ssa.ssa_binary hostOps5 written5 hW W 2 main_v2 main_v77 main_v78 _ _ _ _ rfl (by decide) (by decide) (by decide)
  have e3 := Ssa.ssa_nullary hostOps5 written5 hW W 3 main_c_13 _ _ rfl (by decide)
  have e4 := Ssa.ssa_unary hostOps5 written5 hW W 4 main_c_13 main_v79 _ _ _ rfl (by decide) (by decide)
  have e5 := Ssa.ssa_binary hostOps5 written5 hW W 5 main_v2 main_v79 main_v80 _ _ _ _ rfl (by decide) (by decide) (by decide)
  have e6 := Ssa.ssa_ternary hostOps5 written5 hW W 6 main_v78 main_v80 main_v2 main_v81 _ _ _ _ _ rfl (by decide) (by decide) (by decide) (by decide)
  have e7 := Ssa.ssa_unary hostOps5 written5 hW W 7 main_v81 main_v82 _ _ _ rfl (by decide) (by decide)
  have e8 := Ssa.ssa_binary hostOps5 written5 hW W 8 main_v76 main_v82 main_v83 _ _ _ _ rfl (by decide) (by decide) (by decide)
  have e9 := Ssa.ssa_nullary hostOps5 written5 hW W 9 main_cst_14 _ _ rfl (by decide)
  have e10 := Ssa.ssa_unary hostOps5 written5 hW W 10 main_cst_14 main_v84 _ _ _ rfl (by decide) (by decide)
  have e11 := Ssa.ssa_unary hostOps5 written5 hW W 11 main_v4 main_v85 _ _ _ rfl (by decide) (by decide)
  have e12 := Ssa.ssa_ternary hostOps5 written5 hW W 12 main_v84 main_v85 main_v83 main_v86 _ _ _ _ _ rfl (by decide) (by decide) (by decide) (by decide)
  rw [e12, e10, e9, e11, a4, e8, aP, e7, e6, e2, e1, e0, e5, e4, e3, a2]
  rfl

/-- After stretch 5 the scaling column holds the scaling vector, reshaped. -/
theorem stretch5_dis (W : Valuation τ sig (Elt Ideal)) :
    StableHlo.after hostOps5 W (Proc.devRef .tc main_v87)
      = shapeCast S100000x1 (W (Proc.devRef .tc main_v16)) shapeCasts_S100000_S100000x1 := by
  have hW := writesOnly5
  have a16 := Ssa.after_arg hostOps5 written5 hW W main_v16 (by decide)
  have e13 := Ssa.ssa_reshape hostOps5 written5 hW W 13 main_v16 main_v87 rfl _ _ _ rfl (by decide) (by decide)
  rw [e13, a16]
  rfl

/-- Stretch 5 leaves every buffer it does not write as it was. -/
theorem stretch5_keep (W : Valuation τ sig (Elt Ideal)) (b : Ref sig .tc)
    (hb : b ∉ [main_c_12, main_v77, main_v78, main_c_13, main_v79, main_v80, main_v81, main_v82, main_v83, main_cst_14, main_v84, main_v85, main_v86, main_v87]) :
    StableHlo.after hostOps5 W (Proc.devRef .tc b) = W (Proc.devRef .tc b) :=
  Ssa.after_arg hostOps5 written5 writesOnly5 W b hb

end Cert.Gcn.Ker

end
-- ==== Proof.KerRegionBN.lean ====
/-
  The three elementwise regions of the idealized kernel (regions 1, 3 and 5) as whole-array functions of the arrays
  each region finds.

  Every one of them walks 25 row blocks of 4000 rows of [100000, 128] arrays; the column parameters ([1, 128]) are read
  whole at every block and the node scaling ([100000, 1]) by blocks of 4000 rows.
    region 1:  out[i, j] = max (x[i, j] * s[0, j] + b[0, j]) 0
    region 5:  out[i, j] = max ((((u[i, j] + p[i, j]) * d[i, 0]) * s[0, j]) + b[0, j]) 0
    region 3:  the same, plus a residual r[i, j] added after the positive part.
  Per region: the body's arithmetic at one index of a block; the block a grid point writes back is the restriction of
  the whole-array function to the point's rows; the 25 blocks cover the array; so the array ends at that function.
-/
import proofs.«110672_j48155173322903_2_alg».proof.Proof.Spec
import proofs.«110672_j48155173322903_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Gcn.Ker

open Cert.KernelIdeal Cert.KernelIdeal.Gen

/-! ## Shared facts -/

/-- The zero offsets of a whole-block rectangle. -/
theorem zeros2 : (![0, 0] : Fin 2 → Nat) = fun _ => 0 := funext fun a => by fin_cases a <;> rfl

/-- The scalar the positive part compares with is the extended real zero. -/
theorem scalar_zero : (Scalar.ofBits (F := Ideal) .f32 0x00000000#32 : Ideal .f32) = (0 : EReal) := Ideal.ofBits_zero_f32

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Region 1: the affine map and the positive part -/

/-- Region 1's output as one function of the three arrays it reads: rows, scale, shift. -/
abbrev bnRelu (x : Arr2 100000 128) (s b : Arr2 1 128) : Arr2 100000 128 := fun y =>
  max (x (ix2 ⟨(y 0).val, idx2_lt0 y⟩ ⟨(y 1).val, idx2_lt1 y⟩) * s (ix2 (0 : Fin 1) ⟨(y 1).val, idx2_lt1 y⟩)
    + b (ix2 (0 : Fin 1) ⟨(y 1).val, idx2_lt1 y⟩)) 0

/-- The body's arithmetic at one index of a block. -/
theorem pay1_apply (x0 : Vec Ideal S4000x128 .f32) (x1 x2 : Vec Ideal S1x128 .f32) (p : Fin 4000) (q : Fin 128) :
    k1_pay1 x0 x1 x2 (ix2 p q) = max (x0 (ix2 p q) * x1 (ix2 (0 : Fin 1) q) + x2 (ix2 (0 : Fin 1) q)) (0 : EReal) := by
  unfold k1_pay1
  rw [maximumf_apply, addf_apply, mulf_apply, broadcast_apply, shapeCast_self, shapeCast_self, shapeCast_self,
    broadcastTo_1b_ab_apply, broadcastTo_1b_ab_apply, scalar_zero]

/-- On blocks that are restrictions of the arrays, the body's result at `j` is `bnRelu` at the array index `i` that `j`
    sits at. -/
theorem pay1_point (a0 : Arr2 100000 128) (a1 a2 : Arr2 1 128)
    (x0 : Vec Ideal S4000x128 .f32) (x1 x2 : Vec Ideal S1x128 .f32) (j : S4000x128.Idx) (i : S100000x128.Idx)
    (h0 : x0 j = a0 i) (h1 : x1 = a1) (h2 : x2 = a2) (hi : (i 1).val = (j 1).val) :
    k1_pay1 x0 x1 x2 j = bnRelu a0 a1 a2 i := by
  subst h1 h2
  obtain ⟨p, q, rfl⟩ : ∃ (p : Fin 4000) (q : Fin 128), j = ix2 p q := ⟨j 0, j 1, eq_ix2 j⟩
  rw [pay1_apply, h0]
  have e : (⟨(i 1).val, idx2_lt1 i⟩ : Fin 128) = q := Fin.ext hi
  show _ = max (a0 (ix2 ⟨(i 0).val, idx2_lt0 i⟩ ⟨(i 1).val, idx2_lt1 i⟩) * x1 (ix2 (0 : Fin 1) ⟨(i 1).val, idx2_lt1 i⟩)
    + x2 (ix2 (0 : Fin 1) ⟨(i 1).val, idx2_lt1 i⟩)) 0
  rw [show ix2 (⟨(i 0).val, idx2_lt0 i⟩ : Fin 100000) (⟨(i 1).val, idx2_lt1 i⟩ : Fin 128) = i from (eq_ix2 i).symm, e]

/-- The windows' index maps over the grid: the row windows move with the point, the parameter windows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `bnRelu` of the arrays the region finds. -/
theorem flushed1_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (bnRelu (V c main_v59) (V c main_v24) (V c main_v25)) := by
  show (cfg1.win 3).cut (grid1.coords t) ((dat1 V c).after 3 t) = _
  rw [after1_3]
  unfold out1_3
  rw [View.canon_unit_zero zeros2]
  simp only [View.ld_unit_zero (S := S4000x128) zeros2, View.ld_unit_zero (S := S1x128) zeros2]
  obtain ⟨e00, e01, e10, e11, e20, e21, e30, e31⟩ := idx_facts1 t
  funext j
  refine pay1_point (V c main_v59) (V c main_v24) (V c main_v25) (iblk1 V c 0 t) (iblk1 V c 1 t) (iblk1 V c 2 t) j
    (((cfg1.win 3).blk t).view.emb j) ?_ ?_ ?_ ?_
  · unfold iblk1
    rw [View.read_apply]
    show V c main_v59 (((cfg1.win 0).blk t).view.emb j) = V c main_v59 (((cfg1.win 3).blk t).view.emb j)
    refine congrArg _ (funext fun a => Fin.ext ?_)
    match a with
    | ⟨0, _⟩ =>
      show win1_0.index t (0 : Fin 2) * 4000 + 1 * (j 0).val = win1_3.index t (0 : Fin 2) * 4000 + 1 * (j 0).val
      rw [e00, e30]
    | ⟨1, _⟩ =>
      show win1_0.index t (1 : Fin 2) * 128 + 1 * (j 1).val = win1_3.index t (1 : Fin 2) * 128 + 1 * (j 1).val
      rw [e01, e31]
  · unfold iblk1
    funext k
    rw [View.read_apply]
    show V c main_v24 (((cfg1.win 1).blk t).view.emb k) = V c main_v24 k
    refine congrArg _ (funext fun a => Fin.ext ?_)
    match a with
    | ⟨0, _⟩ => show win1_1.index t (0 : Fin 2) * 1 + 1 * (k 0).val = (k 0).val; rw [e10]; omega
    | ⟨1, _⟩ => show win1_1.index t (1 : Fin 2) * 128 + 1 * (k 1).val = (k 1).val; rw [e11]; omega
  · unfold iblk1
    funext k
    rw [View.read_apply]
    show V c main_v25 (((cfg1.win 2).blk t).view.emb k) = V c main_v25 k
    refine congrArg _ (funext fun a => Fin.ext ?_)
    match a with
    | ⟨0, _⟩ => show win1_2.index t (0 : Fin 2) * 1 + 1 * (k 0).val = (k 0).val; rw [e20]; omega
    | ⟨1, _⟩ => show win1_2.index t (1 : Fin 2) * 128 + 1 * (k 1).val = (k 1).val; rw [e21]; omega
  · show win1_3.index t (1 : Fin 2) * 128 + 1 * (j 1).val = (j 1).val
    rw [e31]; omega

/-- An index of the output array is in point `t`'s block iff each coordinate is in the block's range. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v60).slice (win1_3.rect t)).set ↔ _
  rw [View.set_slice_whole, Rect.mem_set_unit]
  exact Iff.rfl

/-- Every index of the output array is in the block of the point its row falls in. -/
theorem cover1 (i : S100000x128.Idx) : ∃ t : Fin cfg1.N, (cfg1.win 3).flush t = true ∧ i ∈ ((cfg1.win 3).blk t).view.set := by
  have h0 : (i 0).val < 100000 := (i 0).isLt
  have h1 : (i 1).val < 128 := (i 1).isLt
  refine ⟨⟨(i 0).val / 4000, by show (i 0).val / 4000 < 25; omega⟩, flush1_3 _, ?_⟩
  rw [mem_blk1]
  obtain ⟨-, -, -, -, -, -, e30, e31⟩ := idx_facts1 ⟨(i 0).val / 4000, by show (i 0).val / 4000 < 25; omega⟩
  intro a
  match a with
  | ⟨0, _⟩ =>
    show win1_3.index _ (0 : Fin 2) * 4000 ≤ (i 0).val ∧ (i 0).val < win1_3.index _ (0 : Fin 2) * 4000 + 4000
    rw [e30]; show (i 0).val / 4000 * 4000 ≤ (i 0).val ∧ (i 0).val < (i 0).val / 4000 * 4000 + 4000; omega
  | ⟨1, _⟩ =>
    show win1_3.index _ (1 : Fin 2) * 128 ≤ (i 1).val ∧ (i 1).val < win1_3.index _ (1 : Fin 2) * 128 + 128
    rw [e31]; omega

/-- The buffers region 1's windows are over. -/
theorem arrRef1_0 : Pipeline.arrRef spec1 0 = main_v59 := rfl
theorem arrRef1_1 : Pipeline.arrRef spec1 1 = main_v24 := rfl
theorem arrRef1_2 : Pipeline.arrRef spec1 2 = main_v25 := rfl
theorem arrRef1_3 : Pipeline.arrRef spec1 3 = main_v60 := rfl

/-- Region 1: the output array after the region is the affine map and positive part of the input rows. -/
theorem region1_out (V : (c : Dev nD) → (b : Ref sig .tc) → Buf (Elt Ideal) ((c : Thread nD τ).loc b)) (c : Dev nD) :
    (dat1 (F := Ideal) V c).arrAt 3 cfg1.N
      = bnRelu (V c (Pipeline.arrRef spec1 0)) (V c (Pipeline.arrRef spec1 1)) (V c (Pipeline.arrRef spec1 2)) :=
  (dat1 (F := Ideal) V c).arrAt_eq_of_cover 3 (bnRelu (V c main_v59) (V c main_v24) (V c main_v25))
    (fun t _ => flushed1_eq V c t) cover1

/-! ## Region 5: the aggregate scaled by the node factor, the affine map and the positive part -/

/-- Region 5's output as one function of the five arrays it reads: the summed neighbour rows, the node's own row, the
    node scaling, scale and shift. -/
abbrev aggBnRelu (u p : Arr2 100000 128) (d : Arr2 100000 1) (s b : Arr2 1 128) : Arr2 100000 128 := fun y =>
  max ((((u (ix2 ⟨(y 0).val, idx2_lt0 y⟩ ⟨(y 1).val, idx2_lt1 y⟩) + p (ix2 ⟨(y 0).val, idx2_lt0 y⟩ ⟨(y 1).val, idx2_lt1 y⟩))
        * d (ix2 ⟨(y 0).val, idx2_lt0 y⟩ (0 : Fin 1))) * s (ix2 (0 : Fin 1) ⟨(y 1).val, idx2_lt1 y⟩))
    + b (ix2 (0 : Fin 1) ⟨(y 1).val, idx2_lt1 y⟩)) 0

/-- The body's arithmetic at one index of a block. -/
theorem pay5_apply (x0 x1 : Vec Ideal S4000x128 .f32) (x2 : Vec Ideal S4000x1 .f32) (x3 x4 : Vec Ideal S1x128 .f32)
    (p : Fin 4000) (q : Fin 128) :
    k5_pay1 x0 x1 x2 x3 x4 (ix2 p q)
      = max ((((x0 (ix2 p q) + x1 (ix2 p q)) * x2 (ix2 p (0 : Fin 1))) * x3 (ix2 (0 : Fin 1) q)) + x4 (ix2 (0 : Fin 1) q)) (0 : EReal) := by
  unfold k5_pay1
  rw [maximumf_apply, addf_apply, mulf_apply, mulf_apply, addf_apply, broadcast_apply, shapeCast_self, shapeCast_self,
    shapeCast_self, shapeCast_self, shapeCast_self, broadcastTo_a1_ab_apply, broadcastTo_1b_ab_apply,
    broadcastTo_1b_ab_apply, scalar_zero]

/-- On blocks that are restrictions of the arrays, the body's result at `j` is `aggBnRelu` at the array index `i` that
    `j` sits at. -/
theorem pay5_point (a0 a1 : Arr2 100000 128) (a2 : Arr2 100000 1) (a3 a4 : Arr2 1 128)
    (x0 x1 : Vec Ideal S4000x128 .f32) (x2 : Vec Ideal S4000x1 .f32) (x3 x4 : Vec Ideal S1x128 .f32)
    (j : S4000x128.Idx) (i : S100000x128.Idx)
    (h0 : x0 j = a0 i) (h1 : x1 j = a1 i)
    (h2 : x2 (ix2 ⟨(j 0).val, idx2_lt0 j⟩ (0 : Fin 1)) = a2 (ix2 ⟨(i 0).val, idx2_lt0 i⟩ (0 : Fin 1)))
    (h3 : x3 = a3) (h4 : x4 = a4) (hi : (i 1).val = (j 1).val) :
    k5_pay1 x0 x1 x2 x3 x4 j = aggBnRelu a0 a1 a2 a3 a4 i := by
  subst h3 h4
  obtain ⟨p, q, rfl⟩ : ∃ (p : Fin 4000) (q : Fin 128), j = ix2 p q := ⟨j 0, j 1, eq_ix2 j⟩
  rw [pay5_apply, h0, h1]
  have e : (⟨(i 1).val, idx2_lt1 i⟩ : Fin 128) = q := Fin.ext hi
  have h2' : x2 (ix2 p (0 : Fin 1)) = a2 (ix2 ⟨(i 0).val, idx2_lt0 i⟩ (0 : Fin 1)) := h2
  rw [h2']
  show _ = max ((((a0 (ix2 ⟨(i 0).val, idx2_lt0 i⟩ ⟨(i 1).val, idx2_lt1 i⟩) + a1 (ix2 ⟨(i 0).val, idx2_lt0 i⟩ ⟨(i 1).val, idx2_lt1 i⟩))
        * a2 (ix2 ⟨(i 0).val, idx2_lt0 i⟩ (0 : Fin 1))) * x3 (ix2 (0 : Fin 1) ⟨(i 1).val, idx2_lt1 i⟩))
    + x4 (ix2 (0 : Fin 1) ⟨(i 1).val, idx2_lt1 i⟩)) 0
  rw [show ix2 (⟨(i 0).val, idx2_lt0 i⟩ : Fin 100000) (⟨(i 1).val, idx2_lt1 i⟩ : Fin 128) = i from (eq_ix2 i).symm, e]

/-- The windows' index maps over the grid: the row windows move with the point, the parameter windows stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of `aggBnRelu` of the arrays the region finds. -/
theorem flushed5_eq (V : (c : Dev nD) → (b : Ref sig .tc) → Buf (Elt Ideal) ((c : Thread nD τ).loc b)) (c : Dev nD) (t : Fin cfg5.N) :
    (dat5 (F := Ideal) V c).flushed 5 t
      = ((cfg5.win 5).blk t).view.read (Elt Ideal)
          (aggBnRelu (V c main_v86) (V c main_v76) (V c main_v87) (V c main_v42) (V c main_v43)) := by
  show (cfg5.win 5).cut (grid5.coords t) ((dat5 V c).after 5 t) = _
  rw [after5_5]
  unfold out5_5
  rw [View.canon_unit_zero zeros2]
  simp only [View.ld_unit_zero (S := S4000x128) zeros2, View.ld_unit_zero (S := S4000x1) zeros2,
    View.ld_unit_zero (S := S1x128) zeros2]
  obtain ⟨e00, e01, e10, e11, e20, e21, e30, e31, e40, e41, e50, e51⟩ := idx_facts5 t
  funext j
  refine pay5_point (V c main_v86) (V c main_v76) (V c main_v87) (V c main_v42) (V c main_v43)
    (iblk5 V c 0 t) (iblk5 V c 1 t) (iblk5 V c 2 t) (iblk5 V c 3 t) (iblk5 V c 4 t) j
    (((cfg5.win 5).blk t).view.emb j) ?_ ?_ ?_ ?_ ?_ ?_
  · unfold iblk5
    rw [View.read_apply]
    show V c main_v86 (((cfg5.win 0).blk t).view.emb j) = V c main_v86 (((cfg5.win 5).blk t).view.emb j)
    refine congrArg _ (funext fun a => Fin.ext ?_)
    match a with
    | ⟨0, _⟩ =>
      show win5_0.index t (0 : Fin 2) * 4000 + 1 * (j 0).val = win5_5.index t (0 : Fin 2) * 4000 + 1 * (j 0).val
      rw [e00, e50]
    | ⟨1, _⟩ =>
      show win5_0.index t (1 : Fin 2) * 128 + 1 * (j 1).val = win5_5.index t (1 : Fin 2) * 128 + 1 * (j 1).val
      rw [e01, e51]
  · unfold iblk5
    rw [View.read_apply]
    show V c main_v76 (((cfg5.win 1).blk t).view.emb j) = V c main_v76 (((cfg5.win 5).blk t).view.emb j)
    refine congrArg _ (funext fun a => Fin.ext ?_)
    match a with
    | ⟨0, _⟩ =>
      show win5_1.index t (0 : Fin 2) * 4000 + 1 * (j 0).val = win5_5.index t (0 : Fin 2) * 4000 + 1 * (j 0).val
      rw [e10, e50]
    | ⟨1, _⟩ =>
      show win5_1.index t (1 : Fin 2) * 128 + 1 * (j 1).val = win5_5.index t (1 : Fin 2) * 128 + 1 * (j 1).val
      rw [e11, e51]
  · unfold iblk5
    rw [View.read_apply]
    show V c main_v87 (((cfg5.win 2).blk t).view.emb (ix2 (⟨(j 0).val, (j 0).isLt⟩ : Fin 4000) (0 : Fin 1)))
      = V c main_v87 (ix2 (⟨(((cfg5.win 5).blk t).view.emb j 0).val, (((cfg5.win 5).blk t).view.emb j 0).isLt⟩ : Fin 100000) (0 : Fin 1))
    refine congrArg _ (funext fun a => Fin.ext ?_)
    match a with
    | ⟨0, _⟩ =>
      show win5_2.index t (0 : Fin 2) * 4000 + 1 * (j 0).val = win5_5.index t (0 : Fin 2) * 4000 + 1 * (j 0).val
      rw [e20, e50]
    | ⟨1, _⟩ =>
      show win5_2.index t (1 : Fin 2) * 1 + 1 * 0 = 0
      rw [e21]
  · unfold iblk5
    funext k
    rw [View.read_apply]
    show V c main_v42 (((cfg5.win 3).blk t).view.emb k) = V c main_v42 k
    refine congrArg _ (funext fun a => Fin.ext ?_)
    match a with
    | ⟨0, _⟩ => show win5_3.index t (0 : Fin 2) * 1 + 1 * (k 0).val = (k 0).val; rw [e30]; omega
    | ⟨1, _⟩ => show win5_3.index t (1 : Fin 2) * 128 + 1 * (k 1).val = (k 1).val; rw [e31]; omega
  · unfold iblk5
    funext k
    rw [View.read_apply]
    show V c main_v43 (((cfg5.win 4).blk t).view.emb k) = V c main_v43 k
    refine congrArg _ (funext fun a => Fin.ext ?_)
    match a with
    | ⟨0, _⟩ => show win5_4.index t (0 : Fin 2) * 1 + 1 * (k 0).val = (k 0).val; rw [e40]; omega
    | ⟨1, _⟩ => show win5_4.index t (1 : Fin 2) * 128 + 1 * (k 1).val = (k 1).val; rw [e41]; omega
  · show win5_5.index t (1 : Fin 2) * 128 + 1 * (j 1).val = (j 1).val
    rw [e51]; omega

/-- An index of the output array is in point `t`'s block iff each coordinate is in the block's range. -/
theorem mem_blk5 (t : Fin cfg5.N) (i : S100000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole main_v88).slice (win5_5.rect t)).set ↔ _
  rw [View.set_slice_whole, Rect.mem_set_unit]
  exact Iff.rfl

/-- Every index of the output array is in the block of the point its row falls in. -/
theorem cover5 (i : S100000x128.Idx) : ∃ t : Fin cfg5.N, (cfg5.win 5).flush t = true ∧ i ∈ ((cfg5.win 5).blk t).view.set := by
  have h0 : (i 0).val < 100000 := (i 0).isLt
  have h1 : (i 1).val < 128 := (i 1).isLt
  refine ⟨⟨(i 0).val / 4000, by show (i 0).val / 4000 < 25; omega⟩, flush5_5 _, ?_⟩
  rw [mem_blk5]
  obtain ⟨-, -, -, -, -, -, -, -, -, -, e50, e51⟩ := idx_facts5 ⟨(i 0).val / 4000, by show (i 0).val / 4000 < 25; omega⟩
  intro a
  match a with
  | ⟨0, _⟩ =>
    show win5_5.index _ (0 : Fin 2) * 4000 ≤ (i 0).val ∧ (i 0).val < win5_5.index _ (0 : Fin 2) * 4000 + 4000
    rw [e50]; show (i 0).val / 4000 * 4000 ≤ (i 0).val ∧ (i 0).val < (i 0).val / 4000 * 4000 + 4000; omega
  | ⟨1, _⟩ =>
    show win5_5.index _ (1 : Fin 2) * 128 ≤ (i 1).val ∧ (i 1).val < win5_5.index _ (1 : Fin 2) * 128 + 128
    rw [e51]; omega

/-- The buffers region 5's windows are over. -/
theorem arrRef5_0 : Pipeline.arrRef spec5 0 = main_v86 := rfl
theorem arrRef5_1 : Pipeline.arrRef spec5 1 = main_v76 := rfl
theorem arrRef5_2 : Pipeline.arrRef spec5 2 = main_v87 := rfl
theorem arrRef5_3 : Pipeline.arrRef spec5 3 = main_v42 := rfl
theorem arrRef5_4 : Pipeline.arrRef spec5 4 = main_v43 := rfl
theorem arrRef5_5 : Pipeline.arrRef spec5 5 = main_v88 := rfl

/-- Region 5: the output array after the region. -/
theorem region5_out (V : (c : Dev nD) → (b : Ref sig .tc) → Buf (Elt Ideal) ((c : Thread nD τ).loc b)) (c : Dev nD) :
    (dat5 (F := Ideal) V c).arrAt 5 cfg5.N
      = aggBnRelu (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5
    (aggBnRelu (V c main_v86) (V c main_v76) (V c main_v87) (V c main_v42) (V c main_v43))
    (fun t _ => flushed5_eq V c t) cover5

/-! ## Region 3: as region 5, with a residual added after the positive part -/

/-- Region 3's output as one function of the six arrays it reads: the summed neighbour rows, the node's own row, the
    node scaling, scale, shift and the residual rows. -/
abbrev aggBnReluRes (u p : Arr2 100000 128) (d : Arr2 100000 1) (s b : Arr2 1 128) (r : Arr2 100000 128) :
    Arr2 100000 128 := fun y =>
  max ((((u (ix2 ⟨(y 0).val, idx2_lt0 y⟩ ⟨(y 1).val, idx2_lt1 y⟩) + p (ix2 ⟨(y 0).val, idx2_lt0 y⟩ ⟨(y 1).val, idx2_lt1 y⟩))
        * d (ix2 ⟨(y 0).val, idx2_lt0 y⟩ (0 : Fin 1))) * s (ix2 (0 : Fin 1) ⟨(y 1).val, idx2_lt1 y⟩))
    + b (ix2 (0 : Fin 1) ⟨(y 1).val, idx2_lt1 y⟩)) 0
    + r (ix2 ⟨(y 0).val, idx2_lt0 y⟩ ⟨(y 1).val, idx2_lt1 y⟩)

/-- The body's arithmetic at one index of a block. -/
theorem pay3_apply (x0 x1 : Vec Ideal S4000x128 .f32) (x2 : Vec Ideal S4000x1 .f32) (x3 x4 : Vec Ideal S1x128 .f32)
    (x5 : Vec Ideal S4000x128 .f32) (p : Fin 4000) (q : Fin 128) :
    k3_pay1 x0 x1 x2 x3 x4 x5 (ix2 p q)
      = max ((((x0 (ix2 p q) + x1 (ix2 p q)) * x2 (ix2 p (0 : Fin 1))) * x3 (ix2 (0 : Fin 1) q)) + x4 (ix2 (0 : Fin 1) q)) (0 : EReal)
        + x5 (ix2 p q) := by
  unfold k3_pay1
  rw [addf_apply, maximumf_apply, addf_apply, mulf_apply, mulf_apply, addf_apply, broadcast_apply, shapeCast_self,
    shapeCast_self, shapeCast_self, shapeCast_self, shapeCast_self, shapeCast_self, broadcastTo_a1_ab_apply,
    broadcastTo_1b_ab_apply, broadcastTo_1b_ab_apply, scalar_zero]

/-- On blocks that are restrictions of the arrays, the body's result at `j` is `aggBnReluRes` at the array index `i`
    that `j` sits at. -/
theorem pay3_point (a0 a1 : Arr2 100000 128) (a2 : Arr2 100000 1) (a3 a4 : Arr2 1 128) (a5 : Arr2 100000 128)
    (x0 x1 : Vec Ideal S4000x128 .f32) (x2 : Vec Ideal S4000x1 .f32) (x3 x4 : Vec Ideal S1x128 .f32)
    (x5 : Vec Ideal S4000x128 .f32) (j : S4000x128.Idx) (i : S100000x128.Idx)
    (h0 : x0 j = a0 i) (h1 : x1 j = a1 i)
    (h2 : x2 (ix2 ⟨(j 0).val, idx2_lt0 j⟩ (0 : Fin 1)) = a2 (ix2 ⟨(i 0).val, idx2_lt0 i⟩ (0 : Fin 1)))
    (h3 : x3 = a3) (h4 : x4 = a4) (h5 : x5 j = a5 i) (hi : (i 1).val = (j 1).val) :
    k3_pay1 x0 x1 x2 x3 x4 x5 j = aggBnReluRes a0 a1 a2 a3 a4 a5 i := by
  subst h3 h4
  obtain ⟨p, q, rfl⟩ : ∃ (p : Fin 4000) (q : Fin 128), j = ix2 p q := ⟨j 0, j 1, eq_ix2 j⟩
  rw [pay3_apply, h0, h1, h5]
  have e : (⟨(i 1).val, idx2_lt1 i⟩ : Fin 128) = q := Fin.ext hi
  have h2' : x2 (ix2 p (0 : Fin 1)) = a2 (ix2 ⟨(i 0).val, idx2_lt0 i⟩ (0 : Fin 1)) := h2
  rw [h2']
  show _ = max ((((a0 (ix2 ⟨(i 0).val, idx2_lt0 i⟩ ⟨(i 1).val, idx2_lt1 i⟩) + a1 (ix2 ⟨(i 0).val, idx2_lt0 i⟩ ⟨(i 1).val, idx2_lt1 i⟩))
        * a2 (ix2 ⟨(i 0).val, idx2_lt0 i⟩ (0 : Fin 1))) * x3 (ix2 (0 : Fin 1) ⟨(i 1).val, idx2_lt1 i⟩))
    + x4 (ix2 (0 : Fin 1) ⟨(i 1).val, idx2_lt1 i⟩)) 0
    + a5 (ix2 ⟨(i 0).val, idx2_lt0 i⟩ ⟨(i 1).val, idx2_lt1 i⟩)
  rw [show ix2 (⟨(i 0).val, idx2_lt0 i⟩ : Fin 100000) (⟨(i 1).val, idx2_lt1 i⟩ : Fin 128) = i from (eq_ix2 i).symm, e]

/-- The windows' index maps over the grid: the row windows move with the point, the parameter windows stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at point `t` is the summed neighbour rows under the output's block. -/
theorem blk3_rows0 (V : (c : Dev nD) → (b : Ref sig .tc) → Buf (Elt Ideal) ((c : Thread nD τ).loc b)) (c : Dev nD) (t : Fin cfg3.N)
    (j : S4000x128.Idx) : iblk3 V c 0 t j = V c main_v72 (((cfg3.win 6).blk t).view.emb j) := by
  obtain ⟨e00, e01, -, -, -, -, -, -, -, -, -, -, e60, e61⟩ := idx_facts3 t
  unfold iblk3
  rw [View.read_apply]
  show V c main_v72 (((cfg3.win 0).blk t).view.emb j) = V c main_v72 (((cfg3.win 6).blk t).view.emb j)
  refine congrArg _ (funext fun a => Fin.ext ?_)
  match a with
  | ⟨0, _⟩ =>
    show win3_0.index t (0 : Fin 2) * 4000 + 1 * (j 0).val = win3_6.index t (0 : Fin 2) * 4000 + 1 * (j 0).val
    rw [e00, e60]
  | ⟨1, _⟩ =>
    show win3_0.index t (1 : Fin 2) * 128 + 1 * (j 1).val = win3_6.index t (1 : Fin 2) * 128 + 1 * (j 1).val
    rw [e01, e61]

/-- Window 1's block at point `t` is the nodes' own rows under the output's block. -/
theorem blk3_rows1 (V : (c : Dev nD) → (b : Ref sig .tc) → Buf (Elt Ideal) ((c : Thread nD τ).loc b)) (c : Dev nD) (t : Fin cfg3.N)
    (j : S4000x128.Idx) : iblk3 V c 1 t j = V c main_v62 (((cfg3.win 6).blk t).view.emb j) := by
  obtain ⟨-, -, e10, e11, -, -, -, -, -, -, -, -, e60, e61⟩ := idx_facts3 t
  unfold iblk3
  rw [View.read_apply]
  show V c main_v62 (((cfg3.win 1).blk t).view.emb j) = V c main_v62 (((cfg3.win 6).blk t).view.emb j)
  refine congrArg _ (funext fun a => Fin.ext ?_)
  match a with
  | ⟨0, _⟩ =>
    show win3_1.index t (0 : Fin 2) * 4000 + 1 * (j 0).val = win3_6.index t (0 : Fin 2) * 4000 + 1 * (j 0).val
    rw [e10, e60]
  | ⟨1, _⟩ =>
    show win3_1.index t (1 : Fin 2) * 128 + 1 * (j 1).val = win3_6.index t (1 : Fin 2) * 128 + 1 * (j 1).val
    rw [e11, e61]

/-- Window 2's block at point `t` is the node scaling of the rows under the output's block. -/
theorem blk3_col (V : (c : Dev nD) → (b : Ref sig .tc) → Buf (Elt Ideal) ((c : Thread nD τ).loc b)) (c : Dev nD) (t : Fin cfg3.N)
    (j : S4000x128.Idx) (i : S100000x128.Idx) (hi : i = ((cfg3.win 6).blk t).view.emb j) :
    iblk3 V c 2 t (ix2 ⟨(j 0).val, idx2_lt0 j⟩ (0 : Fin 1)) = V c main_v73 (ix2 ⟨(i 0).val, idx2_lt0 i⟩ (0 : Fin 1)) := by
  subst hi
  obtain ⟨-, -, -, -, e20, e21, -, -, -, -, -, -, e60, e61⟩ := idx_facts3 t
  unfold iblk3
  rw [View.read_apply]
  show V c main_v73 (((cfg3.win 2).blk t).view.emb (ix2 (⟨(j 0).val, idx2_lt0 j⟩ : Fin 4000) (0 : Fin 1))) = _
  refine congrArg _ (funext fun a => Fin.ext ?_)
  match a with
  | ⟨0, _⟩ =>
    show win3_2.index t (0 : Fin 2) * 4000 + 1 * (j 0).val = win3_6.index t (0 : Fin 2) * 4000 + 1 * (j 0).val
    rw [e20, e60]
  | ⟨1, _⟩ =>
    show win3_2.index t (1 : Fin 2) * 1 + 1 * 0 = 0
    rw [e21]

/-- Window 3's block at every point is the whole scale row. -/
theorem blk3_par3 (V : (c : Dev nD) → (b : Ref sig .tc) → Buf (Elt Ideal) ((c : Thread nD τ).loc b)) (c : Dev nD) (t : Fin cfg3.N) :
    iblk3 V c 3 t = V c main_v33 := by
  obtain ⟨-, -, -, -, -, -, e30, e31, -, -, -, -, -, -⟩ := idx_facts3 t
  unfold iblk3
  funext k
  rw [View.read_apply]
  show V c main_v33 (((cfg3.win 3).blk t).view.emb k) = V c main_v33 k
  refine congrArg _ (funext fun a => Fin.ext ?_)
  match a with
  | ⟨0, _⟩ => show win3_3.index t (0 : Fin 2) * 1 + 1 * (k 0).val = (k 0).val; rw [e30]; omega
  | ⟨1, _⟩ => show win3_3.index t (1 : Fin 2) * 128 + 1 * (k 1).val = (k 1).val; rw [e31]; omega

/-- Window 4's block at every point is the whole shift row. -/
theorem blk3_par4 (V : (c : Dev nD) → (b : Ref sig .tc) → Buf (Elt Ideal) ((c : Thread nD τ).loc b)) (c : Dev nD) (t : Fin cfg3.N) :
    iblk3 V c 4 t = V c main_v34 := by
  obtain ⟨-, -, -, -, -, -, -, -, e40, e41, -, -, -, -⟩ := idx_facts3 t
  unfold iblk3
  funext k
  rw [View.read_apply]
  show V c main_v34 (((cfg3.win 4).blk t).view.emb k) = V c main_v34 k
  refine congrArg _ (funext fun a => Fin.ext ?_)
  match a with
  | ⟨0, _⟩ => show win3_4.index t (0 : Fin 2) * 1 + 1 * (k 0).val = (k 0).val; rw [e40]; omega
  | ⟨1, _⟩ => show win3_4.index t (1 : Fin 2) * 128 + 1 * (k 1).val = (k 1).val; rw [e41]; omega

/-- Window 5's block at point `t` is the residual rows under the output's block. -/
theorem blk3_rows5 (V : (c : Dev nD) → (b : Ref sig .tc) → Buf (Elt Ideal) ((c : Thread nD τ).loc b)) (c : Dev nD) (t : Fin cfg3.N)
    (j : S4000x128.Idx) : iblk3 V c 5 t j = V c main_v60 (((cfg3.win 6).blk t).view.emb j) := by
  obtain ⟨-, -, -, -, -, -, -, -, -, -, e50, e51, e60, e61⟩ := idx_facts3 t
  unfold iblk3
  rw [View.read_apply]
  show V c main_v60 (((cfg3.win 5).blk t).view.emb j) = V c main_v60 (((cfg3.win 6).blk t).view.emb j)
  refine congrArg _ (funext fun a => Fin.ext ?_)
  match a with
  | ⟨0, _⟩ =>
    show win3_5.index t (0 : Fin 2) * 4000 + 1 * (j 0).val = win3_6.index t (0 : Fin 2) * 4000 + 1 * (j 0).val
    rw [e50, e60]
  | ⟨1, _⟩ =>
    show win3_5.index t (1 : Fin 2) * 128 + 1 * (j 1).val = win3_6.index t (1 : Fin 2) * 128 + 1 * (j 1).val
    rw [e51, e61]

/-- What point `t` writes back is block `t` of `aggBnReluRes` of the arrays the region finds. -/
theorem flushed3_eq (V : (c : Dev nD) → (b : Ref sig .tc) → Buf (Elt Ideal) ((c : Thread nD τ).loc b)) (c : Dev nD) (t : Fin cfg3.N) :
    (dat3 (F := Ideal) V c).flushed 6 t
      = ((cfg3.win 6).blk t).view.read (Elt Ideal)
          (aggBnReluRes (V c main_v72) (V c main_v62) (V c main_v73) (V c main_v33) (V c main_v34) (V c main_v60)) := by
  show (cfg3.win 6).cut (grid3.coords t) ((dat3 V c).after 6 t) = _
  rw [after3_6]
  unfold out3_6
  rw [View.canon_unit_zero zeros2]
  simp only [View.ld_unit_zero (S := S4000x128) zeros2, View.ld_unit_zero (S := S4000x1) zeros2,
    View.ld_unit_zero (S := S1x128) zeros2]
  funext j
  refine pay3_point (V c main_v72) (V c main_v62) (V c main_v73) (V c main_v33) (V c main_v34) (V c main_v60)
    (iblk3 V c 0 t) (iblk3 V c 1 t) (iblk3 V c 2 t) (iblk3 V c 3 t) (iblk3 V c 4 t) (iblk3 V c 5 t) j
    (((cfg3.win 6).blk t).view.emb j) (blk3_rows0 V c t j) (blk3_rows1 V c t j) (blk3_col V c t j _ rfl)
    (blk3_par3 V c t) (blk3_par4 V c t) (blk3_rows5 V c t j) ?_
  show win3_6.index t (1 : Fin 2) * 128 + 1 * (j 1).val = (j 1).val
  rw [(idx_facts3 t).2.2.2.2.2.2.2.2.2.2.2.2.2]; omega

/-- An index of the output array is in point `t`'s block iff each coordinate is in the block's range. -/
theorem mem_blk3 (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v74).slice (win3_6.rect t)).set ↔ _
  rw [View.set_slice_whole, Rect.mem_set_unit]
  exact Iff.rfl

/-- Every index of the output array is in the block of the point its row falls in. -/
theorem cover3 (i : S100000x128.Idx) : ∃ t : Fin cfg3.N, (cfg3.win 6).flush t = true ∧ i ∈ ((cfg3.win 6).blk t).view.set := by
  have h0 : (i 0).val < 100000 := (i 0).isLt
  have h1 : (i 1).val < 128 := (i 1).isLt
  refine ⟨⟨(i 0).val / 4000, by show (i 0).val / 4000 < 25; omega⟩, flush3_6 _, ?_⟩
  rw [mem_blk3]
  obtain ⟨-, -, -, -, -, -, -, -, -, -, -, -, e60, e61⟩ := idx_facts3 ⟨(i 0).val / 4000, by show (i 0).val / 4000 < 25; omega⟩
  intro a
  match a with
  | ⟨0, _⟩ =>
    show win3_6.index _ (0 : Fin 2) * 4000 ≤ (i 0).val ∧ (i 0).val < win3_6.index _ (0 : Fin 2) * 4000 + 4000
    rw [e60]; show (i 0).val / 4000 * 4000 ≤ (i 0).val ∧ (i 0).val < (i 0).val / 4000 * 4000 + 4000; omega
  | ⟨1, _⟩ =>
    show win3_6.index _ (1 : Fin 2) * 128 ≤ (i 1).val ∧ (i 1).val < win3_6.index _ (1 : Fin 2) * 128 + 128
    rw [e61]; omega

/-- The buffers region 3's windows are over. -/
theorem arrRef3_0 : Pipeline.arrRef spec3 0 = main_v72 := rfl
theorem arrRef3_1 : Pipeline.arrRef spec3 1 = main_v62 := rfl
theorem arrRef3_2 : Pipeline.arrRef spec3 2 = main_v73 := rfl
theorem arrRef3_3 : Pipeline.arrRef spec3 3 = main_v33 := rfl
theorem arrRef3_4 : Pipeline.arrRef spec3 4 = main_v34 := rfl
theorem arrRef3_5 : Pipeline.arrRef spec3 5 = main_v60 := rfl
theorem arrRef3_6 : Pipeline.arrRef spec3 6 = main_v74 := rfl

/-- Region 3: the output array after the region. -/
theorem region3_out (V : (c : Dev nD) → (b : Ref sig .tc) → Buf (Elt Ideal) ((c : Thread nD τ).loc b)) (c : Dev nD) :
    (dat3 (F := Ideal) V c).arrAt 6 cfg3.N
      = aggBnReluRes (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6
    (aggBnReluRes (V c main_v72) (V c main_v62) (V c main_v73) (V c main_v33) (V c main_v34) (V c main_v60))
    (fun t _ => flushed3_eq V c t) cover3

/-! ## The three functions by coordinates -/

/-- `bnRelu` as a matrix read by its two coordinates. -/
theorem bnRelu_eq_unc (x : Arr2 100000 128) (s b : Arr2 1 128) :
    bnRelu x s b = unc (fun i j => max (cur x i j * cur s 0 j + cur b 0 j) 0) := rfl

/-- `aggBnRelu` as a matrix read by its two coordinates. -/
theorem aggBnRelu_eq_unc (u p : Arr2 100000 128) (d : Arr2 100000 1) (s b : Arr2 1 128) :
    aggBnRelu u p d s b = unc (fun i j => max ((((cur u i j + cur p i j) * cur d i 0) * cur s 0 j) + cur b 0 j) 0) := rfl

/-- `aggBnReluRes` as a matrix read by its two coordinates. -/
theorem aggBnReluRes_eq_unc (u p : Arr2 100000 128) (d : Arr2 100000 1) (s b : Arr2 1 128) (r : Arr2 100000 128) :
    aggBnReluRes u p d s b r
      = unc (fun i j => max ((((cur u i j + cur p i j) * cur d i 0) * cur s 0 j) + cur b 0 j) 0 + cur r i j) := rfl

end Cert.Gcn.Ker

end
-- ==== Proof.KerRun.lean ====
/-
  The idealized kernel program's buffers along its run, in Spec's words.

  The run is a fold of buffer contents W0 … W16 through host stretches and pipelined regions. Writing A for the
  arguments as the launch memory holds them and d for the degree scaling the first stretch computes, the
  hidden-layer matmul regions leave (H Wt)[i,j] * d i, the stretch after each gathers those rows by the source
  words and adds them at the destination words, and the batch-norm regions add the node's own row, scale by d i once
  more and apply the folded affine map and the positive part: Spec's kerH1, kerH2, kerH3 in turn.
-/
import proofs.«110672_j48155173322903_2_alg».proof.Proof.Spec
import proofs.«110672_j48155173322903_2_alg».proof.Proof.KerKeep
import proofs.«110672_j48155173322903_2_alg».proof.Proof.KerRegionMM
import proofs.«110672_j48155173322903_2_alg».proof.Proof.KerOps
import proofs.«110672_j48155173322903_2_alg».proof.Proof.KerRegionBN

set_option maxRecDepth 16384

noncomputable section

namespace Cert.Gcn.Ker

open Cert.KernelIdeal Cert.KernelIdeal.Gen Idealize.ShloMosaic Idealize.ShloMosaic.StableHlo Idealize.ShloMosaic.ValueIdx
open Idealize.ShloMosaic.TcCoe

variable [hP : Cert.KernelIdeal.Facts]
variable (m : (ℓ : Loc nD τ sig) → Buf (Elt Ideal) ℓ) (ρ : Dev nD → PrngReg) (c : Dev nD)

/-- The arguments as the launch memory holds them. -/
def argsAt : Cert.Gcn.Args where
  x := m ((c.tc : Thread nD τ).loc main_arg0)
  ei := m ((c.tc : Thread nD τ).loc main_arg1)
  batch := m ((c.tc : Thread nD τ).loc main_arg2)
  W1 := m ((c.tc : Thread nD τ).loc main_arg3)
  p1 := ⟨m ((c.tc : Thread nD τ).loc main_arg4), m ((c.tc : Thread nD τ).loc main_arg5), m ((c.tc : Thread nD τ).loc main_arg6), m ((c.tc : Thread nD τ).loc main_arg7), m ((c.tc : Thread nD τ).loc main_arg8)⟩
  W2 := m ((c.tc : Thread nD τ).loc main_arg9)
  p2 := ⟨m ((c.tc : Thread nD τ).loc main_arg10), m ((c.tc : Thread nD τ).loc main_arg11), m ((c.tc : Thread nD τ).loc main_arg12), m ((c.tc : Thread nD τ).loc main_arg13), m ((c.tc : Thread nD τ).loc main_arg14)⟩
  W3 := m ((c.tc : Thread nD τ).loc main_arg15)
  p3 := ⟨m ((c.tc : Thread nD τ).loc main_arg16), m ((c.tc : Thread nD τ).loc main_arg17), m ((c.tc : Thread nD τ).loc main_arg18), m ((c.tc : Thread nD τ).loc main_arg19), m ((c.tc : Thread nD τ).loc main_arg20)⟩
  fc1w := m ((c.tc : Thread nD τ).loc main_arg21)
  fc1b := m ((c.tc : Thread nD τ).loc main_arg22)
  fc2w := m ((c.tc : Thread nD τ).loc main_arg23)
  fc2b := m ((c.tc : Thread nD τ).loc main_arg24)

/-- The degree scaling as the first stretch leaves it. -/
def dAt : Fin 100000 → EReal := cur1 (W2 m ρ c (Proc.devRef .tc main_v16))

/-- The scaling as a column, read at a row. -/
theorem col_apply (i : Fin 100000) :
    (shapeCast S100000x1 (W2 m ρ c (Proc.devRef .tc main_v16)) shapeCasts_S100000_S100000x1 : Arr2 100000 1) (ix2 i (0 : Fin 1)) = dAt m ρ c i :=
  disCol_apply _ i

/-! ## Glue over plain arrays -/

/-- Rows gathered by the source words and added at the destination words: the sum over the landing edges. -/
theorem agg_eq (ei : Edges) (sV dV : IVec S600000 32) (hs : ∀ e, sV (ix1 e) = srcW ei e) (hd : ∀ e, dV (ix1 e) = dstW ei e)
    (M : Mat 100000 128) (i : Fin 100000) (j : Fin 128) :
    aggOps128 sV dV (unc M) (ix2 i j) = edgeSum ei i (fun e => M (gIdx (srcW ei e)) j) := by
  rw [aggOps128_apply]
  unfold edgeSum
  simp only [hs, hd, unc_ix2]

/-- A hidden layer's convolution in the kernel arrangement, at one entry. -/
theorem kerConv_apply (ei : Edges) (d : Fin 100000 → EReal) (H : Mat 100000 128) (Wt : Mat 128 128) (i : Fin 100000) (j : Fin 128) :
    kerConv ei d H Wt i j
      = (edgeSum ei i (fun e => mm H Wt (gIdx (srcW ei e)) j * d (gIdx (srcW ei e))) + mm H Wt i j * d i) * d i := by
  unfold kerConv
  rfl

/-- A hidden layer's batch-norm region over its inputs, for any matrix C that the aggregated, rescaled input equals. -/
theorem aggBn_eq (C : Mat 100000 128) (p : BnP)
    (u pr : Arr2 100000 128) (col : Arr2 100000 1) (s t : Arr2 1 128)
    (hC : ∀ i j, (u (ix2 i j) + pr (ix2 i j)) * col (ix2 i (0 : Fin 1)) = C i j)
    (hs : ∀ j, s (ix2 (0 : Fin 1) j) = p.g (ix1 j) * rstd (p.v (ix1 j)))
    (ht : ∀ j, t (ix2 (0 : Fin 1) j) = (p.b (ix1 j) - p.m (ix1 j)) * (p.g (ix1 j) * rstd (p.v (ix1 j))) + p.β (ix1 j)) :
    aggBnRelu u pr col s t = unc (bnApply kerBn C p) := by
  funext y
  obtain ⟨i, j, rfl⟩ : ∃ (i : Fin 100000) (j : Fin 128), y = ix2 i j := ⟨y 0, y 1, eq_ix2 y⟩
  rw [unc_ix2]
  show max ((((u (ix2 i j) + pr (ix2 i j)) * col (ix2 i (0 : Fin 1))) * s (ix2 (0 : Fin 1) j)) + t (ix2 (0 : Fin 1) j)) 0 = _
  rw [hC, hs, ht]
  simp only [bnApply, kerBn]

/-- The aggregated, rescaled input of a hidden layer is Spec's kernel convolution. -/
theorem conv_eq (ei : Edges) (d : Fin 100000 → EReal) (H : Mat 100000 128) (Wt : Mat 128 128)
    (u pr : Arr2 100000 128) (col : Arr2 100000 1)
    (hu : ∀ i j, u (ix2 i j) = edgeSum ei i (fun e => mm H Wt (gIdx (srcW ei e)) j * d (gIdx (srcW ei e))))
    (hpr : ∀ i j, pr (ix2 i j) = mm H Wt i j * d i)
    (hcol : ∀ i, col (ix2 i (0 : Fin 1)) = d i) (i : Fin 100000) (j : Fin 128) :
    (u (ix2 i j) + pr (ix2 i j)) * col (ix2 i (0 : Fin 1)) = kerConv ei d H Wt i j := by
  rw [hu, hpr, hcol, kerConv_apply]

/-- The first layer's batch-norm region. -/
theorem bn_eq (C : Mat 100000 128) (p : BnP) (a : Arr2 100000 128) (s t : Arr2 1 128)
    (ha : a = unc C)
    (hs : ∀ j, s (ix2 (0 : Fin 1) j) = p.g (ix1 j) * rstd (p.v (ix1 j)))
    (ht : ∀ j, t (ix2 (0 : Fin 1) j) = (p.b (ix1 j) - p.m (ix1 j)) * (p.g (ix1 j) * rstd (p.v (ix1 j))) + p.β (ix1 j)) :
    bnRelu a s t = unc (bnApply kerBn C p) := by
  subst ha
  funext y
  obtain ⟨i, j, rfl⟩ : ∃ (i : Fin 100000) (j : Fin 128), y = ix2 i j := ⟨y 0, y 1, eq_ix2 y⟩
  rw [unc_ix2]
  show max (unc C (ix2 i j) * s (ix2 (0 : Fin 1) j) + t (ix2 (0 : Fin 1) j)) 0 = _
  rw [hs, ht, unc_ix2]
  simp only [bnApply, kerBn]

/-! ## What the first stretches leave, as hypotheses of the layers

The layers below are stated under the facts the first three host stretches establish (proved where those stretches are read):
the source and destination words, the folded slope and intercept rows, the aggregated scaled input and the column. -/

/-- The facts about the region-0 entry contents the layers use. -/
structure Entry : Prop where
  src : ∀ e, (W2 m ρ c (Proc.devRef .tc main_v2) : IVec S600000 32) (ix1 e) = srcW (argsAt m c).ei e
  dst : ∀ e, (W2 m ρ c (Proc.devRef .tc main_v4) : IVec S600000 32) (ix1 e) = dstW (argsAt m c).ei e
  s1 : ∀ j, (W3 m ρ c (Proc.devRef .tc main_v24) : Arr2 1 128) (ix2 (0 : Fin 1) j) = (argsAt m c).p1.g (ix1 j) * rstd ((argsAt m c).p1.v (ix1 j))
  t1 : ∀ j, (W3 m ρ c (Proc.devRef .tc main_v25) : Arr2 1 128) (ix2 (0 : Fin 1) j) = ((argsAt m c).p1.b (ix1 j) - (argsAt m c).p1.m (ix1 j)) * ((argsAt m c).p1.g (ix1 j) * rstd ((argsAt m c).p1.v (ix1 j))) + (argsAt m c).p1.β (ix1 j)
  s2 : ∀ j, (W3 m ρ c (Proc.devRef .tc main_v33) : Arr2 1 128) (ix2 (0 : Fin 1) j) = (argsAt m c).p2.g (ix1 j) * rstd ((argsAt m c).p2.v (ix1 j))
  t2 : ∀ j, (W3 m ρ c (Proc.devRef .tc main_v34) : Arr2 1 128) (ix2 (0 : Fin 1) j) = ((argsAt m c).p2.b (ix1 j) - (argsAt m c).p2.m (ix1 j)) * ((argsAt m c).p2.g (ix1 j) * rstd ((argsAt m c).p2.v (ix1 j))) + (argsAt m c).p2.β (ix1 j)
  s3 : ∀ j, (W3 m ρ c (Proc.devRef .tc main_v42) : Arr2 1 128) (ix2 (0 : Fin 1) j) = (argsAt m c).p3.g (ix1 j) * rstd ((argsAt m c).p3.v (ix1 j))
  t3 : ∀ j, (W3 m ρ c (Proc.devRef .tc main_v43) : Arr2 1 128) (ix2 (0 : Fin 1) j) = ((argsAt m c).p3.b (ix1 j) - (argsAt m c).p3.m (ix1 j)) * ((argsAt m c).p3.g (ix1 j) * rstd ((argsAt m c).p3.v (ix1 j))) + (argsAt m c).p3.β (ix1 j)
  agg : ∀ i k, (W3 m ρ c (Proc.devRef .tc main_v57) : Arr2 100000 64) (ix2 i k)
      = edgeSum (argsAt m c).ei i (fun e => (argsAt m c).x (ix2 (gIdx (srcW (argsAt m c).ei e)) k) * dAt m ρ c (gIdx (srcW (argsAt m c).ei e)))
        + (argsAt m c).x (ix2 i k) * dAt m ρ c i
  col : W3 m ρ c (Proc.devRef .tc main_v58) = shapeCast S100000x1 (W2 m ρ c (Proc.devRef .tc main_v16)) shapeCasts_S100000_S100000x1

/-- The second layer's matmul region: from the first layer's result, (H1 W2)[i,j] * d i. -/
theorem pre2 (h1 : W5 m ρ c (Proc.devRef .tc main_v60) = unc (kerH1 (argsAt m c) (dAt m ρ c))) :
    W7 m ρ c (Proc.devRef .tc main_v62)
      = unc (fun i j => mm (kerH1 (argsAt m c) (dAt m ρ c)) (cur (argsAt m c).W2) i j * dAt m ρ c i) := by
  have e60 : V6 m ρ c main_v60 = unc (kerH1 (argsAt m c) (dAt m ρ c)) := (keep_v60_5_6 m ρ c).trans h1
  have e9 : V6 m ρ c main_arg9 = (argsAt m c).W2 := ((keep_arg9_2_6 m ρ c).trans (keep_arg9_0_2 m ρ c)).trans (W0_eq m ρ c main_arg9)
  have e61 : V6 m ρ c main_v61 = shapeCast S100000x1 (W2 m ρ c (Proc.devRef .tc main_v16)) shapeCasts_S100000_S100000x1 :=
    (stretch2_dis (W5 m ρ c)).trans (congrArg (fun v => shapeCast S100000x1 v shapeCasts_S100000_S100000x1) (keep_v16_2_5 m ρ c))
  refine (W7_arr m ρ c 3).trans ((region2_out (V6 m ρ) c).trans ?_)
  rw [e60, e9, e61, mmScale_eq_unc]
  funext y
  show mm (cur (unc (kerH1 (argsAt m c) (dAt m ρ c)))) (cur (argsAt m c).W2) _ _ * _ = mm _ _ _ _ * _
  rw [cur_unc, col_apply]

variable {m ρ c}

/-! ## The first layer -/

/-- Region 0: the aggregated scaled input times the first weight, scaled by d i. -/
theorem conv1 (hE : Entry m ρ c) :
    W4 m ρ c (Proc.devRef .tc main_v59) = unc (kerConvIn (argsAt m c).ei (dAt m ρ c) (cur (argsAt m c).x) (cur (argsAt m c).W1)) := by
  have e3 : V3 m ρ c main_arg3 = (argsAt m c).W1 := ((keep_arg3_2_3 m ρ c).trans (keep_arg3_0_2 m ρ c)).trans (W0_eq m ρ c main_arg3)
  have e58 : V3 m ρ c main_v58 = shapeCast S100000x1 (W2 m ρ c (Proc.devRef .tc main_v16)) shapeCasts_S100000_S100000x1 := hE.col
  have e57 : V3 m ρ c main_v57 = unc (fun i k => edgeSum (argsAt m c).ei i (fun e => (argsAt m c).x (ix2 (gIdx (srcW (argsAt m c).ei e)) k) * dAt m ρ c (gIdx (srcW (argsAt m c).ei e))) + (argsAt m c).x (ix2 i k) * dAt m ρ c i) := by
    funext y
    obtain ⟨i, k, rfl⟩ : ∃ (i : Fin 100000) (k : Fin 64), y = ix2 i k := ⟨y 0, y 1, eq_ix2 y⟩
    exact hE.agg i k
  refine (W4_arr m ρ c 3).trans ((region0_out (V3 m ρ) c).trans ?_)
  rw [e3, e58, e57]
  funext y
  obtain ⟨i, j, rfl⟩ : ∃ (i : Fin 100000) (j : Fin 128), y = ix2 i j := ⟨y 0, y 1, eq_ix2 y⟩
  rw [mmScale_ix2, unc_ix2, col_apply]
  simp only [unc_ix2, kerConvIn, cur]

/-- Region 1: the folded affine map and the positive part: the first layer. -/
theorem layer1 (hE : Entry m ρ c) :
    W5 m ρ c (Proc.devRef .tc main_v60) = unc (kerH1 (argsAt m c) (dAt m ρ c)) := by
  have e59 : V4 m ρ c (Pipeline.arrRef spec1 0) = unc (kerConvIn (argsAt m c).ei (dAt m ρ c) (cur (argsAt m c).x) (cur (argsAt m c).W1)) := conv1 hE
  have e24 : V4 m ρ c (Pipeline.arrRef spec1 1) = W3 m ρ c (Proc.devRef .tc main_v24) := keep_v24_3_4 m ρ c
  have e25 : V4 m ρ c (Pipeline.arrRef spec1 2) = W3 m ρ c (Proc.devRef .tc main_v25) := keep_v25_3_4 m ρ c
  refine (W5_arr m ρ c 3).trans ((region1_out (V4 m ρ) c).trans ?_)
  rw [e24, e25]
  exact bn_eq _ (argsAt m c).p1 _ _ _ e59 hE.s1 hE.t1

/-! ## The hidden layers' shared steps -/

/-- The source and destination words reach every later stretch unchanged. -/
theorem src7 (hE : Entry m ρ c) (e : Fin 600000) : (W7 m ρ c (Proc.devRef .tc main_v2) : IVec S600000 32) (ix1 e) = srcW (argsAt m c).ei e := by
  rw [keep_v2_2_7 m ρ c]; exact hE.src e
theorem dst7 (hE : Entry m ρ c) (e : Fin 600000) : (W7 m ρ c (Proc.devRef .tc main_v4) : IVec S600000 32) (ix1 e) = dstW (argsAt m c).ei e := by
  rw [keep_v4_2_7 m ρ c]; exact hE.dst e
theorem src11 (hE : Entry m ρ c) (e : Fin 600000) : (W11 m ρ c (Proc.devRef .tc main_v2) : IVec S600000 32) (ix1 e) = srcW (argsAt m c).ei e := by
  rw [keep_v2_7_11 m ρ c]; exact src7 hE e
theorem dst11 (hE : Entry m ρ c) (e : Fin 600000) : (W11 m ρ c (Proc.devRef .tc main_v4) : IVec S600000 32) (ix1 e) = dstW (argsAt m c).ei e := by
  rw [keep_v4_7_11 m ρ c]; exact dst7 hE e

/-! ## The second layer -/

set_option maxHeartbeats 2000000 in
/-- Region 3: the second layer, with its residual connection. -/
theorem layer2 (hE : Entry m ρ c) (h1 : W5 m ρ c (Proc.devRef .tc main_v60) = unc (kerH1 (argsAt m c) (dAt m ρ c))) :
    W9 m ρ c (Proc.devRef .tc main_v74) = unc (kerH2 (argsAt m c) (dAt m ρ c)) := by
  have e62 : W7 m ρ c (Proc.devRef .tc main_v62) = unc (fun i j => mm (kerH1 (argsAt m c) (dAt m ρ c)) (cur (argsAt m c).W2) i j * dAt m ρ c i) := pre2 m ρ c h1
  have u : V8 m ρ c main_v72 = aggOps128 (W7 m ρ c (Proc.devRef .tc main_v2)) (W7 m ρ c (Proc.devRef .tc main_v4)) (W7 m ρ c (Proc.devRef .tc main_v62)) :=
    stretch3_scat (W7 m ρ c)
  have p : V8 m ρ c main_v62 = W7 m ρ c (Proc.devRef .tc main_v62) := keep_v62_7_8 m ρ c
  have col : V8 m ρ c main_v73 = shapeCast S100000x1 (W2 m ρ c (Proc.devRef .tc main_v16)) shapeCasts_S100000_S100000x1 :=
    (stretch3_dis (W7 m ρ c)).trans (congrArg (fun v => shapeCast S100000x1 v shapeCasts_S100000_S100000x1)
      ((keep_v16_5_7 m ρ c).trans (keep_v16_2_5 m ρ c)))
  have s : V8 m ρ c main_v33 = W3 m ρ c (Proc.devRef .tc main_v33) := keep_v33_3_8 m ρ c
  have t : V8 m ρ c main_v34 = W3 m ρ c (Proc.devRef .tc main_v34) := keep_v34_3_8 m ρ c
  have r : V8 m ρ c main_v60 = unc (kerH1 (argsAt m c) (dAt m ρ c)) :=
    ((keep_v60_6_8 m ρ c).trans (keep_v60_5_6 m ρ c)).trans h1
  have u' : V8 m ρ c main_v72 = aggOps128 (W7 m ρ c (Proc.devRef .tc main_v2)) (W7 m ρ c (Proc.devRef .tc main_v4))
      (unc (fun i j => mm (kerH1 (argsAt m c) (dAt m ρ c)) (cur (argsAt m c).W2) i j * dAt m ρ c i)) :=
    u.trans (congrArg (aggOps128 (W7 m ρ c (Proc.devRef .tc main_v2)) (W7 m ρ c (Proc.devRef .tc main_v4))) e62)
  have hreg : (dat3 (F := Ideal) (V8 m ρ) c).arrAt 6 cfg3.N
      = aggBnReluRes (V8 m ρ c main_v72) (V8 m ρ c main_v62) (V8 m ρ c main_v73) (V8 m ρ c main_v33) (V8 m ρ c main_v34) (V8 m ρ c main_v60) :=
    region3_out (V8 m ρ) c
  refine (W9_arr m ρ c 6).trans (hreg.trans ?_)
  refine (congr (congr (congr (congr (congr (congrArg aggBnReluRes u') (p.trans e62)) col) s) t) r).trans ?_
  have hb := aggBn_eq (kerConv (argsAt m c).ei (dAt m ρ c) (kerH1 (argsAt m c) (dAt m ρ c)) (cur (argsAt m c).W2)) (argsAt m c).p2
    (aggOps128 (W7 m ρ c (Proc.devRef .tc main_v2)) (W7 m ρ c (Proc.devRef .tc main_v4))
      (unc (fun i j => mm (kerH1 (argsAt m c) (dAt m ρ c)) (cur (argsAt m c).W2) i j * dAt m ρ c i)))
    (unc (fun i j => mm (kerH1 (argsAt m c) (dAt m ρ c)) (cur (argsAt m c).W2) i j * dAt m ρ c i))
    (shapeCast S100000x1 (W2 m ρ c (Proc.devRef .tc main_v16)) shapeCasts_S100000_S100000x1)
    (W3 m ρ c (Proc.devRef .tc main_v33)) (W3 m ρ c (Proc.devRef .tc main_v34))
    (conv_eq (argsAt m c).ei (dAt m ρ c) (kerH1 (argsAt m c) (dAt m ρ c)) (cur (argsAt m c).W2) _ _ _
      (fun i j => agg_eq (argsAt m c).ei _ _ (src7 hE) (dst7 hE) _ i j)
      (fun i j => unc_ix2 _ i j) (fun i => col_apply m ρ c i))
    hE.s2 hE.t2
  funext y
  obtain ⟨i, j, rfl⟩ : ∃ (i : Fin 100000) (j : Fin 128), y = ix2 i j := ⟨y 0, y 1, eq_ix2 y⟩
  have hb' := congrFun hb (ix2 i j)
  show aggBnRelu _ _ _ _ _ (ix2 i j) + unc (kerH1 (argsAt m c) (dAt m ρ c)) (ix2 i j) = _
  rw [hb']
  simp only [unc_ix2, kerH2]

/-! ## The third layer -/

/-- Region 4: from the second layer's result, (H2 W3)[i,j] * d i. -/
theorem pre3 (h2 : W9 m ρ c (Proc.devRef .tc main_v74) = unc (kerH2 (argsAt m c) (dAt m ρ c))) :
    W11 m ρ c (Proc.devRef .tc main_v76)
      = unc (fun i j => mm (kerH2 (argsAt m c) (dAt m ρ c)) (cur (argsAt m c).W3) i j * dAt m ρ c i) := by
  have e74 : V10 m ρ c main_v74 = unc (kerH2 (argsAt m c) (dAt m ρ c)) := (keep_v74_9_10 m ρ c).trans h2
  have e15 : V10 m ρ c main_arg15 = (argsAt m c).W3 := ((keep_arg15_2_10 m ρ c).trans (keep_arg15_0_2 m ρ c)).trans (W0_eq m ρ c main_arg15)
  have e75 : V10 m ρ c main_v75 = shapeCast S100000x1 (W2 m ρ c (Proc.devRef .tc main_v16)) shapeCasts_S100000_S100000x1 :=
    (stretch4_dis (W9 m ρ c)).trans (congrArg (fun v => shapeCast S100000x1 v shapeCasts_S100000_S100000x1)
      (((keep_v16_7_9 m ρ c).trans (keep_v16_5_7 m ρ c)).trans (keep_v16_2_5 m ρ c)))
  refine (W11_arr m ρ c 3).trans ((region4_out (V10 m ρ) c).trans ?_)
  rw [e74, e15, e75, mmScale_eq_unc]
  funext y
  show mm (cur (unc (kerH2 (argsAt m c) (dAt m ρ c)))) (cur (argsAt m c).W3) _ _ * _ = mm _ _ _ _ * _
  rw [cur_unc, col_apply]

set_option maxHeartbeats 2000000 in
/-- Region 5: the third layer. -/
theorem layer3 (hE : Entry m ρ c) (h2 : W9 m ρ c (Proc.devRef .tc main_v74) = unc (kerH2 (argsAt m c) (dAt m ρ c))) :
    W13 m ρ c (Proc.devRef .tc main_v88) = unc (kerH3 (argsAt m c) (dAt m ρ c)) := by
  have e76 : W11 m ρ c (Proc.devRef .tc main_v76) = unc (fun i j => mm (kerH2 (argsAt m c) (dAt m ρ c)) (cur (argsAt m c).W3) i j * dAt m ρ c i) := pre3 h2
  have u : V12 m ρ c main_v86 = aggOps128 (W11 m ρ c (Proc.devRef .tc main_v2)) (W11 m ρ c (Proc.devRef .tc main_v4)) (W11 m ρ c (Proc.devRef .tc main_v76)) :=
    stretch5_scat (W11 m ρ c)
  have p : V12 m ρ c main_v76 = W11 m ρ c (Proc.devRef .tc main_v76) := keep_v76_11_12 m ρ c
  have col : V12 m ρ c main_v87 = shapeCast S100000x1 (W2 m ρ c (Proc.devRef .tc main_v16)) shapeCasts_S100000_S100000x1 :=
    (stretch5_dis (W11 m ρ c)).trans (congrArg (fun v => shapeCast S100000x1 v shapeCasts_S100000_S100000x1)
      ((((keep_v16_9_11 m ρ c).trans (keep_v16_7_9 m ρ c)).trans (keep_v16_5_7 m ρ c)).trans (keep_v16_2_5 m ρ c)))
  have s : V12 m ρ c main_v42 = W3 m ρ c (Proc.devRef .tc main_v42) := keep_v42_3_12 m ρ c
  have t : V12 m ρ c main_v43 = W3 m ρ c (Proc.devRef .tc main_v43) := keep_v43_3_12 m ρ c
  have u' : V12 m ρ c main_v86 = aggOps128 (W11 m ρ c (Proc.devRef .tc main_v2)) (W11 m ρ c (Proc.devRef .tc main_v4))
      (unc (fun i j => mm (kerH2 (argsAt m c) (dAt m ρ c)) (cur (argsAt m c).W3) i j * dAt m ρ c i)) :=
    u.trans (congrArg (aggOps128 (W11 m ρ c (Proc.devRef .tc main_v2)) (W11 m ρ c (Proc.devRef .tc main_v4))) e76)
  have hreg : (dat5 (F := Ideal) (V12 m ρ) c).arrAt 5 cfg5.N
      = aggBnRelu (V12 m ρ c main_v86) (V12 m ρ c main_v76) (V12 m ρ c main_v87) (V12 m ρ c main_v42) (V12 m ρ c main_v43) :=
    region5_out (V12 m ρ) c
  refine (W13_arr m ρ c 5).trans (hreg.trans ?_)
  refine (congr (congr (congr (congr (congrArg aggBnRelu u') (p.trans e76)) col) s) t).trans ?_
  exact aggBn_eq (kerConv (argsAt m c).ei (dAt m ρ c) (kerH2 (argsAt m c) (dAt m ρ c)) (cur (argsAt m c).W3)) (argsAt m c).p3 _ _ _ _ _
    (conv_eq (argsAt m c).ei (dAt m ρ c) (kerH2 (argsAt m c) (dAt m ρ c)) (cur (argsAt m c).W3) _ _ _
      (fun i j => agg_eq (argsAt m c).ei _ _ (src11 hE) (dst11 hE) _ i j)
      (fun i j => unc_ix2 _ i j) (fun i => col_apply m ρ c i))
    hE.s3 hE.t3

end Cert.Gcn.Ker

end
-- ==== Proof.KerStart.lean ====
/-
  The kernel's first long host stretch, read as equations on buffer contents.

  Before its first region the kernel prepares, on the host side and from any starting contents W:
    the folded batch-normalisation rows of each of the three layers: the slope g * rsqrt (v + eps) and the intercept
      (b - m) * slope + β, each computed as a vector of 128 entries and reshaped to a row;
    the scaled input xs = x * d, every row of the input times its node's degree scaling d;
    the aggregate of xs over the real edges (the rows of xs read at the wrapped source words, added onto a zero matrix at
      the destination words) plus xs itself, which is the node's own row for the self loop;
    the degree scaling as a column.
  Every buffer of the stretch is written once, so the final contents satisfy one equation per operation; chaining the
  equations expresses each prepared buffer, entry by entry, through the starting contents of the buffers the stretch
  only reads: the arguments, the source and destination words and the degree scaling.
-/
import proofs.«110672_j48155173322903_2_alg».proof.Proof.Spec
import proofs.«110672_j48155173322903_2_alg».proof.Proof.LibSsa
import proofs.«110672_j48155173322903_2_alg».proof.Proof.Gen.KernelIdeal.Launch
import proofs.«110672_j48155173322903_2_alg».proof.Proof.KerOps
import Idealize.ShloMosaic.Lib.ValueIdx
import Idealize.ShloMosaic.Lib.ValueLayout
import Idealize.ShloMosaic.Lib.Pipeline.Value

set_option maxRecDepth 16384

noncomputable section

open scoped BigOperators

namespace Cert.Gcn.Ker

open Cert.KernelIdeal Cert.KernelIdeal.Gen Idealize.ShloMosaic Idealize.ShloMosaic.StableHlo Idealize.ShloMosaic.ValueIdx

variable [hP : Cert.KernelIdeal.Facts]

/-- The buffer each operation of the list writes, in order. -/
abbrev written0_2 : List (Ref sig .tc) :=
  [main_cst_4, main_v17, main_v18, main_v19, main_v20, main_v21, main_v22, main_v23, main_v24, main_v25, main_cst_5, main_v26, main_v27, main_v28, main_v29, main_v30, main_v31, main_v32, main_v33, main_v34, main_cst_6, main_v35, main_v36, main_v37, main_v38, main_v39, main_v40, main_v41, main_v42, main_v43, main_v44, main_v45, main_v46, main_c, main_v47, main_v48, main_c_7, main_v49, main_v50, main_v51, main_v52, main_v53, main_cst_8, main_v54, main_v55, main_v56, main_v57, main_v58]

/-- Each operation writes exactly the buffer `written0_2` names at its position. -/
theorem writesOnly0_2 : Ssa.WritesOnly (hostOps0_2 (F := Ideal)) written0_2 := by
  repeat' constructor

/-- The contents the stretch leaves, from starting contents `W`. -/
local notation "start2" => StableHlo.after (hostOps0_2 (F := Ideal))

/-! ## One equation per operation -/

namespace Start2

theorem eq_cst_4 (W : Valuation τ sig (Elt Ideal)) :
    @Eq (FVec Ideal S_ .f32) (start2 W (Proc.devRef .tc main_cst_4))
      (constant S_ .f32 0x3727C5AC#32) :=
  Ssa.ssa_nullary hostOps0_2 written0_2 writesOnly0_2 W 0 main_cst_4 _ _ rfl (by decide)

theorem eq_v17 (W : Valuation τ sig (Elt Ideal)) :
    @Eq (FVec Ideal S128 .f32) (start2 W (Proc.devRef .tc main_v17))
      ((broadcastInDim S128 ![] bcast_S_S128) (by exact start2 W (Proc.devRef .tc main_cst_4) : FVec Ideal S_ .f32)) :=
  Ssa.ssa_unary hostOps0_2 written0_2 writesOnly0_2 W 1 main_cst_4 main_v17 _ _ _ rfl (by decide) (by decide)

theorem eq_v18 (W : Valuation τ sig (Elt Ideal)) :
    @Eq (FVec Ideal S128 .f32) (start2 W (Proc.devRef .tc main_v18))
      (addf (by exact start2 W (Proc.devRef .tc main_arg8) : FVec Ideal S128 .f32) (by exact start2 W (Proc.devRef .tc main_v17) : FVec Ideal S128 .f32)) :=
  Ssa.ssa_binary hostOps0_2 written0_2 writesOnly0_2 W 2 main_arg8 main_v17 main_v18 _ _ _ _ rfl (by decide) (by decide) (by decide)

theorem eq_v19 (W : Valuation τ sig (Elt Ideal)) :
    @Eq (FVec Ideal S128 .f32) (start2 W (Proc.devRef .tc main_v19))
      (Host.rsqrt (by exact start2 W (Proc.devRef .tc main_v18) : FVec Ideal S128 .f32)) :=
  Ssa.ssa_unary hostOps0_2 written0_2 writesOnly0_2 W 3 main_v18 main_v19 _ _ _ rfl (by decide) (by decide)

theorem eq_v20 (W : Valuation τ sig (Elt Ideal)) :
    @Eq (FVec Ideal S128 .f32) (start2 W (Proc.devRef .tc main_v20))
      (mulf (by exact start2 W (Proc.devRef .tc main_arg5) : FVec Ideal S128 .f32) (by exact start2 W (Proc.devRef .tc main_v19) : FVec Ideal S128 .f32)) :=
  Ssa.ssa_binary hostOps0_2 written0_2 writesOnly0_2 W 4 main_arg5 main_v19 main_v20 _ _ _ _ rfl (by decide) (by decide) (by decide)

theorem eq_v21 (W : Valuation τ sig (Elt Ideal)) :
    @Eq (FVec Ideal S128 .f32) (start2 W (Proc.devRef .tc main_v21))
      (subf (by exact start2 W (Proc.devRef .tc main_arg4) : FVec Ideal S128 .f32) (by exact start2 W (Proc.devRef .tc main_arg7) : FVec Ideal S128 .f32)) :=
  Ssa.ssa_binary hostOps0_2 written0_2 writesOnly0_2 W 5 main_arg4 main_arg7 main_v21 _ _ _ _ rfl (by decide) (by decide) (by decide)

theorem eq_v22 (W : Valuation τ sig (Elt Ideal)) :
    @Eq (FVec Ideal S128 .f32) (start2 W (Proc.devRef .tc main_v22))
      (mulf (by exact start2 W (Proc.devRef .tc main_v21) : FVec Ideal S128 .f32) (by exact start2 W (Proc.devRef .tc main_v20) : FVec Ideal S128 .f32)) :=
  Ssa.ssa_binary hostOps0_2 written0_2 writesOnly0_2 W 6 main_v21 main_v20 main_v22 _ _ _ _ rfl (by decide) (by decide) (by decide)

theorem eq_v23 (W : Valuation τ sig (Elt Ideal)) :
    @Eq (FVec Ideal S128 .f32) (start2 W (Proc.devRef .tc main_v23))
      (addf (by exact start2 W (Proc.devRef .tc main_v22) : FVec Ideal S128 .f32) (by exact start2 W (Proc.devRef .tc main_arg6) : FVec Ideal S128 .f32)) :=
  Ssa.ssa_binary hostOps0_2 written0_2 writesOnly0_2 W 7 main_v22 main_arg6 main_v23 _ _ _ _ rfl (by decide) (by decide) (by decide)

theorem eq_v24 (W : Valuation τ sig (Elt Ideal)) :
    @Eq (FVec Ideal S1x128 .f32) (start2 W (Proc.devRef .tc main_v24))
      (shapeCast S1x128 (by exact start2 W (Proc.devRef .tc main_v20) : FVec Ideal S128 .f32) shapeCasts_S128_S1x128) :=
  Ssa.ssa_reshape hostOps0_2 written0_2 writesOnly0_2 W 8 main_v20 main_v24 rfl _ _ _ rfl (by decide) (by decide)

theorem eq_v25 (W : Valuation τ sig (Elt Ideal)) :
    @Eq (FVec Ideal S1x128 .f32) (start2 W (Proc.devRef .tc main_v25))
      (shapeCast S1x128 (by exact start2 W (Proc.devRef .tc main_v23) : FVec Ideal S128 .f32) shapeCasts_S128_S1x128) :=
  Ssa.ssa_reshape hostOps0_2 written0_2 writesOnly0_2 W 9 main_v23 main_v25 rfl _ _ _ rfl (by decide) (by decide)

theorem eq_cst_5 (W : Valuation τ sig (Elt Ideal)) :
    @Eq (FVec Ideal S_ .f32) (start2 W (Proc.devRef .tc main_cst_5))
      (constant S_ .f32 0x3727C5AC#32) :=
  Ssa.ssa_nullary hostOps0_2 written0_2 writesOnly0_2 W 10 main_cst_5 _ _ rfl (by decide)

theorem eq_v26 (W : Valuation τ sig (Elt Ideal)) :
    @Eq (FVec Ideal S128 .f32) (start2 W (Proc.devRef .tc main_v26))
      ((broadcastInDim S128 ![] bcast_S_S128) (by exact start2 W (Proc.devRef .tc main_cst_5) : FVec Ideal S_ .f32)) :=
  Ssa.ssa_unary hostOps0_2 written0_2 writesOnly0_2 W 11 main_cst_5 main_v26 _ _ _ rfl (by decide) (by decide)

theorem eq_v27 (W : Valuation τ sig (Elt Ideal)) :
    @Eq (FVec Ideal S128 .f32) (start2 W (Proc.devRef .tc main_v27))
      (addf (by exact start2 W (Proc.devRef .tc main_arg14) : FVec Ideal S128 .f32) (by exact start2 W (Proc.devRef .tc main_v26) : FVec Ideal S128 .f32)) :=
  Ssa.ssa_binary hostOps0_2 written0_2 writesOnly0_2 W 12 main_arg14 main_v26 main_v27 _ _ _ _ rfl (by decide) (by decide) (by decide)

theorem eq_v28 (W : Valuation τ sig (Elt Ideal)) :
    @Eq (FVec Ideal S128 .f32) (start2 W (Proc.devRef .tc main_v28))
      (Host.rsqrt (by exact start2 W (Proc.devRef .tc main_v27) : FVec Ideal S128 .f32)) :=
  Ssa.ssa_unary hostOps0_2 written0_2 writesOnly0_2 W 13 main_v27 main_v28 _ _ _ rfl (by decide) (by decide)

theorem eq_v29 (W : Valuation τ sig (Elt Ideal)) :
    @Eq (FVec Ideal S128 .f32) (start2 W (Proc.devRef .tc main_v29))
      (mulf (by exact start2 W (Proc.devRef .tc main_arg11) : FVec Ideal S128 .f32) (by exact start2 W (Proc.devRef .tc main_v28) : FVec Ideal S128 .f32)) :=
  Ssa.ssa_binary hostOps0_2 written0_2 writesOnly0_2 W 14 main_arg11 main_v28 main_v29 _ _ _ _ rfl (by decide) (by decide) (by decide)

theorem eq_v30 (W : Valuation τ sig (Elt Ideal)) :
    @Eq (FVec Ideal S128 .f32) (start2 W (Proc.devRef .tc main_v30))
      (subf (by exact start2 W (Proc.devRef .tc main_arg10) : FVec Ideal S128 .f32) (by exact start2 W (Proc.devRef .tc main_arg13) : FVec Ideal S128 .f32)) :=
  Ssa.ssa_binary hostOps0_2 written0_2 writesOnly0_2 W 15 main_arg10 main_arg13 main_v30 _ _ _ _ rfl (by decide) (by decide) (by decide)

theorem eq_v31 (W : Valuation τ sig (Elt Ideal)) :
    @Eq (FVec Ideal S128 .f32) (start2 W (Proc.devRef .tc main_v31))
      (mulf (by exact start2 W (Proc.devRef .tc main_v30) : FVec Ideal S128 .f32) (by exact start2 W (Proc.devRef .tc main_v29) : FVec Ideal S128 .f32)) :=
  Ssa.ssa_binary hostOps0_2 written0_2 writesOnly0_2 W 16 main_v30 main_v29 main_v31 _ _ _ _ rfl (by decide) (by decide) (by decide)

theorem eq_v32 (W : Valuation τ sig (Elt Ideal)) :
    @Eq (FVec Ideal S128 .f32) (start2 W (Proc.devRef .tc main_v32))
      (addf (by exact start2 W (Proc.devRef .tc main_v31) : FVec Ideal S128 .f32) (by exact start2 W (Proc.devRef .tc main_arg12) : FVec Ideal S128 .f32)) :=
  Ssa.ssa_binary hostOps0_2 written0_2 writesOnly0_2 W 17 main_v31 main_arg12 main_v32 _ _ _ _ rfl (by decide) (by decide) (by decide)

theorem eq_v33 (W : Valuation τ sig (Elt Ideal)) :
    @Eq (FVec Ideal S1x128 .f32) (start2 W (Proc.devRef .tc main_v33))
      (shapeCast S1x128 (by exact start2 W (Proc.devRef .tc main_v29) : FVec Ideal S128 .f32) shapeCasts_S128_S1x128) :=
  Ssa.ssa_reshape hostOps0_2 written0_2 writesOnly0_2 W 18 main_v29 main_v33 rfl _ _ _ rfl (by decide) (by decide)

theorem eq_v34 (W : Valuation τ sig (Elt Ideal)) :
    @Eq (FVec Ideal S1x128 .f32) (start2 W (Proc.devRef .tc main_v34))
      (shapeCast S1x128 (by exact start2 W (Proc.devRef .tc main_v32) : FVec Ideal S128 .f32) shapeCasts_S128_S1x128) :=
  Ssa.ssa_reshape hostOps0_2 written0_2 writesOnly0_2 W 19 main_v32 main_v34 rfl _ _ _ rfl (by decide) (by decide)

theorem eq_cst_6 (W : Valuation τ sig (Elt Ideal)) :
    @Eq (FVec Ideal S_ .f32) (start2 W (Proc.devRef .tc main_cst_6))
      (constant S_ .f32 0x3727C5AC#32) :=
  Ssa.ssa_nullary hostOps0_2 written0_2 writesOnly0_2 W 20 main_cst_6 _ _ rfl (by decide)

theorem eq_v35 (W : Valuation τ sig (Elt Ideal)) :
    @Eq (FVec Ideal S128 .f32) (start2 W (Proc.devRef .tc main_v35))
      ((broadcastInDim S128 ![] bcast_S_S128) (by exact start2 W (Proc.devRef .tc main_cst_6) : FVec Ideal S_ .f32)) :=
  Ssa.ssa_unary hostOps0_2 written0_2 writesOnly0_2 W 21 main_cst_6 main_v35 _ _ _ rfl (by decide) (by decide)

theorem eq_v36 (W : Valuation τ sig (Elt Ideal)) :
    @Eq (FVec Ideal S128 .f32) (start2 W (Proc.devRef .tc main_v36))
      (addf (by exact start2 W (Proc.devRef .tc main_arg20) : FVec Ideal S128 .f32) (by exact start2 W (Proc.devRef .tc main_v35) : FVec Ideal S128 .f32)) :=
  Ssa.ssa_binary hostOps0_2 written0_2 writesOnly0_2 W 22 main_arg20 main_v35 main_v36 _ _ _ _ rfl (by decide) (by decide) (by decide)

theorem eq_v37 (W : Valuation τ sig (Elt Ideal)) :
    @Eq (FVec Ideal S128 .f32) (start2 W (Proc.devRef .tc main_v37))
      (Host.rsqrt (by exact start2 W (Proc.devRef .tc main_v36) : FVec Ideal S128 .f32)) :=
  Ssa.ssa_unary hostOps0_2 written0_2 writesOnly0_2 W 23 main_v36 main_v37 _ _ _ rfl (by decide) (by decide)

theorem eq_v38 (W : Valuation τ sig (Elt Ideal)) :
    @Eq (FVec Ideal S128 .f32) (start2 W (Proc.devRef .tc main_v38))
      (mulf (by exact start2 W (Proc.devRef .tc main_arg17) : FVec Ideal S128 .f32) (by exact start2 W (Proc.devRef .tc main_v37) : FVec Ideal S128 .f32)) :=
  Ssa.ssa_binary hostOps0_2 written0_2 writesOnly0_2 W 24 main_arg17 main_v37 main_v38 _ _ _ _ rfl (by decide) (by decide) (by decide)

theorem eq_v39 (W : Valuation τ sig (Elt Ideal)) :
    @Eq (FVec Ideal S128 .f32) (start2 W (Proc.devRef .tc main_v39))
      (subf (by exact start2 W (Proc.devRef .tc main_arg16) : FVec Ideal S128 .f32) (by exact start2 W (Proc.devRef .tc main_arg19) : FVec Ideal S128 .f32)) :=
  Ssa.ssa_binary hostOps0_2 written0_2 writesOnly0_2 W 25 main_arg16 main_arg19 main_v39 _ _ _ _ rfl (by decide) (by decide) (by decide)

theorem eq_v40 (W : Valuation τ sig (Elt Ideal)) :
    @Eq (FVec Ideal S128 .f32) (start2 W (Proc.devRef .tc main_v40))
      (mulf (by exact start2 W (Proc.devRef .tc main_v39) : FVec Ideal S128 .f32) (by exact start2 W (Proc.devRef .tc main_v38) : FVec Ideal S128 .f32)) :=
  Ssa.ssa_binary hostOps0_2 written0_2 writesOnly0_2 W 26 main_v39 main_v38 main_v40 _ _ _ _ rfl (by decide) (by decide) (by decide)

theorem eq_v41 (W : Valuation τ sig (Elt Ideal)) :
    @Eq (FVec Ideal S128 .f32) (start2 W (Proc.devRef .tc main_v41))
      (addf (by exact start2 W (Proc.devRef .tc main_v40) : FVec Ideal S128 .f32) (by exact start2 W (Proc.devRef .tc main_arg18) : FVec Ideal S128 .f32)) :=
  Ssa.ssa_binary hostOps0_2 written0_2 writesOnly0_2 W 27 main_v40 main_arg18 main_v41 _ _ _ _ rfl (by decide) (by decide) (by decide)

theorem eq_v42 (W : Valuation τ sig (Elt Ideal)) :
    @Eq (FVec Ideal S1x128 .f32) (start2 W (Proc.devRef .tc main_v42))
      (shapeCast S1x128 (by exact start2 W (Proc.devRef .tc main_v38) : FVec Ideal S128 .f32) shapeCasts_S128_S1x128) :=
  Ssa.ssa_reshape hostOps0_2 written0_2 writesOnly0_2 W 28 main_v38 main_v42 rfl _ _ _ rfl (by decide) (by decide)

theorem eq_v43 (W : Valuation τ sig (Elt Ideal)) :
    @Eq (FVec Ideal S1x128 .f32) (start2 W (Proc.devRef .tc main_v43))
      (shapeCast S1x128 (by exact start2 W (Proc.devRef .tc main_v41) : FVec Ideal S128 .f32) shapeCasts_S128_S1x128) :=
  Ssa.ssa_reshape hostOps0_2 written0_2 writesOnly0_2 W 29 main_v41 main_v43 rfl _ _ _ rfl (by decide) (by decide)

theorem eq_v44 (W : Valuation τ sig (Elt Ideal)) :
    @Eq (FVec Ideal S100000x1 .f32) (start2 W (Proc.devRef .tc main_v44))
      ((broadcastInDim S100000x1 ![0] bcast_S100000_S100000x1_0) (by exact start2 W (Proc.devRef .tc main_v16) : FVec Ideal S100000 .f32)) :=
  Ssa.ssa_unary hostOps0_2 written0_2 writesOnly0_2 W 30 main_v16 main_v44 _ _ _ rfl (by decide) (by decide)

theorem eq_v45 (W : Valuation τ sig (Elt Ideal)) :
    @Eq (FVec Ideal S100000x64 .f32) (start2 W (Proc.devRef .tc main_v45))
      ((broadcastInDim S100000x64 ![0, 1] bcast_S100000x1_S100000x64_0_1) (by exact start2 W (Proc.devRef .tc main_v44) : FVec Ideal S100000x1 .f32)) :=
  Ssa.ssa_unary hostOps0_2 written0_2 writesOnly0_2 W 31 main_v44 main_v45 _ _ _ rfl (by decide) (by decide)

theorem eq_v46 (W : Valuation τ sig (Elt Ideal)) :
    @Eq (FVec Ideal S100000x64 .f32) (start2 W (Proc.devRef .tc main_v46))
      (mulf (by exact start2 W (Proc.devRef .tc main_arg0) : FVec Ideal S100000x64 .f32) (by exact start2 W (Proc.devRef .tc main_v45) : FVec Ideal S100000x64 .f32)) :=
  Ssa.ssa_binary hostOps0_2 written0_2 writesOnly0_2 W 32 main_arg0 main_v45 main_v46 _ _ _ _ rfl (by decide) (by decide) (by decide)

theorem eq_c (W : Valuation τ sig (Elt Ideal)) :
    @Eq (IVec S_ 32) (start2 W (Proc.devRef .tc main_c))
      (constantI S_ 32 0#32) :=
  Ssa.ssa_nullary hostOps0_2 written0_2 writesOnly0_2 W 33 main_c _ _ rfl (by decide)

theorem eq_v47 (W : Valuation τ sig (Elt Ideal)) :
    @Eq (IVec S600000 32) (start2 W (Proc.devRef .tc main_v47))
      ((broadcastInDim S600000 ![] bcast_S_S600000) (by exact start2 W (Proc.devRef .tc main_c) : IVec S_ 32)) :=
  Ssa.ssa_unary hostOps0_2 written0_2 writesOnly0_2 W 34 main_c main_v47 _ _ _ rfl (by decide) (by decide)

theorem eq_v48 (W : Valuation τ sig (Elt Ideal)) :
    @Eq (IVec S600000 1) (start2 W (Proc.devRef .tc main_v48))
      ((cmpi .slt) (by exact start2 W (Proc.devRef .tc main_v2) : IVec S600000 32) (by exact start2 W (Proc.devRef .tc main_v47) : IVec S600000 32)) :=
  Ssa.ssa_binary hostOps0_2 written0_2 writesOnly0_2 W 35 main_v2 main_v47 main_v48 _ _ _ _ rfl (by decide) (by decide) (by decide)

theorem eq_c_7 (W : Valuation τ sig (Elt Ideal)) :
    @Eq (IVec S_ 32) (start2 W (Proc.devRef .tc main_c_7))
      (constantI S_ 32 100000#32) :=
  Ssa.ssa_nullary hostOps0_2 written0_2 writesOnly0_2 W 36 main_c_7 _ _ rfl (by decide)

theorem eq_v49 (W : Valuation τ sig (Elt Ideal)) :
    @Eq (IVec S600000 32) (start2 W (Proc.devRef .tc main_v49))
      ((broadcastInDim S600000 ![] bcast_S_S600000) (by exact start2 W (Proc.devRef .tc main_c_7) : IVec S_ 32)) :=
  Ssa.ssa_unary hostOps0_2 written0_2 writesOnly0_2 W 37 main_c_7 main_v49 _ _ _ rfl (by decide) (by decide)

theorem eq_v50 (W : Valuation τ sig (Elt Ideal)) :
    @Eq (IVec S600000 32) (start2 W (Proc.devRef .tc main_v50))
      (addi (by exact start2 W (Proc.devRef .tc main_v2) : IVec S600000 32) (by exact start2 W (Proc.devRef .tc main_v49) : IVec S600000 32)) :=
  Ssa.ssa_binary hostOps0_2 written0_2 writesOnly0_2 W 38 main_v2 main_v49 main_v50 _ _ _ _ rfl (by decide) (by decide) (by decide)

theorem eq_v51 (W : Valuation τ sig (Elt Ideal)) :
    @Eq (IVec S600000 32) (start2 W (Proc.devRef .tc main_v51))
      (select (by exact start2 W (Proc.devRef .tc main_v48) : IVec S600000 1) (by exact start2 W (Proc.devRef .tc main_v50) : IVec S600000 32) (by exact start2 W (Proc.devRef .tc main_v2) : IVec S600000 32)) :=
  Ssa.ssa_ternary hostOps0_2 written0_2 writesOnly0_2 W 39 main_v48 main_v50 main_v2 main_v51 _ _ _ _ _ rfl (by decide) (by decide) (by decide) (by decide)

theorem eq_v52 (W : Valuation τ sig (Elt Ideal)) :
    @Eq (IVec S600000x1 32) (start2 W (Proc.devRef .tc main_v52))
      ((broadcastInDim S600000x1 ![0] bcast_S600000_S600000x1_0) (by exact start2 W (Proc.devRef .tc main_v51) : IVec S600000 32)) :=
  Ssa.ssa_unary hostOps0_2 written0_2 writesOnly0_2 W 40 main_v51 main_v52 _ _ _ rfl (by decide) (by decide)

theorem eq_v53 (W : Valuation τ sig (Elt Ideal)) :
    @Eq (FVec Ideal S600000x64 .f32) (start2 W (Proc.devRef .tc main_v53))
      ((Host.gather gather_S100000x64_S600000x1_S600000x64_1_0_n_n_0_1_164) (by exact start2 W (Proc.devRef .tc main_v46) : FVec Ideal S100000x64 .f32) (by exact start2 W (Proc.devRef .tc main_v52) : IVec S600000x1 32)) :=
  Ssa.ssa_binary hostOps0_2 written0_2 writesOnly0_2 W 41 main_v46 main_v52 main_v53 _ _ _ _ rfl (by decide) (by decide) (by decide)

theorem eq_cst_8 (W : Valuation τ sig (Elt Ideal)) :
    @Eq (FVec Ideal S_ .f32) (start2 W (Proc.devRef .tc main_cst_8))
      (constant S_ .f32 0x00000000#32) :=
  Ssa.ssa_nullary hostOps0_2 written0_2 writesOnly0_2 W 42 main_cst_8 _ _ rfl (by decide)

theorem eq_v54 (W : Valuation τ sig (Elt Ideal)) :
    @Eq (FVec Ideal S100000x64 .f32) (start2 W (Proc.devRef .tc main_v54))
      ((broadcastInDim S100000x64 ![] bcast_S_S100000x64) (by exact start2 W (Proc.devRef .tc main_cst_8) : FVec Ideal S_ .f32)) :=
  Ssa.ssa_unary hostOps0_2 written0_2 writesOnly0_2 W 43 main_cst_8 main_v54 _ _ _ rfl (by decide) (by decide)

theorem eq_v55 (W : Valuation τ sig (Elt Ideal)) :
    @Eq (IVec S600000x1 32) (start2 W (Proc.devRef .tc main_v55))
      ((broadcastInDim S600000x1 ![0] bcast_S600000_S600000x1_0) (by exact start2 W (Proc.devRef .tc main_v4) : IVec S600000 32)) :=
  Ssa.ssa_unary hostOps0_2 written0_2 writesOnly0_2 W 44 main_v4 main_v55 _ _ _ rfl (by decide) (by decide)

theorem eq_v56 (W : Valuation τ sig (Elt Ideal)) :
    @Eq (FVec Ideal S100000x64 .f32) (start2 W (Proc.devRef .tc main_v56))
      ((Host.scatterAdd scatter_S100000x64_S600000x1_S600000x64_1_0_0_1) (by exact start2 W (Proc.devRef .tc main_v54) : FVec Ideal S100000x64 .f32) (by exact start2 W (Proc.devRef .tc main_v55) : IVec S600000x1 32) (by exact start2 W (Proc.devRef .tc main_v53) : FVec Ideal S600000x64 .f32)) :=
  Ssa.ssa_ternary hostOps0_2 written0_2 writesOnly0_2 W 45 main_v54 main_v55 main_v53 main_v56 _ _ _ _ _ rfl (by decide) (by decide) (by decide) (by decide)

theorem eq_v57 (W : Valuation τ sig (Elt Ideal)) :
    @Eq (FVec Ideal S100000x64 .f32) (start2 W (Proc.devRef .tc main_v57))
      (addf (by exact start2 W (Proc.devRef .tc main_v56) : FVec Ideal S100000x64 .f32) (by exact start2 W (Proc.devRef .tc main_v46) : FVec Ideal S100000x64 .f32)) :=
  Ssa.ssa_binary hostOps0_2 written0_2 writesOnly0_2 W 46 main_v56 main_v46 main_v57 _ _ _ _ rfl (by decide) (by decide) (by decide)

theorem eq_v58 (W : Valuation τ sig (Elt Ideal)) :
    @Eq (FVec Ideal S100000x1 .f32) (start2 W (Proc.devRef .tc main_v58))
      (shapeCast S100000x1 (by exact start2 W (Proc.devRef .tc main_v16) : FVec Ideal S100000 .f32) shapeCasts_S100000_S100000x1) :=
  Ssa.ssa_reshape hostOps0_2 written0_2 writesOnly0_2 W 47 main_v16 main_v58 rfl _ _ _ rfl (by decide) (by decide)

/-! ## The buffers the list only reads -/

theorem in_arg0 (W : Valuation τ sig (Elt Ideal)) :
    start2 W (Proc.devRef .tc main_arg0) = W (Proc.devRef .tc main_arg0) :=
  Ssa.after_arg hostOps0_2 written0_2 writesOnly0_2 W main_arg0 (by decide)

theorem in_arg4 (W : Valuation τ sig (Elt Ideal)) :
    start2 W (Proc.devRef .tc main_arg4) = W (Proc.devRef .tc main_arg4) :=
  Ssa.after_arg hostOps0_2 written0_2 writesOnly0_2 W main_arg4 (by decide)

theorem in_arg5 (W : Valuation τ sig (Elt Ideal)) :
    start2 W (Proc.devRef .tc main_arg5) = W (Proc.devRef .tc main_arg5) :=
  Ssa.after_arg hostOps0_2 written0_2 writesOnly0_2 W main_arg5 (by decide)

theorem in_arg6 (W : Valuation τ sig (Elt Ideal)) :
    start2 W (Proc.devRef .tc main_arg6) = W (Proc.devRef .tc main_arg6) :=
  Ssa.after_arg hostOps0_2 written0_2 writesOnly0_2 W main_arg6 (by decide)

theorem in_arg7 (W : Valuation τ sig (Elt Ideal)) :
    start2 W (Proc.devRef .tc main_arg7) = W (Proc.devRef .tc main_arg7) :=
  Ssa.after_arg hostOps0_2 written0_2 writesOnly0_2 W main_arg7 (by decide)

theorem in_arg8 (W : Valuation τ sig (Elt Ideal)) :
    start2 W (Proc.devRef .tc main_arg8) = W (Proc.devRef .tc main_arg8) :=
  Ssa.after_arg hostOps0_2 written0_2 writesOnly0_2 W main_arg8 (by decide)

theorem in_arg10 (W : Valuation τ sig (Elt Ideal)) :
    start2 W (Proc.devRef .tc main_arg10) = W (Proc.devRef .tc main_arg10) :=
  Ssa.after_arg hostOps0_2 written0_2 writesOnly0_2 W main_arg10 (by decide)

theorem in_arg11 (W : Valuation τ sig (Elt Ideal)) :
    start2 W (Proc.devRef .tc main_arg11) = W (Proc.devRef .tc main_arg11) :=
  Ssa.after_arg hostOps0_2 written0_2 writesOnly0_2 W main_arg11 (by decide)

theorem in_arg12 (W : Valuation τ sig (Elt Ideal)) :
    start2 W (Proc.devRef .tc main_arg12) = W (Proc.devRef .tc main_arg12) :=
  Ssa.after_arg hostOps0_2 written0_2 writesOnly0_2 W main_arg12 (by decide)

theorem in_arg13 (W : Valuation τ sig (Elt Ideal)) :
    start2 W (Proc.devRef .tc main_arg13) = W (Proc.devRef .tc main_arg13) :=
  Ssa.after_arg hostOps0_2 written0_2 writesOnly0_2 W main_arg13 (by decide)

theorem in_arg14 (W : Valuation τ sig (Elt Ideal)) :
    start2 W (Proc.devRef .tc main_arg14) = W (Proc.devRef .tc main_arg14) :=
  Ssa.after_arg hostOps0_2 written0_2 writesOnly0_2 W main_arg14 (by decide)

theorem in_arg16 (W : Valuation τ sig (Elt Ideal)) :
    start2 W (Proc.devRef .tc main_arg16) = W (Proc.devRef .tc main_arg16) :=
  Ssa.after_arg hostOps0_2 written0_2 writesOnly0_2 W main_arg16 (by decide)

theorem in_arg17 (W : Valuation τ sig (Elt Ideal)) :
    start2 W (Proc.devRef .tc main_arg17) = W (Proc.devRef .tc main_arg17) :=
  Ssa.after_arg hostOps0_2 written0_2 writesOnly0_2 W main_arg17 (by decide)

theorem in_arg18 (W : Valuation τ sig (Elt Ideal)) :
    start2 W (Proc.devRef .tc main_arg18) = W (Proc.devRef .tc main_arg18) :=
  Ssa.after_arg hostOps0_2 written0_2 writesOnly0_2 W main_arg18 (by decide)

theorem in_arg19 (W : Valuation τ sig (Elt Ideal)) :
    start2 W (Proc.devRef .tc main_arg19) = W (Proc.devRef .tc main_arg19) :=
  Ssa.after_arg hostOps0_2 written0_2 writesOnly0_2 W main_arg19 (by decide)

theorem in_arg20 (W : Valuation τ sig (Elt Ideal)) :
    start2 W (Proc.devRef .tc main_arg20) = W (Proc.devRef .tc main_arg20) :=
  Ssa.after_arg hostOps0_2 written0_2 writesOnly0_2 W main_arg20 (by decide)

theorem in_v2 (W : Valuation τ sig (Elt Ideal)) :
    start2 W (Proc.devRef .tc main_v2) = W (Proc.devRef .tc main_v2) :=
  Ssa.after_arg hostOps0_2 written0_2 writesOnly0_2 W main_v2 (by decide)

theorem in_v4 (W : Valuation τ sig (Elt Ideal)) :
    start2 W (Proc.devRef .tc main_v4) = W (Proc.devRef .tc main_v4) :=
  Ssa.after_arg hostOps0_2 written0_2 writesOnly0_2 W main_v4 (by decide)

theorem in_v16 (W : Valuation τ sig (Elt Ideal)) :
    start2 W (Proc.devRef .tc main_v16) = W (Proc.devRef .tc main_v16) :=
  Ssa.after_arg hostOps0_2 written0_2 writesOnly0_2 W main_v16 (by decide)

end Start2

open Start2

/-! ## The three layers' folded batch-normalisation rows -/

/-- Layer 1: the folded slope, as a row. -/
theorem slope1 (W : Valuation τ sig (Elt Ideal)) (j : Fin 128) :
    start2 W (Proc.devRef .tc main_v24) (ix2 (0 : Fin 1) j)
      = (by exact W (Proc.devRef .tc main_arg5) (ix1 j) : EReal) * rstd (W (Proc.devRef .tc main_arg8) (ix1 j)) := by
  rw [eq_v24, eq_v20, eq_v19, eq_v18, eq_v17, eq_cst_4, in_arg5, in_arg8]
  exact (shapeCast_a_1a_apply _ _ _ _).trans rfl

/-- Layer 1: the folded intercept, as a row. -/
theorem icept1 (W : Valuation τ sig (Elt Ideal)) (j : Fin 128) :
    start2 W (Proc.devRef .tc main_v25) (ix2 (0 : Fin 1) j)
      = ((by exact W (Proc.devRef .tc main_arg4) (ix1 j) : EReal) - (by exact W (Proc.devRef .tc main_arg7) (ix1 j) : EReal))
          * ((by exact W (Proc.devRef .tc main_arg5) (ix1 j) : EReal) * rstd (W (Proc.devRef .tc main_arg8) (ix1 j)))
        + (by exact W (Proc.devRef .tc main_arg6) (ix1 j) : EReal) := by
  rw [eq_v25, eq_v23, eq_v22, eq_v21, eq_v20, eq_v19, eq_v18, eq_v17, eq_cst_4,
    in_arg4, in_arg7, in_arg5, in_arg8, in_arg6]
  exact (shapeCast_a_1a_apply _ _ _ _).trans rfl

/-- Layer 2: the folded slope, as a row. -/
theorem slope2 (W : Valuation τ sig (Elt Ideal)) (j : Fin 128) :
    start2 W (Proc.devRef .tc main_v33) (ix2 (0 : Fin 1) j)
      = (by exact W (Proc.devRef .tc main_arg11) (ix1 j) : EReal) * rstd (W (Proc.devRef .tc main_arg14) (ix1 j)) := by
  rw [eq_v33, eq_v29, eq_v28, eq_v27, eq_v26, eq_cst_5, in_arg11, in_arg14]
  exact (shapeCast_a_1a_apply _ _ _ _).trans rfl

/-- Layer 2: the folded intercept, as a row. -/
theorem icept2 (W : Valuation τ sig (Elt Ideal)) (j : Fin 128) :
    start2 W (Proc.devRef .tc main_v34) (ix2 (0 : Fin 1) j)
      = ((by exact W (Proc.devRef .tc main_arg10) (ix1 j) : EReal) - (by exact W (Proc.devRef .tc main_arg13) (ix1 j) : EReal))
          * ((by exact W (Proc.devRef .tc main_arg11) (ix1 j) : EReal) * rstd (W (Proc.devRef .tc main_arg14) (ix1 j)))
        + (by exact W (Proc.devRef .tc main_arg12) (ix1 j) : EReal) := by
  rw [eq_v34, eq_v32, eq_v31, eq_v30, eq_v29, eq_v28, eq_v27, eq_v26, eq_cst_5,
    in_arg10, in_arg13, in_arg11, in_arg14, in_arg12]
  exact (shapeCast_a_1a_apply _ _ _ _).trans rfl

/-- Layer 3: the folded slope, as a row. -/
theorem slope3 (W : Valuation τ sig (Elt Ideal)) (j : Fin 128) :
    start2 W (Proc.devRef .tc main_v42) (ix2 (0 : Fin 1) j)
      = (by exact W (Proc.devRef .tc main_arg17) (ix1 j) : EReal) * rstd (W (Proc.devRef .tc main_arg20) (ix1 j)) := by
  rw [eq_v42, eq_v38, eq_v37, eq_v36, eq_v35, eq_cst_6, in_arg17, in_arg20]
  exact (shapeCast_a_1a_apply _ _ _ _).trans rfl

/-- Layer 3: the folded intercept, as a row. -/
theorem icept3 (W : Valuation τ sig (Elt Ideal)) (j : Fin 128) :
    start2 W (Proc.devRef .tc main_v43) (ix2 (0 : Fin 1) j)
      = ((by exact W (Proc.devRef .tc main_arg16) (ix1 j) : EReal) - (by exact W (Proc.devRef .tc main_arg19) (ix1 j) : EReal))
          * ((by exact W (Proc.devRef .tc main_arg17) (ix1 j) : EReal) * rstd (W (Proc.devRef .tc main_arg20) (ix1 j)))
        + (by exact W (Proc.devRef .tc main_arg18) (ix1 j) : EReal) := by
  rw [eq_v43, eq_v41, eq_v40, eq_v39, eq_v38, eq_v37, eq_v36, eq_v35, eq_cst_6,
    in_arg16, in_arg19, in_arg17, in_arg20, in_arg18]
  exact (shapeCast_a_1a_apply _ _ _ _).trans rfl

/-! ## The scaled input and its aggregate -/

namespace Start2

/-- A vector broadcast to a column reads the vector at the row. -/
theorem scaleCol_apply (d : FVec Ideal S100000 .f32) (n : Fin 100000) (u : Fin 1) :
    broadcastInDim S100000x1 ![0] bcast_S100000_S100000x1_0 d (ix2 n u) = d (ix1 n) :=
  broadcastInDim_apply _ _ _ _ (ix1 n) (fun a => by
    match a with
    | ⟨0, _⟩ => rfl)

/-- A column broadcast along the rows reads the column at the row. -/
theorem scaleRow_apply (c : FVec Ideal S100000x1 .f32) (n : Fin 100000) (k : Fin 64) :
    broadcastInDim S100000x64 ![0, 1] bcast_S100000x1_S100000x64_0_1 c (ix2 n k) = c (ix2 n (0 : Fin 1)) :=
  broadcastInDim_apply _ _ _ _ (ix2 n (0 : Fin 1)) (fun a => by
    match a with
    | ⟨0, _⟩ => rfl
    | ⟨1, _⟩ => rfl)

end Start2

/-- The scaled input: each row of the input times its node's scale. -/
theorem start2_xs (W : Valuation τ sig (Elt Ideal)) (n : Fin 100000) (k : Fin 64) :
    start2 W (Proc.devRef .tc main_v46) (ix2 n k)
      = (by exact W (Proc.devRef .tc main_arg0) (ix2 n k) : EReal) * (by exact W (Proc.devRef .tc main_v16) (ix1 n) : EReal) := by
  rw [eq_v46, eq_v45, eq_v44, in_arg0, in_v16]
  show (by exact W (Proc.devRef .tc main_arg0) (ix2 n k) : EReal) * _ = _
  rw [scaleRow_apply, scaleCol_apply]

/-- The scatter-add of the gathered rows is the aggregate of the scaled input. -/
theorem start2_scat (W : Valuation τ sig (Elt Ideal)) :
    @Eq (FVec Ideal S100000x64 .f32) (start2 W (Proc.devRef .tc main_v56))
      (aggOps64 (W (Proc.devRef .tc main_v2)) (W (Proc.devRef .tc main_v4)) (start2 W (Proc.devRef .tc main_v46))) := by
  rw [eq_v56, eq_v54, eq_cst_8, eq_v55, eq_v53, eq_v52, eq_v51, eq_v48, eq_v47, eq_c, eq_v50, eq_v49, eq_c_7, in_v2, in_v4]
  rfl

/-- The first layer's aggregate before the matrix product: the sum over incoming edges of the scaled source rows,
    plus the node's own scaled row. -/
theorem agg1pre (W : Valuation τ sig (Elt Ideal)) (i : Fin 100000) (k : Fin 64) :
    start2 W (Proc.devRef .tc main_v57) (ix2 i k)
      = (∑ e ∈ Finset.univ.filter (fun e : Fin 600000 => land (W (Proc.devRef .tc main_v4) (ix1 e)) = some i),
            (by exact W (Proc.devRef .tc main_arg0) (ix2 (gIdx (W (Proc.devRef .tc main_v2) (ix1 e))) k) : EReal)
              * (by exact W (Proc.devRef .tc main_v16) (ix1 (gIdx (W (Proc.devRef .tc main_v2) (ix1 e)))) : EReal))
        + (by exact W (Proc.devRef .tc main_arg0) (ix2 i k) : EReal) * (by exact W (Proc.devRef .tc main_v16) (ix1 i) : EReal) := by
  rw [eq_v57, start2_scat]
  show aggOps64 _ _ _ (ix2 i k) + start2 W (Proc.devRef .tc main_v46) (ix2 i k) = _
  rw [aggOps64_apply, start2_xs]
  refine congrArg₂ (· + ·) (Finset.sum_congr rfl fun e _ => ?_) rfl
  exact start2_xs W _ _

/-- The node scale as a column. -/
theorem disCol0 (W : Valuation τ sig (Elt Ideal)) :
    @Eq (FVec Ideal S100000x1 .f32) (start2 W (Proc.devRef .tc main_v58))
      (shapeCast S100000x1 (W (Proc.devRef .tc main_v16)) shapeCasts_S100000_S100000x1) := by
  rw [eq_v58, in_v16]

/-- A buffer the list does not write keeps its contents. -/
theorem start2_keep (W : Valuation τ sig (Elt Ideal)) (b : Ref sig .tc) (hb : b ∉ written0_2) :
    start2 W (Proc.devRef .tc b) = W (Proc.devRef .tc b) :=
  Ssa.after_arg hostOps0_2 written0_2 writesOnly0_2 W b hb

end Cert.Gcn.Ker

end
-- ==== Proof.KerEnds.lean ====
/-
  The two ends of the kernel program's host code, as named functions of the arguments.

  The start computes, from the edge list, the vector of source words, the vector of destination words and the
  node scaling: the in-degree with a self loop is the scatter of ones at the destination words followed by the
  nodes themselves, and the scaling is its reciprocal square root where the degree is positive and zero
  elsewhere. The head pools the last layer's rows by graph (a scatter-add by the batch vector, divided by the
  clamped graph sizes), applies a dense layer, the positive part, a second dense layer and the logistic function.

  Every buffer of these stretches is written once, so its final contents is its operation's function of its
  operands' final contents; the functions below are those compositions, and the equations hold for any starting
  contents.
-/
import proofs.«110672_j48155173322903_2_alg».proof.Proof.Spec
import proofs.«110672_j48155173322903_2_alg».proof.Proof.Algebra
import proofs.«110672_j48155173322903_2_alg».proof.Proof.LibSsa
import proofs.«110672_j48155173322903_2_alg».proof.Proof.Gen.KernelIdeal.Launch
import Idealize.ShloMosaic.Lib.Pipeline.Value
import Idealize.ShloMosaic.Lib.ValueIdx
import Idealize.ShloMosaic.Lib.IdealHost

set_option maxRecDepth 16384

noncomputable section

namespace Cert.Gcn.Ker

open Cert.KernelIdeal Cert.KernelIdeal.Gen Idealize.ShloMosaic Idealize.ShloMosaic.StableHlo
open Idealize.ShloMosaic.ValueIdx Cert.Gcn

variable [hP : Cert.KernelIdeal.Facts]

/-! ## The start -/

/-- The source words: row 0 of the edge list, as a vector. -/
def srcVec (ei : IVec S2x600000 32) : IVec S600000 32 :=
  shapeCast S600000 (extractStridedSlice S1x600000 ![0, 0] ei slices_S2x600000_S1x600000_0_0) shapeCasts_S1x600000_S600000

/-- The destination words: row 1 of the edge list, as a vector. -/
def dstVec (ei : IVec S2x600000 32) : IVec S600000 32 :=
  shapeCast S600000 (extractStridedSlice S1x600000 ![1, 0] ei slices_S2x600000_S1x600000_1_0) shapeCasts_S1x600000_S600000

/-- The in-degree with a self loop: ones scattered at the destination words followed by every node, onto zeros. -/
def degOps (ei : IVec S2x600000 32) : FVec Ideal S100000 .f32 :=
  Host.scatterAdd scatter_S100000_S700000x1_S700000_n_0_0_1
    (broadcastInDim S100000 ![] bcast_S_S100000 (constant S_ .f32 0x00000000#32 : FVec Ideal S_ .f32))
    (broadcastInDim S700000x1 ![0] bcast_S700000_S700000x1_0
      (concatenate S700000 0 [⟨S600000, dstVec ei⟩, ⟨S100000, iotaInDim S100000 32 0⟩] concatenates_S600000_S100000_S700000_d0))
    (broadcastInDim S700000 ![] bcast_S_S700000 (constant S_ .f32 0x3F800000#32 : FVec Ideal S_ .f32))

/-- The node scaling: the reciprocal square root of the degree clamped below at one, where the degree is positive;
    zero elsewhere. -/
def disOps (ei : IVec S2x600000 32) : FVec Ideal S100000 .f32 :=
  select
    (cmpf .ogt (degOps ei) (broadcastInDim S100000 ![] bcast_S_S100000 (constant S_ .f32 0x00000000#32 : FVec Ideal S_ .f32)))
    (Host.rsqrt (maximumf (degOps ei)
      (broadcastInDim S100000 ![] bcast_S_S100000 (constant S_ .f32 0x3F800000#32 : FVec Ideal S_ .f32))))
    (broadcastInDim S100000 ![] bcast_S_S100000 (id (constant S_ .f32 0x00000000#32 : FVec Ideal S_ .f32)))

/-- The buffers the start's first stretch writes, in order. -/
abbrev written0 : List (Ref sig .tc) :=
  [main_v0, main_v1, main_v2, main_v3, main_v4, main_v5, main_v6, main_cst, main_v7, main_cst_0, main_v8, main_v9,
    main_v10, main_cst_1, main_v11, main_v12, main_cst_2, main_v13, main_v14, main_v15, main_cst_3]

/-- The buffers the inlined selection writes, in order. -/
abbrev written0_1 : List (Ref sig .tc) := [main_call0_v0, main_call0_v1, main_v16]

theorem writesOnly0 : Ssa.WritesOnly (hostOps0 (F := Ideal)) written0 := by
  repeat' constructor

theorem writesOnly0_1 : Ssa.WritesOnly (hostOps0_1 (F := Ideal)) written0_1 := by
  repeat' constructor

section StartEquations

variable (W : Valuation τ sig (Elt Ideal))

/-! One equation per operation of the first stretch, over its final contents. -/

theorem eq0_v0 : after hostOps0 W (Proc.devRef .tc main_v0) = iotaInDim S100000 32 0 :=
  Ssa.ssa_nullary hostOps0 written0 writesOnly0 W 0 main_v0 _ _ rfl (by decide)

theorem eq0_arg1 : after hostOps0 W (Proc.devRef .tc main_arg1) = W (Proc.devRef .tc main_arg1) :=
  Ssa.after_arg hostOps0 written0 writesOnly0 W main_arg1 (by decide)

theorem eq0_v1 : after hostOps0 W (Proc.devRef .tc main_v1)
    = extractStridedSlice S1x600000 ![0, 0] (after hostOps0 W (Proc.devRef .tc main_arg1)) slices_S2x600000_S1x600000_0_0 :=
  Ssa.ssa_unary hostOps0 written0 writesOnly0 W 1 main_arg1 main_v1 _ _ _ rfl (by decide) (by decide)

theorem eq0_v2 : after hostOps0 W (Proc.devRef .tc main_v2)
    = shapeCast S600000 (after hostOps0 W (Proc.devRef .tc main_v1)) shapeCasts_S1x600000_S600000 :=
  Ssa.ssa_reshape hostOps0 written0 writesOnly0 W 2 main_v1 main_v2 rfl _ _ _ rfl (by decide) (by decide)

theorem start_src0 : after hostOps0 W (Proc.devRef .tc main_v2) = srcVec (W (Proc.devRef .tc main_arg1)) := by
  rw [eq0_v2, eq0_v1, eq0_arg1]; rfl

theorem eq0_v3 : after hostOps0 W (Proc.devRef .tc main_v3)
    = extractStridedSlice S1x600000 ![1, 0] (after hostOps0 W (Proc.devRef .tc main_arg1)) slices_S2x600000_S1x600000_1_0 :=
  Ssa.ssa_unary hostOps0 written0 writesOnly0 W 3 main_arg1 main_v3 _ _ _ rfl (by decide) (by decide)

theorem eq0_v4 : after hostOps0 W (Proc.devRef .tc main_v4)
    = shapeCast S600000 (after hostOps0 W (Proc.devRef .tc main_v3)) shapeCasts_S1x600000_S600000 :=
  Ssa.ssa_reshape hostOps0 written0 writesOnly0 W 4 main_v3 main_v4 rfl _ _ _ rfl (by decide) (by decide)

theorem start_dst0 : after hostOps0 W (Proc.devRef .tc main_v4) = dstVec (W (Proc.devRef .tc main_arg1)) := by
  rw [eq0_v4, eq0_v3, eq0_arg1]; rfl

theorem eq0_v6 : after hostOps0 W (Proc.devRef .tc main_v6)
    = concatenate S700000 0 [⟨S600000, after hostOps0 W (Proc.devRef .tc main_v4)⟩,
        ⟨S100000, after hostOps0 W (Proc.devRef .tc main_v0)⟩] concatenates_S600000_S100000_S700000_d0 :=
  Ssa.ssa_binary hostOps0 written0 writesOnly0 W 6 main_v4 main_v0 main_v6 _ _ _ _ rfl (by decide) (by decide) (by decide)

theorem eq0_cst : after hostOps0 W (Proc.devRef .tc main_cst) = (constant S_ .f32 0x3F800000#32 : FVec Ideal S_ .f32) :=
  Ssa.ssa_nullary hostOps0 written0 writesOnly0 W 7 main_cst _ _ rfl (by decide)

theorem eq0_v7 : after hostOps0 W (Proc.devRef .tc main_v7)
    = broadcastInDim S700000 ![] bcast_S_S700000 (after hostOps0 W (Proc.devRef .tc main_cst)) :=
  Ssa.ssa_unary hostOps0 written0 writesOnly0 W 8 main_cst main_v7 _ _ _ rfl (by decide) (by decide)

theorem eq0_cst_0 : after hostOps0 W (Proc.devRef .tc main_cst_0) = (constant S_ .f32 0x00000000#32 : FVec Ideal S_ .f32) :=
  Ssa.ssa_nullary hostOps0 written0 writesOnly0 W 9 main_cst_0 _ _ rfl (by decide)

theorem eq0_v8 : after hostOps0 W (Proc.devRef .tc main_v8)
    = broadcastInDim S100000 ![] bcast_S_S100000 (after hostOps0 W (Proc.devRef .tc main_cst_0)) :=
  Ssa.ssa_unary hostOps0 written0 writesOnly0 W 10 main_cst_0 main_v8 _ _ _ rfl (by decide) (by decide)

theorem eq0_v9 : after hostOps0 W (Proc.devRef .tc main_v9)
    = broadcastInDim S700000x1 ![0] bcast_S700000_S700000x1_0 (after hostOps0 W (Proc.devRef .tc main_v6)) :=
  Ssa.ssa_unary hostOps0 written0 writesOnly0 W 11 main_v6 main_v9 _ _ _ rfl (by decide) (by decide)

theorem eq0_v10 : after hostOps0 W (Proc.devRef .tc main_v10)
    = (Host.scatterAdd scatter_S100000_S700000x1_S700000_n_0_0_1
        (after hostOps0 W (Proc.devRef .tc main_v8) : FVec Ideal S100000 .f32)
        (after hostOps0 W (Proc.devRef .tc main_v9)) (after hostOps0 W (Proc.devRef .tc main_v7) : FVec Ideal S700000 .f32)
        : FVec Ideal S100000 .f32) :=
  Ssa.ssa_ternary hostOps0 written0 writesOnly0 W 12 main_v8 main_v9 main_v7 main_v10 _ _ _ _ _ rfl
    (by decide) (by decide) (by decide) (by decide)

/-- The in-degree buffer holds the in-degree of the edge list. -/
theorem start_deg0 : after hostOps0 W (Proc.devRef .tc main_v10) = degOps (W (Proc.devRef .tc main_arg1)) := by
  rw [eq0_v10, eq0_v8, eq0_cst_0, eq0_v9, eq0_v6, start_dst0, eq0_v0, eq0_v7, eq0_cst]; rfl

theorem eq0_cst_1 : after hostOps0 W (Proc.devRef .tc main_cst_1) = (constant S_ .f32 0x00000000#32 : FVec Ideal S_ .f32) :=
  Ssa.ssa_nullary hostOps0 written0 writesOnly0 W 13 main_cst_1 _ _ rfl (by decide)

theorem eq0_v11 : after hostOps0 W (Proc.devRef .tc main_v11)
    = broadcastInDim S100000 ![] bcast_S_S100000 (after hostOps0 W (Proc.devRef .tc main_cst_1)) :=
  Ssa.ssa_unary hostOps0 written0 writesOnly0 W 14 main_cst_1 main_v11 _ _ _ rfl (by decide) (by decide)

theorem eq0_v12 : after hostOps0 W (Proc.devRef .tc main_v12)
    = (cmpf (F := Ideal) (s := S100000) (φ := .f32) .ogt (after hostOps0 W (Proc.devRef .tc main_v10))
        (after hostOps0 W (Proc.devRef .tc main_v11)) : IVec S100000 1) :=
  Ssa.ssa_binary hostOps0 written0 writesOnly0 W 15 main_v10 main_v11 main_v12 _ _ _ _ rfl (by decide) (by decide) (by decide)

theorem eq0_cst_2 : after hostOps0 W (Proc.devRef .tc main_cst_2) = (constant S_ .f32 0x3F800000#32 : FVec Ideal S_ .f32) :=
  Ssa.ssa_nullary hostOps0 written0 writesOnly0 W 16 main_cst_2 _ _ rfl (by decide)

theorem eq0_v13 : after hostOps0 W (Proc.devRef .tc main_v13)
    = broadcastInDim S100000 ![] bcast_S_S100000 (after hostOps0 W (Proc.devRef .tc main_cst_2)) :=
  Ssa.ssa_unary hostOps0 written0 writesOnly0 W 17 main_cst_2 main_v13 _ _ _ rfl (by decide) (by decide)

theorem eq0_v14 : after hostOps0 W (Proc.devRef .tc main_v14)
    = (maximumf (after hostOps0 W (Proc.devRef .tc main_v10) : FVec Ideal S100000 .f32)
        (after hostOps0 W (Proc.devRef .tc main_v13) : FVec Ideal S100000 .f32) : FVec Ideal S100000 .f32) :=
  Ssa.ssa_binary hostOps0 written0 writesOnly0 W 18 main_v10 main_v13 main_v14 _ _ _ _ rfl (by decide) (by decide) (by decide)

theorem eq0_v15 : after hostOps0 W (Proc.devRef .tc main_v15)
    = (Host.rsqrt (after hostOps0 W (Proc.devRef .tc main_v14) : FVec Ideal S100000 .f32) : FVec Ideal S100000 .f32) :=
  Ssa.ssa_unary hostOps0 written0 writesOnly0 W 19 main_v14 main_v15 _ _ _ rfl (by decide) (by decide)

theorem eq0_cst_3 : after hostOps0 W (Proc.devRef .tc main_cst_3) = (constant S_ .f32 0x00000000#32 : FVec Ideal S_ .f32) :=
  Ssa.ssa_nullary hostOps0 written0 writesOnly0 W 20 main_cst_3 _ _ rfl (by decide)

/-! The inlined selection, over any contents V it starts from. -/

variable (V : Valuation τ sig (Elt Ideal))

theorem eq01_v0 : after hostOps0_1 V (Proc.devRef .tc main_call0_v0) = id (after hostOps0_1 V (Proc.devRef .tc main_cst_3)) :=
  Ssa.ssa_unary hostOps0_1 written0_1 writesOnly0_1 V 0 main_cst_3 main_call0_v0 _ _ _ rfl (by decide) (by decide)

theorem eq01_v1 : after hostOps0_1 V (Proc.devRef .tc main_call0_v1)
    = broadcastInDim S100000 ![] bcast_S_S100000 (after hostOps0_1 V (Proc.devRef .tc main_call0_v0)) :=
  Ssa.ssa_unary hostOps0_1 written0_1 writesOnly0_1 V 1 main_call0_v0 main_call0_v1 _ _ _ rfl (by decide) (by decide)

theorem eq01_v16 : after hostOps0_1 V (Proc.devRef .tc main_v16)
    = select (after hostOps0_1 V (Proc.devRef .tc main_v12)) (after hostOps0_1 V (Proc.devRef .tc main_v15))
        (after hostOps0_1 V (Proc.devRef .tc main_call0_v1)) :=
  Ssa.ssa_ternary hostOps0_1 written0_1 writesOnly0_1 V 2 main_v12 main_v15 main_call0_v1 main_v16 _ _ _ _ _ rfl
    (by decide) (by decide) (by decide) (by decide)

/-- A buffer the selection does not write keeps its contents through it. -/
theorem keep01 (b : Ref sig .tc) (hb : b ∉ written0_1) :
    after hostOps0_1 V (Proc.devRef .tc b) = V (Proc.devRef .tc b) :=
  Ssa.after_arg hostOps0_1 written0_1 writesOnly0_1 V b hb

end StartEquations

/-! ### The start's results -/

theorem start_src (W : Valuation τ sig (Elt Ideal)) :
    after hostOps0_1 (after hostOps0 W) (Proc.devRef .tc main_v2) = srcVec (W (Proc.devRef .tc main_arg1)) := by
  rw [keep01 _ main_v2 (by decide), start_src0]

theorem start_dst (W : Valuation τ sig (Elt Ideal)) :
    after hostOps0_1 (after hostOps0 W) (Proc.devRef .tc main_v4) = dstVec (W (Proc.devRef .tc main_arg1)) := by
  rw [keep01 _ main_v4 (by decide), start_dst0]

theorem start_dis (W : Valuation τ sig (Elt Ideal)) :
    after hostOps0_1 (after hostOps0 W) (Proc.devRef .tc main_v16) = disOps (W (Proc.devRef .tc main_arg1)) := by
  rw [eq01_v16, eq01_v1, eq01_v0, keep01 _ main_v12 (by decide), keep01 _ main_v15 (by decide),
    keep01 _ main_cst_3 (by decide), eq0_v12, eq0_v11, eq0_cst_1, eq0_v15, eq0_v14, eq0_v13, eq0_cst_2, eq0_cst_3,
    start_deg0]
  rfl

/-- A buffer neither stretch writes keeps its starting contents. -/
theorem start_keep (W : Valuation τ sig (Elt Ideal)) (b : Ref sig .tc) (hb : b ∉ written0 ++ written0_1) :
    after hostOps0_1 (after hostOps0 W) (Proc.devRef .tc b) = W (Proc.devRef .tc b) := by
  rw [keep01 _ b (fun h => hb (List.mem_append_right _ h)),
    Ssa.after_arg hostOps0 written0 writesOnly0 W b (fun h => hb (List.mem_append_left _ h))]

/-! ### The start's vectors read at an index -/

/-- Entry e of the source vector is edge e's source word. -/
theorem srcVec_apply (ei : IVec S2x600000 32) (e : Fin 600000) : srcVec ei (ix1 e) = srcW ei e := by
  unfold srcVec
  refine (shapeCast_apply _ _ (ix1 e) (ix2 (0 : Fin 1) e) ?_).trans ?_
  · rw [Shape.rowMajor_val_two, Shape.rowMajor_val_one]
    show (0 : Nat) * 600000 + e.val = e.val
    omega
  · refine (extractStridedSlice_apply _ ei _ (ix2 (0 : Fin 1) e) (ix2 (0 : Fin 2) e) fun a => ?_).trans rfl
    match a with
    | ⟨0, _⟩ => rfl
    | ⟨1, _⟩ => show e.val = 0 + e.val; omega

/-- Entry e of the destination vector is edge e's destination word. -/
theorem dstVec_apply (ei : IVec S2x600000 32) (e : Fin 600000) : dstVec ei (ix1 e) = dstW ei e := by
  unfold dstVec
  refine (shapeCast_apply _ _ (ix1 e) (ix2 (0 : Fin 1) e) ?_).trans ?_
  · rw [Shape.rowMajor_val_two, Shape.rowMajor_val_one]
    show (0 : Nat) * 600000 + e.val = e.val
    omega
  · refine (extractStridedSlice_apply _ ei _ (ix2 (0 : Fin 1) e) (ix2 (1 : Fin 2) e) fun a => ?_).trans rfl
    match a with
    | ⟨0, _⟩ => rfl
    | ⟨1, _⟩ => show e.val = 0 + e.val; omega

/-- The reciprocal square root of an extended real that is at least one is a real number. -/
theorem rsqrt_isR_of_one_le {x : EReal} (hx : 1 ≤ x) : IsR (Ideal.rsqrt x) := by
  induction x using EReal.rec with
  | bot => exact absurd (le_bot_iff.mp hx) (by rw [← EReal.coe_one]; exact EReal.coe_ne_bot 1)
  | top => rw [Ideal.rsqrt_top]; exact isR_zero
  | coe r =>
    have hr : (1 : ℝ) ≤ r := by exact_mod_cast hx
    rw [Ideal.rsqrt_coe, if_neg (by linarith), if_neg (by linarith)]
    exact isR_coe _

/-- Every entry of the node scaling is a real number: it is zero, or the reciprocal square root of a degree
    clamped below at one. -/
theorem disOps_isR (ei : IVec S2x600000 32) (i : Fin 100000) : IsR (disOps ei (ix1 i)) := by
  have h : disOps ei (ix1 i)
      = Scalar.select (FloatOps.cmpf (F := Ideal) (φ := .f32) .ogt (degOps ei (ix1 i)) (FloatOps.ofBits .f32 0x00000000#32))
          (FloatOps.hostUnary (F := Ideal) (φ := .f32) .rsqrt
            (FloatOps.maximumf (degOps ei (ix1 i)) (FloatOps.ofBits .f32 0x3F800000#32)))
          (FloatOps.ofBits (F := Ideal) .f32 0x00000000#32) := rfl
  rw [h, Ideal.hostUnary_rsqrt_def, Ideal.maximumf_def, Ideal.ofBits_def, Ideal.ofBits_def, Ideal.ofBits_one_f32,
    Ideal.ofBits_zero_f32]
  unfold Scalar.select
  split
  · exact rsqrt_isR_of_one_le (le_max_right _ _)
  · exact isR_zero

/-! ## The head -/

/-- Mean pooling by graph: the rows scattered onto their graph's row and divided by the graph's size clamped
    below at one. -/
def poolOps (h3 : FVec Ideal S100000x128 .f32) (batch : IVec S100000 32) : FVec Ideal S512x128 .f32 :=
  Host.divf
    (Host.scatterAdd scatter_S512x128_S100000x1_S100000x128_1_0_0_1
      (broadcastInDim S512x128 ![] bcast_S_S512x128 (constant S_ .f32 0x00000000#32 : FVec Ideal S_ .f32))
      (broadcastInDim S100000x1 ![0] bcast_S100000_S100000x1_0 batch) h3)
    (broadcastInDim S512x128 ![0, 1] bcast_S512x1_S512x128_0_1
      (maximumf
        (Host.scatterAdd scatter_S512x1_S100000x1_S100000x1_1_0_0_1
          (broadcastInDim S512x1 ![] bcast_S_S512x1 (constant S_ .f32 0x00000000#32 : FVec Ideal S_ .f32))
          (broadcastInDim S100000x1 ![0] bcast_S100000_S100000x1_0 batch)
          (broadcastInDim S100000x1 ![] bcast_S_S100000x1 (constant S_ .f32 0x3F800000#32 : FVec Ideal S_ .f32)))
        (broadcastInDim S512x1 ![] bcast_S_S512x1 (constant S_ .f32 0x3F800000#32 : FVec Ideal S_ .f32))))

/-- The first dense layer before its positive part. -/
def preOps (pool : FVec Ideal S512x128 .f32) (fc1w : FVec Ideal S128x64 .f32) (fc1b : FVec Ideal S64 .f32) :
    FVec Ideal S512x64 .f32 :=
  addf (Host.dotGeneral dot_S512x128_S128x64_S512x64_1_0_0_1_n_n none pool fc1w)
    (broadcastInDim S512x64 ![0, 1] bcast_S1x64_S512x64_0_1 (broadcastInDim S1x64 ![1] bcast_S64_S1x64_1 fc1b))

/-- The positive part. -/
def reluOps (pre : FVec Ideal S512x64 .f32) : FVec Ideal S512x64 .f32 :=
  maximumf pre (broadcastInDim S512x64 ![] bcast_S_S512x64 (constant S_ .f32 0x00000000#32 : FVec Ideal S_ .f32))

/-- The second dense layer and the logistic function, as one over one plus the exponential of the negation. -/
def outOps (hid : FVec Ideal S512x64 .f32) (fc2w : FVec Ideal S64x1 .f32) (fc2b : FVec Ideal S1 .f32) :
    FVec Ideal S512x1 .f32 :=
  Host.divf (broadcastInDim S512x1 ![] bcast_S_S512x1 (constant S_ .f32 0x3F800000#32 : FVec Ideal S_ .f32))
    (addf (broadcastInDim S512x1 ![] bcast_S_S512x1 (constant S_ .f32 0x3F800000#32 : FVec Ideal S_ .f32))
      (Host.exp (Host.negf
        (addf (Host.dotGeneral dot_S512x64_S64x1_S512x1_1_0_0_1_n_n none hid fc2w)
          (broadcastInDim S512x1 ![0, 1] bcast_S1x1_S512x1_0_1 (broadcastInDim S1x1 ![1] bcast_S1_S1x1_1 fc2b))))))

/-- The head: pooling, dense layer, positive part, dense layer, logistic function. -/
def tailOps (h3 : FVec Ideal S100000x128 .f32) (batch : IVec S100000 32) (fc1w : FVec Ideal S128x64 .f32)
    (fc1b : FVec Ideal S64 .f32) (fc2w : FVec Ideal S64x1 .f32) (fc2b : FVec Ideal S1 .f32) : FVec Ideal S512x1 .f32 :=
  outOps (reluOps (preOps (poolOps h3 batch) fc1w fc1b)) fc2w fc2b

/-- The buffers the head's three stretches write, in order. -/
abbrev written6 : List (Ref sig .tc) :=
  [main_cst_15, main_v89, main_v90, main_v91, main_cst_16, main_v92, main_cst_17, main_v93, main_v94, main_v95,
    main_cst_18, main_v96, main_v97, main_v98, main_v99, main_v100, main_v101, main_v102, main_v103]
abbrev written6_1 : List (Ref sig .tc) := [main_call1_cst, main_call1_v0, main_v104]
abbrev written6_2 : List (Ref sig .tc) :=
  [main_v105, main_v106, main_v107, main_v108, main_v109, main_v110, main_cst_19, main_v111, main_v112, main_cst_20,
    main_v113, main_v114]

theorem writesOnly6 : Ssa.WritesOnly (hostOps6 (F := Ideal)) written6 := by
  repeat' constructor
theorem writesOnly6_1 : Ssa.WritesOnly (hostOps6_1 (F := Ideal)) written6_1 := by
  repeat' constructor
theorem writesOnly6_2 : Ssa.WritesOnly (hostOps6_2 (F := Ideal)) written6_2 := by
  repeat' constructor

section HeadEquations

variable (W V : Valuation τ sig (Elt Ideal))

/-! The pooling and the first dense layer. -/

theorem keep6 (b : Ref sig .tc) (hb : b ∉ written6) : after hostOps6 W (Proc.devRef .tc b) = W (Proc.devRef .tc b) :=
  Ssa.after_arg hostOps6 written6 writesOnly6 W b hb

theorem eq6_cst_15 : after hostOps6 W (Proc.devRef .tc main_cst_15) = (constant S_ .f32 0x00000000#32 : FVec Ideal S_ .f32) :=
  Ssa.ssa_nullary hostOps6 written6 writesOnly6 W 0 main_cst_15 _ _ rfl (by decide)

theorem eq6_v89 : after hostOps6 W (Proc.devRef .tc main_v89) = broadcastInDim S512x128 ![] bcast_S_S512x128 (after hostOps6 W (Proc.devRef .tc main_cst_15)) :=
  Ssa.ssa_unary hostOps6 written6 writesOnly6 W 1 main_cst_15 main_v89 _ _ _ rfl (by decide) (by decide)

theorem eq6_v90 : after hostOps6 W (Proc.devRef .tc main_v90) = broadcastInDim S100000x1 ![0] bcast_S100000_S100000x1_0 (after hostOps6 W (Proc.devRef .tc main_arg2)) :=
  Ssa.ssa_unary hostOps6 written6 writesOnly6 W 2 main_arg2 main_v90 _ _ _ rfl (by decide) (by decide)

theorem eq6_v91 : after hostOps6 W (Proc.devRef .tc main_v91)
    = (Host.scatterAdd scatter_S512x128_S100000x1_S100000x128_1_0_0_1 (after hostOps6 W (Proc.devRef .tc main_v89) : FVec Ideal S512x128 .f32)
        (after hostOps6 W (Proc.devRef .tc main_v90)) (after hostOps6 W (Proc.devRef .tc main_v88) : FVec Ideal S100000x128 .f32) : FVec Ideal S512x128 .f32) :=
  Ssa.ssa_ternary hostOps6 written6 writesOnly6 W 3 main_v89 main_v90 main_v88 main_v91 _ _ _ _ _ rfl
    (by decide) (by decide) (by decide) (by decide)

theorem eq6_cst_16 : after hostOps6 W (Proc.devRef .tc main_cst_16) = (constant S_ .f32 0x3F800000#32 : FVec Ideal S_ .f32) :=
  Ssa.ssa_nullary hostOps6 written6 writesOnly6 W 4 main_cst_16 _ _ rfl (by decide)

theorem eq6_v92 : after hostOps6 W (Proc.devRef .tc main_v92) = broadcastInDim S100000x1 ![] bcast_S_S100000x1 (after hostOps6 W (Proc.devRef .tc main_cst_16)) :=
  Ssa.ssa_unary hostOps6 written6 writesOnly6 W 5 main_cst_16 main_v92 _ _ _ rfl (by decide) (by decide)

theorem eq6_cst_17 : after hostOps6 W (Proc.devRef .tc main_cst_17) = (constant S_ .f32 0x00000000#32 : FVec Ideal S_ .f32) :=
  Ssa.ssa_nullary hostOps6 written6 writesOnly6 W 6 main_cst_17 _ _ rfl (by decide)

theorem eq6_v93 : after hostOps6 W (Proc.devRef .tc main_v93) = broadcastInDim S512x1 ![] bcast_S_S512x1 (after hostOps6 W (Proc.devRef .tc main_cst_17)) :=
  Ssa.ssa_unary hostOps6 written6 writesOnly6 W 7 main_cst_17 main_v93 _ _ _ rfl (by decide) (by decide)

theorem eq6_v94 : after hostOps6 W (Proc.devRef .tc main_v94) = broadcastInDim S100000x1 ![0] bcast_S100000_S100000x1_0 (after hostOps6 W (Proc.devRef .tc main_arg2)) :=
  Ssa.ssa_unary hostOps6 written6 writesOnly6 W 8 main_arg2 main_v94 _ _ _ rfl (by decide) (by decide)

theorem eq6_v95 : after hostOps6 W (Proc.devRef .tc main_v95)
    = (Host.scatterAdd scatter_S512x1_S100000x1_S100000x1_1_0_0_1 (after hostOps6 W (Proc.devRef .tc main_v93) : FVec Ideal S512x1 .f32)
        (after hostOps6 W (Proc.devRef .tc main_v94)) (after hostOps6 W (Proc.devRef .tc main_v92) : FVec Ideal S100000x1 .f32) : FVec Ideal S512x1 .f32) :=
  Ssa.ssa_ternary hostOps6 written6 writesOnly6 W 9 main_v93 main_v94 main_v92 main_v95 _ _ _ _ _ rfl
    (by decide) (by decide) (by decide) (by decide)

theorem eq6_cst_18 : after hostOps6 W (Proc.devRef .tc main_cst_18) = (constant S_ .f32 0x3F800000#32 : FVec Ideal S_ .f32) :=
  Ssa.ssa_nullary hostOps6 written6 writesOnly6 W 10 main_cst_18 _ _ rfl (by decide)

theorem eq6_v96 : after hostOps6 W (Proc.devRef .tc main_v96) = broadcastInDim S512x1 ![] bcast_S_S512x1 (after hostOps6 W (Proc.devRef .tc main_cst_18)) :=
  Ssa.ssa_unary hostOps6 written6 writesOnly6 W 11 main_cst_18 main_v96 _ _ _ rfl (by decide) (by decide)

theorem eq6_v97 : after hostOps6 W (Proc.devRef .tc main_v97)
    = (maximumf (after hostOps6 W (Proc.devRef .tc main_v95) : FVec Ideal S512x1 .f32) (after hostOps6 W (Proc.devRef .tc main_v96) : FVec Ideal S512x1 .f32)
        : FVec Ideal S512x1 .f32) :=
  Ssa.ssa_binary hostOps6 written6 writesOnly6 W 12 main_v95 main_v96 main_v97 _ _ _ _ rfl (by decide) (by decide) (by decide)

theorem eq6_v98 : after hostOps6 W (Proc.devRef .tc main_v98) = broadcastInDim S512x128 ![0, 1] bcast_S512x1_S512x128_0_1 (after hostOps6 W (Proc.devRef .tc main_v97)) :=
  Ssa.ssa_unary hostOps6 written6 writesOnly6 W 13 main_v97 main_v98 _ _ _ rfl (by decide) (by decide)

theorem eq6_v99 : after hostOps6 W (Proc.devRef .tc main_v99)
    = (Host.divf (after hostOps6 W (Proc.devRef .tc main_v91) : FVec Ideal S512x128 .f32) (after hostOps6 W (Proc.devRef .tc main_v98) : FVec Ideal S512x128 .f32)
        : FVec Ideal S512x128 .f32) :=
  Ssa.ssa_binary hostOps6 written6 writesOnly6 W 14 main_v91 main_v98 main_v99 _ _ _ _ rfl (by decide) (by decide) (by decide)

theorem eq6_v100 : after hostOps6 W (Proc.devRef .tc main_v100)
    = (Host.dotGeneral (φ₁ := .f32) (φ₂ := .f32) dot_S512x128_S128x64_S512x64_1_0_0_1_n_n none (after hostOps6 W (Proc.devRef .tc main_v99) : FVec Ideal S512x128 .f32)
        (after hostOps6 W (Proc.devRef .tc main_arg21) : FVec Ideal S128x64 .f32) : FVec Ideal S512x64 .f32) :=
  Ssa.ssa_binary hostOps6 written6 writesOnly6 W 15 main_v99 main_arg21 main_v100 _ _ _ _ rfl (by decide) (by decide) (by decide)

theorem eq6_v101 : after hostOps6 W (Proc.devRef .tc main_v101) = broadcastInDim S1x64 ![1] bcast_S64_S1x64_1 (after hostOps6 W (Proc.devRef .tc main_arg22)) :=
  Ssa.ssa_unary hostOps6 written6 writesOnly6 W 16 main_arg22 main_v101 _ _ _ rfl (by decide) (by decide)

theorem eq6_v102 : after hostOps6 W (Proc.devRef .tc main_v102) = broadcastInDim S512x64 ![0, 1] bcast_S1x64_S512x64_0_1 (after hostOps6 W (Proc.devRef .tc main_v101)) :=
  Ssa.ssa_unary hostOps6 written6 writesOnly6 W 17 main_v101 main_v102 _ _ _ rfl (by decide) (by decide)

theorem eq6_v103 : after hostOps6 W (Proc.devRef .tc main_v103)
    = (addf (after hostOps6 W (Proc.devRef .tc main_v100) : FVec Ideal S512x64 .f32) (after hostOps6 W (Proc.devRef .tc main_v102) : FVec Ideal S512x64 .f32)
        : FVec Ideal S512x64 .f32) :=
  Ssa.ssa_binary hostOps6 written6 writesOnly6 W 18 main_v100 main_v102 main_v103 _ _ _ _ rfl (by decide) (by decide) (by decide)

/-- The pooled rows. -/
theorem head_pool : after hostOps6 W (Proc.devRef .tc main_v99) = poolOps (W (Proc.devRef .tc main_v88)) (W (Proc.devRef .tc main_arg2)) := by
  rw [eq6_v99, eq6_v91, eq6_v89, eq6_cst_15, eq6_v90, eq6_v98, eq6_v97, eq6_v95, eq6_v93, eq6_cst_17, eq6_v94, eq6_v92,
    eq6_cst_16, eq6_v96, eq6_cst_18, keep6 W main_v88 (by decide), keep6 W main_arg2 (by decide)]
  rfl

/-- The first dense layer before its positive part. -/
theorem head_pre : after hostOps6 W (Proc.devRef .tc main_v103)
    = preOps (poolOps (W (Proc.devRef .tc main_v88)) (W (Proc.devRef .tc main_arg2))) (W (Proc.devRef .tc main_arg21))
        (W (Proc.devRef .tc main_arg22)) := by
  rw [eq6_v103, eq6_v100, head_pool, eq6_v102, eq6_v101, keep6 W main_arg21 (by decide), keep6 W main_arg22 (by decide)]
  rfl

/-! The inlined positive part. -/

theorem keep6_1 (b : Ref sig .tc) (hb : b ∉ written6_1) : after hostOps6_1 V (Proc.devRef .tc b) = V (Proc.devRef .tc b) :=
  Ssa.after_arg hostOps6_1 written6_1 writesOnly6_1 V b hb

theorem eq61_cst : after hostOps6_1 V (Proc.devRef .tc main_call1_cst) = (constant S_ .f32 0x00000000#32 : FVec Ideal S_ .f32) :=
  Ssa.ssa_nullary hostOps6_1 written6_1 writesOnly6_1 V 0 main_call1_cst _ _ rfl (by decide)

theorem eq61_v0 : after hostOps6_1 V (Proc.devRef .tc main_call1_v0) = broadcastInDim S512x64 ![] bcast_S_S512x64 (after hostOps6_1 V (Proc.devRef .tc main_call1_cst)) :=
  Ssa.ssa_unary hostOps6_1 written6_1 writesOnly6_1 V 1 main_call1_cst main_call1_v0 _ _ _ rfl (by decide) (by decide)

theorem eq61_v104 : after hostOps6_1 V (Proc.devRef .tc main_v104)
    = (maximumf (after hostOps6_1 V (Proc.devRef .tc main_v103) : FVec Ideal S512x64 .f32) (after hostOps6_1 V (Proc.devRef .tc main_call1_v0) : FVec Ideal S512x64 .f32)
        : FVec Ideal S512x64 .f32) :=
  Ssa.ssa_binary hostOps6_1 written6_1 writesOnly6_1 V 2 main_v103 main_call1_v0 main_v104 _ _ _ _ rfl
    (by decide) (by decide) (by decide)

theorem head_relu : after hostOps6_1 V (Proc.devRef .tc main_v104) = reluOps (V (Proc.devRef .tc main_v103)) := by
  rw [eq61_v104, eq61_v0, eq61_cst, keep6_1 V main_v103 (by decide)]
  rfl

/-! The second dense layer and the logistic function. -/

theorem keep6_2 (b : Ref sig .tc) (hb : b ∉ written6_2) : after hostOps6_2 V (Proc.devRef .tc b) = V (Proc.devRef .tc b) :=
  Ssa.after_arg hostOps6_2 written6_2 writesOnly6_2 V b hb

theorem eq62_v105 : after hostOps6_2 V (Proc.devRef .tc main_v105)
    = (Host.dotGeneral (φ₁ := .f32) (φ₂ := .f32) dot_S512x64_S64x1_S512x1_1_0_0_1_n_n none
        (after hostOps6_2 V (Proc.devRef .tc main_v104) : FVec Ideal S512x64 .f32) (after hostOps6_2 V (Proc.devRef .tc main_arg23) : FVec Ideal S64x1 .f32)
        : FVec Ideal S512x1 .f32) :=
  Ssa.ssa_binary hostOps6_2 written6_2 writesOnly6_2 V 0 main_v104 main_arg23 main_v105 _ _ _ _ rfl
    (by decide) (by decide) (by decide)

theorem eq62_v106 : after hostOps6_2 V (Proc.devRef .tc main_v106) = broadcastInDim S1x1 ![1] bcast_S1_S1x1_1 (after hostOps6_2 V (Proc.devRef .tc main_arg24)) :=
  Ssa.ssa_unary hostOps6_2 written6_2 writesOnly6_2 V 1 main_arg24 main_v106 _ _ _ rfl (by decide) (by decide)

theorem eq62_v107 : after hostOps6_2 V (Proc.devRef .tc main_v107) = broadcastInDim S512x1 ![0, 1] bcast_S1x1_S512x1_0_1 (after hostOps6_2 V (Proc.devRef .tc main_v106)) :=
  Ssa.ssa_unary hostOps6_2 written6_2 writesOnly6_2 V 2 main_v106 main_v107 _ _ _ rfl (by decide) (by decide)

theorem eq62_v108 : after hostOps6_2 V (Proc.devRef .tc main_v108)
    = (addf (after hostOps6_2 V (Proc.devRef .tc main_v105) : FVec Ideal S512x1 .f32) (after hostOps6_2 V (Proc.devRef .tc main_v107) : FVec Ideal S512x1 .f32)
        : FVec Ideal S512x1 .f32) :=
  Ssa.ssa_binary hostOps6_2 written6_2 writesOnly6_2 V 3 main_v105 main_v107 main_v108 _ _ _ _ rfl
    (by decide) (by decide) (by decide)

theorem eq62_v109 : after hostOps6_2 V (Proc.devRef .tc main_v109)
    = (Host.negf (after hostOps6_2 V (Proc.devRef .tc main_v108) : FVec Ideal S512x1 .f32) : FVec Ideal S512x1 .f32) :=
  Ssa.ssa_unary hostOps6_2 written6_2 writesOnly6_2 V 4 main_v108 main_v109 _ _ _ rfl (by decide) (by decide)

theorem eq62_v110 : after hostOps6_2 V (Proc.devRef .tc main_v110)
    = (Host.exp (after hostOps6_2 V (Proc.devRef .tc main_v109) : FVec Ideal S512x1 .f32) : FVec Ideal S512x1 .f32) :=
  Ssa.ssa_unary hostOps6_2 written6_2 writesOnly6_2 V 5 main_v109 main_v110 _ _ _ rfl (by decide) (by decide)

theorem eq62_cst_19 : after hostOps6_2 V (Proc.devRef .tc main_cst_19) = (constant S_ .f32 0x3F800000#32 : FVec Ideal S_ .f32) :=
  Ssa.ssa_nullary hostOps6_2 written6_2 writesOnly6_2 V 6 main_cst_19 _ _ rfl (by decide)

theorem eq62_v111 : after hostOps6_2 V (Proc.devRef .tc main_v111) = broadcastInDim S512x1 ![] bcast_S_S512x1 (after hostOps6_2 V (Proc.devRef .tc main_cst_19)) :=
  Ssa.ssa_unary hostOps6_2 written6_2 writesOnly6_2 V 7 main_cst_19 main_v111 _ _ _ rfl (by decide) (by decide)

theorem eq62_v112 : after hostOps6_2 V (Proc.devRef .tc main_v112)
    = (addf (after hostOps6_2 V (Proc.devRef .tc main_v111) : FVec Ideal S512x1 .f32) (after hostOps6_2 V (Proc.devRef .tc main_v110) : FVec Ideal S512x1 .f32)
        : FVec Ideal S512x1 .f32) :=
  Ssa.ssa_binary hostOps6_2 written6_2 writesOnly6_2 V 8 main_v111 main_v110 main_v112 _ _ _ _ rfl
    (by decide) (by decide) (by decide)

theorem eq62_cst_20 : after hostOps6_2 V (Proc.devRef .tc main_cst_20) = (constant S_ .f32 0x3F800000#32 : FVec Ideal S_ .f32) :=
  Ssa.ssa_nullary hostOps6_2 written6_2 writesOnly6_2 V 9 main_cst_20 _ _ rfl (by decide)

theorem eq62_v113 : after hostOps6_2 V (Proc.devRef .tc main_v113) = broadcastInDim S512x1 ![] bcast_S_S512x1 (after hostOps6_2 V (Proc.devRef .tc main_cst_20)) :=
  Ssa.ssa_unary hostOps6_2 written6_2 writesOnly6_2 V 10 main_cst_20 main_v113 _ _ _ rfl (by decide) (by decide)

theorem eq62_v114 : after hostOps6_2 V (Proc.devRef .tc main_v114)
    = (Host.divf (after hostOps6_2 V (Proc.devRef .tc main_v113) : FVec Ideal S512x1 .f32) (after hostOps6_2 V (Proc.devRef .tc main_v112) : FVec Ideal S512x1 .f32)
        : FVec Ideal S512x1 .f32) :=
  Ssa.ssa_binary hostOps6_2 written6_2 writesOnly6_2 V 11 main_v113 main_v112 main_v114 _ _ _ _ rfl
    (by decide) (by decide) (by decide)

theorem head_out : after hostOps6_2 V (Proc.devRef .tc main_v114)
    = outOps (V (Proc.devRef .tc main_v104)) (V (Proc.devRef .tc main_arg23)) (V (Proc.devRef .tc main_arg24)) := by
  rw [eq62_v114, eq62_v113, eq62_cst_20, eq62_v112, eq62_v111, eq62_cst_19, eq62_v110, eq62_v109, eq62_v108, eq62_v105,
    eq62_v107, eq62_v106, keep6_2 V main_v104 (by decide), keep6_2 V main_arg23 (by decide),
    keep6_2 V main_arg24 (by decide)]
  rfl

end HeadEquations

/-- THE HEAD: the output buffer holds the head's function of the last layer's rows, the batch vector and the two
    dense layers' parameters, whatever the starting contents. -/
theorem tail_out (W : Valuation τ sig (Elt Ideal)) :
    after hostOps6_2 (after hostOps6_1 (after hostOps6 W)) (Proc.devRef .tc main_v114)
      = tailOps (W (Proc.devRef .tc main_v88)) (W (Proc.devRef .tc main_arg2)) (W (Proc.devRef .tc main_arg21))
          (W (Proc.devRef .tc main_arg22)) (W (Proc.devRef .tc main_arg23)) (W (Proc.devRef .tc main_arg24)) := by
  rw [head_out, head_relu, head_pre, keep6_1 _ main_arg23 (by decide), keep6_1 _ main_arg24 (by decide),
    keep6 W main_arg23 (by decide), keep6 W main_arg24 (by decide)]
  rfl

end Cert.Gcn.Ker

end
-- ==== Proof.KerResult.lean ====
/-
  The idealized kernel program's result in Spec's words.

  The first three host stretches leave the source and destination words of the edge list, the degree scaling, the
  folded batch-norm slope and intercept of each layer, and the first layer's aggregated scaled input; the three layers
  follow (kerH1, kerH2, kerH3), and the last three stretches apply the pooling and the dense head to the third
  layer's rows.
-/
import proofs.«110672_j48155173322903_2_alg».proof.Proof.KerRun
import proofs.«110672_j48155173322903_2_alg».proof.Proof.KerStart
import proofs.«110672_j48155173322903_2_alg».proof.Proof.KerEnds

set_option maxRecDepth 16384

noncomputable section

namespace Cert.Gcn.Ker

open Cert.KernelIdeal Cert.KernelIdeal.Gen Idealize.ShloMosaic Idealize.ShloMosaic.StableHlo Idealize.ShloMosaic.ValueIdx
open Idealize.ShloMosaic.TcCoe

variable [hP : Cert.KernelIdeal.Facts]
variable (m : (ℓ : Loc nD τ sig) → Buf (Elt Ideal) ℓ) (ρ : Dev nD → PrngReg) (c : Dev nD)

/-- The edge list as the first stretches find it is the argument. -/
theorem W0_ei : W0 m ρ c (Proc.devRef .tc main_arg1) = (argsAt m c).ei := rfl

/-- The degree scaling the layers use is the first stretches' function of the edge list. -/
theorem dAt_eq : dAt m ρ c = cur1 (disOps (argsAt m c).ei) :=
  congrArg cur1 (start_dis (W0 m ρ c))

/-- What the first three stretches establish. -/
theorem entry : Entry m ρ c where
  src := fun e => by
    show (after (hostOps0_1 (F := Ideal)) (after hostOps0 (W0 m ρ c)) (Proc.devRef .tc main_v2) : IVec S600000 32) (ix1 e) = _
    rw [start_src (W0 m ρ c)]
    exact srcVec_apply _ e
  dst := fun e => by
    show (after (hostOps0_1 (F := Ideal)) (after hostOps0 (W0 m ρ c)) (Proc.devRef .tc main_v4) : IVec S600000 32) (ix1 e) = _
    rw [start_dst (W0 m ρ c)]
    exact dstVec_apply _ e
  s1 := fun j => by
    show (after (hostOps0_2 (F := Ideal)) (W2 m ρ c) (Proc.devRef .tc main_v24) : Arr2 1 128) (ix2 (0 : Fin 1) j) = _
    rw [slope1 (W2 m ρ c) j, keep_arg5_0_2 m ρ c, keep_arg8_0_2 m ρ c]
    rfl
  t1 := fun j => by
    show (after (hostOps0_2 (F := Ideal)) (W2 m ρ c) (Proc.devRef .tc main_v25) : Arr2 1 128) (ix2 (0 : Fin 1) j) = _
    rw [icept1 (W2 m ρ c) j, keep_arg4_0_2 m ρ c, keep_arg7_0_2 m ρ c, keep_arg5_0_2 m ρ c, keep_arg8_0_2 m ρ c, keep_arg6_0_2 m ρ c]
    rfl
  s2 := fun j => by
    show (after (hostOps0_2 (F := Ideal)) (W2 m ρ c) (Proc.devRef .tc main_v33) : Arr2 1 128) (ix2 (0 : Fin 1) j) = _
    rw [slope2 (W2 m ρ c) j, keep_arg11_0_2 m ρ c, keep_arg14_0_2 m ρ c]
    rfl
  t2 := fun j => by
    show (after (hostOps0_2 (F := Ideal)) (W2 m ρ c) (Proc.devRef .tc main_v34) : Arr2 1 128) (ix2 (0 : Fin 1) j) = _
    rw [icept2 (W2 m ρ c) j, keep_arg10_0_2 m ρ c, keep_arg13_0_2 m ρ c, keep_arg11_0_2 m ρ c, keep_arg14_0_2 m ρ c, keep_arg12_0_2 m ρ c]
    rfl
  s3 := fun j => by
    show (after (hostOps0_2 (F := Ideal)) (W2 m ρ c) (Proc.devRef .tc main_v42) : Arr2 1 128) (ix2 (0 : Fin 1) j) = _
    rw [slope3 (W2 m ρ c) j, keep_arg17_0_2 m ρ c, keep_arg20_0_2 m ρ c]
    rfl
  t3 := fun j => by
    show (after (hostOps0_2 (F := Ideal)) (W2 m ρ c) (Proc.devRef .tc main_v43) : Arr2 1 128) (ix2 (0 : Fin 1) j) = _
    rw [icept3 (W2 m ρ c) j, keep_arg16_0_2 m ρ c, keep_arg19_0_2 m ρ c, keep_arg17_0_2 m ρ c, keep_arg20_0_2 m ρ c, keep_arg18_0_2 m ρ c]
    rfl
  agg := fun i k => by
    have h4 : W2 m ρ c (Proc.devRef .tc main_v4) = dstVec (argsAt m c).ei := start_dst (W0 m ρ c)
    have h2 : W2 m ρ c (Proc.devRef .tc main_v2) = srcVec (argsAt m c).ei := start_src (W0 m ρ c)
    show (after (hostOps0_2 (F := Ideal)) (W2 m ρ c) (Proc.devRef .tc main_v57) : Arr2 100000 64) (ix2 i k) = _
    rw [agg1pre (W2 m ρ c) i k, h4, h2, keep_arg0_0_2 m ρ c]
    simp only [srcVec_apply, dstVec_apply]
    rfl
  col := disCol0 (W2 m ρ c)

/-- The result buffer when the program returns. -/
theorem result :
    W16 m ρ c (Proc.devRef .tc main_v114)
      = tailOps (unc (kerH3 (argsAt m c) (cur1 (disOps (argsAt m c).ei)))) (argsAt m c).batch (argsAt m c).fc1w
          (argsAt m c).fc1b (argsAt m c).fc2w (argsAt m c).fc2b := by
  have hE := entry m ρ c
  have h3 : W13 m ρ c (Proc.devRef .tc main_v88) = unc (kerH3 (argsAt m c) (dAt m ρ c)) := layer3 hE (layer2 hE (layer1 hE))
  have a2 : W13 m ρ c (Proc.devRef .tc main_arg2) = (argsAt m c).batch := ((keep_arg2_2_13 m ρ c).trans (keep_arg2_0_2 m ρ c)).trans (W0_eq m ρ c main_arg2)
  have a21 : W13 m ρ c (Proc.devRef .tc main_arg21) = (argsAt m c).fc1w := ((keep_arg21_2_13 m ρ c).trans (keep_arg21_0_2 m ρ c)).trans (W0_eq m ρ c main_arg21)
  have a22 : W13 m ρ c (Proc.devRef .tc main_arg22) = (argsAt m c).fc1b := ((keep_arg22_2_13 m ρ c).trans (keep_arg22_0_2 m ρ c)).trans (W0_eq m ρ c main_arg22)
  have a23 : W13 m ρ c (Proc.devRef .tc main_arg23) = (argsAt m c).fc2w := ((keep_arg23_2_13 m ρ c).trans (keep_arg23_0_2 m ρ c)).trans (W0_eq m ρ c main_arg23)
  have a24 : W13 m ρ c (Proc.devRef .tc main_arg24) = (argsAt m c).fc2b := ((keep_arg24_2_13 m ρ c).trans (keep_arg24_0_2 m ρ c)).trans (W0_eq m ρ c main_arg24)
  refine (tail_out (W13 m ρ c)).trans ?_
  rw [h3, a2, a21, a22, a23, a24, dAt_eq]

end Cert.Gcn.Ker

end
-- ==== Proof.RefWritten.lean ====
/-
  The buffer each of the reference program's 193 host operations writes, in program order, and the fact that each
  operation writes exactly that buffer: the table a single-assignment reading of the program starts from.
-/
import proofs.«110672_j48155173322903_2_alg».proof.Proof.RefList
import proofs.«110672_j48155173322903_2_alg».proof.Proof.LibSsa

set_option maxRecDepth 16384

noncomputable section

namespace Cert.Gcn.Ref

open Cert.ReferenceIdeal Cert.ReferenceIdeal.Gen Cert.ReferenceIdeal.Value Idealize.ShloMosaic Idealize.ShloMosaic.StableHlo

variable {F : FTy → Type} [FloatOps F]

/-- The buffer written by each operation of the reference, in program order. -/
abbrev written : List (Ref sig .tc) :=
  [
    main_v0, main_v1, main_v2, main_v3, main_v4, main_v5, main_v6, main_cst, main_v7, main_cst_0,
    main_v8, main_v9, main_v10, main_cst_1, main_v11, main_v12, main_cst_2, main_v13, main_v14, main_v15,
    main_cst_3, main_call0_v0, main_call0_v1, main_v16, main_c, main_v17, main_v18, main_c_4, main_v19, main_v20,
    main_v21, main_v22, main_v23, main_c_5, main_v24, main_v25, main_c_6, main_v26, main_v27, main_v28,
    main_v29, main_v30, main_v31, main_v32, main_v33, main_c_7, main_v34, main_v35, main_c_8, main_v36,
    main_v37, main_v38, main_v39, main_v40, main_v41, main_v42, main_cst_9, main_v43, main_v44, main_v45,
    main_v46, main_v47, main_v48, main_v49, main_v50, main_v51, main_cst_10, main_v52, main_v53, main_v54,
    main_v55, main_v56, main_v57, main_v58, main_v59, main_v60, main_v61, main_v62, main_v63, main_call1_cst,
    main_call1_v0, main_v64, main_v65, main_c_11, main_v66, main_v67, main_c_12, main_v68, main_v69, main_v70,
    main_v71, main_v72, main_v73, main_v74, main_cst_13, main_v75, main_v76, main_v77, main_v78, main_v79,
    main_v80, main_v81, main_v82, main_v83, main_cst_14, main_v84, main_v85, main_v86, main_v87, main_v88,
    main_v89, main_v90, main_v91, main_v92, main_v93, main_v94, main_v95, main_call2_cst, main_call2_v0, main_v96,
    main_v97, main_v98, main_c_15, main_v99, main_v100, main_c_16, main_v101, main_v102, main_v103, main_v104,
    main_v105, main_v106, main_v107, main_cst_17, main_v108, main_v109, main_v110, main_v111, main_v112, main_v113,
    main_v114, main_v115, main_v116, main_cst_18, main_v117, main_v118, main_v119, main_v120, main_v121, main_v122,
    main_v123, main_v124, main_v125, main_v126, main_v127, main_v128, main_call3_cst, main_call3_v0, main_v129, main_cst_19,
    main_v130, main_v131, main_v132, main_cst_20, main_v133, main_cst_21, main_v134, main_v135, main_v136, main_cst_22,
    main_v137, main_v138, main_v139, main_v140, main_v141, main_v142, main_v143, main_v144, main_call4_cst, main_call4_v0,
    main_v145, main_v146, main_v147, main_v148, main_v149, main_v150, main_v151, main_cst_23, main_v152, main_v153,
    main_cst_24, main_v154, main_v155 ]

/-- Each operation writes exactly the buffer `written` names at its position. -/
theorem writesOnly : Ssa.WritesOnly (ops (F := F)) written := by
  repeat' constructor

end Cert.Gcn.Ref

end
-- ==== Proof.RefSsa.lean ====
/-
  The reference program read in single-assignment form: each of its 193 host operations writes one buffer, once, so
  every buffer's final contents is its operation's function of its operands' final contents. `valOf` names a
  buffer's final contents from given starting contents; `argsOf` reads the 25 arguments off the starting contents.
-/
import proofs.«110672_j48155173322903_2_alg».proof.Proof.RefWritten
import proofs.«110672_j48155173322903_2_alg».proof.Proof.Spec

set_option maxRecDepth 16384

noncomputable section

namespace Cert.Gcn.Ref

open Cert.ReferenceIdeal Cert.ReferenceIdeal.Gen Cert.ReferenceIdeal.Value Idealize.ShloMosaic Idealize.ShloMosaic.StableHlo

variable {F : FTy → Type} [FloatOps F]

/-- A buffer's contents when the reference returns, from starting contents `V`. -/
abbrev valOf (V : Valuation τ sig (Elt F)) (b : Ref sig .tc) := after (ops (F := F)) V (Proc.devRef .tc b)

/-- The programs' arguments as a valuation holds them, at the ideal instance. -/
def argsOf (V : Valuation τ sig (Elt Ideal)) : Cert.Gcn.Args where
  x := V (Proc.devRef .tc main_arg0)
  ei := V (Proc.devRef .tc main_arg1)
  batch := V (Proc.devRef .tc main_arg2)
  W1 := V (Proc.devRef .tc main_arg3)
  p1 := ⟨V (Proc.devRef .tc main_arg4), V (Proc.devRef .tc main_arg5), V (Proc.devRef .tc main_arg6), V (Proc.devRef .tc main_arg7), V (Proc.devRef .tc main_arg8)⟩
  W2 := V (Proc.devRef .tc main_arg9)
  p2 := ⟨V (Proc.devRef .tc main_arg10), V (Proc.devRef .tc main_arg11), V (Proc.devRef .tc main_arg12), V (Proc.devRef .tc main_arg13), V (Proc.devRef .tc main_arg14)⟩
  W3 := V (Proc.devRef .tc main_arg15)
  p3 := ⟨V (Proc.devRef .tc main_arg16), V (Proc.devRef .tc main_arg17), V (Proc.devRef .tc main_arg18), V (Proc.devRef .tc main_arg19), V (Proc.devRef .tc main_arg20)⟩
  fc1w := V (Proc.devRef .tc main_arg21)
  fc1b := V (Proc.devRef .tc main_arg22)
  fc2w := V (Proc.devRef .tc main_arg23)
  fc2b := V (Proc.devRef .tc main_arg24)

end Cert.Gcn.Ref

end
-- ==== Proof.RefEnds.lean ====
/-
  The two ends of the reference program as named functions of its arguments.

  The reference begins by computing, from the edge list alone, the degree scaling of every node: the reciprocal
  square root of the in-degree (each node's self loop included) where that degree is positive and zero elsewhere.
  It ends with the read-out head: the mean of the last layer's rows over each graph of the batch, two dense layers
  and the logistic function. Both are stated here as the compositions of array operations the program spells, and
  each is shown to be what the program's buffer holds when it returns. The degree scaling is a real number at every
  node: it is either zero or the reciprocal square root of a number that is at least one.
-/
import proofs.«110672_j48155173322903_2_alg».proof.Proof.Spec
import proofs.«110672_j48155173322903_2_alg».proof.Proof.Algebra
import proofs.«110672_j48155173322903_2_alg».proof.Proof.RefSsa
import Idealize.ShloMosaic.Lib.ValueIdx
import Mathlib.Data.EReal.Basic
import Mathlib.Tactic.NormNum
import Mathlib.Tactic.Linarith

set_option maxRecDepth 16384

noncomputable section

namespace Cert.Gcn.Ref

open Cert.ReferenceIdeal Cert.ReferenceIdeal.Gen Cert.ReferenceIdeal.Value Idealize.ShloMosaic Idealize.ShloMosaic.StableHlo
open Idealize.ShloMosaic.ValueIdx

variable [hP : Cert.ReferenceIdeal.Facts]

/-! ### The degree scaling -/

/-- The in-degree of every node, its self loop included: a one is added at every destination word of the edge list
    and at every node's own number. -/
def inDeg (ei : IVec S2x600000 32) : FVec Ideal S100000 .f32 :=
  let v0 : IVec S100000 32 := iotaInDim S100000 32 0
  let v4 : IVec S1x600000 32 := extractStridedSlice S1x600000 ![1, 0] ei slices_S2x600000_S1x600000_1_0
  let v5 : IVec S600000 32 := fun i => shapeCast S600000 v4 shapeCasts_S1x600000_S600000 i
  let v6 : IVec S700000 32 :=
    concatenate S700000 0 [⟨S600000, v5⟩, ⟨S100000, v0⟩] concatenates_S600000_S100000_S700000_d0
  let v7 : FVec Ideal S700000 .f32 :=
    broadcastInDim S700000 ![] bcast_S_S700000 (constant (F := Ideal) S_ .f32 0x3F800000#32)
  let v8 : FVec Ideal S100000 .f32 :=
    broadcastInDim S100000 ![] bcast_S_S100000 (constant (F := Ideal) S_ .f32 0x00000000#32)
  let v9 : IVec S700000x1 32 := broadcastInDim S700000x1 ![0] bcast_S700000_S700000x1_0 v6
  Host.scatterAdd scatter_S100000_S700000x1_S700000_n_0_0_1 v8 v9 v7

/-- The degree scaling: where the in-degree is positive, the reciprocal square root of the larger of the in-degree
    and one; zero elsewhere. -/
def disOps (ei : IVec S2x600000 32) : FVec Ideal S100000 .f32 :=
  select
    (cmpf .ogt (inDeg ei) (broadcastInDim S100000 ![] bcast_S_S100000 (constant (F := Ideal) S_ .f32 0x00000000#32)))
    (Host.rsqrt
      (maximumf (inDeg ei) (broadcastInDim S100000 ![] bcast_S_S100000 (constant (F := Ideal) S_ .f32 0x3F800000#32))))
    (broadcastInDim S100000 ![] bcast_S_S100000 (id (constant (F := Ideal) S_ .f32 0x00000000#32)))

/-- The buffer of the in-degree holds `inDeg` of the edge list when the reference returns. -/
theorem val_inDeg (V : Valuation τ sig (Elt Ideal)) : valOf V main_v10 = inDeg (V (Proc.devRef .tc main_arg1)) := by
  have e0 := Ssa.ssa_nullary (ops (F := Ideal)) written writesOnly V 0 main_v0 _ _ rfl (by decide)
  have e4 := Ssa.ssa_unary (ops (F := Ideal)) written writesOnly V 4 main_arg1 main_v4 _ _ _ rfl (by decide) (by decide)
  have e5 : after (ops (F := Ideal)) V (Proc.devRef .tc main_v5) = fun i => shapeCast S600000 (after (ops (F := Ideal)) V (Proc.devRef .tc main_v4)) shapeCasts_S1x600000_S600000 i :=
    Ssa.ssa_reshape (ops (F := Ideal)) written writesOnly V 5 main_v4 main_v5 rfl shapeCasts_S1x600000_S600000 _ _ rfl (by decide) (by decide)
  have e6 := Ssa.ssa_binary (ops (F := Ideal)) written writesOnly V 6 main_v5 main_v0 main_v6 _ _ _ _ rfl (by decide) (by decide) (by decide)
  have e7 := Ssa.ssa_nullary (ops (F := Ideal)) written writesOnly V 7 main_cst _ _ rfl (by decide)
  have e8 := Ssa.ssa_unary (ops (F := Ideal)) written writesOnly V 8 main_cst main_v7 _ _ _ rfl (by decide) (by decide)
  have e9 := Ssa.ssa_nullary (ops (F := Ideal)) written writesOnly V 9 main_cst_0 _ _ rfl (by decide)
  have e10 := Ssa.ssa_unary (ops (F := Ideal)) written writesOnly V 10 main_cst_0 main_v8 _ _ _ rfl (by decide) (by decide)
  have e11 := Ssa.ssa_unary (ops (F := Ideal)) written writesOnly V 11 main_v6 main_v9 _ _ _ rfl (by decide) (by decide)
  have e12 := Ssa.ssa_ternary (ops (F := Ideal)) written writesOnly V 12 main_v8 main_v9 main_v7 main_v10 _ _ _ _ _ rfl (by decide) (by decide) (by decide) (by decide)
  have a1 := Ssa.after_arg (ops (F := Ideal)) written writesOnly V main_arg1 (by decide)
  show after (ops (F := Ideal)) V (Proc.devRef .tc main_v10) = _
  rw [e12, e11, e10, e9, e8, e7, e6, e5, e4, e0, a1]
  rfl

/-- The buffer of the degree scaling holds `disOps` of the edge list when the reference returns. -/
theorem val_dis (V : Valuation τ sig (Elt Ideal)) : valOf V main_v16 = disOps (V (Proc.devRef .tc main_arg1)) := by
  have e13 := Ssa.ssa_nullary (ops (F := Ideal)) written writesOnly V 13 main_cst_1 _ _ rfl (by decide)
  have e14 := Ssa.ssa_unary (ops (F := Ideal)) written writesOnly V 14 main_cst_1 main_v11 _ _ _ rfl (by decide) (by decide)
  have e15 := Ssa.ssa_binary (ops (F := Ideal)) written writesOnly V 15 main_v10 main_v11 main_v12 _ _ _ _ rfl (by decide) (by decide) (by decide)
  have e16 := Ssa.ssa_nullary (ops (F := Ideal)) written writesOnly V 16 main_cst_2 _ _ rfl (by decide)
  have e17 := Ssa.ssa_unary (ops (F := Ideal)) written writesOnly V 17 main_cst_2 main_v13 _ _ _ rfl (by decide) (by decide)
  have e18 := Ssa.ssa_binary (ops (F := Ideal)) written writesOnly V 18 main_v10 main_v13 main_v14 _ _ _ _ rfl (by decide) (by decide) (by decide)
  have e19 := Ssa.ssa_unary (ops (F := Ideal)) written writesOnly V 19 main_v14 main_v15 _ _ _ rfl (by decide) (by decide)
  have e20 := Ssa.ssa_nullary (ops (F := Ideal)) written writesOnly V 20 main_cst_3 _ _ rfl (by decide)
  have e21 : after (ops (F := Ideal)) V (Proc.devRef .tc main_call0_v0) = id (after (ops (F := Ideal)) V (Proc.devRef .tc main_cst_3)) :=
    Ssa.ssa_unary (ops (F := Ideal)) written writesOnly V 21 main_cst_3 main_call0_v0 _ _ _ rfl (by decide) (by decide)
  have e22 : after (ops (F := Ideal)) V (Proc.devRef .tc main_call0_v1) = (broadcastInDim S100000 ![] bcast_S_S100000) (after (ops (F := Ideal)) V (Proc.devRef .tc main_call0_v0)) :=
    Ssa.ssa_unary (ops (F := Ideal)) written writesOnly V 22 main_call0_v0 main_call0_v1 _ _ _ rfl (by decide) (by decide)
  have e23 : after (ops (F := Ideal)) V (Proc.devRef .tc main_v16) = select (after (ops (F := Ideal)) V (Proc.devRef .tc main_v12)) (after (ops (F := Ideal)) V (Proc.devRef .tc main_v15)) (after (ops (F := Ideal)) V (Proc.devRef .tc main_call0_v1)) :=
    Ssa.ssa_ternary (ops (F := Ideal)) written writesOnly V 23 main_v12 main_v15 main_call0_v1 main_v16 _ _ _ _ _ rfl (by decide) (by decide) (by decide) (by decide)
  have d10 : after (ops (F := Ideal)) V (Proc.devRef .tc main_v10) = inDeg (V (Proc.devRef .tc main_arg1)) := val_inDeg V
  show after (ops (F := Ideal)) V (Proc.devRef .tc main_v16) = _
  rw [e23, e22, e21, e20, e19, e18, e17, e16, e15, e14, e13, d10]
  rfl

/-- The pattern of the float one denotes the real number one, and the all-zero pattern zero. -/
theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

/-- The reciprocal square root of an extended real that is at least one is a real number: at infinity it is
    zero, at a real r ≥ 1 it is 1 / √r. -/
theorem rsqrt_isR_of_one_le {x : EReal} (hx : 1 ≤ x) : IsR (Ideal.rsqrt x) := by
  induction x using EReal.rec with
  | bot => exact absurd (le_bot_iff.mp hx) (EReal.coe_ne_bot 1)
  | top => rw [Ideal.rsqrt_top]; exact isR_zero
  | coe r =>
    have hr : (1 : ℝ) ≤ r := by exact_mod_cast hx
    rw [Ideal.rsqrt_coe, if_neg (by linarith), if_neg (by linarith)]
    exact isR_coe _

/-- At an index, the reciprocal square root of the larger of a vector and a splat constant, and a splat constant. -/
theorem rsqrt_max_splat_apply (D : FVec Ideal S100000 .f32) (b : BitVec 32) (j : S100000.Idx) :
    Host.rsqrt (maximumf D (broadcastInDim S100000 ![] bcast_S_S100000 (constant (F := Ideal) S_ .f32 b))) j
      = Ideal.rsqrt (max (D j) (Ideal.ofBits .f32 b)) := rfl

theorem splat_id_apply (b : BitVec 32) (j : S100000.Idx) :
    broadcastInDim S100000 ![] bcast_S_S100000 (id (constant (F := Ideal) S_ .f32 b)) j = Ideal.ofBits .f32 b := rfl

/-- The degree scaling is a real number at every node. -/
theorem disOps_isR (ei : IVec S2x600000 32) (i : Fin 100000) : IsR (disOps ei (ix1 i)) := by
  unfold disOps
  generalize inDeg ei = D
  rw [select_apply, rsqrt_max_splat_apply, splat_id_apply, ofBits_one, ofBits_zero]
  rcases BitVec.eq_zero_or_eq_one
      (cmpf .ogt D (broadcastInDim S100000 ![] bcast_S_S100000 (constant (F := Ideal) S_ .f32 0x00000000#32))
        (ix1 i)) with hc | hc
  · rw [hc, select_zero]; exact isR_zero
  · rw [hc, select_one]; exact rsqrt_isR_of_one_le (le_max_right _ _)

/-! ### The read-out head -/

/-- The head: the rows of the last layer are summed per graph of the batch and divided by the larger of the graph's
    node count and one; a dense layer with bias and positive part, a second dense layer with bias, and the logistic
    function 1 / (1 + exp (-·)) follow. -/
def tailOps (h3 : FVec Ideal S100000x128 .f32) (batch : IVec S100000 32) (fc1w : FVec Ideal S128x64 .f32)
    (fc1b : FVec Ideal S64 .f32) (fc2w : FVec Ideal S64x1 .f32) (fc2b : FVec Ideal S1 .f32) :
    FVec Ideal S512x1 .f32 :=
  let v130 : FVec Ideal S512x128 .f32 :=
    broadcastInDim S512x128 ![] bcast_S_S512x128 (constant (F := Ideal) S_ .f32 0x00000000#32)
  let v131 : IVec S100000x1 32 := broadcastInDim S100000x1 ![0] bcast_S100000_S100000x1_0 batch
  let v132 : FVec Ideal S512x128 .f32 :=
    Host.scatterAdd scatter_S512x128_S100000x1_S100000x128_1_0_0_1 v130 v131 h3
  let v133 : FVec Ideal S100000x1 .f32 :=
    broadcastInDim S100000x1 ![] bcast_S_S100000x1 (constant (F := Ideal) S_ .f32 0x3F800000#32)
  let v134 : FVec Ideal S512x1 .f32 :=
    broadcastInDim S512x1 ![] bcast_S_S512x1 (constant (F := Ideal) S_ .f32 0x00000000#32)
  let v135 : IVec S100000x1 32 := broadcastInDim S100000x1 ![0] bcast_S100000_S100000x1_0 batch
  let v136 : FVec Ideal S512x1 .f32 :=
    Host.scatterAdd scatter_S512x1_S100000x1_S100000x1_1_0_0_1 v134 v135 v133
  let v137 : FVec Ideal S512x1 .f32 :=
    broadcastInDim S512x1 ![] bcast_S_S512x1 (constant (F := Ideal) S_ .f32 0x3F800000#32)
  let v138 : FVec Ideal S512x1 .f32 := maximumf v136 v137
  let v139 : FVec Ideal S512x128 .f32 := broadcastInDim S512x128 ![0, 1] bcast_S512x1_S512x128_0_1 v138
  let v140 : FVec Ideal S512x128 .f32 := Host.divf v132 v139
  let v141 : FVec Ideal S512x64 .f32 :=
    Host.dotGeneral dot_S512x128_S128x64_S512x64_1_0_0_1_n_n none v140 fc1w
  let v142 : FVec Ideal S1x64 .f32 := broadcastInDim S1x64 ![1] bcast_S64_S1x64_1 fc1b
  let v143 : FVec Ideal S512x64 .f32 := broadcastInDim S512x64 ![0, 1] bcast_S1x64_S512x64_0_1 v142
  let v144 : FVec Ideal S512x64 .f32 := addf v141 v143
  let c4v0 : FVec Ideal S512x64 .f32 :=
    broadcastInDim S512x64 ![] bcast_S_S512x64 (constant (F := Ideal) S_ .f32 0x00000000#32)
  let v145 : FVec Ideal S512x64 .f32 := maximumf v144 c4v0
  let v146 : FVec Ideal S512x1 .f32 := Host.dotGeneral dot_S512x64_S64x1_S512x1_1_0_0_1_n_n none v145 fc2w
  let v147 : FVec Ideal S1x1 .f32 := broadcastInDim S1x1 ![1] bcast_S1_S1x1_1 fc2b
  let v148 : FVec Ideal S512x1 .f32 := broadcastInDim S512x1 ![0, 1] bcast_S1x1_S512x1_0_1 v147
  let v149 : FVec Ideal S512x1 .f32 := addf v146 v148
  let v150 : FVec Ideal S512x1 .f32 := Host.negf v149
  let v151 : FVec Ideal S512x1 .f32 := Host.exp v150
  let v152 : FVec Ideal S512x1 .f32 :=
    broadcastInDim S512x1 ![] bcast_S_S512x1 (constant (F := Ideal) S_ .f32 0x3F800000#32)
  let v153 : FVec Ideal S512x1 .f32 := addf v152 v151
  let v154 : FVec Ideal S512x1 .f32 :=
    broadcastInDim S512x1 ![] bcast_S_S512x1 (constant (F := Ideal) S_ .f32 0x3F800000#32)
  Host.divf v154 v153

/-- The result buffer holds `tailOps` of the last layer's buffer and the head's arguments when the reference
    returns. -/
theorem val_out (V : Valuation τ sig (Elt Ideal)) :
    valOf V main_v155
      = tailOps (valOf V main_v129) (V (Proc.devRef .tc main_arg2)) (V (Proc.devRef .tc main_arg21))
          (V (Proc.devRef .tc main_arg22)) (V (Proc.devRef .tc main_arg23)) (V (Proc.devRef .tc main_arg24)) := by
  have e159 := Ssa.ssa_nullary (ops (F := Ideal)) written writesOnly V 159 main_cst_19 _ _ rfl (by decide)
  have e160 := Ssa.ssa_unary (ops (F := Ideal)) written writesOnly V 160 main_cst_19 main_v130 _ _ _ rfl (by decide) (by decide)
  have e161 := Ssa.ssa_unary (ops (F := Ideal)) written writesOnly V 161 main_arg2 main_v131 _ _ _ rfl (by decide) (by decide)
  have e162 := Ssa.ssa_ternary (ops (F := Ideal)) written writesOnly V 162 main_v130 main_v131 main_v129 main_v132 _ _ _ _ _ rfl (by decide) (by decide) (by decide) (by decide)
  have e163 := Ssa.ssa_nullary (ops (F := Ideal)) written writesOnly V 163 main_cst_20 _ _ rfl (by decide)
  have e164 := Ssa.ssa_unary (ops (F := Ideal)) written writesOnly V 164 main_cst_20 main_v133 _ _ _ rfl (by decide) (by decide)
  have e165 := Ssa.ssa_nullary (ops (F := Ideal)) written writesOnly V 165 main_cst_21 _ _ rfl (by decide)
  have e166 := Ssa.ssa_unary (ops (F := Ideal)) written writesOnly V 166 main_cst_21 main_v134 _ _ _ rfl (by decide) (by decide)
  have e167 := Ssa.ssa_unary (ops (F := Ideal)) written writesOnly V 167 main_arg2 main_v135 _ _ _ rfl (by decide) (by decide)
  have e168 := Ssa.ssa_ternary (ops (F := Ideal)) written writesOnly V 168 main_v134 main_v135 main_v133 main_v136 _ _ _ _ _ rfl (by decide) (by decide) (by decide) (by decide)
  have e169 := Ssa.ssa_nullary (ops (F := Ideal)) written writesOnly V 169 main_cst_22 _ _ rfl (by decide)
  have e170 := Ssa.ssa_unary (ops (F := Ideal)) written writesOnly V 170 main_cst_22 main_v137 _ _ _ rfl (by decide) (by decide)
  have e171 := Ssa.ssa_binary (ops (F := Ideal)) written writesOnly V 171 main_v136 main_v137 main_v138 _ _ _ _ rfl (by decide) (by decide) (by decide)
  have e172 := Ssa.ssa_unary (ops (F := Ideal)) written writesOnly V 172 main_v138 main_v139 _ _ _ rfl (by decide) (by decide)
  have e173 := Ssa.ssa_binary (ops (F := Ideal)) written writesOnly V 173 main_v132 main_v139 main_v140 _ _ _ _ rfl (by decide) (by decide) (by decide)
  have e174 := Ssa.ssa_binary (ops (F := Ideal)) written writesOnly V 174 main_v140 main_arg21 main_v141 _ _ _ _ rfl (by decide) (by decide) (by decide)
  have e175 := Ssa.ssa_unary (ops (F := Ideal)) written writesOnly V 175 main_arg22 main_v142 _ _ _ rfl (by decide) (by decide)
  have e176 := Ssa.ssa_unary (ops (F := Ideal)) written writesOnly V 176 main_v142 main_v143 _ _ _ rfl (by decide) (by decide)
  have e177 := Ssa.ssa_binary (ops (F := Ideal)) written writesOnly V 177 main_v141 main_v143 main_v144 _ _ _ _ rfl (by decide) (by decide) (by decide)
  have e178 : after (ops (F := Ideal)) V (Proc.devRef .tc main_call4_cst) = constant (F := Ideal) S_ .f32 0x00000000#32 :=
    Ssa.ssa_nullary (ops (F := Ideal)) written writesOnly V 178 main_call4_cst _ _ rfl (by decide)
  have e179 : after (ops (F := Ideal)) V (Proc.devRef .tc main_call4_v0) = (broadcastInDim S512x64 ![] bcast_S_S512x64) (after (ops (F := Ideal)) V (Proc.devRef .tc main_call4_cst)) :=
    Ssa.ssa_unary (ops (F := Ideal)) written writesOnly V 179 main_call4_cst main_call4_v0 _ _ _ rfl (by decide) (by decide)
  have e180 : after (ops (F := Ideal)) V (Proc.devRef .tc main_v145) = maximumf (F := Ideal) (s := S512x64) (φ := .f32) (after (ops (F := Ideal)) V (Proc.devRef .tc main_v144)) (after (ops (F := Ideal)) V (Proc.devRef .tc main_call4_v0)) :=
    Ssa.ssa_binary (ops (F := Ideal)) written writesOnly V 180 main_v144 main_call4_v0 main_v145 _ _ _ _ rfl (by decide) (by decide) (by decide)
  have e181 := Ssa.ssa_binary (ops (F := Ideal)) written writesOnly V 181 main_v145 main_arg23 main_v146 _ _ _ _ rfl (by decide) (by decide) (by decide)
  have e182 := Ssa.ssa_unary (ops (F := Ideal)) written writesOnly V 182 main_arg24 main_v147 _ _ _ rfl (by decide) (by decide)
  have e183 := Ssa.ssa_unary (ops (F := Ideal)) written writesOnly V 183 main_v147 main_v148 _ _ _ rfl (by decide) (by decide)
  have e184 := Ssa.ssa_binary (ops (F := Ideal)) written writesOnly V 184 main_v146 main_v148 main_v149 _ _ _ _ rfl (by decide) (by decide) (by decide)
  have e185 := Ssa.ssa_unary (ops (F := Ideal)) written writesOnly V 185 main_v149 main_v150 _ _ _ rfl (by decide) (by decide)
  have e186 := Ssa.ssa_unary (ops (F := Ideal)) written writesOnly V 186 main_v150 main_v151 _ _ _ rfl (by decide) (by decide)
  have e187 := Ssa.ssa_nullary (ops (F := Ideal)) written writesOnly V 187 main_cst_23 _ _ rfl (by decide)
  have e188 := Ssa.ssa_unary (ops (F := Ideal)) written writesOnly V 188 main_cst_23 main_v152 _ _ _ rfl (by decide) (by decide)
  have e189 := Ssa.ssa_binary (ops (F := Ideal)) written writesOnly V 189 main_v152 main_v151 main_v153 _ _ _ _ rfl (by decide) (by decide) (by decide)
  have e190 := Ssa.ssa_nullary (ops (F := Ideal)) written writesOnly V 190 main_cst_24 _ _ rfl (by decide)
  have e191 := Ssa.ssa_unary (ops (F := Ideal)) written writesOnly V 191 main_cst_24 main_v154 _ _ _ rfl (by decide) (by decide)
  have e192 := Ssa.ssa_binary (ops (F := Ideal)) written writesOnly V 192 main_v154 main_v153 main_v155 _ _ _ _ rfl (by decide) (by decide) (by decide)
  have a2 := Ssa.after_arg (ops (F := Ideal)) written writesOnly V main_arg2 (by decide)
  have a21 := Ssa.after_arg (ops (F := Ideal)) written writesOnly V main_arg21 (by decide)
  have a22 := Ssa.after_arg (ops (F := Ideal)) written writesOnly V main_arg22 (by decide)
  have a23 := Ssa.after_arg (ops (F := Ideal)) written writesOnly V main_arg23 (by decide)
  have a24 := Ssa.after_arg (ops (F := Ideal)) written writesOnly V main_arg24 (by decide)
  show after (ops (F := Ideal)) V (Proc.devRef .tc main_v155) = _
  rw [e192, e191, e190, e189, e188, e187, e186, e185, e184, e183, e182, e181, e180, e179, e178, e177, e176, e175, e174, e173, e172, e171, e170, e169, e168, e167, e166, e165, e164, e163, e162, e161, e160, e159, a2, a21, a22, a23, a24]
  rfl

/-! ### The arguments -/

/-- A buffer no operation writes holds its starting contents when the reference returns. -/
theorem val_arg (V : Valuation τ sig (Elt Ideal)) (b : Ref sig .tc) (hb : b ∉ written) :
    valOf V b = V (Proc.devRef .tc b) :=
  Ssa.after_arg (ops (F := Ideal)) written writesOnly V b hb

theorem val_arg0 (V : Valuation τ sig (Elt Ideal)) : valOf V main_arg0 = V (Proc.devRef .tc main_arg0) :=
  val_arg V main_arg0 (by decide)
theorem val_arg1 (V : Valuation τ sig (Elt Ideal)) : valOf V main_arg1 = V (Proc.devRef .tc main_arg1) :=
  val_arg V main_arg1 (by decide)
theorem val_arg2 (V : Valuation τ sig (Elt Ideal)) : valOf V main_arg2 = V (Proc.devRef .tc main_arg2) :=
  val_arg V main_arg2 (by decide)
theorem val_arg3 (V : Valuation τ sig (Elt Ideal)) : valOf V main_arg3 = V (Proc.devRef .tc main_arg3) :=
  val_arg V main_arg3 (by decide)
theorem val_arg4 (V : Valuation τ sig (Elt Ideal)) : valOf V main_arg4 = V (Proc.devRef .tc main_arg4) :=
  val_arg V main_arg4 (by decide)
theorem val_arg5 (V : Valuation τ sig (Elt Ideal)) : valOf V main_arg5 = V (Proc.devRef .tc main_arg5) :=
  val_arg V main_arg5 (by decide)
theorem val_arg6 (V : Valuation τ sig (Elt Ideal)) : valOf V main_arg6 = V (Proc.devRef .tc main_arg6) :=
  val_arg V main_arg6 (by decide)
theorem val_arg7 (V : Valuation τ sig (Elt Ideal)) : valOf V main_arg7 = V (Proc.devRef .tc main_arg7) :=
  val_arg V main_arg7 (by decide)
theorem val_arg8 (V : Valuation τ sig (Elt Ideal)) : valOf V main_arg8 = V (Proc.devRef .tc main_arg8) :=
  val_arg V main_arg8 (by decide)
theorem val_arg9 (V : Valuation τ sig (Elt Ideal)) : valOf V main_arg9 = V (Proc.devRef .tc main_arg9) :=
  val_arg V main_arg9 (by decide)
theorem val_arg10 (V : Valuation τ sig (Elt Ideal)) : valOf V main_arg10 = V (Proc.devRef .tc main_arg10) :=
  val_arg V main_arg10 (by decide)
theorem val_arg11 (V : Valuation τ sig (Elt Ideal)) : valOf V main_arg11 = V (Proc.devRef .tc main_arg11) :=
  val_arg V main_arg11 (by decide)
theorem val_arg12 (V : Valuation τ sig (Elt Ideal)) : valOf V main_arg12 = V (Proc.devRef .tc main_arg12) :=
  val_arg V main_arg12 (by decide)
theorem val_arg13 (V : Valuation τ sig (Elt Ideal)) : valOf V main_arg13 = V (Proc.devRef .tc main_arg13) :=
  val_arg V main_arg13 (by decide)
theorem val_arg14 (V : Valuation τ sig (Elt Ideal)) : valOf V main_arg14 = V (Proc.devRef .tc main_arg14) :=
  val_arg V main_arg14 (by decide)
theorem val_arg15 (V : Valuation τ sig (Elt Ideal)) : valOf V main_arg15 = V (Proc.devRef .tc main_arg15) :=
  val_arg V main_arg15 (by decide)
theorem val_arg16 (V : Valuation τ sig (Elt Ideal)) : valOf V main_arg16 = V (Proc.devRef .tc main_arg16) :=
  val_arg V main_arg16 (by decide)
theorem val_arg17 (V : Valuation τ sig (Elt Ideal)) : valOf V main_arg17 = V (Proc.devRef .tc main_arg17) :=
  val_arg V main_arg17 (by decide)
theorem val_arg18 (V : Valuation τ sig (Elt Ideal)) : valOf V main_arg18 = V (Proc.devRef .tc main_arg18) :=
  val_arg V main_arg18 (by decide)
theorem val_arg19 (V : Valuation τ sig (Elt Ideal)) : valOf V main_arg19 = V (Proc.devRef .tc main_arg19) :=
  val_arg V main_arg19 (by decide)
theorem val_arg20 (V : Valuation τ sig (Elt Ideal)) : valOf V main_arg20 = V (Proc.devRef .tc main_arg20) :=
  val_arg V main_arg20 (by decide)
theorem val_arg21 (V : Valuation τ sig (Elt Ideal)) : valOf V main_arg21 = V (Proc.devRef .tc main_arg21) :=
  val_arg V main_arg21 (by decide)
theorem val_arg22 (V : Valuation τ sig (Elt Ideal)) : valOf V main_arg22 = V (Proc.devRef .tc main_arg22) :=
  val_arg V main_arg22 (by decide)
theorem val_arg23 (V : Valuation τ sig (Elt Ideal)) : valOf V main_arg23 = V (Proc.devRef .tc main_arg23) :=
  val_arg V main_arg23 (by decide)
theorem val_arg24 (V : Valuation τ sig (Elt Ideal)) : valOf V main_arg24 = V (Proc.devRef .tc main_arg24) :=
  val_arg V main_arg24 (by decide)

end Cert.Gcn.Ref

end
-- ==== Proof.RefOps.lean ====
/-
  The reference's aggregation "segment_sum(h[src] * norm, dst)" over the 700000 edges with self loops, stated with the
  reference program's own operations and read at one entry.

  The edge list's two rows are cut out and flattened into the source and destination vectors of the 600000 real edges;
  each is extended by one self loop per node, node n's word being n. A row is READ at a word after the wrap of negative
  words and the gather's clamp, so at node gIdx of the word; a row is ADDED at a word only when the word lands on a node.
  The weight of an edge is the node scaling read at its source times the node scaling read at its destination. Entry
  (i, j) of the aggregation is therefore the sum, over the real edges landing on node i, of the source row's entry times
  the weight, plus node i's own entry times its scaling squared for the self loop.
-/
import proofs.«110672_j48155173322903_2_alg».proof.Proof.Spec
import proofs.«110672_j48155173322903_2_alg».proof.Proof.RowGather
import proofs.«110672_j48155173322903_2_alg».proof.Proof.RowScatter
import proofs.«110672_j48155173322903_2_alg».proof.ReferenceIdeal
import Idealize.ShloMosaic.Lib.ValueIdx
import Idealize.ShloMosaic.Lib.Pipeline.Value
import Idealize.ShloMosaic.PureOps.Contract
import Idealize.ShloMosaic.PureOps.Ideal.Laws
import Mathlib.Algebra.BigOperators.Fin

noncomputable section

open scoped BigOperators

namespace Cert.Gcn.Ref

open Idealize.ShloMosaic Idealize.ShloMosaic.ValueIdx Cert.Gcn Cert.Gcn.Rows
open Cert.ReferenceIdeal Cert.ReferenceIdeal.Facts₀

variable [hP : Cert.ReferenceIdeal.Facts]

/-! ## The operations, as the reference program states them -/

/-- Row 0 of the edge list as a vector: the source words of the real edges. -/
def srcVec (ei : IVec S2x600000 32) : IVec S600000 32 :=
  shapeCast S600000 (extractStridedSlice S1x600000 ![0, 0] ei slices_S2x600000_S1x600000_0_0) shapeCasts_S1x600000_S600000

/-- Row 1 of the edge list as a vector: the destination words of the real edges. -/
def dstVec (ei : IVec S2x600000 32) : IVec S600000 32 :=
  shapeCast S600000 (extractStridedSlice S1x600000 ![1, 0] ei slices_S2x600000_S1x600000_1_0) shapeCasts_S1x600000_S600000

/-- The words of the real edges followed by one self loop per node, node n's word being n. -/
def allOf (v : IVec S600000 32) : IVec S700000 32 :=
  concatenate S700000 0 [⟨S600000, v⟩, ⟨S100000, iotaInDim S100000 32 0⟩] concatenates_S600000_S100000_S700000_d0

/-- A column of words with every negative word moved up by the node count. -/
def wrapCol (v : IVec S700000 32) : IVec S700000x1 32 :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32))) v)

/-- The edge weights as a column: the node scaling read at the source times the node scaling read at the destination. -/
def normCol (sA dA : IVec S700000 32) (dis : FVec Ideal S100000 .f32) : FVec Ideal S700000x1 .f32 :=
  broadcastInDim S700000x1 ![0] bcast_S700000_S700000x1_0
    (mulf (Host.gather gather_S100000_S700000x1_S700000_n_0_n_n_0_1_1 dis (wrapCol sA))
      (Host.gather gather_S100000_S700000x1_S700000_n_0_n_n_0_1_1 dis (wrapCol dA)))

/-- The aggregation: every edge's source row times its weight, added onto the row its destination word lands on. -/
def aggOps (sA dA : IVec S700000 32) (nrm : FVec Ideal S700000x1 .f32) (P : FVec Ideal S100000x128 .f32) :
    FVec Ideal S100000x128 .f32 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 dA)
    (mulf (Host.gather gather_S100000x128_S700000x1_S700000x128_1_0_n_n_0_1_1128 P (wrapCol sA))
      (broadcastInDim S700000x128 ![0, 1] bcast_S700000x1_S700000x128_0_1 nrm))

/-! ## The edge vectors read at one edge -/

theorem srcVec_apply (ei : IVec S2x600000 32) (e : Fin 600000) : srcVec ei (ix1 e) = srcW ei e := by
  unfold srcVec srcW
  refine (shapeCast_apply _ _ (ix1 e) (ix2 (0 : Fin 1) e) ?_).trans ?_
  · rw [Shape.rowMajor_val_two, Shape.rowMajor_val_one]
    show 0 * 600000 + e.val = e.val
    omega
  · refine extractStridedSlice_apply _ _ _ _ (ix2 (0 : Fin 2) e) ?_
    intro a
    match a with
    | ⟨0, _⟩ => rfl
    | ⟨1, _⟩ => show e.val = 0 + e.val; omega

theorem dstVec_apply (ei : IVec S2x600000 32) (e : Fin 600000) : dstVec ei (ix1 e) = dstW ei e := by
  unfold dstVec dstW
  refine (shapeCast_apply _ _ (ix1 e) (ix2 (0 : Fin 1) e) ?_).trans ?_
  · rw [Shape.rowMajor_val_two, Shape.rowMajor_val_one]
    show 0 * 600000 + e.val = e.val
    omega
  · refine extractStridedSlice_apply _ _ _ _ (ix2 (1 : Fin 2) e) ?_
    intro a
    match a with
    | ⟨0, _⟩ => rfl
    | ⟨1, _⟩ => show e.val = 0 + e.val; omega

/-- A real edge's word is the vector's. -/
theorem allOf_castAdd (v : IVec S600000 32) (e : Fin 600000) : allOf v (ix1 (Fin.castAdd 100000 e)) = v (ix1 e) := by
  unfold allOf
  refine concatenate_pair_apply_left (t := S700000) (s₁ := S600000) (s₂ := S100000) 0 v (iotaInDim S100000 32 0)
    concatenates_S600000_S100000_S700000_d0 (ix1 (Fin.castAdd 100000 e)) rfl (ix1 e) ?_
  intro b
  match b with
  | ⟨0, _⟩ => rfl

/-- Node n's self loop carries the word n. -/
theorem allOf_natAdd (v : IVec S600000 32) (n : Fin 100000) :
    allOf v (ix1 (Fin.natAdd 600000 n)) = BitVec.ofNat 32 n.val := by
  unfold allOf
  refine (concatenate_pair_apply_right (t := S700000) (s₁ := S600000) (s₂ := S100000) 0 v (iotaInDim S100000 32 0)
    concatenates_S600000_S100000_S700000_d0 (ix1 (Fin.natAdd 600000 n)) rfl rfl (ix1 n) ?_ ?_).trans rfl
  · intro b hb
    match b with
    | ⟨0, _⟩ => exact absurd rfl hb
  · show n.val + 600000 = 600000 + n.val
    omega

/-! ## The aggregation read at one entry -/

/-- The weight of edge e: the scaling of the node its source word reads times that of the node its destination word reads. -/
theorem normCol_apply (sA dA : IVec S700000 32) (dis : FVec Ideal S100000 .f32) (e : Fin 700000) :
    normCol sA dA dis (ix2 e (0 : Fin 1)) = dis (ix1 (gIdx (sA (ix1 e)))) * dis (ix1 (gIdx (dA (ix1 e)))) := by
  have h1 : Host.gather gather_S100000_S700000x1_S700000_n_0_n_n_0_1_1 dis (wrapCol sA) (ix1 e)
      = dis (ix1 (gIdx (sA (ix1 e)))) :=
    vecGather_wrap gather_S100000_S700000x1_S700000_n_0_n_n_0_1_1_wf bcast_S_S700000 bcast_S700000_S700000x1_0 dis sA e
  have h2 : Host.gather gather_S100000_S700000x1_S700000_n_0_n_n_0_1_1 dis (wrapCol dA) (ix1 e)
      = dis (ix1 (gIdx (dA (ix1 e)))) :=
    vecGather_wrap gather_S100000_S700000x1_S700000_n_0_n_n_0_1_1_wf bcast_S_S700000 bcast_S700000_S700000x1_0 dis dA e
  unfold normCol
  rw [bcastCol_apply, mulf_apply, h1, h2]

/-- The message of edge e at column j: the source row's entry times the edge's weight. -/
theorem msg_apply (sA : IVec S700000 32) (nrm : FVec Ideal S700000x1 .f32) (P : FVec Ideal S100000x128 .f32)
    (e : Fin 700000) (j : Fin 128) :
    mulf (Host.gather gather_S100000x128_S700000x1_S700000x128_1_0_n_n_0_1_1128 P (wrapCol sA))
        (broadcastInDim S700000x128 ![0, 1] bcast_S700000x1_S700000x128_0_1 nrm) (ix2 e j)
      = P (ix2 (gIdx (sA (ix1 e))) j) * nrm (ix2 e (0 : Fin 1)) := by
  have h1 : Host.gather gather_S100000x128_S700000x1_S700000x128_1_0_n_n_0_1_1128 P (wrapCol sA) (ix2 e j)
      = P (ix2 (gIdx (sA (ix1 e))) j) :=
    rowGather_wrap gather_S100000x128_S700000x1_S700000x128_1_0_n_n_0_1_1128_wf bcast_S_S700000
      bcast_S700000_S700000x1_0 P sA e j
  have h2 : broadcastInDim S700000x128 ![0, 1] bcast_S700000x1_S700000x128_0_1 nrm (ix2 e j) = nrm (ix2 e (0 : Fin 1)) :=
    broadcastInDim_apply _ _ _ (ix2 e j) (ix2 e (0 : Fin 1))
      (by intro a; match a with | ⟨0, _⟩ => rfl | ⟨1, _⟩ => rfl)
  rw [mulf_apply, h1, h2]

/-- The aggregation at (i, j), over all 700000 edges: the sum of the messages of the edges whose destination word lands on
    node i. The rows are added onto zeros. -/
theorem aggOps_read (sA dA : IVec S700000 32) (nrm : FVec Ideal S700000x1 .f32) (P : FVec Ideal S100000x128 .f32)
    (i : Fin 100000) (j : Fin 128) :
    aggOps sA dA nrm P (ix2 i j)
      = ∑ e ∈ Finset.univ.filter (fun e : Fin 700000 => land (dA (ix1 e)) = some i),
          P (ix2 (gIdx (sA (ix1 e))) j) * nrm (ix2 e (0 : Fin 1)) := by
  unfold aggOps
  refine (rowScatterAdd_apply scatter_S100000x128_S700000x1_S700000x128_1_0_0_1_wf _ _ _ i j).trans ?_
  have hz : broadcastInDim S100000x128 ![] bcast_S_S100000x128 (constant (F := Ideal) S_ .f32 0x00000000#32) (ix2 i j) = 0 :=
    Ideal.ofBits_zero_f32
  rw [hz, zero_add]
  refine Finset.sum_congr (Finset.filter_congr fun e _ => by rw [bcastCol_apply]) fun e _ => ?_
  exact msg_apply sA nrm P e j

/-- The reference's aggregation at (i, j): the real edges that land on node i contribute their source row's entry times
    the two scalings; the self loop of node i contributes node i's own entry times its scaling squared. -/
theorem aggOps_apply (ei : IVec S2x600000 32) (dis : FVec Ideal S100000 .f32) (P : FVec Ideal S100000x128 .f32)
    (i : Fin 100000) (j : Fin 128) :
    aggOps (allOf (srcVec ei)) (allOf (dstVec ei)) (normCol (allOf (srcVec ei)) (allOf (dstVec ei)) dis) P (ix2 i j)
      = edgeSum ei i (fun e => P (ix2 (gIdx (srcW ei e)) j) * (dis (ix1 (gIdx (srcW ei e))) * dis (ix1 (gIdx (dstW ei e)))))
        + P (ix2 i j) * (dis (ix1 i) * dis (ix1 i)) := by
  rw [aggOps_read]
  refine (sum_filter_fin_add 600000 100000 _ _).trans ?_
  refine congrArg₂ (· + ·) ?_ ?_
  · -- the real edges: edge e's words are the edge list's
    unfold edgeSum
    refine Finset.sum_congr (Finset.filter_congr fun e _ => ?_) fun e _ => ?_
    · rw [allOf_castAdd, dstVec_apply]
    · rw [normCol_apply, allOf_castAdd, allOf_castAdd, srcVec_apply, dstVec_apply]
  · -- the self loops: node n's loop lands on node n, so only node i's is left, and it reads node i
    have hf : ∀ n : Fin 100000, land (allOf (dstVec ei) (ix1 (Fin.natAdd 600000 n))) = some i
        ↔ (some n : Option (Fin 100000)) = some i := by
      intro n
      rw [allOf_natAdd, land_ofNat]
    refine (Finset.sum_congr (Finset.filter_congr fun n _ => hf n) fun _ _ => rfl).trans ?_
    rw [sum_filter_eq_single i, normCol_apply, allOf_natAdd, allOf_natAdd, gIdx_ofNat]

end Cert.Gcn.Ref

end
-- ==== Proof.RefDot.lean ====
/-
  The reference's two matrix products, of a [100000 × 64] and of a [100000 × 128] matrix by a weight matrix with 128
  columns, read at one entry over the extended reals: entry (i, j) is the plain sum over the contracted axis of the
  products X[i, k] · W[k, j], with nothing added in front. The contraction's index set has one axis; the sum is moved
  along the bijection between that index set and the axis' coordinates, and the two operands' indices are read axis
  by axis.
-/
import proofs.«110672_j48155173322903_2_alg».proof.Proof.Spec
import proofs.«110672_j48155173322903_2_alg».proof.ReferenceIdeal
import Idealize.ShloMosaic.Lib.ValueIdx
import Idealize.ShloMosaic.PureOps.Ideal.Laws

noncomputable section

open scoped BigOperators

namespace Cert.Gcn.Ref

open Idealize.ShloMosaic Idealize.ShloMosaic.ValueIdx Cert.ReferenceIdeal

variable [hP : Cert.ReferenceIdeal.Facts]

/-! ## The [100000 × 64] by [64 × 128] product -/

/-- The left operand's row coordinate is the entry's row. -/
theorem lhs64_0 (y : S100000x128.Idx) (q : dot_S100000x64_S64x128_S100000x128_1_0_0_1_n_n.contr.Idx) :
    (dot_S100000x64_S64x128_S100000x128_1_0_0_1_n_n.lhsIdx y q 0).val = (y 0).val := by
  unfold DotDims.lhsIdx
  rw [dif_neg (show ¬(0 : Fin S100000x64.rank) ∈ dot_S100000x64_S64x128_S100000x128_1_0_0_1_n_n.lhsBatch from List.not_mem_nil),
    dif_pos (show (0 : Fin S100000x64.rank) ∈ dot_S100000x64_S64x128_S100000x128_1_0_0_1_n_n.lhsNonContracting from List.mem_singleton.mpr rfl)]
  rfl

/-- The left operand's column coordinate is the contraction position. -/
theorem lhs64_1 (y : S100000x128.Idx) (k : Fin 64) :
    (dot_S100000x64_S64x128_S100000x128_1_0_0_1_n_n.lhsIdx y ((contrEquiv1 dot_S100000x64_S64x128_S100000x128_1_0_0_1_n_n 64 rfl rfl).symm k) 1).val = k.val :=
  (dot_S100000x64_S64x128_S100000x128_1_0_0_1_n_n.lhsIdx_val_of_single rfl y _).trans (contrEquiv1_symm_val dot_S100000x64_S64x128_S100000x128_1_0_0_1_n_n 64 rfl rfl k)

/-- The right operand's row coordinate is the contraction position. -/
theorem rhs64_0 (y : S100000x128.Idx) (k : Fin 64) :
    (dot_S100000x64_S64x128_S100000x128_1_0_0_1_n_n.rhsIdx y ((contrEquiv1 dot_S100000x64_S64x128_S100000x128_1_0_0_1_n_n 64 rfl rfl).symm k) 0).val = k.val :=
  (dot_S100000x64_S64x128_S100000x128_1_0_0_1_n_n.rhsIdx_val_of_single rfl y _).trans (contrEquiv1_symm_val dot_S100000x64_S64x128_S100000x128_1_0_0_1_n_n 64 rfl rfl k)

/-- The right operand's column coordinate is the entry's column. -/
theorem rhs64_1 (y : S100000x128.Idx) (q : dot_S100000x64_S64x128_S100000x128_1_0_0_1_n_n.contr.Idx) :
    (dot_S100000x64_S64x128_S100000x128_1_0_0_1_n_n.rhsIdx y q 1).val = (y 1).val := by
  unfold DotDims.rhsIdx
  rw [dif_neg (show ¬(1 : Fin S64x128.rank) ∈ dot_S100000x64_S64x128_S100000x128_1_0_0_1_n_n.rhsBatch from List.not_mem_nil),
    dif_pos (show (1 : Fin S64x128.rank) ∈ dot_S100000x64_S64x128_S100000x128_1_0_0_1_n_n.rhsNonContracting from List.mem_singleton.mpr rfl)]
  rfl

/-- Entry (i, j) of the product is the sum over k of X[i, k] · W[k, j]. -/
theorem dot64_apply (X : FVec Ideal S100000x64 .f32) (W : FVec Ideal S64x128 .f32) (i : Fin 100000) (j : Fin 128) :
    Host.dotGeneral dot_S100000x64_S64x128_S100000x128_1_0_0_1_n_n none X W (ix2 i j) = ∑ k : Fin 64, X (ix2 i k) * W (ix2 k j) := by
  simp only [Host.dotGeneral]
  rw [Ideal.dotGeneral_apply, ← Equiv.sum_comp (contrEquiv1 dot_S100000x64_S64x128_S100000x128_1_0_0_1_n_n 64 rfl rfl).symm]
  refine Finset.sum_congr rfl fun k _ => ?_
  have el : dot_S100000x64_S64x128_S100000x128_1_0_0_1_n_n.lhsIdx (ix2 i j) ((contrEquiv1 dot_S100000x64_S64x128_S100000x128_1_0_0_1_n_n 64 rfl rfl).symm k) = ix2 i k :=
    funext fun a => Fin.ext (by
      match a with
      | ⟨0, _⟩ => exact lhs64_0 _ _
      | ⟨1, _⟩ => exact lhs64_1 _ _)
  have er : dot_S100000x64_S64x128_S100000x128_1_0_0_1_n_n.rhsIdx (ix2 i j) ((contrEquiv1 dot_S100000x64_S64x128_S100000x128_1_0_0_1_n_n 64 rfl rfl).symm k) = ix2 k j :=
    funext fun a => Fin.ext (by
      match a with
      | ⟨0, _⟩ => exact rhs64_0 _ _
      | ⟨1, _⟩ => exact rhs64_1 _ _)
  rw [el, er]

/-- The same entry as the matrix product of the two arrays read by coordinates. -/
theorem dot64_mm (X : FVec Ideal S100000x64 .f32) (W : FVec Ideal S64x128 .f32) (i : Fin 100000) (j : Fin 128) :
    Host.dotGeneral dot_S100000x64_S64x128_S100000x128_1_0_0_1_n_n none X W (ix2 i j) = mm (cur X) (cur W) i j :=
  dot64_apply X W i j

/-! ## The [100000 × 128] by [128 × 128] product -/

/-- The left operand's row coordinate is the entry's row. -/
theorem lhs128_0 (y : S100000x128.Idx) (q : dot_S100000x128_S128x128_S100000x128_1_0_0_1_n_n.contr.Idx) :
    (dot_S100000x128_S128x128_S100000x128_1_0_0_1_n_n.lhsIdx y q 0).val = (y 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

/-- The left operand's column coordinate is the contraction position. -/
theorem lhs128_1 (y : S100000x128.Idx) (k : Fin 128) :
    (dot_S100000x128_S128x128_S100000x128_1_0_0_1_n_n.lhsIdx y ((contrEquiv1 dot_S100000x128_S128x128_S100000x128_1_0_0_1_n_n 128 rfl rfl).symm k) 1).val = k.val :=
  (dot_S100000x128_S128x128_S100000x128_1_0_0_1_n_n.lhsIdx_val_of_single rfl y _).trans (contrEquiv1_symm_val dot_S100000x128_S128x128_S100000x128_1_0_0_1_n_n 128 rfl rfl k)

/-- The right operand's row coordinate is the contraction position. -/
theorem rhs128_0 (y : S100000x128.Idx) (k : Fin 128) :
    (dot_S100000x128_S128x128_S100000x128_1_0_0_1_n_n.rhsIdx y ((contrEquiv1 dot_S100000x128_S128x128_S100000x128_1_0_0_1_n_n 128 rfl rfl).symm k) 0).val = k.val :=
  (dot_S100000x128_S128x128_S100000x128_1_0_0_1_n_n.rhsIdx_val_of_single rfl y _).trans (contrEquiv1_symm_val dot_S100000x128_S128x128_S100000x128_1_0_0_1_n_n 128 rfl rfl k)

/-- The right operand's column coordinate is the entry's column. -/
theorem rhs128_1 (y : S100000x128.Idx) (q : dot_S100000x128_S128x128_S100000x128_1_0_0_1_n_n.contr.Idx) :
    (dot_S100000x128_S128x128_S100000x128_1_0_0_1_n_n.rhsIdx y q 1).val = (y 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

/-- Entry (i, j) of the product is the sum over k of X[i, k] · W[k, j]. -/
theorem dot128_apply (X : FVec Ideal S100000x128 .f32) (W : FVec Ideal S128x128 .f32) (i : Fin 100000) (j : Fin 128) :
    Host.dotGeneral dot_S100000x128_S128x128_S100000x128_1_0_0_1_n_n none X W (ix2 i j) = ∑ k : Fin 128, X (ix2 i k) * W (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have el : dot_S100000x128_S128x128_S100000x128_1_0_0_1_n_n.lhsIdx (ix2 i j) ((contrEquiv1 dot_S100000x128_S128x128_S100000x128_1_0_0_1_n_n 128 rfl rfl).symm k) = ix2 i k :=
    funext fun a => Fin.ext (by
      match a with
      | ⟨0, _⟩ => exact lhs128_0 _ _
      | ⟨1, _⟩ => exact lhs128_1 _ _)
  have er : dot_S100000x128_S128x128_S100000x128_1_0_0_1_n_n.rhsIdx (ix2 i j) ((contrEquiv1 dot_S100000x128_S128x128_S100000x128_1_0_0_1_n_n 128 rfl rfl).symm k) = ix2 k j :=
    funext fun a => Fin.ext (by
      match a with
      | ⟨0, _⟩ => exact rhs128_0 _ _
      | ⟨1, _⟩ => exact rhs128_1 _ _)
  rw [el, er]

/-- The same entry as the matrix product of the two arrays read by coordinates. -/
theorem dot128_mm (X : FVec Ideal S100000x128 .f32) (W : FVec Ideal S128x128 .f32) (i : Fin 100000) (j : Fin 128) :
    Host.dotGeneral dot_S100000x128_S128x128_S100000x128_1_0_0_1_n_n none X W (ix2 i j) = mm (cur X) (cur W) i j :=
  dot128_apply X W i j

end Cert.Gcn.Ref

end
-- ==== Proof.RefLayers.lean ====
/-
  The reference's three graph-convolution layers, read off the program.

  Each layer of the reference program is: a matrix product of the previous layer's output with the layer's weights; a
  gather of the product's rows at the source words of the edges (self loops appended), each row scaled by the product
  of the two end nodes' degree factors, and a scatter-add of the scaled rows at the destination words; then the bias,
  the batch normalisation in evaluation mode and the positive part, with the per-column parameters spread over the
  rows. The second layer adds the first layer's output to its own.

  The program is read in single-assignment form: one equation per operation, between the final contents of the buffer
  the operation writes and the final contents of its operands. Chaining the equations of one layer identifies the
  layer's output buffer with a whole-array function of the layer's input and the arguments; read entry by entry, that
  function is the specification's layer.
-/
import proofs.«110672_j48155173322903_2_alg».proof.Proof.Spec
import proofs.«110672_j48155173322903_2_alg».proof.Proof.RefSsa
import proofs.«110672_j48155173322903_2_alg».proof.Proof.RefOps
import proofs.«110672_j48155173322903_2_alg».proof.Proof.RefDot
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Ref

open Cert.ReferenceIdeal Cert.ReferenceIdeal.Gen Cert.ReferenceIdeal.Value Idealize.ShloMosaic Idealize.ShloMosaic.StableHlo Idealize.ShloMosaic.ValueIdx

variable [hP : Cert.ReferenceIdeal.Facts]

/-! ## Bias, batch normalisation and positive part as whole-array operations -/

/-- A vector of per-column parameters spread over all the rows: first made a one-row matrix, then repeated down the rows. -/
def rowBc (x : FVec Ideal S128 .f32) : FVec Ideal S100000x128 .f32 :=
  broadcastInDim S100000x128 ![0, 1] bcast_S1x128_S100000x128_0_1 (broadcastInDim S1x128 ![1] bcast_S128_S1x128_1 x)

/-- Entry (i, j) of the spread vector is the vector's entry j. -/
theorem rowBc_apply (x : FVec Ideal S128 .f32) (i : Fin 100000) (j : Fin 128) : rowBc x (ix2 i j) = x (ix1 j) := by
  unfold rowBc
  rw [broadcastInDim_apply _ bcast_S1x128_S100000x128_0_1 _ (ix2 i j) (ix2 (0 : Fin 1) j) (fun a => match a with
      | ⟨0, _⟩ => by show 0 = if (1 : Nat) = 1 then 0 else i.val; rw [if_pos rfl]
      | ⟨1, _⟩ => by show j.val = if (128 : Nat) = 1 then 0 else j.val; rw [if_neg (by decide)]),
    broadcastInDim_apply _ bcast_S128_S1x128_1 x (ix2 (0 : Fin 1) j) (ix1 j) (fun a => match a with
      | ⟨0, _⟩ => by show j.val = if (128 : Nat) = 1 then 0 else j.val; rw [if_neg (by decide)])]

/-- The zero matrix the positive part compares with. -/
def zeroMat : FVec Ideal S100000x128 .f32 :=
  broadcastInDim S100000x128 ![] bcast_S_S100000x128 (constant S_ .f32 0x00000000#32)

theorem zeroMat_apply (y : S100000x128.Idx) : zeroMat y = 0 := by
  show Ideal.ofBits .f32 0x00000000#32 = 0
  exact Ideal.ofBits_zero_f32

/-- The variance offset spread over the columns reads the specification's offset. -/
theorem epsVec_apply (j : Fin 128) :
    broadcastInDim S128 ![] bcast_S_S128 (constant (F := Ideal) S_ .f32 0x3727C5AC#32) (ix1 j) = eps := by
  unfold eps
  rw [broadcastInDim_apply _ bcast_S_S128 _ (ix1 j) ix0 (fun a => a.elim0), constant_apply]

/-- The reciprocal root of a vector, entry by entry. -/
theorem rsqrt_apply (x : FVec Ideal S128 .f32) (i : S128.Idx) : Host.rsqrt x i = Ideal.rsqrt (x i) := rfl

/-- The specification's formula with the reciprocal standard deviation written out. -/
theorem refBn_eq (a b m v g β : EReal) :
    refBn a b m v g β = max ((((a + b) - m) * Ideal.rsqrt (v + eps)) * g + β) 0 := rfl

/-- The operations after the aggregation, in the program's order: add the bias, subtract the mean, multiply by the
    reciprocal root of the variance plus the offset, multiply by the scale, add the shift … -/
def bnLin (C : FVec Ideal S100000x128 .f32) (b g β m v : FVec Ideal S128 .f32) : FVec Ideal S100000x128 .f32 :=
  addf (mulf (mulf (subf (addf C (rowBc b)) (rowBc m))
    (rowBc (Host.rsqrt (addf v (broadcastInDim S128 ![] bcast_S_S128 (constant S_ .f32 0x3727C5AC#32))))))
    (rowBc g)) (rowBc β)

/-- … and the positive part of that. -/
def bnOps (C : FVec Ideal S100000x128 .f32) (b g β m v : FVec Ideal S128 .f32) : FVec Ideal S100000x128 .f32 :=
  maximumf (bnLin C b g β m v) zeroMat

/-- At an entry they are the specification's formula on that entry and column j's parameters. -/
theorem bnOps_apply (C : FVec Ideal S100000x128 .f32) (b g β m v : FVec Ideal S128 .f32) (i : Fin 100000) (j : Fin 128) :
    bnOps C b g β m v (ix2 i j) = refBn (C (ix2 i j)) (b (ix1 j)) (m (ix1 j)) (v (ix1 j)) (g (ix1 j)) (β (ix1 j)) := by
  unfold bnOps bnLin
  rw [refBn_eq, maximumf_apply, addf_apply, mulf_apply, mulf_apply, subf_apply, addf_apply, rowBc_apply, rowBc_apply,
    rowBc_apply, rowBc_apply, rowBc_apply, zeroMat_apply, rsqrt_apply, addf_apply, epsVec_apply]

/-! ## One layer as a whole-array function -/

/-- The specification's batch-normalised matrix read at an entry. -/
theorem unc_bnApply (bn : EReal → EReal → EReal → EReal → EReal → EReal → EReal) (C : Mat 100000 128) (p : BnP)
    (i : Fin 100000) (j : Fin 128) :
    unc (bnApply bn C p) (ix2 i j)
      = bn (C i j) (p.b (ix1 j)) (p.m (ix1 j)) (p.v (ix1 j)) (p.g (ix1 j)) (p.β (ix1 j)) := rfl

/-- Aggregation of a matrix P that is a product H Wt entry by entry, followed by the batch-normalisation chain, is the
    specification's layer on H and Wt. -/
theorem layer_eq {K : Nat} (ei : IVec S2x600000 32) (dis : FVec Ideal S100000 .f32) (P : FVec Ideal S100000x128 .f32)
    (H : Mat 100000 K) (Wt : Mat K 128) (hPm : ∀ i j, P (ix2 i j) = mm H Wt i j) (b g β m v : FVec Ideal S128 .f32) :
    bnOps (aggOps (allOf (srcVec ei)) (allOf (dstVec ei)) (normCol (allOf (srcVec ei)) (allOf (dstVec ei)) dis) P) b g β m v
      = unc (bnApply refBn (refConv ei (cur1 dis) H Wt) ⟨b, g, β, m, v⟩) := by
  funext y
  obtain ⟨i, j, rfl⟩ : ∃ (i : Fin 100000) (j : Fin 128), y = ix2 i j := ⟨y 0, y 1, eq_ix2 y⟩
  have hC : edgeSum ei i (fun e => P (ix2 (gIdx (srcW ei e)) j) * (dis (ix1 (gIdx (srcW ei e))) * dis (ix1 (gIdx (dstW ei e)))))
      + P (ix2 i j) * (dis (ix1 i) * dis (ix1 i)) = refConv ei (cur1 dis) H Wt i j := by
    simp only [hPm]
    rfl
  rw [bnOps_apply, aggOps_apply, unc_bnApply, hC]

/-! ## The program's operations, one equation each

Operation number k of the program writes the buffer listed at position k; the equation it gives relates the final
contents of that buffer to the final contents of its operands. -/

local macro "s0 " k:num : term =>
  `(Ssa.ssa_nullary (ops (F := Ideal)) written writesOnly _ $k _ _ _ rfl (by decide +kernel))
local macro "s1 " k:num : term =>
  `(Ssa.ssa_unary (ops (F := Ideal)) written writesOnly _ $k _ _ _ _ _ rfl (by decide +kernel) (by decide +kernel))
local macro "s2 " k:num : term =>
  `(Ssa.ssa_binary (ops (F := Ideal)) written writesOnly _ $k _ _ _ _ _ _ _ rfl (by decide +kernel) (by decide +kernel) (by decide +kernel))
local macro "s3 " k:num : term =>
  `(Ssa.ssa_ternary (ops (F := Ideal)) written writesOnly _ $k _ _ _ _ _ _ _ _ _ rfl (by decide +kernel) (by decide +kernel) (by decide +kernel) (by decide +kernel))
local macro "sr " k:num : term =>
  `(Ssa.ssa_reshape (ops (F := Ideal)) written writesOnly _ $k _ _ _ _ _ _ rfl (by decide +kernel) (by decide +kernel))
local macro "sa " x:ident : term =>
  `(Ssa.after_arg (ops (F := Ideal)) written writesOnly _ $x (by decide +kernel))

variable (V : Valuation τ sig (Elt Ideal))

/-- The source words of all edges, self loops appended. -/
theorem e_v3 : valOf V main_v3 = allOf (srcVec (V (Proc.devRef .tc main_arg1))) := by
  unfold valOf
  rw [s2 3, sr 2, s1 1, s0 0, sa main_arg1]
  rfl

/-- The destination words of all edges, self loops appended. -/
theorem e_v6 : valOf V main_v6 = allOf (dstVec (V (Proc.devRef .tc main_arg1))) := by
  unfold valOf
  rw [s2 6, sr 5, s1 4, s0 0, sa main_arg1]
  rfl

/-- The per-edge scaling column. -/
theorem e_v32 : valOf V main_v32 = normCol (valOf V main_v3) (valOf V main_v6) (valOf V main_v16) := by
  unfold valOf
  rw [s1 43, s2 42, s2 32, s1 31, s3 30, s2 26, s1 25, s0 24, s2 29, s1 28, s0 27,
    s2 41, s1 40, s3 39, s2 35, s1 34, s0 33, s2 38, s1 37, s0 36]
  rfl

/-! ## The first layer -/

/-- The first layer's matrix product. -/
theorem e_v33 : (valOf V main_v33 : FVec Ideal S100000x128 .f32) = Host.dotGeneral (F := Ideal) (φ₁ := .f32) (φ₂ := .f32) dot_S100000x64_S64x128_S100000x128_1_0_0_1_n_n none
    (V (Proc.devRef .tc main_arg0)) (V (Proc.devRef .tc main_arg3)) := by
  unfold valOf
  rw [s2 44, sa main_arg0, sa main_arg3]

/-- The first layer's aggregation. -/
theorem e_v45 : valOf V main_v45 = aggOps (valOf V main_v3) (valOf V main_v6) (valOf V main_v32) (valOf V main_v33) := by
  unfold valOf
  rw [s3 59, s1 57, s0 56, s1 58, s2 55, s2 53, s1 52, s3 51, s2 47, s1 46, s0 45, s2 50, s1 49, s0 48, s1 54]
  rfl

/-- The first layer's bias and batch normalisation … -/
theorem e_v63 : valOf V main_v63 = bnLin (valOf V main_v45) (V (Proc.devRef .tc main_arg4)) (V (Proc.devRef .tc main_arg5))
    (V (Proc.devRef .tc main_arg6)) (V (Proc.devRef .tc main_arg7)) (V (Proc.devRef .tc main_arg8)) := by
  unfold valOf
  rw [s2 78, s1 77, s1 76, s2 75, s1 74, s1 73, s2 72, s1 71, s1 70, s1 69, s2 68, s1 67, s0 66,
    s2 65, s1 64, s1 63, s2 62, s1 61, s1 60, sa main_arg4, sa main_arg5, sa main_arg6, sa main_arg7, sa main_arg8]
  rfl

/-- … and positive part. -/
theorem e_v64 : valOf V main_v64 = bnOps (valOf V main_v45) (V (Proc.devRef .tc main_arg4)) (V (Proc.devRef .tc main_arg5))
    (V (Proc.devRef .tc main_arg6)) (V (Proc.devRef .tc main_arg7)) (V (Proc.devRef .tc main_arg8)) := by
  unfold bnOps
  rw [← e_v63]
  unfold valOf
  rw [s2 81, s1 80, s0 79]
  rfl

/-- The first layer's output is the specification's. -/
theorem val_h1 : valOf V main_v64 = unc (refH1 (argsOf V) (cur1 (valOf V main_v16))) := by
  rw [e_v64, e_v45, e_v32, e_v3, e_v6]
  exact layer_eq (V (Proc.devRef .tc main_arg1)) (valOf V main_v16) (valOf V main_v33)
    (cur (V (Proc.devRef .tc main_arg0))) (cur (V (Proc.devRef .tc main_arg3)))
    (fun i j => by rw [e_v33]; exact dot64_mm _ _ i j) _ _ _ _ _

/-! ## The second layer -/

/-- The second layer's matrix product. -/
theorem e_v65 : (valOf V main_v65 : FVec Ideal S100000x128 .f32) = Host.dotGeneral (F := Ideal) (φ₁ := .f32) (φ₂ := .f32) dot_S100000x128_S128x128_S100000x128_1_0_0_1_n_n none
    (valOf V main_v64) (V (Proc.devRef .tc main_arg9)) := by
  unfold valOf
  rw [s2 82, sa main_arg9]

/-- The second layer's aggregation. -/
theorem e_v77 : valOf V main_v77 = aggOps (valOf V main_v3) (valOf V main_v6) (valOf V main_v32) (valOf V main_v65) := by
  unfold valOf
  rw [s3 97, s1 95, s0 94, s1 96, s2 93, s2 91, s1 90, s3 89, s2 85, s1 84, s0 83, s2 88, s1 87, s0 86, s1 92]
  rfl

/-- The second layer's bias and batch normalisation … -/
theorem e_v95 : valOf V main_v95 = bnLin (valOf V main_v77) (V (Proc.devRef .tc main_arg10)) (V (Proc.devRef .tc main_arg11))
    (V (Proc.devRef .tc main_arg12)) (V (Proc.devRef .tc main_arg13)) (V (Proc.devRef .tc main_arg14)) := by
  unfold valOf
  rw [s2 116, s1 115, s1 114, s2 113, s1 112, s1 111, s2 110, s1 109, s1 108, s1 107, s2 106, s1 105,
    s0 104, s2 103, s1 102, s1 101, s2 100, s1 99, s1 98, sa main_arg10, sa main_arg11, sa main_arg12, sa main_arg13,
    sa main_arg14]
  rfl

/-- … and positive part. -/
theorem e_v96 : valOf V main_v96 = bnOps (valOf V main_v77) (V (Proc.devRef .tc main_arg10)) (V (Proc.devRef .tc main_arg11))
    (V (Proc.devRef .tc main_arg12)) (V (Proc.devRef .tc main_arg13)) (V (Proc.devRef .tc main_arg14)) := by
  unfold bnOps
  rw [← e_v95]
  unfold valOf
  rw [s2 119, s1 118, s0 117]
  rfl

/-- The residual connection. -/
theorem e_v97 : valOf V main_v97 = addf (F := Ideal) (s := S100000x128) (φ := .f32) (valOf V main_v96) (valOf V main_v64) := by
  unfold valOf
  rw [s2 120]

/-- The second layer's output is the specification's. -/
theorem val_h2 : valOf V main_v97 = unc (refH2 (argsOf V) (cur1 (valOf V main_v16))) := by
  rw [e_v97, e_v96, e_v77, e_v32, e_v3, e_v6,
    layer_eq (V (Proc.devRef .tc main_arg1)) (valOf V main_v16) (valOf V main_v65)
      (refH1 (argsOf V) (cur1 (valOf V main_v16))) (cur (V (Proc.devRef .tc main_arg9)))
      (fun i j => by rw [e_v65, dot128_mm, val_h1]; rfl), val_h1]
  rfl

/-! ## The third layer -/

/-- The third layer's matrix product. -/
theorem e_v98 : (valOf V main_v98 : FVec Ideal S100000x128 .f32) = Host.dotGeneral (F := Ideal) (φ₁ := .f32) (φ₂ := .f32) dot_S100000x128_S128x128_S100000x128_1_0_0_1_n_n none
    (valOf V main_v97) (V (Proc.devRef .tc main_arg15)) := by
  unfold valOf
  rw [s2 121, sa main_arg15]

/-- The third layer's aggregation. -/
theorem e_v110 : valOf V main_v110 = aggOps (valOf V main_v3) (valOf V main_v6) (valOf V main_v32) (valOf V main_v98) := by
  unfold valOf
  rw [s3 136, s1 134, s0 133, s1 135, s2 132, s2 130, s1 129, s3 128, s2 124, s1 123, s0 122, s2 127, s1 126, s0 125, s1 131]
  rfl

/-- The third layer's bias and batch normalisation … -/
theorem e_v128 : valOf V main_v128 = bnLin (valOf V main_v110) (V (Proc.devRef .tc main_arg16)) (V (Proc.devRef .tc main_arg17))
    (V (Proc.devRef .tc main_arg18)) (V (Proc.devRef .tc main_arg19)) (V (Proc.devRef .tc main_arg20)) := by
  unfold valOf
  rw [s2 155, s1 154, s1 153, s2 152, s1 151, s1 150, s2 149, s1 148, s1 147, s1 146, s2 145, s1 144,
    s0 143, s2 142, s1 141, s1 140, s2 139, s1 138, s1 137, sa main_arg16, sa main_arg17, sa main_arg18, sa main_arg19,
    sa main_arg20]
  rfl

/-- … and positive part. -/
theorem e_v129 : valOf V main_v129 = bnOps (valOf V main_v110) (V (Proc.devRef .tc main_arg16)) (V (Proc.devRef .tc main_arg17))
    (V (Proc.devRef .tc main_arg18)) (V (Proc.devRef .tc main_arg19)) (V (Proc.devRef .tc main_arg20)) := by
  unfold bnOps
  rw [← e_v128]
  unfold valOf
  rw [s2 158, s1 157, s0 156]
  rfl

/-- The third layer's output is the specification's. -/
theorem val_h3 : valOf V main_v129 = unc (refH3 (argsOf V) (cur1 (valOf V main_v16))) := by
  rw [e_v129, e_v110, e_v32, e_v3, e_v6]
  exact layer_eq (V (Proc.devRef .tc main_arg1)) (valOf V main_v16) (valOf V main_v98)
    (refH2 (argsOf V) (cur1 (valOf V main_v16))) (cur (V (Proc.devRef .tc main_arg15)))
    (fun i j => by rw [e_v98, dot128_mm, val_h2]; rfl) _ _ _ _ _

end Cert.Gcn.Ref

end
-- ==== Proof.RefRun.lean ====
/-
  The reference program's run, with its result stated through the three layers of the specification.

  The reference is a straight line of host operations, each writing one buffer once. Its run from launch memory m
  leaves every buffer at the fold of the operations over the launch contents of its device. Read in single-assignment
  form, the result buffer is the readout (mean pooling per graph, two dense layers, the logistic function) applied to
  the third layer's output; the third layer's output is refH3 of the launch arguments with the node scaling computed from
  the edge list; and an argument buffer, which no operation writes, ends as it started.
-/
import proofs.«110672_j48155173322903_2_alg».proof.Proof.Spec
import proofs.«110672_j48155173322903_2_alg».proof.Proof.RefSsa
import proofs.«110672_j48155173322903_2_alg».proof.Proof.RefEnds
import proofs.«110672_j48155173322903_2_alg».proof.Proof.RefLayers
import Idealize.ShloMosaic.Lib.StableHlo.Run

noncomputable section

namespace Cert.Gcn.Ref

open Cert.ReferenceIdeal Cert.ReferenceIdeal.Gen Cert.ReferenceIdeal.Value Idealize.ShloMosaic Idealize.ShloMosaic.StableHlo Idealize.SL.Sem

variable [hP : Cert.ReferenceIdeal.Facts]

/-- The arguments the reference is launched with on device c, read off the launch memory. -/
def argsAt (m : (ℓ : Loc nD τ sig) → Buf (Elt Ideal) ℓ) (c : Dev nD) : Cert.Gcn.Args := argsOf (launchContents m c)

@[simp] theorem argsAt_x (m : (ℓ : Loc nD τ sig) → Buf (Elt Ideal) ℓ) (c : Dev nD) : (argsAt m c).x = m ((c.tc : Thread nD τ).loc main_arg0) := rfl
@[simp] theorem argsAt_ei (m : (ℓ : Loc nD τ sig) → Buf (Elt Ideal) ℓ) (c : Dev nD) : (argsAt m c).ei = m ((c.tc : Thread nD τ).loc main_arg1) := rfl
@[simp] theorem argsAt_batch (m : (ℓ : Loc nD τ sig) → Buf (Elt Ideal) ℓ) (c : Dev nD) : (argsAt m c).batch = m ((c.tc : Thread nD τ).loc main_arg2) := rfl
@[simp] theorem argsAt_W1 (m : (ℓ : Loc nD τ sig) → Buf (Elt Ideal) ℓ) (c : Dev nD) : (argsAt m c).W1 = m ((c.tc : Thread nD τ).loc main_arg3) := rfl
@[simp] theorem argsAt_p1_b (m : (ℓ : Loc nD τ sig) → Buf (Elt Ideal) ℓ) (c : Dev nD) : (argsAt m c).p1.b = m ((c.tc : Thread nD τ).loc main_arg4) := rfl
@[simp] theorem argsAt_p1_g (m : (ℓ : Loc nD τ sig) → Buf (Elt Ideal) ℓ) (c : Dev nD) : (argsAt m c).p1.g = m ((c.tc : Thread nD τ).loc main_arg5) := rfl
@[simp] theorem argsAt_p1_β (m : (ℓ : Loc nD τ sig) → Buf (Elt Ideal) ℓ) (c : Dev nD) : (argsAt m c).p1.β = m ((c.tc : Thread nD τ).loc main_arg6) := rfl
@[simp] theorem argsAt_p1_m (m : (ℓ : Loc nD τ sig) → Buf (Elt Ideal) ℓ) (c : Dev nD) : (argsAt m c).p1.m = m ((c.tc : Thread nD τ).loc main_arg7) := rfl
@[simp] theorem argsAt_p1_v (m : (ℓ : Loc nD τ sig) → Buf (Elt Ideal) ℓ) (c : Dev nD) : (argsAt m c).p1.v = m ((c.tc : Thread nD τ).loc main_arg8) := rfl
@[simp] theorem argsAt_W2 (m : (ℓ : Loc nD τ sig) → Buf (Elt Ideal) ℓ) (c : Dev nD) : (argsAt m c).W2 = m ((c.tc : Thread nD τ).loc main_arg9) := rfl
@[simp] theorem argsAt_p2_b (m : (ℓ : Loc nD τ sig) → Buf (Elt Ideal) ℓ) (c : Dev nD) : (argsAt m c).p2.b = m ((c.tc : Thread nD τ).loc main_arg10) := rfl
@[simp] theorem argsAt_p2_g (m : (ℓ : Loc nD τ sig) → Buf (Elt Ideal) ℓ) (c : Dev nD) : (argsAt m c).p2.g = m ((c.tc : Thread nD τ).loc main_arg11) := rfl
@[simp] theorem argsAt_p2_β (m : (ℓ : Loc nD τ sig) → Buf (Elt Ideal) ℓ) (c : Dev nD) : (argsAt m c).p2.β = m ((c.tc : Thread nD τ).loc main_arg12) := rfl
@[simp] theorem argsAt_p2_m (m : (ℓ : Loc nD τ sig) → Buf (Elt Ideal) ℓ) (c : Dev nD) : (argsAt m c).p2.m = m ((c.tc : Thread nD τ).loc main_arg13) := rfl
@[simp] theorem argsAt_p2_v (m : (ℓ : Loc nD τ sig) → Buf (Elt Ideal) ℓ) (c : Dev nD) : (argsAt m c).p2.v = m ((c.tc : Thread nD τ).loc main_arg14) := rfl
@[simp] theorem argsAt_W3 (m : (ℓ : Loc nD τ sig) → Buf (Elt Ideal) ℓ) (c : Dev nD) : (argsAt m c).W3 = m ((c.tc : Thread nD τ).loc main_arg15) := rfl
@[simp] theorem argsAt_p3_b (m : (ℓ : Loc nD τ sig) → Buf (Elt Ideal) ℓ) (c : Dev nD) : (argsAt m c).p3.b = m ((c.tc : Thread nD τ).loc main_arg16) := rfl
@[simp] theorem argsAt_p3_g (m : (ℓ : Loc nD τ sig) → Buf (Elt Ideal) ℓ) (c : Dev nD) : (argsAt m c).p3.g = m ((c.tc : Thread nD τ).loc main_arg17) := rfl
@[simp] theorem argsAt_p3_β (m : (ℓ : Loc nD τ sig) → Buf (Elt Ideal) ℓ) (c : Dev nD) : (argsAt m c).p3.β = m ((c.tc : Thread nD τ).loc main_arg18) := rfl
@[simp] theorem argsAt_p3_m (m : (ℓ : Loc nD τ sig) → Buf (Elt Ideal) ℓ) (c : Dev nD) : (argsAt m c).p3.m = m ((c.tc : Thread nD τ).loc main_arg19) := rfl
@[simp] theorem argsAt_p3_v (m : (ℓ : Loc nD τ sig) → Buf (Elt Ideal) ℓ) (c : Dev nD) : (argsAt m c).p3.v = m ((c.tc : Thread nD τ).loc main_arg20) := rfl
@[simp] theorem argsAt_fc1w (m : (ℓ : Loc nD τ sig) → Buf (Elt Ideal) ℓ) (c : Dev nD) : (argsAt m c).fc1w = m ((c.tc : Thread nD τ).loc main_arg21) := rfl
@[simp] theorem argsAt_fc1b (m : (ℓ : Loc nD τ sig) → Buf (Elt Ideal) ℓ) (c : Dev nD) : (argsAt m c).fc1b = m ((c.tc : Thread nD τ).loc main_arg22) := rfl
@[simp] theorem argsAt_fc2w (m : (ℓ : Loc nD τ sig) → Buf (Elt Ideal) ℓ) (c : Dev nD) : (argsAt m c).fc2w = m ((c.tc : Thread nD τ).loc main_arg23) := rfl
@[simp] theorem argsAt_fc2b (m : (ℓ : Loc nD τ sig) → Buf (Elt Ideal) ℓ) (c : Dev nD) : (argsAt m c).fc2b = m ((c.tc : Thread nD τ).loc main_arg24) := rfl

/-- The result buffer's final contents, through the three layers. -/
theorem val_res (m : (ℓ : Loc nD τ sig) → Buf (Elt Ideal) ℓ) (c : Dev nD) :
    valOf (launchContents m c) main_v155
      = tailOps (unc (refH3 (argsAt m c) (cur1 (disOps (argsAt m c).ei)))) (argsAt m c).batch (argsAt m c).fc1w (argsAt m c).fc1b
          (argsAt m c).fc2w (argsAt m c).fc2b := by
  rw [val_out, val_h3, val_dis]
  rfl

/-- THE REFERENCE'S RUN. Every weakly fair execution of the reference from launch memory m terminates; on each device
    the result buffer ends at the readout applied to the third layer's output (reference arrangement, the node scaling
    computed from the edge list), and every argument buffer ends as it started. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v155)
          = tailOps (unc (refH3 (argsAt m c) (cur1 (disOps (argsAt m c).ei)))) (argsAt m c).batch (argsAt m c).fc1w (argsAt m c).fc1b
              (argsAt m c).fc2w (argsAt m c).fc2b
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c main_v155).trans (val_res m c),
      (h c main_arg0).trans (val_arg _ main_arg0 (by decide)),
      (h c main_arg1).trans (val_arg _ main_arg1 (by decide)),
      (h c main_arg2).trans (val_arg _ main_arg2 (by decide)),
      (h c main_arg3).trans (val_arg _ main_arg3 (by decide)),
      (h c main_arg4).trans (val_arg _ main_arg4 (by decide)),
      (h c main_arg5).trans (val_arg _ main_arg5 (by decide)),
      (h c main_arg6).trans (val_arg _ main_arg6 (by decide)),
      (h c main_arg7).trans (val_arg _ main_arg7 (by decide)),
      (h c main_arg8).trans (val_arg _ main_arg8 (by decide)),
      (h c main_arg9).trans (val_arg _ main_arg9 (by decide)),
      (h c main_arg10).trans (val_arg _ main_arg10 (by decide)),
      (h c main_arg11).trans (val_arg _ main_arg11 (by decide)),
      (h c main_arg12).trans (val_arg _ main_arg12 (by decide)),
      (h c main_arg13).trans (val_arg _ main_arg13 (by decide)),
      (h c main_arg14).trans (val_arg _ main_arg14 (by decide)),
      (h c main_arg15).trans (val_arg _ main_arg15 (by decide)),
      (h c main_arg16).trans (val_arg _ main_arg16 (by decide)),
      (h c main_arg17).trans (val_arg _ main_arg17 (by decide)),
      (h c main_arg18).trans (val_arg _ main_arg18 (by decide)),
      (h c main_arg19).trans (val_arg _ main_arg19 (by decide)),
      (h c main_arg20).trans (val_arg _ main_arg20 (by decide)),
      (h c main_arg21).trans (val_arg _ main_arg21 (by decide)),
      (h c main_arg22).trans (val_arg _ main_arg22 (by decide)),
      (h c main_arg23).trans (val_arg _ main_arg23 (by decide)),
      (h c main_arg24).trans (val_arg _ main_arg24 (by decide))⟩)
    (run_seq scopedRefs_eq scopedSems_eq defs main (fun _ => ops) main_eq (fun _ => ops_sub) m ρ)

end Cert.Gcn.Ref

end
-- ==== Proof.Bridge.lean ====
/-
  The kernel program and the reference compute the degree scaling and the read-out head by the same operations.

  Each program states these two stretches over its own copies of the shapes, of the dimension numbers of its scatters and
  products, and of the side conditions its layout operations take. The shapes are the same literal shapes, the dimension
  numbers have the same fields, and a side condition is a proposition, so any two proofs of it are equal. The functions
  the two sides define are therefore equal: the in-degree with self loops, the degree scaling made from it, and the head
  (mean pooling by graph, dense layer, positive part, dense layer, logistic function).
-/
import proofs.«110672_j48155173322903_2_alg».proof.Proof.KerEnds
import proofs.«110672_j48155173322903_2_alg».proof.Proof.RefEnds

noncomputable section

namespace Cert.Gcn

open Idealize.ShloMosaic

/-! ## The degree scaling -/

/-- The destination vector is the same cut and flattening of the edge list in both programs. -/
theorem dstVec_eq (ei : IVec (⟨2, ![2, 600000]⟩ : Shape) 32) :
    Ker.dstVec ei
      = fun i => shapeCast Cert.ReferenceIdeal.S600000
          (extractStridedSlice Cert.ReferenceIdeal.S1x600000 ![1, 0] ei Cert.ReferenceIdeal.Gen.slices_S2x600000_S1x600000_1_0)
          Cert.ReferenceIdeal.Gen.shapeCasts_S1x600000_S600000 i := rfl

/-- The two programs scatter the in-degree with the same dimension numbers. -/
theorem scatterDeg_eq :
    Cert.KernelIdeal.scatter_S100000_S700000x1_S700000_n_0_0_1 = Cert.ReferenceIdeal.scatter_S100000_S700000x1_S700000_n_0_0_1 :=
  rfl

/-- The in-degree with self loops is the same function of the edge list in both programs. -/
theorem degOps_eq (ei : IVec (⟨2, ![2, 600000]⟩ : Shape) 32) : Ker.degOps ei = Ref.inDeg ei := by
  unfold Ker.degOps Ref.inDeg
  rw [dstVec_eq, scatterDeg_eq]

/-- The degree scaling is the same function of the edge list in both programs. -/
theorem disOps_eq (ei : IVec (⟨2, ![2, 600000]⟩ : Shape) 32) : Ker.disOps ei = Ref.disOps ei := by
  unfold Ker.disOps Ref.disOps
  rw [degOps_eq]

/-! ## The head -/

/-- The two programs pool the rows, count the graphs' nodes and apply the dense layers with the same dimension numbers. -/
theorem scatterPool_eq :
    Cert.KernelIdeal.scatter_S512x128_S100000x1_S100000x128_1_0_0_1
      = Cert.ReferenceIdeal.scatter_S512x128_S100000x1_S100000x128_1_0_0_1 := rfl

theorem scatterCount_eq :
    Cert.KernelIdeal.scatter_S512x1_S100000x1_S100000x1_1_0_0_1
      = Cert.ReferenceIdeal.scatter_S512x1_S100000x1_S100000x1_1_0_0_1 := rfl

theorem dotFc1_eq :
    Cert.KernelIdeal.dot_S512x128_S128x64_S512x64_1_0_0_1_n_n
      = Cert.ReferenceIdeal.dot_S512x128_S128x64_S512x64_1_0_0_1_n_n := rfl

theorem dotFc2_eq :
    Cert.KernelIdeal.dot_S512x64_S64x1_S512x1_1_0_0_1_n_n
      = Cert.ReferenceIdeal.dot_S512x64_S64x1_S512x1_1_0_0_1_n_n := rfl

/-- The head is the same function of the last layer's rows, the batch vector and the dense layers' parameters in both
    programs: the kernel program's composition of pooling, dense layer, positive part, dense layer and logistic function
    is the reference's chain of operations. -/
theorem tailOps_eq (h3 : Arr2 100000 128) (batch : IVec (⟨1, ![100000]⟩ : Shape) 32) (fc1w : Arr2 128 64) (fc1b : Arr1 64)
    (fc2w : Arr2 64 1) (fc2b : Arr1 1) :
    Ker.tailOps h3 batch fc1w fc1b fc2w fc2b = Ref.tailOps h3 batch fc1w fc1b fc2w fc2b := by
  unfold Ker.tailOps Ker.outOps Ker.reluOps Ker.preOps Ker.poolOps Ref.tailOps
  rw [scatterPool_eq, scatterCount_eq, dotFc1_eq, dotFc2_eq]

end Cert.Gcn

end
-- ==== Proof.lean ====
/-
  A three-layer graph convolution network with symmetric degree normalisation, evaluation-mode batch normalisation,
  mean pooling per graph and a two-layer dense head: the kernel program against its reference, over the extended reals.

  The two programs compute the degree scaling d and the head by the same operations (Proof/Bridge.lean). They differ
  in the layers. The reference scales each edge's message by d[src] * d[dst], sums at the destination, and applies
  bias, batch normalisation and the positive part in that order; the kernel scales rows by d once before and once
  after the sum over incoming edges, adds the self loop as the node's own row, aggregates the first layer before
  its matrix product, and folds bias and batch normalisation into one slope and one intercept per column. Written
  index by index (Proof/Spec.lean) the two arrangements are equal as soon as every number involved is real
  (Proof/Algebra.lean): the products then distribute over the sums. The precondition gives real arguments and
  nonnegative variances (Proof/PreFacts.lean), so that the reciprocal standard deviations are real; the degree
  scaling is real for every edge list.

  The kernel program's result is read along its run, region by region and stretch by stretch
  (Proof/KerValueRun.lean, Proof/KerResult.lean); the reference's operation by operation in single-assignment form
  (Proof/RefRun.lean).
-/
import proofs.«110672_j48155173322903_2_alg».proof.Defs
import proofs.«110672_j48155173322903_2_alg».proof.Proof.Gen.Kernel
import proofs.«110672_j48155173322903_2_alg».proof.Proof.Gen.Kernel.Frame
import proofs.«110672_j48155173322903_2_alg».proof.Proof.Gen.KernelIdeal
import proofs.«110672_j48155173322903_2_alg».proof.Proof.Gen.KernelIdeal.Frame
import proofs.«110672_j48155173322903_2_alg».proof.Proof.Gen.ReferenceIdeal
import proofs.«110672_j48155173322903_2_alg».proof.Proof.Gen.Pre_finite_inputs
import proofs.«110672_j48155173322903_2_alg».proof.Proof.Algebra
import proofs.«110672_j48155173322903_2_alg».proof.Proof.PreFacts
import proofs.«110672_j48155173322903_2_alg».proof.Proof.KerValueRun
import proofs.«110672_j48155173322903_2_alg».proof.Proof.KerResult
import proofs.«110672_j48155173322903_2_alg».proof.Proof.RefRun
import proofs.«110672_j48155173322903_2_alg».proof.Proof.Bridge

set_option maxRecDepth 16384

noncomputable section

namespace Cert.Proof

open Idealize.ShloMosaic Idealize.SL.Sem Cert.Gcn

variable [hK : Cert.KernelIdeal.Facts] [hR : Cert.ReferenceIdeal.Facts] [hPre : Cert.Pre_finite_inputs.Facts]

/-- Memories that agree on the 25 arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.Gcn.Ref.argsAt m' c = Cert.Gcn.Ker.argsAt m c := by
  have e : Cert.Gcn.Ref.argsAt m' c = Cert.Gcn.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (Cert.Gcn.BnP.mk (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg9)) (Cert.Gcn.BnP.mk (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))) (m' ((c.tc : Thread Cert.ReferenceIdeal.nD Cert.ReferenceIdeal.τ).loc Cert.ReferenceIdeal.main_arg15)) (Cert.Gcn.BnP.mk (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) := rfl
  rw [e, h0, h1, h2, h3, h4, h5, h6, h7, h8, h9, h10, h11, h12, h13, h14, h15, h16, h17, h18, h19, h20, h21, h22, h23, h24]
  rfl

/-- The precondition makes the arguments the layers use real, and the variances nonnegative. -/
theorem args_ok (m : (ℓ : Loc Cert.KernelIdeal.nD Cert.KernelIdeal.τ Cert.KernelIdeal.sig) → Buf (Elt Ideal) ℓ)
    (hpre : Cert.Pre_KernelIdeal m) (c : Dev Cert.KernelIdeal.nD) : (Cert.Gcn.Ker.argsAt m c).Ok :=
  Cert.Gcn.ok_of_pre _ _ _ _ _ _ _ _ _ _ _ _ _ _ _ _ _ _ _ _ _ _ _ _ _ (hpre c)

theorem frame_k [hKer : Cert.Kernel.Facts] : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.Gcn.Ref.run m ρ)

/-- Both programs end at the head of the third layer's rows; the layers agree because every number is real. -/
theorem algebraic : Cert.algebraic_KernelIdeal_ReferenceIdeal := by
  intro m ρ m' ρ' hpre hagree
  refine ⟨fun c => Cert.Gcn.Ker.tailOps (unc (kerH3 (Cert.Gcn.Ker.argsAt m c) (cur1 (Cert.Gcn.Ker.disOps (Cert.Gcn.Ker.argsAt m c).ei))))
      (Cert.Gcn.Ker.argsAt m c).batch (Cert.Gcn.Ker.argsAt m c).fc1w (Cert.Gcn.Ker.argsAt m c).fc1b
      (Cert.Gcn.Ker.argsAt m c).fc2w (Cert.Gcn.Ker.argsAt m c).fc2b, ?_, ?_⟩
  · exact (θ_run Cert.KernelIdeal.defs _ _).mono
      (fun _ h c => ⟨(h c).1.trans (Cert.Gcn.Ker.result m ρ c), (h c).2⟩) (Cert.Gcn.Ker.valueRun m ρ)
  · refine (θ_run Cert.ReferenceIdeal.defs _ _).mono (fun _ h c => ⟨(h c).1.trans ?_, (h c).2⟩) (Cert.Gcn.Ref.run m' ρ')
    obtain ⟨h0, h1, h2, h3, h4, h5, h6, h7, h8, h9, h10, h11, h12, h13, h14, h15, h16, h17, h18, h19, h20, h21, h22, h23, h24⟩ := hagree c
    have hA : Cert.Gcn.Ref.argsAt m' c = Cert.Gcn.Ker.argsAt m c := args_eq m m' c h0 h1 h2 h3 h4 h5 h6 h7 h8 h9 h10 h11 h12 h13 h14 h15 h16 h17 h18 h19 h20 h21 h22 h23 h24
    have hd : ∀ i, IsR (cur1 (Cert.Gcn.Ker.disOps (Cert.Gcn.Ker.argsAt m c).ei) i) := by
      intro i
      unfold cur1
      exact Cert.Gcn.Ker.disOps_isR (Cert.Gcn.Ker.argsAt m c).ei i
    have hL : kerH3 (Cert.Gcn.Ker.argsAt m c) (cur1 (Cert.Gcn.Ker.disOps (Cert.Gcn.Ker.argsAt m c).ei))
        = refH3 (Cert.Gcn.Ker.argsAt m c) (cur1 (Cert.Gcn.Ker.disOps (Cert.Gcn.Ker.argsAt m c).ei)) :=
      kerH3_eq_refH3 (Cert.Gcn.Ker.argsAt m c) (cur1 (Cert.Gcn.Ker.disOps (Cert.Gcn.Ker.argsAt m c).ei)) (args_ok m hpre c) hd
    rw [hA, ← Cert.Gcn.tailOps_eq, ← Cert.Gcn.disOps_eq]
    exact congrArg (fun H => Cert.Gcn.Ker.tailOps (unc H) (Cert.Gcn.Ker.argsAt m c).batch (Cert.Gcn.Ker.argsAt m c).fc1w
      (Cert.Gcn.Ker.argsAt m c).fc1b (Cert.Gcn.Ker.argsAt m c).fc2w (Cert.Gcn.Ker.argsAt m c).fc2b) hL.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
